-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v106_0)) (v1 : (c : Dev Cert.KernelIdeal.nD) → Buf (Elt Ideal) ((c.tc : Thread Cert.KernelIdeal.nD Cert.KernelIdeal.τ).loc Cert.KernelIdeal.main_v106_1)) (v2 : (c : Dev Cert.KernelIdeal.nD) → Buf (Elt Ideal) ((c.tc : Thread Cert.KernelIdeal.nD Cert.KernelIdeal.τ).loc Cert.KernelIdeal.main_v82_0)) (v3 : (c : Dev Cert.KernelIdeal.nD) → Buf (Elt Ideal) ((c.tc : Thread Cert.KernelIdeal.nD Cert.KernelIdeal.τ).loc Cert.KernelIdeal.main_v82_1)) (v4 : (c : Dev Cert.KernelIdeal.nD) → Buf (Elt Ideal) ((c.tc : Thread Cert.KernelIdeal.nD Cert.KernelIdeal.τ).loc Cert.KernelIdeal.main_v82_2)) (v5 : (c : Dev Cert.KernelIdeal.nD) → Buf (Elt Ideal) ((c.tc : Thread Cert.KernelIdeal.nD Cert.KernelIdeal.τ).loc Cert.KernelIdeal.main_v82_3)) (v6 : (c : Dev Cert.KernelIdeal.nD) → Buf (Elt Ideal) ((c.tc : Thread Cert.KernelIdeal.nD Cert.KernelIdeal.τ).loc Cert.KernelIdeal.main_v82_4)) (v7 : (c : Dev Cert.KernelIdeal.nD) → Buf (Elt Ideal) ((c.tc : Thread Cert.KernelIdeal.nD Cert.KernelIdeal.τ).loc Cert.KernelIdeal.main_v82_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106_0) = v0 c
          ∧ r.2.mem ((c.tc : Thread Cert.KernelIdeal.nD Cert.KernelIdeal.τ).loc Cert.KernelIdeal.main_v106_1) = v1 c
          ∧ r.2.mem ((c.tc : Thread Cert.KernelIdeal.nD Cert.KernelIdeal.τ).loc Cert.KernelIdeal.main_v82_0) = v2 c
          ∧ r.2.mem ((c.tc : Thread Cert.KernelIdeal.nD Cert.KernelIdeal.τ).loc Cert.KernelIdeal.main_v82_1) = v3 c
          ∧ r.2.mem ((c.tc : Thread Cert.KernelIdeal.nD Cert.KernelIdeal.τ).loc Cert.KernelIdeal.main_v82_2) = v4 c
          ∧ r.2.mem ((c.tc : Thread Cert.KernelIdeal.nD Cert.KernelIdeal.τ).loc Cert.KernelIdeal.main_v82_3) = v5 c
          ∧ r.2.mem ((c.tc : Thread Cert.KernelIdeal.nD Cert.KernelIdeal.τ).loc Cert.KernelIdeal.main_v82_4) = v6 c
          ∧ r.2.mem ((c.tc : Thread Cert.KernelIdeal.nD Cert.KernelIdeal.τ).loc Cert.KernelIdeal.main_v82_5) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v185) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_v127) = v5 c
          ∧ r.2.mem ((c.tc : Thread Cert.ReferenceIdeal.nD Cert.ReferenceIdeal.τ).loc Cert.ReferenceIdeal.main_v69) = v6 c
          ∧ r.2.mem ((c.tc : Thread Cert.ReferenceIdeal.nD Cert.ReferenceIdeal.τ).loc Cert.ReferenceIdeal.main_v140) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S200000x1 : Shape := ⟨2, ![200000, 1]⟩
abbrev S1000000 : Shape := ⟨1, ![1000000]⟩
abbrev S8192 : Shape := ⟨1, ![8192]⟩
abbrev S64x64 : Shape := ⟨2, ![64, 64]⟩
abbrev S200000x64 : Shape := ⟨2, ![200000, 64]⟩
abbrev S5x64 : Shape := ⟨2, ![5, 64]⟩
abbrev S64 : Shape := ⟨1, ![64]⟩
abbrev S5 : Shape := ⟨1, ![5]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S200000x1 : S_.BroadcastsInDim S200000x1 (![] : Fin 0 → Fin S200000x1.rank)
  reducesTo_S200000x1_S_d0_1 : S200000x1.ReducesTo [0, 1] S_
  bcast_S_S64x64 : S_.BroadcastsInDim S64x64 (![] : Fin 0 → Fin S64x64.rank)
  reducesTo_S64x64_S_d0_1 : S64x64.ReducesTo [0, 1] S_
  bcast_S_S200000x64 : S_.BroadcastsInDim S200000x64 (![] : Fin 0 → Fin S200000x64.rank)
  reducesTo_S200000x64_S_d0_1 : S200000x64.ReducesTo [0, 1] S_
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S5 : S_.BroadcastsInDim S5 (![] : Fin 0 → Fin S5.rank)
  reducesTo_S5_S_d0 : S5.ReducesTo [0] S_
  bcast_S_S1000000 : S_.BroadcastsInDim S1000000 (![] : Fin 0 → Fin S1000000.rank)
  reducesTo_S1000000_S_d0 : S1000000.ReducesTo [0] S_

variable [Facts]

def fn_part4 {F : FTy → Type} [FloatOps F] (main_v63 : IVec S_ 1) (main_v65 : IVec S1000000 1) (main_v67 : IVec S1000000 1) : IVec S_ 1 :=
  let main_v68 : IVec S1000000 1 := andi main_v65 main_v67
  let main_c_26 : IVec S_ 1 := constantI S_ 1 1#1
  let main_v69 : IVec S_ 1 := (fun x v => Host.reduce IntOp.andi x v reducesTo_S1000000_S_d0 h_S_) main_v68 main_c_26
  let main_v70 : IVec S_ 1 := andi main_v63 main_v69
  main_v70

def fn_part3 {F : FTy → Type} [FloatOps F] (main_arg4 : IVec S1000000 32) (main_arg16 : FVec F S5x64 .f32) (main_arg17 : FVec F S5 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S5x64 .f32 := Host.absf main_arg16
  let main_cst_20 : FVec F S_ .f32 := constant S_ .f32 0x7F800000#32
  let main_v55 : FVec F S5x64 .f32 := broadcastInDim S5x64 ![] bcast_S_S5x64 main_cst_20
  let main_v56 : IVec S5x64 1 := cmpf .olt main_v54 main_v55
  let main_c_21 : IVec S_ 1 := constantI S_ 1 1#1
  let main_v57 : IVec S_ 1 := (fun x v => Host.reduce IntOp.andi x v reducesTo_S5x64_S_d0_1 h_S_) main_v56 main_c_21
  let main_v58 : IVec S_ 1 := andi main_v53 main_v57
  let main_v59 : FVec F S5 .f32 := Host.absf main_arg17
  let main_cst_22 : FVec F S_ .f32 := constant S_ .f32 0x7F800000#32
  let main_v60 : FVec F S5 .f32 := broadcastInDim S5 ![] bcast_S_S5 main_cst_22
  let main_v61 : IVec S5 1 := cmpf .olt main_v59 main_v60
  let main_c_23 : IVec S_ 1 := constantI S_ 1 1#1
  let main_v62 : IVec S_ 1 := (fun x v => Host.reduce IntOp.andi x v reducesTo_S5_S_d0 h_S_) main_v61 main_c_23
  let main_v63 : IVec S_ 1 := andi main_v58 main_v62
  let main_c_24 : IVec S_ 32 := constantI S_ 32 0#32
  let main_v64 : IVec S1000000 32 := broadcastInDim S1000000 ![] bcast_S_S1000000 main_c_24
  let main_v65 : IVec S1000000 1 := cmpi .sge main_arg4 main_v64
  let main_c_25 : IVec S_ 32 := constantI S_ 32 5#32
  let main_v66 : IVec S1000000 32 := broadcastInDim S1000000 ![] bcast_S_S1000000 main_c_25
  let main_v67 : IVec S1000000 1 := cmpi .slt main_arg4 main_v66
  fn_part4 (F := F) main_v63 main_v65 main_v67

def fn_part2 {F : FTy → Type} [FloatOps F] (main_arg4 : IVec S1000000 32) (main_arg12 : FVec F S5x64 .f32) (main_arg13 : FVec F S5x64 .f32) (main_arg14 : FVec F S64x64 .f32) (main_arg15 : FVec F S64 .f32) (main_arg16 : FVec F S5x64 .f32) (main_arg17 : FVec F S5 .f32) (main_v33 : IVec S_ 1) : IVec S_ 1 :=
  let main_v34 : FVec F S5x64 .f32 := Host.absf main_arg12
  let main_cst_12 : FVec F S_ .f32 := constant S_ .f32 0x7F800000#32
  let main_v35 : FVec F S5x64 .f32 := broadcastInDim S5x64 ![] bcast_S_S5x64 main_cst_12
  let main_v36 : IVec S5x64 1 := cmpf .olt main_v34 main_v35
  let main_c_13 : IVec S_ 1 := constantI S_ 1 1#1
  let main_v37 : IVec S_ 1 := (fun x v => Host.reduce IntOp.andi x v reducesTo_S5x64_S_d0_1 h_S_) main_v36 main_c_13
  let main_v38 : IVec S_ 1 := andi main_v33 main_v37
  let main_v39 : FVec F S5x64 .f32 := Host.absf main_arg13
  let main_cst_14 : FVec F S_ .f32 := constant S_ .f32 0x7F800000#32
  let main_v40 : FVec F S5x64 .f32 := broadcastInDim S5x64 ![] bcast_S_S5x64 main_cst_14
  let main_v41 : IVec S5x64 1 := cmpf .olt main_v39 main_v40
  let main_c_15 : IVec S_ 1 := constantI S_ 1 1#1
  let main_v42 : IVec S_ 1 := (fun x v => Host.reduce IntOp.andi x v reducesTo_S5x64_S_d0_1 h_S_) main_v41 main_c_15
  let main_v43 : IVec S_ 1 := andi main_v38 main_v42
  let main_v44 : FVec F S64x64 .f32 := Host.absf main_arg14
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg15
  let main_cst_18 : FVec F S_ .f32 := constant S_ .f32 0x7F800000#32
  let main_v50 : FVec F S64 .f32 := broadcastInDim S64 ![] bcast_S_S64 main_cst_18
  fn_part3 (F := F) main_arg4 main_arg16 main_arg17 main_v48 main_v49 main_v50

def fn_part1 {F : FTy → Type} [FloatOps F] (main_arg4 : IVec S1000000 32) (main_arg9 : FVec F S200000x64 .f32) (main_arg10 : FVec F S200000x64 .f32) (main_arg11 : FVec F S5x64 .f32) (main_arg12 : FVec F S5x64 .f32) (main_arg13 : FVec F S5x64 .f32) (main_arg14 : FVec F S64x64 .f32) (main_arg15 : FVec F S64 .f32) (main_arg16 : FVec F S5x64 .f32) (main_arg17 : FVec F S5 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S200000x64 .f32 := Host.absf main_arg9
  let main_cst_6 : FVec F S_ .f32 := constant S_ .f32 0x7F800000#32
  let main_v20 : FVec F S200000x64 .f32 := broadcastInDim S200000x64 ![] bcast_S_S200000x64 main_cst_6
  let main_v21 : IVec S200000x64 1 := cmpf .olt main_v19 main_v20
  let main_c_7 : IVec S_ 1 := constantI S_ 1 1#1
  let main_v22 : IVec S_ 1 := (fun x v => Host.reduce IntOp.andi x v reducesTo_S200000x64_S_d0_1 h_S_) main_v21 main_c_7
  let main_v23 : IVec S_ 1 := andi main_v18 main_v22
  let main_v24 : FVec F S200000x64 .f32 := Host.absf main_arg10
  let main_cst_8 : FVec F S_ .f32 := constant S_ .f32 0x7F800000#32
  let main_v25 : FVec F S200000x64 .f32 := broadcastInDim S200000x64 ![] bcast_S_S200000x64 main_cst_8
  let main_v26 : IVec S200000x64 1 := cmpf .olt main_v24 main_v25
  let main_c_9 : IVec S_ 1 := constantI S_ 1 1#1
  let main_v27 : IVec S_ 1 := (fun x v => Host.reduce IntOp.andi x v reducesTo_S200000x64_S_d0_1 h_S_) main_v26 main_c_9
  let main_v28 : IVec S_ 1 := andi main_v23 main_v27
  let main_v29 : FVec F S5x64 .f32 := Host.absf main_arg11
  let main_cst_10 : FVec F S_ .f32 := constant S_ .f32 0x7F800000#32
  let main_v30 : FVec F S5x64 .f32 := broadcastInDim S5x64 ![] bcast_S_S5x64 main_cst_10
  let main_v31 : IVec S5x64 1 := cmpf .olt main_v29 main_v30
  let main_c_11 : IVec S_ 1 := constantI S_ 1 1#1
  let main_v32 : IVec S_ 1 := (fun x v => Host.reduce IntOp.andi x v reducesTo_S5x64_S_d0_1 h_S_) main_v31 main_c_11
  let main_v33 : IVec S_ 1 := andi main_v28 main_v32
  fn_part2 (F := F) main_arg4 main_arg12 main_arg13 main_arg14 main_arg15 main_arg16 main_arg17 main_v33

def fn {F : FTy → Type} [FloatOps F] (main_arg0 : FVec F S1000000x64 .f32) (main_arg1 : FVec F S200000x1 .f32) (main_arg2 : IVec S1000000 32) (main_arg3 : IVec S1000000 32) (main_arg4 : IVec S1000000 32) (main_arg5 : IVec S8192 32) (main_arg6 : IVec S8192 32) (main_arg7 : FVec F S64x64 .f32) (main_arg8 : FVec F S64x64 .f32) (main_arg9 : FVec F S200000x64 .f32) (main_arg10 : FVec F S200000x64 .f32) (main_arg11 : FVec F S5x64 .f32) (main_arg12 : FVec F S5x64 .f32) (main_arg13 : FVec F S5x64 .f32) (main_arg14 : FVec F S64x64 .f32) (main_arg15 : FVec F S64 .f32) (main_arg16 : FVec F S5x64 .f32) (main_arg17 : FVec F S5 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S200000x1 .f32 := Host.absf main_arg1
  let main_cst_0 : FVec F S_ .f32 := constant S_ .f32 0x7F800000#32
  let main_v5 : FVec F S200000x1 .f32 := broadcastInDim S200000x1 ![] bcast_S_S200000x1 main_cst_0
  let main_v6 : IVec S200000x1 1 := cmpf .olt main_v4 main_v5
  let main_c_1 : IVec S_ 1 := constantI S_ 1 1#1
  let main_v7 : IVec S_ 1 := (fun x v => Host.reduce IntOp.andi x v reducesTo_S200000x1_S_d0_1 h_S_) main_v6 main_c_1
  let main_v8 : IVec S_ 1 := andi main_v3 main_v7
  let main_v9 : FVec F S64x64 .f32 := Host.absf main_arg7
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg8
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg9 main_arg10 main_arg11 main_arg12 main_arg13 main_arg14 main_arg15 main_arg16 main_arg17 main_v13 main_v16
-- ==== Kernel.lean ====
abbrev S1000000x64 : Shape := ⟨2, ![1000000, 64]⟩
abbrev S200000x1 : Shape := ⟨2, ![200000, 1]⟩
abbrev S1000000 : Shape := ⟨1, ![1000000]⟩
abbrev S8192 : Shape := ⟨1, ![8192]⟩
abbrev S64x64 : Shape := ⟨2, ![64, 64]⟩
abbrev S200000x64 : Shape := ⟨2, ![200000, 64]⟩
abbrev S5x64 : Shape := ⟨2, ![5, 64]⟩
abbrev S64 : Shape := ⟨1, ![64]⟩
abbrev S5 : Shape := ⟨1, ![5]⟩
abbrev S_ : Shape := ⟨0, ![]⟩
abbrev S200000 : Shape := ⟨1, ![200000]⟩
abbrev S1000000x1 : Shape := ⟨2, ![1000000, 1]⟩
abbrev S2000x64 : Shape := ⟨2, ![2000, 64]⟩
abbrev S2000x1 : Shape := ⟨2, ![2000, 1]⟩
abbrev S1x64 : Shape := ⟨2, ![1, 64]⟩
abbrev S4000x1 : Shape := ⟨2, ![4000, 1]⟩
abbrev S4000x64 : Shape := ⟨2, ![4000, 64]⟩
abbrev S4000x5 : Shape := ⟨2, ![4000, 5]⟩
abbrev S1x5 : Shape := ⟨2, ![1, 5]⟩
abbrev S1000000x5 : Shape := ⟨2, ![1000000, 5]⟩
abbrev S200000x5 : Shape := ⟨2, ![200000, 5]⟩
abbrev S2000x5 : Shape := ⟨2, ![2000, 5]⟩
abbrev S8192x1 : Shape := ⟨2, ![8192, 1]⟩
abbrev S8192x64 : Shape := ⟨2, ![8192, 64]⟩
abbrev S64x5 : Shape := ⟨2, ![64, 5]⟩
abbrev S8192x5 : Shape := ⟨2, ![8192, 5]⟩
abbrev S2048x64 : Shape := ⟨2, ![2048, 64]⟩
abbrev S2048x5 : Shape := ⟨2, ![2048, 5]⟩

abbrev nBuf : Space → Nat
  | .hbm => 167
  | .vmem => 80
  | .smem => 0
  | _ => 0

abbrev hbmTy0_0 (i : Nat) : BufTy := match i % 128 with
  | 0 => ⟨S1000000x64, .f32⟩
  | 1 => ⟨S200000x1, .f32⟩
  | 2 => ⟨S1000000, .i32⟩
  | 3 => ⟨S1000000, .i32⟩
  | 4 => ⟨S1000000, .i32⟩
  | 5 => ⟨S8192, .i32⟩
  | 6 => ⟨S8192, .i32⟩
  | 7 => ⟨S64x64, .f32⟩
  | 8 => ⟨S64x64, .f32⟩
  | 9 => ⟨S200000x64, .f32⟩
  | 10 => ⟨S200000x64, .f32⟩
  | 11 => ⟨S5x64, .f32⟩
  | 12 => ⟨S5x64, .f32⟩
  | 13 => ⟨S5x64, .f32⟩
  | 14 => ⟨S64x64, .f32⟩
  | 15 => ⟨S64, .f32⟩
  | 16 => ⟨S5x64, .f32⟩
  | 17 => ⟨S5, .f32⟩
  | 18 => ⟨S_, .f32⟩
  | 19 => ⟨S1000000, .f32⟩
  | 20 => ⟨S_, .f32⟩
  | 21 => ⟨S200000, .f32⟩
  | 22 => ⟨S1000000x1, .i32⟩
  | 23 => ⟨S200000, .f32⟩
  | 24 => ⟨S200000x1, .f32⟩
  | 25 => ⟨S_, .f32⟩
  | 26 => ⟨S200000x64, .f32⟩
  | 27 => ⟨S1000000x1, .i32⟩
  | 28 => ⟨S200000x64, .f32⟩
  | 29 => ⟨S_, .f32⟩
  | 30 => ⟨S200000x1, .f32⟩
  | 31 => ⟨S200000x1, .f32⟩
  | 32 => ⟨S200000x64, .f32⟩
  | 33 => ⟨S200000x64, .f32⟩
  | 34 => ⟨S64x64, .f32⟩
  | 35 => ⟨S64x64, .f32⟩
  | 36 => ⟨S200000x64, .f32⟩
  | 37 => ⟨S200000x64, .f32⟩
  | 38 => ⟨S200000x64, .f32⟩
  | 39 => ⟨S200000x64, .f32⟩
  | 40 => ⟨S200000x64, .f32⟩
  | 41 => ⟨S_, .f32⟩
  | 42 => ⟨S64, .f32⟩
  | 43 => ⟨S1x64, .f32⟩
  | 44 => ⟨S_, .f32⟩
  | 45 => ⟨S1x64, .f32⟩
  | 46 => ⟨S1x64, .f32⟩
  | 47 => ⟨S_, .f32⟩
  | 48 => ⟨S64, .f32⟩
  | 49 => ⟨S1x64, .f32⟩
  | 50 => ⟨S_, .f32⟩
  | 51 => ⟨S1x64, .f32⟩
  | 52 => ⟨S1x64, .f32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000x64, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x64, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x64, .f32⟩
  | 92 => ⟨S1000000x1, .i32⟩
  | 93 => ⟨S1000000x64, .f32⟩
  | 94 => ⟨S1000000x64, .f32⟩
  | 95 => ⟨S1000000x64, .f32⟩
  | 96 => ⟨S_, .f32⟩
  | 97 => ⟨S200000x64, .f32⟩
  | 98 => ⟨S1000000x1, .i32⟩
  | 99 => ⟨S200000x64, .f32⟩
  | 100 => ⟨S_, .f32⟩
  | 101 => ⟨S200000x64, .f32⟩
  | 102 => ⟨S1000000x1, .i32⟩
  | 103 => ⟨S200000x64, .f32⟩
  | 104 => ⟨S_, .f32⟩
  | 105 => ⟨S200000x64, .f32⟩
  | 106 => ⟨S1000000x1, .i32⟩
  | 107 => ⟨S200000x64, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x1, .f32⟩
  | 117 => ⟨S1000000x1, .i32⟩
  | 118 => ⟨S5, .i32⟩
  | 119 => ⟨S1x5, .i32⟩
  | 120 => ⟨S1000000x5, .i32⟩
  | 121 => ⟨S1000000x5, .i32⟩
  | 122 => ⟨S1000000x5, .i1⟩
  | 123 => ⟨S1000000x5, .f32⟩
  | 124 => ⟨S1000000x5, .f32⟩
  | 125 => ⟨S1000000x5, .f32⟩
  | 126 => ⟨S_, .f32⟩
  | 127 => ⟨S200000x5, .f32⟩
  | _ => ⟨S1000000x64, .f32⟩

abbrev hbmTy0_1 (i : Nat) : BufTy := match i % 128 with
  | 0 => ⟨S1000000x1, .i32⟩
  | 1 => ⟨S200000x5, .f32⟩
  | 2 => ⟨S200000x64, .f32⟩
  | 3 => ⟨S200000x64, .f32⟩
  | 4 => ⟨S200000x64, .f32⟩
  | 5 => ⟨S200000x64, .f32⟩
  | 6 => ⟨S200000x64, .f32⟩
  | 7 => ⟨S200000x64, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x64, .f32⟩
  | 17 => ⟨S_, .i32⟩
  | 18 => ⟨S8192, .i32⟩
  | 19 => ⟨S8192, .i1⟩
  | 20 => ⟨S_, .i32⟩
  | 21 => ⟨S8192, .i32⟩
  | 22 => ⟨S8192, .i32⟩
  | 23 => ⟨S8192, .i32⟩
  | 24 => ⟨S8192x1, .i32⟩
  | 25 => ⟨S8192x64, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x64, .f32⟩
  | 35 => ⟨S64x64, .f32⟩
  | 36 => ⟨S64x5, .f32⟩
  | 37 => ⟨S8192x5, .f32⟩
  | 38 => ⟨S8192x5, .f32⟩
  | _ => ⟨S1000000x64, .f32⟩

abbrev hbmTy (i : Nat) : BufTy := match i / 128 with
  | 0 => hbmTy0_0 i
  | 1 => hbmTy0_1 i
  | _ => ⟨S1000000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S64x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x1, .f32⟩
  | .local _ .vmem, ⟨9, _⟩ => ⟨S2000x1, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S4000x1, .i32⟩
  | .local _ .vmem, ⟨21, _⟩ => ⟨S4000x1, .i32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S5x64, .f32⟩
  | .local _ .vmem, ⟨29, _⟩ => ⟨S5x64, .f32⟩
  | .local _ .vmem, ⟨30, _⟩ => ⟨S5x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S2000x1, .f32⟩
  | .local _ .vmem, ⟨38, _⟩ => ⟨S2000x1, .f32⟩
  | .local _ .vmem, ⟨39, _⟩ => ⟨S2000x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x5, .f32⟩
  | .local _ .vmem, ⟨46, _⟩ => ⟨S2000x5, .f32⟩
  | .local _ .vmem, ⟨47, _⟩ => ⟨S5x64, .f32⟩
  | .local _ .vmem, ⟨48, _⟩ => ⟨S5x64, .f32⟩
  | .local _ .vmem, ⟨49, _⟩ => ⟨S5x64, .f32⟩
  | .local _ .vmem, ⟨50, _⟩ => ⟨S1x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S2000x64, .f32⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S2048x64, .f32⟩
  | .local _ .vmem, ⟨67, _⟩ => ⟨S2048x64, .f32⟩
  | .local _ .vmem, ⟨68, _⟩ => ⟨S2048x64, .f32⟩
  | .local _ .vmem, ⟨69, _⟩ => ⟨S2048x64, .f32⟩
  | .local _ .vmem, ⟨70, _⟩ => ⟨S2048x64, .f32⟩
  | .local _ .vmem, ⟨71, _⟩ => ⟨S2048x64, .f32⟩
  | .local _ .vmem, ⟨72, _⟩ => ⟨S64x64, .f32⟩
  | .local _ .vmem, ⟨73, _⟩ => ⟨S64, .f32⟩
  | .local _ .vmem, ⟨74, _⟩ => ⟨S64x5, .f32⟩
  | .local _ .vmem, ⟨75, _⟩ => ⟨S5, .f32⟩
  | .local _ .vmem, ⟨76, _⟩ => ⟨S2048x5, .f32⟩
  | .local _ .vmem, ⟨77, _⟩ => ⟨S2048x5, .f32⟩
  | .local _ .vmem, ⟨78, _⟩ => ⟨S2048x5, .f32⟩
  | .local _ .vmem, ⟨79, _⟩ => ⟨S2048x5, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v14_3 : Ref sig .tc := ⟨.hbm, 39, rfl⟩
abbrev main_v14_4 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_cst_4 : Ref sig .tc := ⟨.hbm, 44, rfl⟩
abbrev main_v17 : Ref sig .tc := ⟨.hbm, 45, rfl⟩
abbrev main_v18 : Ref sig .tc := ⟨.hbm, 46, rfl⟩
abbrev main_cst_5 : Ref sig .tc := ⟨.hbm, 47, rfl⟩
abbrev main_v19 : Ref sig .tc := ⟨.hbm, 48, rfl⟩
abbrev main_v20 : Ref sig .tc := ⟨.hbm, 49, rfl⟩
abbrev main_cst_6 : Ref sig .tc := ⟨.hbm, 50, rfl⟩
abbrev main_v21 : Ref sig .tc := ⟨.hbm, 51, rfl⟩
abbrev main_v22 : Ref sig .tc := ⟨.hbm, 52, rfl⟩
abbrev main_cst_7 : Ref sig .tc := ⟨.hbm, 53, rfl⟩
abbrev main_v23 : Ref sig .tc := ⟨.hbm, 54, rfl⟩
abbrev main_v24 : Ref sig .tc := ⟨.hbm, 55, rfl⟩
abbrev main_cst_8 : Ref sig .tc := ⟨.hbm, 56, rfl⟩
abbrev main_v25 : Ref sig .tc := ⟨.hbm, 57, rfl⟩
abbrev main_v26 : Ref sig .tc := ⟨.hbm, 58, rfl⟩
abbrev main_cst_9 : Ref sig .tc := ⟨.hbm, 59, rfl⟩
abbrev main_v27 : Ref sig .tc := ⟨.hbm, 60, rfl⟩
abbrev main_v28 : Ref sig .tc := ⟨.hbm, 61, rfl⟩
abbrev main_cst_10 : Ref sig .tc := ⟨.hbm, 62, rfl⟩
abbrev main_v29 : Ref sig .tc := ⟨.hbm, 63, rfl⟩
abbrev main_v30 : Ref sig .tc := ⟨.hbm, 64, rfl⟩
abbrev main_c : Ref sig .tc := ⟨.hbm, 65, rfl⟩
abbrev main_v31 : Ref sig .tc := ⟨.hbm, 66, rfl⟩
abbrev main_v32 : Ref sig .tc := ⟨.hbm, 67, rfl⟩
abbrev main_c_11 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_12 : Ref sig .tc := ⟨.hbm, 74, rfl⟩
abbrev main_v38 : Ref sig .tc := ⟨.hbm, 75, rfl⟩
abbrev main_v39 : Ref sig .tc := ⟨.hbm, 76, rfl⟩
abbrev main_c_13 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_14 : Ref sig .tc := ⟨.hbm, 83, rfl⟩
abbrev main_v45 : Ref sig .tc := ⟨.hbm, 84, rfl⟩
abbrev main_v46 : Ref sig .tc := ⟨.hbm, 85, rfl⟩
abbrev main_c_15 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53_0 : Ref sig .tc := ⟨.hbm, 93, rfl⟩
abbrev main_v53_1 : Ref sig .tc := ⟨.hbm, 94, rfl⟩
abbrev main_v53_2 : Ref sig .tc := ⟨.hbm, 95, rfl⟩
abbrev main_cst_16 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_17 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_cst_18 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_19 : Ref sig .tc := ⟨.hbm, 108, rfl⟩
abbrev main_v63 : Ref sig .tc := ⟨.hbm, 109, rfl⟩
abbrev main_v64 : Ref sig .tc := ⟨.hbm, 110, rfl⟩
abbrev main_c_20 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_21 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82_0 : Ref sig .tc := ⟨.hbm, 130, rfl⟩
abbrev main_v82_1 : Ref sig .tc := ⟨.hbm, 131, rfl⟩
abbrev main_v82_2 : Ref sig .tc := ⟨.hbm, 132, rfl⟩
abbrev main_v82_3 : Ref sig .tc := ⟨.hbm, 133, rfl⟩
abbrev main_v82_4 : Ref sig .tc := ⟨.hbm, 134, rfl⟩
abbrev main_v82_5 : Ref sig .tc := ⟨.hbm, 135, rfl⟩
abbrev main_c_22 : Ref sig .tc := ⟨.hbm, 136, rfl⟩
abbrev main_v83 : Ref sig .tc := ⟨.hbm, 137, rfl⟩
abbrev main_v84 : Ref sig .tc := ⟨.hbm, 138, rfl⟩
abbrev main_c_23 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_c_24 : Ref sig .tc := ⟨.hbm, 145, rfl⟩
abbrev main_v90 : Ref sig .tc := ⟨.hbm, 146, rfl⟩
abbrev main_v91 : Ref sig .tc := ⟨.hbm, 147, rfl⟩
abbrev main_c_25 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_c_26 : Ref sig .tc := ⟨.hbm, 154, rfl⟩
abbrev main_v97 : Ref sig .tc := ⟨.hbm, 155, rfl⟩
abbrev main_v98 : Ref sig .tc := ⟨.hbm, 156, rfl⟩
abbrev main_c_27 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106_0 : Ref sig .tc := ⟨.hbm, 165, rfl⟩
abbrev main_v106_1 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc2_stg2_1 : Ref sig .tc := ⟨.vmem, 42, rfl⟩
abbrev cc2_stg3_0 : Ref sig .tc := ⟨.vmem, 43, rfl⟩
abbrev cc2_stg3_1 : Ref sig .tc := ⟨.vmem, 44, rfl⟩
abbrev cc2_stg4_0 : Ref sig .tc := ⟨.vmem, 45, rfl⟩
abbrev cc2_stg4_1 : Ref sig .tc := ⟨.vmem, 46, rfl⟩
abbrev cc2_stg5_0 : Ref sig .tc := ⟨.vmem, 47, rfl⟩
abbrev cc2_stg6_0 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg9_0 : Ref sig .tc := ⟨.vmem, 51, rfl⟩
abbrev cc2_stg10_0 : Ref sig .tc := ⟨.vmem, 52, rfl⟩
abbrev cc2_stg11_0 : Ref sig .tc := ⟨.vmem, 53, rfl⟩
abbrev cc2_stg12_0 : Ref sig .tc := ⟨.vmem, 54, rfl⟩
abbrev cc2_stg12_1 : Ref sig .tc := ⟨.vmem, 55, rfl⟩
abbrev cc2_stg13_0 : Ref sig .tc := ⟨.vmem, 56, rfl⟩
abbrev cc2_stg13_1 : Ref sig .tc := ⟨.vmem, 57, rfl⟩
abbrev cc2_stg14_0 : Ref sig .tc := ⟨.vmem, 58, rfl⟩
abbrev cc2_stg14_1 : Ref sig .tc := ⟨.vmem, 59, rfl⟩
abbrev cc2_stg15_0 : Ref sig .tc := ⟨.vmem, 60, rfl⟩
abbrev cc2_stg15_1 : Ref sig .tc := ⟨.vmem, 61, rfl⟩
abbrev cc2_stg16_0 : Ref sig .tc := ⟨.vmem, 62, rfl⟩
abbrev cc2_stg16_1 : Ref sig .tc := ⟨.vmem, 63, rfl⟩
abbrev cc2_stg17_0 : Ref sig .tc := ⟨.vmem, 64, rfl⟩
abbrev cc2_stg17_1 : Ref sig .tc := ⟨.vmem, 65, rfl⟩
abbrev cc3_stg0_0 : Ref sig .tc := ⟨.vmem, 66, rfl⟩
abbrev cc3_stg0_1 : Ref sig .tc := ⟨.vmem, 67, rfl⟩
abbrev cc3_stg1_0 : Ref sig .tc := ⟨.vmem, 68, rfl⟩
abbrev cc3_stg1_1 : Ref sig .tc := ⟨.vmem, 69, rfl⟩
abbrev cc3_stg2_0 : Ref sig .tc := ⟨.vmem, 70, rfl⟩
abbrev cc3_stg2_1 : Ref sig .tc := ⟨.vmem, 71, rfl⟩
abbrev cc3_stg3_0 : Ref sig .tc := ⟨.vmem, 72, rfl⟩
abbrev cc3_stg4_0 : Ref sig .tc := ⟨.vmem, 73, rfl⟩
abbrev cc3_stg5_0 : Ref sig .tc := ⟨.vmem, 74, rfl⟩
abbrev cc3_stg6_0 : Ref sig .tc := ⟨.vmem, 75, rfl⟩
abbrev cc3_stg7_0 : Ref sig .tc := ⟨.vmem, 76, rfl⟩
abbrev cc3_stg7_1 : Ref sig .tc := ⟨.vmem, 77, rfl⟩
abbrev cc3_stg8_0 : Ref sig .tc := ⟨.vmem, 78, rfl⟩
abbrev cc3_stg8_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem7_1 : DmaSem sig := 32
abbrev cc1_sem8_0 : DmaSem sig := 33
abbrev cc1_sem8_1 : DmaSem sig := 34
abbrev cc1_sem9_0 : DmaSem sig := 35
abbrev cc1_sem9_1 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc2_sem2_1 : DmaSem sig := 42
abbrev cc2_sem3_0 : DmaSem sig := 43
abbrev cc2_sem3_1 : DmaSem sig := 44
abbrev cc2_sem4_0 : DmaSem sig := 45
abbrev cc2_sem4_1 : DmaSem sig := 46
abbrev cc2_sem5_0 : DmaSem sig := 47
abbrev cc2_sem6_0 : DmaSem sig := 48
abbrev cc2_sem7_0 : DmaSem sig := 49
abbrev cc2_sem8_0 : DmaSem sig := 50
abbrev cc2_sem9_0 : DmaSem sig := 51
abbrev cc2_sem10_0 : DmaSem sig := 52
abbrev cc2_sem11_0 : DmaSem sig := 53
abbrev cc2_sem12_0 : DmaSem sig := 54
abbrev cc2_sem12_1 : DmaSem sig := 55
abbrev cc2_sem13_0 : DmaSem sig := 56
abbrev cc2_sem13_1 : DmaSem sig := 57
abbrev cc2_sem14_0 : DmaSem sig := 58
abbrev cc2_sem14_1 : DmaSem sig := 59
abbrev cc2_sem15_0 : DmaSem sig := 60
abbrev cc2_sem15_1 : DmaSem sig := 61
abbrev cc2_sem16_0 : DmaSem sig := 62
abbrev cc2_sem16_1 : DmaSem sig := 63
abbrev cc2_sem17_0 : DmaSem sig := 64
abbrev cc2_sem17_1 : DmaSem sig := 65
abbrev cc3_sem0_0 : DmaSem sig := 66
abbrev cc3_sem0_1 : DmaSem sig := 67
abbrev cc3_sem1_0 : DmaSem sig := 68
abbrev cc3_sem1_1 : DmaSem sig := 69
abbrev cc3_sem2_0 : DmaSem sig := 70
abbrev cc3_sem2_1 : DmaSem sig := 71
abbrev cc3_sem3_0 : DmaSem sig := 72
abbrev cc3_sem4_0 : DmaSem sig := 73
abbrev cc3_sem5_0 : DmaSem sig := 74
abbrev cc3_sem6_0 : DmaSem sig := 75
abbrev cc3_sem7_0 : DmaSem sig := 76
abbrev cc3_sem7_1 : DmaSem sig := 77
abbrev cc3_sem8_0 : DmaSem sig := 78
abbrev cc3_sem8_1 : DmaSem sig := 79

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S5x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S5x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x5 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S5x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S5x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S5x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S2000x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S2000x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S2000x64 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S2000x64 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S2000x64 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 2 → Memref sig .tc .vmem S2000x64 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x5 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S5 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2048x5 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S2048x5 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S200000_S200000x1_0 : S200000.BroadcastsInDim S200000x1 (![0] : Fin 1 → Fin S200000x1.rank)
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  transposes_S64x64_S64x64_1_0 : S64x64.Transposes [1, 0] S64x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S2000x1_S2000x1_0_0 : ∀ a, (![0, 0] : Fin 2 → Nat) a + S2000x1.size a ≤ S2000x1.size a
  h_S2000x1 : 0 < S2000x1.numel
  broadcasts_S2000x1_S2000x64 : S2000x1.Broadcasts S2000x64
  reducesTo_S200000x64_S64_d0 : S200000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x5_d1_w32 : S4000x5.Iotas .tc 32 [1]
  broadcasts_S4000x1_S4000x5 : S4000x1.Broadcasts S4000x5
  natLt_1_32 : 1 < 32
  inb_S5x64_S5x64_0_0 : ∀ a, (![0, 0] : Fin 2 → Nat) a + S5x64.size a ≤ S5x64.size a
  h_S5x64 : 0 < S5x64.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bcast_S5_S1x5_1 : S5.BroadcastsInDim S1x5 (![1] : Fin 1 → Fin S1x5.rank)
  bcast_S1000000x1_S1000000x5_0_1 : S1000000x1.BroadcastsInDim S1000000x5 (![0, 1] : Fin 2 → Fin S1000000x5.rank)
  bcast_S1x5_S1000000x5_0_1 : S1x5.BroadcastsInDim S1000000x5 (![0, 1] : Fin 2 → Fin S1000000x5.rank)
  bcast_S_S200000x5 : S_.BroadcastsInDim S200000x5 (![] : Fin 0 → Fin S200000x5.rank)
  inb_S2000x5_S2000x5_0_0 : ∀ a, (![0, 0] : Fin 2 → Nat) a + S2000x5.size a ≤ S2000x5.size a
  h_S2000x5 : 0 < S2000x5.numel
  shapeCasts_S2000x5_S2000x5 : S2000x5.ShapeCasts S2000x5
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S8192 : S_.BroadcastsInDim S8192 (![] : Fin 0 → Fin S8192.rank)
  bcast_S8192_S8192x1_0 : S8192.BroadcastsInDim S8192x1 (![0] : Fin 1 → Fin S8192x1.rank)
  transposes_S5x64_S64x5_1_0 : S5x64.Transposes [1, 0] S64x5
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S64x5_S64x5_0_0 : ∀ a, (![0, 0] : Fin 2 → Nat) a + S64x5.size a ≤ S64x5.size a
  h_S64x5 : 0 < S64x5.numel
  shapeCasts_S64x5_S64x5 : S64x5.ShapeCasts S64x5
  inb_S64_S64_0 : ∀ a, (![0] : Fin 1 → Nat) a + S64.size a ≤ S64.size a
  h_S64 : 0 < S64.numel
  inb_S5_S5_0 : ∀ a, (![0] : Fin 1 → Nat) a + S5.size a ≤ S5.size a
  h_S5 : 0 < S5.numel
  shapeCasts_S64_S1x64 : S64.ShapeCasts S1x64
  broadcasts_S1x64_S2048x64 : S1x64.Broadcasts S2048x64
  shapeCasts_S5_S1x5 : S5.ShapeCasts S1x5
  broadcasts_S1x5_S2048x5 : S1x5.Broadcasts S2048x5
  inb_S2048x5_S2048x5_0_0 : ∀ a, (![0, 0] : Fin 2 → Nat) a + S2048x5.size a ≤ S2048x5.size a
  h_S2048x5 : 0 < S2048x5.numel
  scatter_S200000_S1000000x1_S1000000_n_0_0_1_wf : ScatterDims.WF S200000 S1000000x1 S1000000 [] [0] [0] 1
  scatter_S200000x64_S1000000x1_S1000000x64_1_0_0_1_wf : ScatterDims.WF S200000x64 S1000000x1 S1000000x64 [1] [0] [0] 1
  dot_S2000x64_S64x64_S2000x64_1_0_0_1_n_n_wf : DotDims.WF S2000x64 S64x64 S2000x64 [1] [0] [0] [1] [] []
  gather_S200000x64_S1000000x1_S1000000x64_1_0_n_n_0_1_164_wf : GatherDims.WF S200000x64 S1000000x1 S1000000x64 [1] [0] [] [0] [] 1 ![1, 64]
  dot_S4000x5_S5x64_S4000x64_1_0_0_1_n_n_wf : DotDims.WF S4000x5 S5x64 S4000x64 [1] [0] [0] [1] [] []
  gather_S200000x1_S1000000x1_S1000000x1_1_0_n_n_0_1_11_wf : GatherDims.WF S200000x1 S1000000x1 S1000000x1 [1] [0] [] [0] [] 1 ![1, 1]
  scatter_S200000x5_S1000000x1_S1000000x5_1_0_0_1_wf : ScatterDims.WF S200000x5 S1000000x1 S1000000x5 [1] [0] [0] 1
  dot_S2000x5_S5x64_S2000x64_1_0_0_1_n_n_wf : DotDims.WF S2000x5 S5x64 S2000x64 [1] [0] [0] [1] [] []
  gather_S200000x64_S8192x1_S8192x64_1_0_n_n_0_1_164_wf : GatherDims.WF S200000x64 S8192x1 S8192x64 [1] [0] [] [0] [] 1 ![1, 64]
  dot_S2048x64_S64x64_S2048x64_1_0_0_1_n_n_wf : DotDims.WF S2048x64 S64x64 S2048x64 [1] [0] [0] [1] [] []
  dot_S2048x64_S64x5_S2048x5_1_0_0_1_n_n_wf : DotDims.WF S2048x64 S64x5 S2048x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S200000x64.size a
  hwx0_0 : ∀ i : grid0.Coords, EltTy.bits .f32 = 32 ∨ (Rect.block (s := S200000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S200000x64.size a
  hwx0_3 : ∀ i : grid0.Coords, EltTy.bits .f32 = 32 ∨ (Rect.block (s := S200000x64) S2000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S200000x64.size a
  hwx0_4 : ∀ i : grid0.Coords, EltTy.bits .f32 = 32 ∨ (Rect.block (s := S200000x64) S2000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S200000x1.size a
  hwx0_5 : ∀ i : grid0.Coords, EltTy.bits .f32 = 32 ∨ (Rect.block (s := S200000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S200000x64.size a
  hwx0_6 : ∀ i : grid0.Coords, EltTy.bits .f32 = 32 ∨ (Rect.block (s := S200000x64) S2000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x64.size a ≤ S200000x64.size a
  hwx0_7 : ∀ i : grid0.Coords, EltTy.bits .f32 = 32 ∨ (Rect.block (s := S200000x64) S2000x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S200000x64.size a
  hwx0_8 : ∀ i : grid0.Coords, EltTy.bits .f32 = 32 ∨ (Rect.block (s := S200000x64) S2000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x64.size a ≤ S200000x64.size a
  hwx0_9 : ∀ i : grid0.Coords, EltTy.bits .f32 = 32 ∨ (Rect.block (s := S200000x64) S2000x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x64.size a ≤ S200000x64.size a
  hwx0_10 : ∀ i : grid0.Coords, EltTy.bits .f32 = 32 ∨ (Rect.block (s := S200000x64) S2000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S1000000x1.size a
  hwx1_0 : ∀ i : grid1.Coords, EltTy.bits .i32 = 32 ∨ (Rect.block (s := S1000000x1) S4000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S1000000x64.size a
  hwx1_1 : ∀ i : grid1.Coords, EltTy.bits .f32 = 32 ∨ (Rect.block (s := S1000000x64) S4000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S1000000x64.size a
  hwx1_2 : ∀ i : grid1.Coords, EltTy.bits .f32 = 32 ∨ (Rect.block (s := S1000000x64) S4000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S1000000x64.size a
  hwx1_3 : ∀ i : grid1.Coords, EltTy.bits .f32 = 32 ∨ (Rect.block (s := S1000000x64) S4000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S5x64.size a ≤ S5x64.size a
  hwx1_4 : ∀ i : grid1.Coords, EltTy.bits .f32 = 32 ∨ (Rect.block (s := S5x64) S5x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5x64.size a ≤ S5x64.size a
  hwx1_5 : ∀ i : grid1.Coords, EltTy.bits .f32 = 32 ∨ (Rect.block (s := S5x64) S5x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S5x64.size a ≤ S5x64.size a
  hwx1_6 : ∀ i : grid1.Coords, EltTy.bits .f32 = 32 ∨ (Rect.block (s := S5x64) S5x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x64.size a ≤ S1000000x64.size a
  hwx1_7 : ∀ i : grid1.Coords, EltTy.bits .f32 = 32 ∨ (Rect.block (s := S1000000x64) S4000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x64.size a ≤ S1000000x64.size a
  hwx1_8 : ∀ i : grid1.Coords, EltTy.bits .f32 = 32 ∨ (Rect.block (s := S1000000x64) S4000x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x64.size a ≤ S1000000x64.size a
  hwx1_9 : ∀ i : grid1.Coords, EltTy.bits .f32 = 32 ∨ (Rect.block (s := S1000000x64) S4000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x1.size a ≤ S200000x1.size a
  hwx2_0 : ∀ i : grid2.Coords, EltTy.bits .f32 = 32 ∨ (Rect.block (s := S200000x1) S2000x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S200000x64.size a
  hwx2_1 : ∀ i : grid2.Coords, EltTy.bits .f32 = 32 ∨ (Rect.block (s := S200000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S200000x64.size a
  hwx2_2 : ∀ i : grid2.Coords, EltTy.bits .f32 = 32 ∨ (Rect.block (s := S200000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S200000x64.size a
  hwx2_3 : ∀ i : grid2.Coords, EltTy.bits .f32 = 32 ∨ (Rect.block (s := S200000x64) S2000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x5.size a ≤ S200000x5.size a
  hwx2_4 : ∀ i : grid2.Coords, EltTy.bits .f32 = 32 ∨ (Rect.block (s := S200000x5) S2000x5.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S5x64.size a ≤ S5x64.size a
  hwx2_5 : ∀ i : grid2.Coords, EltTy.bits .f32 = 32 ∨ (Rect.block (s := S5x64) S5x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S5x64.size a ≤ S5x64.size a
  hwx2_6 : ∀ i : grid2.Coords, EltTy.bits .f32 = 32 ∨ (Rect.block (s := S5x64) S5x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S5x64.size a ≤ S5x64.size a
  hwx2_7 : ∀ i : grid2.Coords, EltTy.bits .f32 = 32 ∨ (Rect.block (s := S5x64) S5x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x64.size a ≤ S1x64.size a
  hwx2_11 : ∀ i : grid2.Coords, EltTy.bits .f32 = 32 ∨ (Rect.block (s := S1x64) S1x64.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2000x64.size a ≤ S200000x64.size a
  hwx2_12 : ∀ i : grid2.Coords, EltTy.bits .f32 = 32 ∨ (Rect.block (s := S200000x64) S2000x64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x64.size a ≤ S200000x64.size a
  hwx2_13 : ∀ i : grid2.Coords, EltTy.bits .f32 = 32 ∨ (Rect.block (s := S200000x64) S2000x64.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S2000x64.size a ≤ S200000x64.size a
  hwx2_14 : ∀ i : grid2.Coords, EltTy.bits .f32 = 32 ∨ (Rect.block (s := S200000x64) S2000x64.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S2000x64.size a ≤ S200000x64.size a
  hwx2_15 : ∀ i : grid2.Coords, EltTy.bits .f32 = 32 ∨ (Rect.block (s := S200000x64) S2000x64.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2000x64.size a ≤ S200000x64.size a
  hwx2_16 : ∀ i : grid2.Coords, EltTy.bits .f32 = 32 ∨ (Rect.block (s := S200000x64) S2000x64.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S2000x64.size a ≤ S200000x64.size a
  hwx2_17 : ∀ i : grid2.Coords, EltTy.bits .f32 = 32 ∨ (Rect.block (s := S200000x64) S2000x64.size (cc2_transform_17 i) (hinb2_17 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x64.size a ≤ S8192x64.size a
  hwx3_0 : ∀ i : grid3.Coords, EltTy.bits .f32 = 32 ∨ (Rect.block (s := S8192x64) S2048x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x64.size a ≤ S8192x64.size a
  hwx3_1 : ∀ i : grid3.Coords, EltTy.bits .f32 = 32 ∨ (Rect.block (s := S8192x64) S2048x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S8192x64.size a
  hwx3_2 : ∀ i : grid3.Coords, EltTy.bits .f32 = 32 ∨ (Rect.block (s := S8192x64) S2048x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x5.size a ≤ S64x5.size a
  hwx3_5 : ∀ i : grid3.Coords, EltTy.bits .f32 = 32 ∨ (Rect.block (s := S64x5) S64x5.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S5.size a ≤ S5.size a
  hwx3_6 : ∀ i : grid3.Coords, EltTy.bits .f32 = 32 ∨ (Rect.block (s := S5) S5.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2048x5.size a ≤ S8192x5.size a
  hwx3_7 : ∀ i : grid3.Coords, EltTy.bits .f32 = 32 ∨ (Rect.block (s := S8192x5) S2048x5.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S2048x5.size a ≤ S8192x5.size a
  hwx3_8 : ∀ i : grid3.Coords, EltTy.bits .f32 = 32 ∨ (Rect.block (s := S8192x5) S2048x5.size (cc3_transform_8 i) (hinb3_8 i)).WholeWords (EltTy.packing .f32)

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def dot_S4000x5_S5x64_S4000x64_1_0_0_1_n_n : DotDims S4000x5 S5x64 S4000x64 where
  lhsContracting := [1]
  rhsContracting := [0]
  lhsNonContracting := [0]
  rhsNonContracting := [1]
  lhsBatch := []
  rhsBatch := []
  wf := dot_S4000x5_S5x64_S4000x64_1_0_0_1_n_n_wf
def gather_S200000x1_S1000000x1_S1000000x1_1_0_n_n_0_1_11 : GatherDims S200000x1 S1000000x1 S1000000x1 where
  offsetDims := [1]
  collapsedSliceDims := [0]
  operandBatchingDims := []
  startIndicesBatchingDims := []
  startIndexMap := [0]
  indexVectorDim := 1
  sliceSizes := ![1, 1]
  wf := gather_S200000x1_S1000000x1_S1000000x1_1_0_n_n_0_1_11_wf
def scatter_S200000x5_S1000000x1_S1000000x5_1_0_0_1 : ScatterDims S200000x5 S1000000x1 S1000000x5 where
  updateWindowDims := [1]
  insertedWindowDims := [0]
  scatterDimsToOperandDims := [0]
  indexVectorDim := 1
  wf := scatter_S200000x5_S1000000x1_S1000000x5_1_0_0_1_wf
def dot_S2000x5_S5x64_S2000x64_1_0_0_1_n_n : DotDims S2000x5 S5x64 S2000x64 where
  lhsContracting := [1]
  rhsContracting := [0]
  lhsNonContracting := [0]
  rhsNonContracting := [1]
  lhsBatch := []
  rhsBatch := []
  wf := dot_S2000x5_S5x64_S2000x64_1_0_0_1_n_n_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x5_S2048x5_1_0_0_1_n_n : DotDims S2048x64 S64x5 S2048x5 where
  lhsContracting := [1]
  rhsContracting := [0]
  lhsNonContracting := [0]
  rhsNonContracting := [1]
  lhsBatch := []
  rhsBatch := []
  wf := dot_S2048x64_S64x5_S2048x5_1_0_0_1_n_n_wf

abbrev win0_0 : Pipeline.Window sig grid0 :=
  Pipeline.Window.ofSpec (Memref.whole main_v11) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S2000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S2000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S2000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_2) S2000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_3) S2000x64.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v14_4) S2000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v52) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S4000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S4000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S5x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S5x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S5x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v53_0) S4000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v53_1) S4000x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v53_2) S4000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg1) S2000x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v62) S2000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v81) S2000x5.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S5x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg12) S5x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg13) S5x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v18) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v26) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v22) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v30) S1x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v82_0) S2000x64.size cc2_transform_12 reads2_12 true false 2 stage2_12 sem2_12
    hrank2 hreads2_12 hinb2_12 nbuf2_12 (Memref.isWhole_whole _) hwx2_12 hstage2_12

abbrev win2_13 : Pipeline.Window sig grid2 :=
  Pipeline.Window.ofSpec (Memref.whole main_v82_1) S2000x64.size cc2_transform_13 reads2_13 true false 2 stage2_13 sem2_13
    hrank2 hreads2_13 hinb2_13 nbuf2_13 (Memref.isWhole_whole _) hwx2_13 hstage2_13

abbrev win2_14 : Pipeline.Window sig grid2 :=
  Pipeline.Window.ofSpec (Memref.whole main_v82_2) S2000x64.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v82_3) S2000x64.size cc2_transform_15 reads2_15 true false 2 stage2_15 sem2_15
    hrank2 hreads2_15 hinb2_15 nbuf2_15 (Memref.isWhole_whole _) hwx2_15 hstage2_15

abbrev win2_16 : Pipeline.Window sig grid2 :=
  Pipeline.Window.ofSpec (Memref.whole main_v82_4) S2000x64.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_v82_5) S2000x64.size cc2_transform_17 reads2_17 true false 2 stage2_17 sem2_17
    hrank2 hreads2_17 hinb2_17 nbuf2_17 (Memref.isWhole_whole _) hwx2_17 hstage2_17

abbrev win2 : Fin 18 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | ⟨_ + 18, h⟩ => absurd h (Nat.not_lt.2 (Nat.le_add_left _ _))
abbrev spec2 : Fin 18 → Pipeline.WinSpec sig grid2.rank := fun w => (win2 w).toWinSpec

abbrev win3_0 : Pipeline.Window sig grid3 :=
  Pipeline.Window.ofSpec (Memref.whole main_v89) S2048x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v96) S2048x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v103) S2048x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v104) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v105) S64x5.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg17) S5.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v106_0) S2048x5.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v106_1) S2048x5.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S1000000x64 : Shape := ⟨2, ![1000000, 64]⟩
abbrev S200000x1 : Shape := ⟨2, ![200000, 1]⟩
abbrev S1000000 : Shape := ⟨1, ![1000000]⟩
abbrev S8192 : Shape := ⟨1, ![8192]⟩
abbrev S64x64 : Shape := ⟨2, ![64, 64]⟩
abbrev S200000x64 : Shape := ⟨2, ![200000, 64]⟩
abbrev S5x64 : Shape := ⟨2, ![5, 64]⟩
abbrev S64 : Shape := ⟨1, ![64]⟩
abbrev S5 : Shape := ⟨1, ![5]⟩
abbrev S_ : Shape := ⟨0, ![]⟩
abbrev S200000 : Shape := ⟨1, ![200000]⟩
abbrev S1000000x1 : Shape := ⟨2, ![1000000, 1]⟩
abbrev S1x64 : Shape := ⟨2, ![1, 64]⟩
abbrev S8192x1 : Shape := ⟨2, ![8192, 1]⟩
abbrev S8192x64 : Shape := ⟨2, ![8192, 64]⟩
abbrev S64x5 : Shape := ⟨2, ![64, 5]⟩
abbrev S8192x5 : Shape := ⟨2, ![8192, 5]⟩
abbrev S1x5 : Shape := ⟨2, ![1, 5]⟩

abbrev nBuf : Space → Nat
  | .hbm => 258
  | .vmem => 0
  | .smem => 0
  | _ => 0

abbrev hbmTy0_0 (i : Nat) : BufTy := match i % 128 with
  | 0 => ⟨S1000000x64, .f32⟩
  | 1 => ⟨S200000x1, .f32⟩
  | 2 => ⟨S1000000, .i32⟩
  | 3 => ⟨S1000000, .i32⟩
  | 4 => ⟨S1000000, .i32⟩
  | 5 => ⟨S8192, .i32⟩
  | 6 => ⟨S8192, .i32⟩
  | 7 => ⟨S64x64, .f32⟩
  | 8 => ⟨S64x64, .f32⟩
  | 9 => ⟨S200000x64, .f32⟩
  | 10 => ⟨S200000x64, .f32⟩
  | 11 => ⟨S5x64, .f32⟩
  | 12 => ⟨S5x64, .f32⟩
  | 13 => ⟨S5x64, .f32⟩
  | 14 => ⟨S64x64, .f32⟩
  | 15 => ⟨S64, .f32⟩
  | 16 => ⟨S5x64, .f32⟩
  | 17 => ⟨S5, .f32⟩
  | 18 => ⟨S_, .f32⟩
  | 19 => ⟨S1000000, .f32⟩
  | 20 => ⟨S_, .f32⟩
  | 21 => ⟨S200000, .f32⟩
  | 22 => ⟨S1000000x1, .i32⟩
  | 23 => ⟨S200000, .f32⟩
  | 24 => ⟨S200000x1, .f32⟩
  | 25 => ⟨S_, .f32⟩
  | 26 => ⟨S200000x64, .f32⟩
  | 27 => ⟨S1000000x1, .i32⟩
  | 28 => ⟨S200000x64, .f32⟩
  | 29 => ⟨S_, .f32⟩
  | 30 => ⟨S200000x1, .f32⟩
  | 31 => ⟨S200000x1, .f32⟩
  | 32 => ⟨S200000x64, .f32⟩
  | 33 => ⟨S200000x64, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000x64, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S_, .i32⟩
  | 62 => ⟨S1000000, .i32⟩
  | 63 => ⟨S1000000, .i1⟩
  | 64 => ⟨S_, .i32⟩
  | 65 => ⟨S1000000, .i32⟩
  | 66 => ⟨S1000000, .i32⟩
  | 67 => ⟨S1000000, .i32⟩
  | 68 => ⟨S1000000x1, .i32⟩
  | 69 => ⟨S1000000x1, .f32⟩
  | 70 => ⟨S64x64, .f32⟩
  | 71 => ⟨S200000x64, .f32⟩
  | 72 => ⟨S_, .i32⟩
  | 73 => ⟨S1000000, .i32⟩
  | 74 => ⟨S1000000, .i1⟩
  | 75 => ⟨S_, .i32⟩
  | 76 => ⟨S1000000, .i32⟩
  | 77 => ⟨S1000000, .i32⟩
  | 78 => ⟨S1000000, .i32⟩
  | 79 => ⟨S1000000x1, .i32⟩
  | 80 => ⟨S1000000x64, .f32⟩
  | 81 => ⟨S1000000x64, .f32⟩
  | 82 => ⟨S1000000x64, .f32⟩
  | 83 => ⟨S1000000x64, .f32⟩
  | 84 => ⟨S_, .f32⟩
  | 85 => ⟨S200000x64, .f32⟩
  | 86 => ⟨S1000000x1, .i32⟩
  | 87 => ⟨S200000x64, .f32⟩
  | 88 => ⟨S200000x64, .f32⟩
  | 89 => ⟨S200000x64, .f32⟩
  | 90 => ⟨S_, .f32⟩
  | 91 => ⟨S64, .f32⟩
  | 92 => ⟨S1x64, .f32⟩
  | 93 => ⟨S_, .f32⟩
  | 94 => ⟨S1x64, .f32⟩
  | 95 => ⟨S1x64, .f32⟩
  | 96 => ⟨S1000000x64, .f32⟩
  | 97 => ⟨S1000000x64, .f32⟩
  | 98 => ⟨S1000000x64, .f32⟩
  | 99 => ⟨S1000000x64, .f32⟩
  | 100 => ⟨S_, .f32⟩
  | 101 => ⟨S200000x64, .f32⟩
  | 102 => ⟨S1000000x1, .i32⟩
  | 103 => ⟨S200000x64, .f32⟩
  | 104 => ⟨S200000x64, .f32⟩
  | 105 => ⟨S200000x64, .f32⟩
  | 106 => ⟨S64x64, .f32⟩
  | 107 => ⟨S200000x64, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x64, .f32⟩
  | 117 => ⟨S_, .i32⟩
  | 118 => ⟨S1000000, .i32⟩
  | 119 => ⟨S1000000, .i1⟩
  | 120 => ⟨S_, .i32⟩
  | 121 => ⟨S1000000, .i32⟩
  | 122 => ⟨S1000000, .i32⟩
  | 123 => ⟨S1000000, .i32⟩
  | 124 => ⟨S1000000x1, .i32⟩
  | 125 => ⟨S1000000x64, .f32⟩
  | 126 => ⟨S1000000x64, .f32⟩
  | 127 => ⟨S1000000x64, .f32⟩
  | _ => ⟨S1000000x64, .f32⟩

abbrev hbmTy0_1 (i : Nat) : BufTy := match i % 128 with
  | 0 => ⟨S1000000x64, .f32⟩
  | 1 => ⟨S1000000x64, .f32⟩
  | 2 => ⟨S_, .f32⟩
  | 3 => ⟨S200000x64, .f32⟩
  | 4 => ⟨S1000000x1, .i32⟩
  | 5 => ⟨S200000x64, .f32⟩
  | 6 => ⟨S200000x64, .f32⟩
  | 7 => ⟨S200000x64, .f32⟩
  | 8 => ⟨S_, .f32⟩
  | 9 => ⟨S64, .f32⟩
  | 10 => ⟨S1x64, .f32⟩
  | 11 => ⟨S_, .f32⟩
  | 12 => ⟨S1x64, .f32⟩
  | 13 => ⟨S1x64, .f32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S1x64, .f32⟩
  | 21 => ⟨S1000000x64, .f32⟩
  | 22 => ⟨S1000000x64, .f32⟩
  | 23 => ⟨S1000000x64, .f32⟩
  | 24 => ⟨S1000000x64, .f32⟩
  | 25 => ⟨S_, .f32⟩
  | 26 => ⟨S200000x64, .f32⟩
  | 27 => ⟨S1000000x1, .i32⟩
  | 28 => ⟨S200000x64, .f32⟩
  | 29 => ⟨S200000x64, .f32⟩
  | 30 => ⟨S200000x64, .f32⟩
  | 31 => ⟨S_, .i32⟩
  | 32 => ⟨S1000000, .i32⟩
  | 33 => ⟨S1000000, .i1⟩
  | 34 => ⟨S_, .i32⟩
  | 35 => ⟨S1000000, .i32⟩
  | 36 => ⟨S1000000, .i32⟩
  | 37 => ⟨S1000000, .i32⟩
  | 38 => ⟨S1000000x1, .i32⟩
  | 39 => ⟨S1000000x64, .f32⟩
  | 40 => ⟨S1000000x64, .f32⟩
  | 41 => ⟨S1000000x64, .f32⟩
  | 42 => ⟨S1000000x64, .f32⟩
  | 43 => ⟨S_, .f32⟩
  | 44 => ⟨S200000x64, .f32⟩
  | 45 => ⟨S1000000x1, .i32⟩
  | 46 => ⟨S200000x64, .f32⟩
  | 47 => ⟨S200000x64, .f32⟩
  | 48 => ⟨S200000x64, .f32⟩
  | 49 => ⟨S_, .f32⟩
  | 50 => ⟨S64, .f32⟩
  | 51 => ⟨S1x64, .f32⟩
  | 52 => ⟨S_, .f32⟩
  | 53 => ⟨S1x64, .f32⟩
  | 54 => ⟨S1x64, .f32⟩
  | 55 => ⟨S1000000x64, .f32⟩
  | 56 => ⟨S1000000x64, .f32⟩
  | 57 => ⟨S1000000x64, .f32⟩
  | 58 => ⟨S1000000x64, .f32⟩
  | 59 => ⟨S_, .f32⟩
  | 60 => ⟨S200000x64, .f32⟩
  | 61 => ⟨S1000000x1, .i32⟩
  | 62 => ⟨S200000x64, .f32⟩
  | 63 => ⟨S200000x64, .f32⟩
  | 64 => ⟨S200000x64, .f32⟩
  | 65 => ⟨S_, .i32⟩
  | 66 => ⟨S8192, .i32⟩
  | 67 => ⟨S8192, .i1⟩
  | 68 => ⟨S_, .i32⟩
  | 69 => ⟨S8192, .i32⟩
  | 70 => ⟨S8192, .i32⟩
  | 71 => ⟨S8192, .i32⟩
  | 72 => ⟨S8192x1, .i32⟩
  | 73 => ⟨S8192x64, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x64, .f32⟩
  | 83 => ⟨S8192x64, .f32⟩
  | 84 => ⟨S64x64, .f32⟩
  | 85 => ⟨S8192x64, .f32⟩
  | 86 => ⟨S1x64, .f32⟩
  | 87 => ⟨S8192x64, .f32⟩
  | 88 => ⟨S8192x64, .f32⟩
  | 89 => ⟨S_, .f32⟩
  | 90 => ⟨S_, .f32⟩
  | 91 => ⟨S8192x64, .f32⟩
  | 92 => ⟨S8192x64, .i1⟩
  | 93 => ⟨S_, .f32⟩
  | 94 => ⟨S8192x64, .f32⟩
  | 95 => ⟨S8192x64, .f32⟩
  | 96 => ⟨S8192x64, .f32⟩
  | 97 => ⟨S64x5, .f32⟩
  | 98 => ⟨S8192x5, .f32⟩
  | 99 => ⟨S1x5, .f32⟩
  | 100 => ⟨S8192x5, .f32⟩
  | 101 => ⟨S8192x5, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x64, .f32⟩
  | 111 => ⟨S8192x64, .f32⟩
  | 112 => ⟨S64x64, .f32⟩
  | 113 => ⟨S8192x64, .f32⟩
  | 114 => ⟨S1x64, .f32⟩
  | 115 => ⟨S8192x64, .f32⟩
  | 116 => ⟨S8192x64, .f32⟩
  | 117 => ⟨S_, .f32⟩
  | 118 => ⟨S_, .f32⟩
  | 119 => ⟨S8192x64, .f32⟩
  | 120 => ⟨S8192x64, .i1⟩
  | 121 => ⟨S_, .f32⟩
  | 122 => ⟨S8192x64, .f32⟩
  | 123 => ⟨S8192x64, .f32⟩
  | 124 => ⟨S8192x64, .f32⟩
  | 125 => ⟨S64x5, .f32⟩
  | 126 => ⟨S8192x5, .f32⟩
  | 127 => ⟨S1x5, .f32⟩
  | _ => ⟨S1000000x64, .f32⟩

abbrev hbmTy0_2 (i : Nat) : BufTy := match i % 128 with
  | 0 => ⟨S8192x5, .f32⟩
  | 1 => ⟨S8192x5, .f32⟩
  | _ => ⟨S1000000x64, .f32⟩

abbrev hbmTy (i : Nat) : BufTy := match i / 128 with
  | 0 => hbmTy0_0 i
  | 1 => hbmTy0_1 i
  | 2 => hbmTy0_2 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst_1 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_c_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_8 : Ref sig .tc := ⟨.hbm, 61, rfl⟩
abbrev main_v33 : Ref sig .tc := ⟨.hbm, 62, rfl⟩
abbrev main_v34 : Ref sig .tc := ⟨.hbm, 63, rfl⟩
abbrev main_c_9 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_c_10 : Ref sig .tc := ⟨.hbm, 72, rfl⟩
abbrev main_v42 : Ref sig .tc := ⟨.hbm, 73, rfl⟩
abbrev main_v43 : Ref sig .tc := ⟨.hbm, 74, rfl⟩
abbrev main_c_11 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c_16 : Ref sig .tc := ⟨.hbm, 108, rfl⟩
abbrev main_v72 : Ref sig .tc := ⟨.hbm, 109, rfl⟩
abbrev main_v73 : Ref sig .tc := ⟨.hbm, 110, rfl⟩
abbrev main_c_17 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_18 : Ref sig .tc := ⟨.hbm, 117, rfl⟩
abbrev main_v79 : Ref sig .tc := ⟨.hbm, 118, rfl⟩
abbrev main_v80 : Ref sig .tc := ⟨.hbm, 119, rfl⟩
abbrev main_c_19 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_20 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_cst_23 : Ref sig .tc := ⟨.hbm, 142, rfl⟩
abbrev main_v99 : Ref sig .tc := ⟨.hbm, 143, rfl⟩
abbrev main_v100 : Ref sig .tc := ⟨.hbm, 144, rfl⟩
abbrev main_cst_24 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_25 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_26 : Ref sig .tc := ⟨.hbm, 159, rfl⟩
abbrev main_v113 : Ref sig .tc := ⟨.hbm, 160, rfl⟩
abbrev main_v114 : Ref sig .tc := ⟨.hbm, 161, rfl⟩
abbrev main_c_27 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_28 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_29 : Ref sig .tc := ⟨.hbm, 177, rfl⟩
abbrev main_v128 : Ref sig .tc := ⟨.hbm, 178, rfl⟩
abbrev main_v129 : Ref sig .tc := ⟨.hbm, 179, rfl⟩
abbrev main_cst_30 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_31 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_32 : Ref sig .tc := ⟨.hbm, 193, rfl⟩
abbrev main_v141 : Ref sig .tc := ⟨.hbm, 194, rfl⟩
abbrev main_v142 : Ref sig .tc := ⟨.hbm, 195, rfl⟩
abbrev main_c_33 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_c_34 : Ref sig .tc := ⟨.hbm, 202, rfl⟩
abbrev main_v148 : Ref sig .tc := ⟨.hbm, 203, rfl⟩
abbrev main_v149 : Ref sig .tc := ⟨.hbm, 204, rfl⟩
abbrev main_c_35 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_cst_36 : Ref sig .tc := ⟨.hbm, 217, rfl⟩
abbrev main_call0_cst : Ref sig .tc := ⟨.hbm, 218, rfl⟩
abbrev main_call0_v0 : Ref sig .tc := ⟨.hbm, 219, rfl⟩
abbrev main_call0_v1 : Ref sig .tc := ⟨.hbm, 220, rfl⟩
abbrev main_call0_v2 : Ref sig .tc := ⟨.hbm, 221, rfl⟩
abbrev main_call0_v3 : Ref sig .tc := ⟨.hbm, 222, rfl⟩
abbrev main_call0_v4 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_c_37 : Ref sig .tc := ⟨.hbm, 230, rfl⟩
abbrev main_v167 : Ref sig .tc := ⟨.hbm, 231, rfl⟩
abbrev main_v168 : Ref sig .tc := ⟨.hbm, 232, rfl⟩
abbrev main_c_38 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_cst_39 : Ref sig .tc := ⟨.hbm, 245, rfl⟩
abbrev main_call1_cst : Ref sig .tc := ⟨.hbm, 246, rfl⟩
abbrev main_call1_v0 : Ref sig .tc := ⟨.hbm, 247, rfl⟩
abbrev main_call1_v1 : Ref sig .tc := ⟨.hbm, 248, rfl⟩
abbrev main_call1_v2 : Ref sig .tc := ⟨.hbm, 249, rfl⟩
abbrev main_call1_v3 : Ref sig .tc := ⟨.hbm, 250, rfl⟩
abbrev main_call1_v4 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S200000_S200000x1_0 : S200000.BroadcastsInDim S200000x1 (![0] : Fin 1 → Fin S200000x1.rank)
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  transposes_S64x64_S64x64_1_0 : S64x64.Transposes [1, 0] S64x64
  bcast_S1000000x1_S1000000x64_0_1 : S1000000x1.BroadcastsInDim S1000000x64 (![0, 1] : Fin 2 → Fin S1000000x64.rank)
  reducesTo_S200000x64_S64_d0 : S200000x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S1000000x64_0_1 : S1x64.BroadcastsInDim S1000000x64 (![0, 1] : Fin 2 → Fin S1000000x64.rank)
  bcast_S_S8192 : S_.BroadcastsInDim S8192 (![] : Fin 0 → Fin S8192.rank)
  bcast_S8192_S8192x1_0 : S8192.BroadcastsInDim S8192x1 (![0] : Fin 1 → Fin S8192x1.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  transposes_S5x64_S64x5_1_0 : S5x64.Transposes [1, 0] S64x5
  bcast_S5_S1x5_1 : S5.BroadcastsInDim S1x5 (![1] : Fin 1 → Fin S1x5.rank)
  bcast_S1x5_S8192x5_0_1 : S1x5.BroadcastsInDim S8192x5 (![0, 1] : Fin 2 → Fin S8192x5.rank)
  scatter_S200000_S1000000x1_S1000000_n_0_0_1_wf : ScatterDims.WF S200000 S1000000x1 S1000000 [] [0] [0] 1
  scatter_S200000x64_S1000000x1_S1000000x64_1_0_0_1_wf : ScatterDims.WF S200000x64 S1000000x1 S1000000x64 [1] [0] [0] 1
  gather_S5x64_S1000000x1_S1000000x64_1_0_n_n_0_1_164_wf : GatherDims.WF S5x64 S1000000x1 S1000000x64 [1] [0] [] [0] [] 1 ![1, 64]
  gather_S200000x1_S1000000x1_S1000000x1_1_0_n_n_0_1_11_wf : GatherDims.WF S200000x1 S1000000x1 S1000000x1 [1] [0] [] [0] [] 1 ![1, 1]
  dot_S200000x64_S64x64_S200000x64_1_0_0_1_n_n_wf : DotDims.WF S200000x64 S64x64 S200000x64 [1] [0] [0] [1] [] []
  gather_S200000x64_S1000000x1_S1000000x64_1_0_n_n_0_1_164_wf : GatherDims.WF S200000x64 S1000000x1 S1000000x64 [1] [0] [] [0] [] 1 ![1, 64]
  gather_S200000x64_S8192x1_S8192x64_1_0_n_n_0_1_164_wf : GatherDims.WF S200000x64 S8192x1 S8192x64 [1] [0] [] [0] [] 1 ![1, 64]
  dot_S8192x64_S64x64_S8192x64_1_0_0_1_n_n_wf : DotDims.WF S8192x64 S64x64 S8192x64 [1] [0] [0] [1] [] []
  dot_S8192x64_S64x5_S8192x5_1_0_0_1_n_n_wf : DotDims.WF S8192x64 S64x5 S8192x5 [1] [0] [0] [1] [] []

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def gather_S5x64_S1000000x1_S1000000x64_1_0_n_n_0_1_164 : GatherDims S5x64 S1000000x1 S1000000x64 where
  offsetDims := [1]
  collapsedSliceDims := [0]
  operandBatchingDims := []
  startIndicesBatchingDims := []
  startIndexMap := [0]
  indexVectorDim := 1
  sliceSizes := ![1, 64]
  wf := gather_S5x64_S1000000x1_S1000000x64_1_0_n_n_0_1_164_wf
def gather_S200000x1_S1000000x1_S1000000x1_1_0_n_n_0_1_11 : GatherDims S200000x1 S1000000x1 S1000000x1 where
  offsetDims := [1]
  collapsedSliceDims := [0]
  operandBatchingDims := []
  startIndicesBatchingDims := []
  startIndexMap := [0]
  indexVectorDim := 1
  sliceSizes := ![1, 1]
  wf := gather_S200000x1_S1000000x1_S1000000x1_1_0_n_n_0_1_11_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x5_S8192x5_1_0_0_1_n_n : DotDims S8192x64 S64x5 S8192x5 where
  lhsContracting := [1]
  rhsContracting := [0]
  lhsNonContracting := [0]
  rhsNonContracting := [1]
  lhsBatch := []
  rhsBatch := []
  wf := dot_S8192x64_S64x5_S8192x5_1_0_0_1_n_n_wf

class Facts : Prop extends Facts₀ where

variable [Facts]
-- ==== Proof.RegionFns.lean ====
/-
  What each of the first three kernels leaves in its output arrays, as whole-array functions of its input arrays.

  Every kernel works on a block of rows at a time, and what it writes in row r depends only on row r of its row-blocked
  inputs and on its small whole inputs (weights, tables, means). So each output array is one function of the input
  arrays, entry by entry:
    projection  : the two products h · w (h the mean-aggregated review features, w a transposed weight), and the three
                  gather sources (h · w₁) ⊙ ci, (f₂ + h · w₂) ⊙ ci, f₃ ⊙ ci, where ⊙ ci scales row r by the node scale ci(r);
    edge combine: g ⊙ pick, where pick(e, d) = ∑ⱼ hot(label e, j) · table(j, d) selects the table row the edge's label
                  names (hot is the one-or-zero indicator "label = j" as the kernel computes it);
    node combine: seg ⊙ ci for the three plain outputs, and (ci(r) · mean(d)) · (C · table)(r, d) for the three frozen-mean
                  outputs, C the label-wise sums of the weights of the edges arriving at r.
-/
import Idealize.ShloMosaic.PureOps.Ideal
import Idealize.ShloMosaic.Lib.ValueIdx

noncomputable section

namespace Cert.RegionFns

open Idealize.ShloMosaic Idealize.ShloMosaic.ValueIdx
open scoped BigOperators

/-- A matrix of extended reals with a rows and b columns. -/
abbrev Mat (a b : ℕ) : Type := (⟨2, ![a, b]⟩ : Shape).Idx → EReal
/-- A column of a words of 32 bits. -/
abbrev Col32 (a : ℕ) : Type := (⟨2, ![a, 1]⟩ : Shape).Idx → BitVec 32

/-- Entry (a, b) of the product l · r. -/
def prodAt {M K N : ℕ} (l : Mat M K) (r : Mat K N) (a : Fin M) (b : Fin N) : EReal :=
  ∑ k : Fin K, l (ix2 a k) * r (ix2 k b)

/-- The product l · r. -/
def prod {M K N : ℕ} (l : Mat M K) (r : Mat K N) : Mat M N := fun i => prodAt l r (i 0) (i 1)

theorem prod_apply {M K N : ℕ} (l : Mat M K) (r : Mat K N) (a : Fin M) (b : Fin N) :
    prod l r (ix2 a b) = ∑ k : Fin K, l (ix2 a k) * r (ix2 k b) := rfl

/-! ## The projection kernel -/

/-- (h · w) ⊙ s : the product with row r scaled by s(r). -/
def prodScaled {R : ℕ} (h : Mat R 64) (w : Mat 64 64) (s : Mat R 1) : Mat R 64 :=
  fun i => prod h w i * s (ix2 (i 0) (0 : Fin 1))

/-- (f + h · w) ⊙ s. -/
def sumProdScaled {R : ℕ} (h : Mat R 64) (w : Mat 64 64) (f : Mat R 64) (s : Mat R 1) : Mat R 64 :=
  fun i => (f i + prod h w i) * s (ix2 (i 0) (0 : Fin 1))

/-- x ⊙ s : row r of x scaled by s(r). -/
def rowScaled {R C : ℕ} (x : Mat R C) (s : Mat R 1) : Mat R C :=
  fun i => x i * s (ix2 (i 0) (0 : Fin 1))

theorem prodScaled_apply {R : ℕ} (h : Mat R 64) (w : Mat 64 64) (s : Mat R 1) (r : Fin R) (d : Fin 64) :
    prodScaled h w s (ix2 r d) = prod h w (ix2 r d) * s (ix2 r (0 : Fin 1)) := rfl
theorem sumProdScaled_apply {R : ℕ} (h : Mat R 64) (w : Mat 64 64) (f : Mat R 64) (s : Mat R 1) (r : Fin R) (d : Fin 64) :
    sumProdScaled h w f s (ix2 r d) = (f (ix2 r d) + prod h w (ix2 r d)) * s (ix2 r (0 : Fin 1)) := rfl
theorem rowScaled_apply {R C : ℕ} (x : Mat R C) (s : Mat R 1) (r : Fin R) (d : Fin C) :
    rowScaled x s (ix2 r d) = x (ix2 r d) * s (ix2 r (0 : Fin 1)) := rfl

/-! ## The edge-combine kernel -/

/-- The indicator "label = j" as the kernel computes it: the lane number j compared for equality with the label word, the
    one-bit answer widened to a word and read as a signed integer (one or zero). -/
def hot (lab : BitVec 32) (j : Fin 5) : EReal :=
  FloatOps.sitofp (F := Ideal) .f32 ((IntOp.cmpi .eq (BitVec.ofNat 32 j.val) lab).setWidth 32)

/-- The table row the edge's label selects, column d: ∑ⱼ hot(label e, j) · table(j, d). -/
def pickAt {R : ℕ} (lab : Col32 R) (tab : Mat 5 64) (e : Fin R) (d : Fin 64) : EReal :=
  ∑ j : Fin 5, hot (lab (ix2 e (0 : Fin 1))) j * tab (ix2 j d)

/-- g ⊙ pick : the gathered source row times the selected table row, entry by entry. -/
def edgeMsg {R : ℕ} (lab : Col32 R) (g : Mat R 64) (tab : Mat 5 64) : Mat R 64 :=
  fun i => g i * pickAt lab tab (i 0) (i 1)

theorem edgeMsg_apply {R : ℕ} (lab : Col32 R) (g : Mat R 64) (tab : Mat 5 64) (e : Fin R) (d : Fin 64) :
    edgeMsg lab g tab (ix2 e d) = g (ix2 e d) * pickAt lab tab e d := rfl

/-! ## The node-combine kernel -/

/-- (ci(r) · mean(d)) · (C · table)(r, d). -/
def frozen {R : ℕ} (ci : Mat R 1) (mean : Mat 1 64) (C : Mat R 5) (tab : Mat 5 64) : Mat R 64 :=
  fun i => (ci (ix2 (i 0) (0 : Fin 1)) * mean (ix2 (0 : Fin 1) (i 1))) * prod C tab i

/-- (ci(r) · (mean₁(d) + mean₂(d))) · (C · table)(r, d). -/
def frozen2 {R : ℕ} (ci : Mat R 1) (mean₁ mean₂ : Mat 1 64) (C : Mat R 5) (tab : Mat 5 64) : Mat R 64 :=
  fun i => (ci (ix2 (i 0) (0 : Fin 1)) * (mean₁ (ix2 (0 : Fin 1) (i 1)) + mean₂ (ix2 (0 : Fin 1) (i 1)))) * prod C tab i

theorem frozen_apply {R : ℕ} (ci : Mat R 1) (mean : Mat 1 64) (C : Mat R 5) (tab : Mat 5 64) (r : Fin R) (d : Fin 64) :
    frozen ci mean C tab (ix2 r d) = (ci (ix2 r (0 : Fin 1)) * mean (ix2 (0 : Fin 1) d)) * prod C tab (ix2 r d) := rfl
theorem frozen2_apply {R : ℕ} (ci : Mat R 1) (mean₁ mean₂ : Mat 1 64) (C : Mat R 5) (tab : Mat 5 64) (r : Fin R) (d : Fin 64) :
    frozen2 ci mean₁ mean₂ C tab (ix2 r d)
      = (ci (ix2 r (0 : Fin 1)) * (mean₁ (ix2 (0 : Fin 1) d) + mean₂ (ix2 (0 : Fin 1) d))) * prod C tab (ix2 r d) := rfl

end Cert.RegionFns

end
-- ==== Proof.LibRowGather.lean ====
/-
  A lookup of table rows by a column of row numbers, `table[ids]`, read at one entry.

  For a table of N rows and D columns and a column of R row numbers (carried as R×1 start indices), the gather
  with offset axis 1, collapsed operand axis 0, start-index map [0], index-vector axis 1 and slice sizes [1, D]
  has at (p, k) the table's entry at row `ids[p]` — read as a signed integer and clamped into [0, N − 1], as every
  start index of a gather is — and column k. Axis 0 of the operand is collapsed, so it carries only the clamped
  start; axis 1 is not in the start-index map, so it carries only the result's offset coordinate k.
-/
import Idealize.ShloMosaic.Lib.ValueIdx

noncomputable section

namespace Cert.LibRowGather

open Idealize.ShloMosaic Idealize.ShloMosaic.ValueIdx

variable {α : Type}

/-- A word read as a signed integer and clamped into the rows 0 … N − 1 of a table. -/
def clampRow (N : Nat) (hN : 0 < N) {w : Nat} (v : BitVec w) : Fin N :=
  ⟨min v.toInt.toNat (N - 1), by omega⟩

/-- Those dimension numbers, for a table [N, D], start indices [R, 1] and a result [R, D]. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE LOOKUP READ AT (p, k): the table at the clamped row number `ids[p, 0]` and column k. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (p : Fin R) (k : Fin D) :
    Host.gather (rowDims N D R wf) x ids (ix2 p k) = x (ix2 (clampRow N hN (ids (ix2 p (0 : Fin 1)))) k) := by
  unfold Host.gather
  congr 1
  funext a
  refine Fin.ext ?_
  match a with
  | ⟨0, _⟩ =>
    show (rowDims N D R wf).start (ix2 p k) ids 0 + (rowDims N D R wf).batchCoord (ix2 p k) 0
        + (rowDims N D R wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 p k) ⟨List.idxOf (0 : Fin 2) (rowDims N D R wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨1, _⟩ =>
    show (rowDims N D R wf).start (ix2 p k) ids 1 + (rowDims N D R wf).batchCoord (ix2 p k) 1
        + (rowDims N D R wf).offCoord (ix2 p k) 1 = k.val
    have hsm : ¬ (1 : Fin 2) ∈ (rowDims N D R wf).startIndexMap :=
      fun h => absurd (congrArg Fin.val (List.mem_singleton.mp h)) Nat.one_ne_zero
    have hk : (1 : Fin 2) ∈ (rowDims N D R wf).sKept :=
      (GatherDims.mem_sKept _ _).mpr ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg hsm, dif_pos hk]
    simp only [Nat.add_zero, Nat.zero_add]
    rfl

end Cert.LibRowGather

end
-- ==== Proof.LibRowIndex.lean ====
/-
  Where a scatter of rows lands, and what a lookup by position reads.

  A scatter of E update rows of width D into an array of N rows, each row sent to the row number its index word
  names (read as a signed integer, not clamped; a row number outside 0 … N − 1 drops the update), lands update
  entry (e, k) on array entry (n, k) only if the e-th index word, read as a signed integer, is n.
  A lookup of a vector of N entries by a column of E positions reads, at p, the vector at the p-th position read
  as a signed integer and clamped into 0 … N − 1; a position that is already a row number is its own clamp; and
  the wrap-around of negative positions (add N where the word is negative) leaves a non-negative word alone.
-/
import Idealize.ShloMosaic.Lib.ValueIdx
import Idealize.ShloMosaic.Lib.StableHlo.Predicate
import proofs.«418387_j86114094284913_3_alg».proof.Proof.LibRowGather

noncomputable section

namespace Cert.RowIndex

open Idealize.ShloMosaic Idealize.ShloMosaic.ValueIdx Cert.LibRowGather

/-- The dimension numbers of a scatter of rows: array [N, D], index column [E, 1], updates [E, D]; the update's
    axis 1 is the window, the array's axis 0 is the scattered one. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update entry that lands on array entry `i` was sent there by its row's index word: that word, read as a signed
    integer, is `i`'s row number. -/
theorem row_of_resultIdx {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N D E wf).resultIdx? j idx = some i) :
    (idx (ix2 (j 0) (0 : Fin 1))).toInt = ((i 0).val : ℤ) := by
  unfold ScatterDims.resultIdx? at h
  split at h
  · rename_i hall
    have hi := Option.some.inj h
    have h0 := hall 0
    -- axis 0 is inserted: it carries no window coordinate
    have hw0 : (rowScatterDims N D E wf).window j 0 = 0 := by
      unfold ScatterDims.window
      rw [dif_neg]
      intro hk
      simp [ScatterDims.sKept, Shape.kept, List.mem_filter] at hk
    -- axis 0 is the one the index word addresses: its start is that word read signed
    have hs0 : (rowScatterDims N D E wf).start j idx 0 = (idx (ix2 (j 0) (0 : Fin 1))).toInt := by
      unfold ScatterDims.start
      rw [dif_pos (show (0 : Fin 2) ∈ (rowScatterDims N D E wf).scatterDimsToOperandDims from List.mem_singleton.mpr rfl)]
      have hsi : (rowScatterDims N D E wf).siIdx j
          ⟨List.idxOf (0 : Fin 2) (rowScatterDims N D E wf).scatterDimsToOperandDims,
            List.idxOf_lt_length_iff.2 (List.mem_singleton.mpr rfl)⟩ = ix2 (j 0) (0 : Fin 1) := by
        funext c; refine Fin.ext ?_
        match c with
        | ⟨0, _⟩ => rfl
        | ⟨1, _⟩ => rfl
      rw [hsi]
      rfl
    have hv : (i 0).val = ((rowScatterDims N D E wf).start j idx 0 + (rowScatterDims N D E wf).window j 0).toNat := by
      rw [← hi]
    rw [hw0, hs0] at h0
    rw [hw0, hs0] at hv
    rw [hv]
    have := h0.1
    omega
  · exact absurd h (by simp)

/-- A word that reads, as a signed integer, a row number is clamped to that row. -/
theorem clampRow_of_toInt {N w : Nat} (hN : 0 < N) (v : BitVec w) (n : Fin N) (h : v.toInt = (n.val : ℤ)) :
    clampRow N hN v = n := by
  refine Fin.ext ?_
  show min v.toInt.toNat (N - 1) = n.val
  have hv : v.toInt.toNat = n.val := by rw [h]; exact Int.toNat_natCast _
  have := n.isLt
  rw [hv]
  omega

/-- jnp's wrap-around of a negative position leaves a non-negative word as it is. -/
theorem wrap_of_nonneg (v c : BitVec 32) (h : 0 ≤ v.toInt) :
    Scalar.select (IntOp.cmpi .slt v 0#32) (IntOp.addi v c) v = v := by
  have hs : v.slt 0#32 = false := by
    unfold BitVec.slt
    rw [BitVec.toInt_zero]
    exact decide_eq_false (by omega)
  show Scalar.select (BitVec.ofBool (v.slt 0#32)) (IntOp.addi v c) v = v
  rw [hs]
  exact select_zero _ _

/-- The lookup of a vector by a column of positions, read at `p`: the vector at the clamped position. -/
theorem take_apply {α : Type} {N E w : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (p : Fin E) :
    Host.gather d x idx (ix1 p) = x (ix1 (clampRow N hN (idx (ix2 p (0 : Fin 1))))) := by
  -- the rank-1 index at p, and row p of the column, written either way
  have h1 : ∀ {n : Nat} (q : Fin n), Shape.Idx.ofFin q = ix1 q := fun q => by
    funext a
    obtain rfl : a = 0 := Subsingleton.elim _ _
    exact Fin.ext rfl
  have h2 : StableHlo.Predicate.ixP p = ix2 p (0 : Fin 1) := by
    funext a
    match a with
    | ⟨0, _⟩ => rfl
    | ⟨1, _⟩ => rfl
  have hg := StableHlo.Predicate.gather_take d hcoll hob hsim hivd x idx p hN
  rw [h1, h1] at hg
  simp only [h2] at hg
  exact hg

end Cert.RowIndex

end
-- ==== Proof.LibSegmentCount.lean ====
/-
  A scatter-add of scalars into a vector, read at one entry, on the extended reals.

  E update scalars are added into a vector of N entries; update e goes to the position its index word names (read
  as a signed integer, not clamped; a position outside 0 … N − 1 drops the update). So the result at n is the
  vector's entry there plus the sum of the updates whose index word reads n: a segment sum of scalars; with every
  update equal to one, a count.
-/
import Idealize.ShloMosaic.PureOps.Ideal
import Idealize.ShloMosaic.PureOps.Contract
import Idealize.ShloMosaic.Lib.ValueIdx

noncomputable section

namespace Cert.LibSegmentCount

open Idealize.ShloMosaic Idealize.ShloMosaic.ValueIdx

open scoped BigOperators

/-- The dimension numbers of a scatter of scalars: vector [N], index column [E, 1], updates [E]; no window axis,
    the vector's one axis is the scattered one. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The vector's one axis is the scattered one: the window starts at the update's index word, read signed. -/
private theorem start_zero {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The vector's one axis is inserted: it carries no window coordinate. -/
private theorem window_zero {N E : Nat}
    (wf : ScatterDims.WF ⟨1, ![N]⟩ ⟨2, ![E, 1]⟩ ⟨1, ![E]⟩ [] [0] [0] 1)
    (j : (⟨1, ![E]⟩ : Shape).Idx) :
    (vecScatterDims N E wf).window j 0 = 0 := by
  unfold ScatterDims.window
  rw [dif_neg]
  intro hk
  simp [ScatterDims.sKept, Shape.kept, List.mem_filter] at hk

/-- WHERE AN UPDATE LANDS: update e lands on entry n of the vector exactly when the e-th index word, read as a
    signed integer, is n. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : ℤ) := by
  have hs0 := start_zero wf idx (ix1 e)
  have hw0 := window_zero wf (ix1 e)
  have he : (ix1 e : (⟨1, ![E]⟩ : Shape).Idx) 0 = e := rfl
  rw [he] at hs0
  constructor
  · intro h
    unfold ScatterDims.resultIdx? at h
    split at h
    · rename_i hall
      have hi := Option.some.inj h
      have h0 := hall 0
      have e0 : ((vecScatterDims N E wf).start (ix1 e) idx 0 + (vecScatterDims N E wf).window (ix1 e) 0).toNat
          = n.val := by
        have := congrArg (fun f : (⟨1, ![N]⟩ : Shape).Idx => (f 0).val) hi
        exact this
      rw [hs0, hw0] at h0 e0
      have := h0.1
      omega
    · exact absurd h (by simp)
  · intro hn
    have hall : ∀ a : Fin 1, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : ℤ)
        rw [hs0, hw0, hn]
        have := n.isLt
        omega
    unfold ScatterDims.resultIdx?
    rw [dif_pos hall]
    congr 1
    funext a
    refine Fin.ext ?_
    match a with
    | ⟨0, _⟩ =>
      show ((vecScatterDims N E wf).start (ix1 e) idx 0 + (vecScatterDims N E wf).window (ix1 e) 0).toNat = n.val
      rw [hs0, hw0, hn]
      omega

/-- THE SCATTER-ADD READ AT n: the vector's entry plus the sum of the updates whose index word reads n. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e ∈ Finset.univ.filter (fun e : Fin E => (idx (ix2 e (0 : Fin 1))).toInt = (n.val : ℤ)),
          upd (ix1 e) := by
  -- the scatter-add at one entry is that entry plus the sum of the updates that land there
  show x (ix1 n) + ∑ j ∈ Finset.univ.filter
      (fun j => (vecScatterDims N E wf).resultIdx? j idx = some (ix1 n)), upd j = _
  congr 1
  symm
  -- update positions and update numbers correspond one to one
  refine Finset.sum_bij (fun e _ => (ix1 e : (⟨1, ![E]⟩ : Shape).Idx)) ?_ ?_ ?_ ?_
  · intro e he
    rw [Finset.mem_filter] at he ⊢
    exact ⟨Finset.mem_univ _, (vecScatter_resultIdx_iff wf idx e n).mpr he.2⟩
  · intro e₁ _ e₂ _ h
    have := congrFun h 0
    exact this
  · intro j hj
    rw [Finset.mem_filter] at hj
    have hj2 := hj.2
    rw [eq_ix1 j] at hj2
    have := (vecScatter_resultIdx_iff wf idx (j 0) n).mp hj2
    exact ⟨j 0, Finset.mem_filter.mpr ⟨Finset.mem_univ _, this⟩, (eq_ix1 j).symm⟩
  · intro e _
    rfl

end Cert.LibSegmentCount

end
-- ==== Proof.Dataflow.lean ====
/-
  The two programs as array dataflows over the same eighteen inputs, at the exact instance (floats are extended reals).

  Shared host stages: the index columns (a vector of words as a column; negative positions wrapped by the table's
  length first, as jnp indexing does), the segment sum of edge rows into node rows by destination, the node degree
  (the segment sum of ones), the mean-aggregated review features h = seg(review) / max(deg, 1), a weight transposed,
  the mean over the nodes of a node matrix, and a gather of node rows per edge.
  The kernel's flow (K): the projection kernel gives h·w₁ᵀ, h·w₂ᵀ and the three ci-scaled gather sources; the edge
  kernel multiplies each gathered source by the table row its label picks; the host segment-sums the three message
  arrays and, label by label, the source scales (C); the node kernel scales the sums by ci and forms the three
  frozen-mean outputs from C, the tables and the means.
  The reference's flow (R): gather first, multiply by the gathered table row and the gathered scale, segment-sum, scale.
-/
import Idealize.ShloMosaic.PureOps
import Idealize.ShloMosaic.PureOps.Ideal
import Idealize.ShloMosaic.Lib.ValueIdx
import proofs.«418387_j86114094284913_3_alg».proof.Proof.RegionFns
import proofs.«418387_j86114094284913_3_alg».proof.Proof.LibRowGather
import proofs.«418387_j86114094284913_3_alg».proof.Proof.LibRowIndex
import proofs.«418387_j86114094284913_3_alg».proof.Proof.LibSegmentCount

noncomputable section

namespace Cert.Dataflow

open Idealize.ShloMosaic Idealize.ShloMosaic.ValueIdx Cert.RegionFns

abbrev S_ : Shape := ⟨0, ![]⟩
abbrev SE : Shape := ⟨1, ![1000000]⟩
abbrev SE1 : Shape := ⟨2, ![1000000, 1]⟩
abbrev SE5 : Shape := ⟨2, ![1000000, 5]⟩
abbrev SE64 : Shape := ⟨2, ![1000000, 64]⟩
abbrev SN : Shape := ⟨1, ![200000]⟩
abbrev SN1 : Shape := ⟨2, ![200000, 1]⟩
abbrev SN5 : Shape := ⟨2, ![200000, 5]⟩
abbrev SN64 : Shape := ⟨2, ![200000, 64]⟩
abbrev S64x64 : Shape := ⟨2, ![64, 64]⟩
abbrev S5x64 : Shape := ⟨2, ![5, 64]⟩
abbrev S64x5 : Shape := ⟨2, ![64, 5]⟩
abbrev S1x64 : Shape := ⟨2, ![1, 64]⟩
abbrev S1x5 : Shape := ⟨2, ![1, 5]⟩
abbrev S64 : Shape := ⟨1, ![64]⟩
abbrev S5 : Shape := ⟨1, ![5]⟩
abbrev SB : Shape := ⟨1, ![8192]⟩
abbrev SB1 : Shape := ⟨2, ![8192, 1]⟩
abbrev SB64 : Shape := ⟨2, ![8192, 64]⟩

/-- The eighteen inputs: review features per edge, node scale ci, source / destination / label per edge, the user and
    item positions of the rated pairs, the two review weights, the two node feature tables, the three label tables,
    and the predictor's two layers. -/
structure Inputs where
  rf : FVec Ideal SE64 .f32
  ci : FVec Ideal SN1 .f32
  src : IVec SE 32
  dst : IVec SE 32
  score : IVec SE 32
  users : IVec SB 32
  items : IVec SB 32
  W1 : FVec Ideal S64x64 .f32
  W2 : FVec Ideal S64x64 .f32
  f2 : FVec Ideal SN64 .f32
  f3 : FVec Ideal SN64 .f32
  E1 : FVec Ideal S5x64 .f32
  E2 : FVec Ideal S5x64 .f32
  E3 : FVec Ideal S5x64 .f32
  P1W : FVec Ideal S64x64 .f32
  P1b : FVec Ideal S64 .f32
  P2W : FVec Ideal S5x64 .f32
  P2b : FVec Ideal S5 .f32

/-! ## Constants and index columns -/

def zero : FVec Ideal S_ .f32 := constant S_ .f32 0x00000000#32
def one : FVec Ideal S_ .f32 := constant S_ .f32 0x3F800000#32
def nodeCount : FVec Ideal S_ .f32 := constant S_ .f32 0x48435000#32

/-- A vector of E words as a column. -/
def colE (v : IVec SE 32) : IVec SE1 32 := broadcastInDim SE1 ![0] (by decide) v
/-- A vector of B words as a column. -/
def colB (v : IVec SB 32) : IVec SB1 32 := broadcastInDim SB1 ![0] (by decide) v

/-- jnp's wrap-around of negative positions into a table of n rows: v + n where v < 0, else v. -/
def wrapE (n : BitVec 32) (v : IVec SE 32) : IVec SE 32 :=
  select (cmpi .slt v (broadcastInDim SE (![] : Fin 0 → Fin SE.rank) (by decide) (constantI S_ 32 0#32)))
    (addi v (broadcastInDim SE (![] : Fin 0 → Fin SE.rank) (by decide) (constantI S_ 32 n))) v
def wrapB (n : BitVec 32) (v : IVec SB 32) : IVec SB 32 :=
  select (cmpi .slt v (broadcastInDim SB (![] : Fin 0 → Fin SB.rank) (by decide) (constantI S_ 32 0#32)))
    (addi v (broadcastInDim SB (![] : Fin 0 → Fin SB.rank) (by decide) (constantI S_ 32 n))) v

variable (a : Inputs)

/-- The source node of each edge, as a column of (wrapped) row numbers. -/
def srcCol : IVec SE1 32 := colE (wrapE 200000#32 a.src)
/-- The destination node of each edge, as a column (a scatter reads it signed and drops what is out of range). -/
def dstCol : IVec SE1 32 := colE a.dst
/-- The edge labels as the kernel passes them on: a bare column. -/
def labelCol : IVec SE1 32 := colE a.score
/-- The edge labels as the reference's table lookups take them: wrapped into the five rows first. -/
def labelRowCol : IVec SE1 32 := colE (wrapE 5#32 a.score)
def usersCol : IVec SB1 32 := colB (wrapB 200000#32 a.users)
def itemsCol : IVec SB1 32 := colB (wrapB 200000#32 a.items)

/-! ## Shared stages -/

/-- The segment sum of E rows of width 64 into the 200000 node rows, by destination. -/
def segSum64 (upd : FVec Ideal SE64 .f32) : FVec Ideal SN64 .f32 :=
  Host.scatterAdd (Cert.RowIndex.rowScatterDims 200000 64 1000000 (by decide))
    (broadcastInDim SN64 (![] : Fin 0 → Fin SN64.rank) (by decide) zero) (dstCol a) upd

/-- The same for rows of width 5. -/
def segSum5 (upd : FVec Ideal SE5 .f32) : FVec Ideal SN5 .f32 :=
  Host.scatterAdd (Cert.RowIndex.rowScatterDims 200000 5 1000000 (by decide))
    (broadcastInDim SN5 (![] : Fin 0 → Fin SN5.rank) (by decide) zero) (dstCol a) upd

/-- The number of edges arriving at each node: the segment sum of ones. -/
def degree : FVec Ideal SN .f32 :=
  Host.scatterAdd (Cert.LibSegmentCount.vecScatterDims 200000 1000000 (by decide))
    (broadcastInDim SN (![] : Fin 0 → Fin SN.rank) (by decide) zero) (dstCol a)
    (broadcastInDim SE (![] : Fin 0 → Fin SE.rank) (by decide) one)

/-- The mean-aggregated review features: seg(review) / max(degree, 1). -/
def hre : FVec Ideal SN64 .f32 :=
  Host.divf (segSum64 a a.rf)
    (broadcastInDim SN64 ![0, 1] (by decide)
      (maximumf (broadcastInDim SN1 ![0] (by decide) (degree a))
        (broadcastInDim SN1 (![] : Fin 0 → Fin SN1.rank) (by decide) one)))

/-- A 64×64 weight transposed. -/
def tr64 (w : FVec Ideal S64x64 .f32) : FVec Ideal S64x64 .f32 := transpose S64x64 [1, 0] w (by decide)
/-- A 5×64 weight transposed. -/
def tr5 (w : FVec Ideal S5x64 .f32) : FVec Ideal S64x5 .f32 := transpose S64x5 [1, 0] w (by decide)

/-- The sum over the nodes of each column of a node matrix. -/
def colSums (x : FVec Ideal SN64 .f32) : FVec Ideal S64 .f32 :=
  Host.reduceAdd (axes := [0]) (t := S64) x zero (by decide) (by decide)

/-- The mean over the nodes of a node matrix, kept as a row. -/
def meanRows (x : FVec Ideal SN64 .f32) : FVec Ideal S1x64 .f32 :=
  Host.divf (broadcastInDim S1x64 (![1] : Fin 1 → Fin S1x64.rank) (by decide) (colSums x))
    (broadcastInDim S1x64 (![] : Fin 0 → Fin S1x64.rank) (by decide) nodeCount)

/-- The rows of a node matrix the edges' sources name. -/
def gatherSrc (x : FVec Ideal SN64 .f32) : FVec Ideal SE64 .f32 :=
  Host.gather (Cert.LibRowGather.rowDims 200000 64 1000000 (by decide)) x (srcCol a)

/-- The source node's scale per edge, as a column. -/
def ciSrc : FVec Ideal SE1 .f32 :=
  Host.gather (Cert.LibRowGather.rowDims 200000 1 1000000 (by decide)) a.ci (srcCol a)

/-- The rows of a node matrix the rated pairs' positions name. -/
def gatherB (x : FVec Ideal SN64 .f32) (col : IVec SB1 32) : FVec Ideal SB64 .f32 :=
  Host.gather (Cert.LibRowGather.rowDims 200000 64 8192 (by decide)) x col

/-! ## The kernel's flow -/
namespace K

def rfe3 : FVec Ideal SN64 .f32 := prod (hre a) (tr64 a.W1)
def rfe2 : FVec Ideal SN64 .f32 := prod (hre a) (tr64 a.W2)
def G1 : FVec Ideal SN64 .f32 := prodScaled (hre a) (tr64 a.W1) a.ci
def G2 : FVec Ideal SN64 .f32 := sumProdScaled (hre a) (tr64 a.W2) a.f2 a.ci
def G3 : FVec Ideal SN64 .f32 := rowScaled a.f3 a.ci

def msgRe : FVec Ideal SE64 .f32 := edgeMsg (labelCol a) (gatherSrc a (G1 a)) a.E1
def msgMain : FVec Ideal SE64 .f32 := edgeMsg (labelCol a) (gatherSrc a (G2 a)) a.E2
def msgId : FVec Ideal SE64 .f32 := edgeMsg (labelCol a) (gatherSrc a (G3 a)) a.E3

/-- The label indicator per edge as the host computes it: the label column spread over five lanes, compared for
    equality with the lane numbers, the one-bit answer read as an unsigned number. -/
def oneHot : FVec Ideal SE5 .f32 :=
  uitofp .f32 (cmpi .eq (broadcastInDim SE5 ![0, 1] (by decide) (labelCol a))
    (broadcastInDim SE5 ![0, 1] (by decide) (broadcastInDim S1x5 ![1] (by decide) (iotaInDim S5 32 0))))

/-- C(n, j): the sum of the source scales of the edges arriving at n with label j. -/
def C : FVec Ideal SN5 .f32 :=
  segSum5 a (mulf (oneHot a) (broadcastInDim SE5 ![0, 1] (by decide) (ciSrc a)))

def rst : FVec Ideal SN64 .f32 := rowScaled (segSum64 a (msgMain a)) a.ci
def rstRe : FVec Ideal SN64 .f32 := rowScaled (segSum64 a (msgRe a)) a.ci
def rstId : FVec Ideal SN64 .f32 := rowScaled (segSum64 a (msgId a)) a.ci
def rstFreeze : FVec Ideal SN64 .f32 := frozen2 a.ci (meanRows a.f2) (meanRows (rfe2 a)) (C a) a.E2
def rstReFreeze : FVec Ideal SN64 .f32 := frozen a.ci (meanRows (rfe3 a)) (C a) a.E1
def rstIdFreeze : FVec Ideal SN64 .f32 := frozen a.ci (meanRows a.f3) (C a) a.E3

def ue : FVec Ideal SB64 .f32 := gatherB (rst a) (usersCol a)
def ie : FVec Ideal SB64 .f32 := gatherB (rst a) (itemsCol a)
def ieFreeze : FVec Ideal SB64 .f32 := gatherB (rstFreeze a) (itemsCol a)

end K

/-! ## The reference's flow -/
namespace R

def rfe3 : FVec Ideal SN64 .f32 := Host.dotGeneral (DotDims.plain 200000 64 64) none (hre a) (tr64 a.W1)
def rfe2 : FVec Ideal SN64 .f32 := Host.dotGeneral (DotDims.plain 200000 64 64) none (hre a) (tr64 a.W2)

/-- The table row each edge's (wrapped) label names. -/
def tableRows (tab : FVec Ideal S5x64 .f32) : FVec Ideal SE64 .f32 :=
  Host.gather (Cert.LibRowGather.rowDims 5 64 1000000 (by decide)) tab (labelRowCol a)

/-- The source scale per edge spread over the 64 columns. -/
def ciSrcWide : FVec Ideal SE64 .f32 := broadcastInDim SE64 ![0, 1] (by decide) (ciSrc a)
/-- The node scale spread over the 64 columns. -/
def ciWide : FVec Ideal SN64 .f32 := broadcastInDim SN64 ![0, 1] (by decide) a.ci
/-- A row of means spread over the E edges. -/
def wideE (mean : FVec Ideal S1x64 .f32) : FVec Ideal SE64 .f32 := broadcastInDim SE64 ![0, 1] (by decide) mean

def msgRe : FVec Ideal SE64 .f32 := mulf (mulf (gatherSrc a (rfe3 a)) (tableRows a a.E1)) (ciSrcWide a)
def rstRe : FVec Ideal SN64 .f32 := mulf (segSum64 a (msgRe a)) (ciWide a)
def frozenRe : FVec Ideal SE64 .f32 := mulf (mulf (wideE (meanRows (rfe3 a))) (tableRows a a.E1)) (ciSrcWide a)
def rstReFreeze : FVec Ideal SN64 .f32 := mulf (segSum64 a (frozenRe a)) (ciWide a)

def msgMain : FVec Ideal SE64 .f32 :=
  mulf (mulf (addf (gatherSrc a a.f2) (gatherSrc a (rfe2 a))) (tableRows a a.E2)) (ciSrcWide a)
def rst : FVec Ideal SN64 .f32 := mulf (segSum64 a (msgMain a)) (ciWide a)
def frozenMain : FVec Ideal SE64 .f32 :=
  mulf (mulf (wideE (addf (meanRows a.f2) (meanRows (rfe2 a)))) (tableRows a a.E2)) (ciSrcWide a)
def rstFreeze : FVec Ideal SN64 .f32 := mulf (segSum64 a (frozenMain a)) (ciWide a)

def msgId : FVec Ideal SE64 .f32 := mulf (mulf (gatherSrc a a.f3) (tableRows a a.E3)) (ciSrcWide a)
def rstId : FVec Ideal SN64 .f32 := mulf (segSum64 a (msgId a)) (ciWide a)
def frozenId : FVec Ideal SE64 .f32 := mulf (mulf (wideE (meanRows a.f3)) (tableRows a a.E3)) (ciSrcWide a)
def rstIdFreeze : FVec Ideal SN64 .f32 := mulf (segSum64 a (frozenId a)) (ciWide a)

def ue : FVec Ideal SB64 .f32 := gatherB (rst a) (usersCol a)
def ie : FVec Ideal SB64 .f32 := gatherB (rst a) (itemsCol a)
def ieFreeze : FVec Ideal SB64 .f32 := gatherB (rstFreeze a) (itemsCol a)

end R

end Cert.Dataflow

end
-- ==== Proof.KernelChainArgs.lean ====
/-
  The kernel program's argument arrays at the boundaries between its host stretches and its kernels: nobody writes an
  argument array (a host operation writes only its own result buffer; a kernel reads an argument only through an input
  window, which it leaves as it found it), so wherever an argument is read it is the launched one.
-/
import proofs.«418387_j86114094284913_3_alg».proof.Proof.Gen.KernelIdeal.Frame
import proofs.«418387_j86114094284913_3_alg».proof.Proof.Dataflow
import Idealize.ShloMosaic.Lib.StableHlo.Run

set_option maxRecDepth 16384
set_option Elab.async false

noncomputable section

namespace Cert.KernelIdeal.Chain

open Idealize.ShloMosaic Idealize.ShloMosaic.TcCoe Idealize.SL.Sem Idealize.ShloMosaic.StableHlo
open Cert.KernelIdeal Cert.KernelIdeal.Gen Cert.Dataflow

variable (m : (ℓ : Loc nD τ sig) → Buf (Elt Ideal) ℓ) (ρ : Dev nD → PrngReg)

/-- The eighteen argument arrays as a valuation of the core's buffers holds them. -/
def inputsAt (W : Valuation τ sig (Elt Ideal)) : Inputs where
  rf := W (Proc.devRef .tc main_arg0)
  ci := W (Proc.devRef .tc main_arg1)
  src := W (Proc.devRef .tc main_arg2)
  dst := W (Proc.devRef .tc main_arg3)
  score := W (Proc.devRef .tc main_arg4)
  users := W (Proc.devRef .tc main_arg5)
  items := W (Proc.devRef .tc main_arg6)
  W1 := W (Proc.devRef .tc main_arg7)
  W2 := W (Proc.devRef .tc main_arg8)
  f2 := W (Proc.devRef .tc main_arg9)
  f3 := W (Proc.devRef .tc main_arg10)
  E1 := W (Proc.devRef .tc main_arg11)
  E2 := W (Proc.devRef .tc main_arg12)
  E3 := W (Proc.devRef .tc main_arg13)
  P1W := W (Proc.devRef .tc main_arg14)
  P1b := W (Proc.devRef .tc main_arg15)
  P2W := W (Proc.devRef .tc main_arg16)
  P2b := W (Proc.devRef .tc main_arg17)

/-- The program's eighteen argument arrays on core c, as launched. -/
abbrev inp (c : Dev nD) : Inputs := inputsAt (W0 m ρ c)

/-! ## The arguments at the boundaries where they are read: nobody writes an argument array -/

/-! ### Argument 1 (`ci`) -/

theorem ci0 (c : Dev nD) : W0 m ρ c (Proc.devRef .tc main_arg1) = (inp m ρ c).ci := rfl
theorem ci1 (c : Dev nD) : W1 m ρ c (Proc.devRef .tc main_arg1) = (inp m ρ c).ci := by
  refine Eq.trans ?_ (ci0 m ρ c)
  show StableHlo.after hostOps0 (W0 m ρ c) (Proc.devRef .tc main_arg1) = _
  after_results_simp
theorem ci2 (c : Dev nD) : W2 m ρ c (Proc.devRef .tc main_arg1) = (inp m ρ c).ci := ((W2_arr m ρ c 5).trans (((dat0 (V1 m ρ) c).arrAt_in 5 rfl _).trans (A_eq0 (V1 m ρ) c 5))).trans (ci1 m ρ c)
theorem ci3 (c : Dev nD) : W3 m ρ c (Proc.devRef .tc main_arg1) = (inp m ρ c).ci := by
  refine Eq.trans ?_ (ci2 m ρ c)
  show StableHlo.after hostOps1 (W2 m ρ c) (Proc.devRef .tc main_arg1) = _
  after_results_simp
theorem ci4 (c : Dev nD) : W4 m ρ c (Proc.devRef .tc main_arg1) = (inp m ρ c).ci := (W4_of_ne m ρ c main_arg1 (by decide)).trans (ci3 m ρ c)
theorem ci5 (c : Dev nD) : W5 m ρ c (Proc.devRef .tc main_arg1) = (inp m ρ c).ci := by
  refine Eq.trans ?_ (ci4 m ρ c)
  show StableHlo.after hostOps2 (W4 m ρ c) (Proc.devRef .tc main_arg1) = _
  after_results_simp

/-! ### Argument 2 (`src`) -/

theorem src0 (c : Dev nD) : W0 m ρ c (Proc.devRef .tc main_arg2) = (inp m ρ c).src := rfl
theorem src1 (c : Dev nD) : W1 m ρ c (Proc.devRef .tc main_arg2) = (inp m ρ c).src := by
  refine Eq.trans ?_ (src0 m ρ c)
  show StableHlo.after hostOps0 (W0 m ρ c) (Proc.devRef .tc main_arg2) = _
  after_results_simp
theorem src2 (c : Dev nD) : W2 m ρ c (Proc.devRef .tc main_arg2) = (inp m ρ c).src := (W2_of_ne m ρ c main_arg2 (by decide)).trans (src1 m ρ c)
theorem src3 (c : Dev nD) : W3 m ρ c (Proc.devRef .tc main_arg2) = (inp m ρ c).src := by
  refine Eq.trans ?_ (src2 m ρ c)
  show StableHlo.after hostOps1 (W2 m ρ c) (Proc.devRef .tc main_arg2) = _
  after_results_simp
theorem src4 (c : Dev nD) : W4 m ρ c (Proc.devRef .tc main_arg2) = (inp m ρ c).src := (W4_of_ne m ρ c main_arg2 (by decide)).trans (src3 m ρ c)

/-! ### Argument 3 (`dst`) -/

theorem dst0 (c : Dev nD) : W0 m ρ c (Proc.devRef .tc main_arg3) = (inp m ρ c).dst := rfl
theorem dst1 (c : Dev nD) : W1 m ρ c (Proc.devRef .tc main_arg3) = (inp m ρ c).dst := by
  refine Eq.trans ?_ (dst0 m ρ c)
  show StableHlo.after hostOps0 (W0 m ρ c) (Proc.devRef .tc main_arg3) = _
  after_results_simp
theorem dst2 (c : Dev nD) : W2 m ρ c (Proc.devRef .tc main_arg3) = (inp m ρ c).dst := (W2_of_ne m ρ c main_arg3 (by decide)).trans (dst1 m ρ c)
theorem dst3 (c : Dev nD) : W3 m ρ c (Proc.devRef .tc main_arg3) = (inp m ρ c).dst := by
  refine Eq.trans ?_ (dst2 m ρ c)
  show StableHlo.after hostOps1 (W2 m ρ c) (Proc.devRef .tc main_arg3) = _
  after_results_simp
theorem dst4 (c : Dev nD) : W4 m ρ c (Proc.devRef .tc main_arg3) = (inp m ρ c).dst := (W4_of_ne m ρ c main_arg3 (by decide)).trans (dst3 m ρ c)

/-! ### Argument 4 (`score`) -/

theorem score0 (c : Dev nD) : W0 m ρ c (Proc.devRef .tc main_arg4) = (inp m ρ c).score := rfl
theorem score1 (c : Dev nD) : W1 m ρ c (Proc.devRef .tc main_arg4) = (inp m ρ c).score := by
  refine Eq.trans ?_ (score0 m ρ c)
  show StableHlo.after hostOps0 (W0 m ρ c) (Proc.devRef .tc main_arg4) = _
  after_results_simp
theorem score2 (c : Dev nD) : W2 m ρ c (Proc.devRef .tc main_arg4) = (inp m ρ c).score := (W2_of_ne m ρ c main_arg4 (by decide)).trans (score1 m ρ c)
theorem score3 (c : Dev nD) : W3 m ρ c (Proc.devRef .tc main_arg4) = (inp m ρ c).score := by
  refine Eq.trans ?_ (score2 m ρ c)
  show StableHlo.after hostOps1 (W2 m ρ c) (Proc.devRef .tc main_arg4) = _
  after_results_simp
theorem score4 (c : Dev nD) : W4 m ρ c (Proc.devRef .tc main_arg4) = (inp m ρ c).score := (W4_of_ne m ρ c main_arg4 (by decide)).trans (score3 m ρ c)

/-! ### Argument 5 (`users`) -/

theorem users0 (c : Dev nD) : W0 m ρ c (Proc.devRef .tc main_arg5) = (inp m ρ c).users := rfl
theorem users1 (c : Dev nD) : W1 m ρ c (Proc.devRef .tc main_arg5) = (inp m ρ c).users := by
  refine Eq.trans ?_ (users0 m ρ c)
  show StableHlo.after hostOps0 (W0 m ρ c) (Proc.devRef .tc main_arg5) = _
  after_results_simp
theorem users2 (c : Dev nD) : W2 m ρ c (Proc.devRef .tc main_arg5) = (inp m ρ c).users := (W2_of_ne m ρ c main_arg5 (by decide)).trans (users1 m ρ c)
theorem users3 (c : Dev nD) : W3 m ρ c (Proc.devRef .tc main_arg5) = (inp m ρ c).users := by
  refine Eq.trans ?_ (users2 m ρ c)
  show StableHlo.after hostOps1 (W2 m ρ c) (Proc.devRef .tc main_arg5) = _
  after_results_simp
theorem users4 (c : Dev nD) : W4 m ρ c (Proc.devRef .tc main_arg5) = (inp m ρ c).users := (W4_of_ne m ρ c main_arg5 (by decide)).trans (users3 m ρ c)
theorem users5 (c : Dev nD) : W5 m ρ c (Proc.devRef .tc main_arg5) = (inp m ρ c).users := by
  refine Eq.trans ?_ (users4 m ρ c)
  show StableHlo.after hostOps2 (W4 m ρ c) (Proc.devRef .tc main_arg5) = _
  after_results_simp
theorem users6 (c : Dev nD) : W6 m ρ c (Proc.devRef .tc main_arg5) = (inp m ρ c).users := (W6_of_ne m ρ c main_arg5 (by decide)).trans (users5 m ρ c)

/-! ### Argument 6 (`items`) -/

theorem items0 (c : Dev nD) : W0 m ρ c (Proc.devRef .tc main_arg6) = (inp m ρ c).items := rfl
theorem items1 (c : Dev nD) : W1 m ρ c (Proc.devRef .tc main_arg6) = (inp m ρ c).items := by
  refine Eq.trans ?_ (items0 m ρ c)
  show StableHlo.after hostOps0 (W0 m ρ c) (Proc.devRef .tc main_arg6) = _
  after_results_simp
theorem items2 (c : Dev nD) : W2 m ρ c (Proc.devRef .tc main_arg6) = (inp m ρ c).items := (W2_of_ne m ρ c main_arg6 (by decide)).trans (items1 m ρ c)
theorem items3 (c : Dev nD) : W3 m ρ c (Proc.devRef .tc main_arg6) = (inp m ρ c).items := by
  refine Eq.trans ?_ (items2 m ρ c)
  show StableHlo.after hostOps1 (W2 m ρ c) (Proc.devRef .tc main_arg6) = _
  after_results_simp
theorem items4 (c : Dev nD) : W4 m ρ c (Proc.devRef .tc main_arg6) = (inp m ρ c).items := (W4_of_ne m ρ c main_arg6 (by decide)).trans (items3 m ρ c)
theorem items5 (c : Dev nD) : W5 m ρ c (Proc.devRef .tc main_arg6) = (inp m ρ c).items := by
  refine Eq.trans ?_ (items4 m ρ c)
  show StableHlo.after hostOps2 (W4 m ρ c) (Proc.devRef .tc main_arg6) = _
  after_results_simp
theorem items6 (c : Dev nD) : W6 m ρ c (Proc.devRef .tc main_arg6) = (inp m ρ c).items := (W6_of_ne m ρ c main_arg6 (by decide)).trans (items5 m ρ c)

/-! ### Argument 9 (`f2`) -/

theorem f20 (c : Dev nD) : W0 m ρ c (Proc.devRef .tc main_arg9) = (inp m ρ c).f2 := rfl
theorem f21 (c : Dev nD) : W1 m ρ c (Proc.devRef .tc main_arg9) = (inp m ρ c).f2 := by
  refine Eq.trans ?_ (f20 m ρ c)
  show StableHlo.after hostOps0 (W0 m ρ c) (Proc.devRef .tc main_arg9) = _
  after_results_simp
theorem f22 (c : Dev nD) : W2 m ρ c (Proc.devRef .tc main_arg9) = (inp m ρ c).f2 := ((W2_arr m ρ c 3).trans (((dat0 (V1 m ρ) c).arrAt_in 3 rfl _).trans (A_eq0 (V1 m ρ) c 3))).trans (f21 m ρ c)

/-! ### Argument 10 (`f3`) -/

theorem f30 (c : Dev nD) : W0 m ρ c (Proc.devRef .tc main_arg10) = (inp m ρ c).f3 := rfl
theorem f31 (c : Dev nD) : W1 m ρ c (Proc.devRef .tc main_arg10) = (inp m ρ c).f3 := by
  refine Eq.trans ?_ (f30 m ρ c)
  show StableHlo.after hostOps0 (W0 m ρ c) (Proc.devRef .tc main_arg10) = _
  after_results_simp
theorem f32 (c : Dev nD) : W2 m ρ c (Proc.devRef .tc main_arg10) = (inp m ρ c).f3 := ((W2_arr m ρ c 4).trans (((dat0 (V1 m ρ) c).arrAt_in 4 rfl _).trans (A_eq0 (V1 m ρ) c 4))).trans (f31 m ρ c)

/-! ### Argument 11 (`E1`) -/

theorem E10 (c : Dev nD) : W0 m ρ c (Proc.devRef .tc main_arg11) = (inp m ρ c).E1 := rfl
theorem E11 (c : Dev nD) : W1 m ρ c (Proc.devRef .tc main_arg11) = (inp m ρ c).E1 := by
  refine Eq.trans ?_ (E10 m ρ c)
  show StableHlo.after hostOps0 (W0 m ρ c) (Proc.devRef .tc main_arg11) = _
  after_results_simp
theorem E12 (c : Dev nD) : W2 m ρ c (Proc.devRef .tc main_arg11) = (inp m ρ c).E1 := (W2_of_ne m ρ c main_arg11 (by decide)).trans (E11 m ρ c)
theorem E13 (c : Dev nD) : W3 m ρ c (Proc.devRef .tc main_arg11) = (inp m ρ c).E1 := by
  refine Eq.trans ?_ (E12 m ρ c)
  show StableHlo.after hostOps1 (W2 m ρ c) (Proc.devRef .tc main_arg11) = _
  after_results_simp
theorem E14 (c : Dev nD) : W4 m ρ c (Proc.devRef .tc main_arg11) = (inp m ρ c).E1 := ((W4_arr m ρ c 4).trans (((dat1 (V3 m ρ) c).arrAt_in 4 rfl _).trans (A_eq1 (V3 m ρ) c 4))).trans (E13 m ρ c)
theorem E15 (c : Dev nD) : W5 m ρ c (Proc.devRef .tc main_arg11) = (inp m ρ c).E1 := by
  refine Eq.trans ?_ (E14 m ρ c)
  show StableHlo.after hostOps2 (W4 m ρ c) (Proc.devRef .tc main_arg11) = _
  after_results_simp

/-! ### Argument 12 (`E2`) -/

theorem E20 (c : Dev nD) : W0 m ρ c (Proc.devRef .tc main_arg12) = (inp m ρ c).E2 := rfl
theorem E21 (c : Dev nD) : W1 m ρ c (Proc.devRef .tc main_arg12) = (inp m ρ c).E2 := by
  refine Eq.trans ?_ (E20 m ρ c)
  show StableHlo.after hostOps0 (W0 m ρ c) (Proc.devRef .tc main_arg12) = _
  after_results_simp
theorem E22 (c : Dev nD) : W2 m ρ c (Proc.devRef .tc main_arg12) = (inp m ρ c).E2 := (W2_of_ne m ρ c main_arg12 (by decide)).trans (E21 m ρ c)
theorem E23 (c : Dev nD) : W3 m ρ c (Proc.devRef .tc main_arg12) = (inp m ρ c).E2 := by
  refine Eq.trans ?_ (E22 m ρ c)
  show StableHlo.after hostOps1 (W2 m ρ c) (Proc.devRef .tc main_arg12) = _
  after_results_simp
theorem E24 (c : Dev nD) : W4 m ρ c (Proc.devRef .tc main_arg12) = (inp m ρ c).E2 := ((W4_arr m ρ c 5).trans (((dat1 (V3 m ρ) c).arrAt_in 5 rfl _).trans (A_eq1 (V3 m ρ) c 5))).trans (E23 m ρ c)
theorem E25 (c : Dev nD) : W5 m ρ c (Proc.devRef .tc main_arg12) = (inp m ρ c).E2 := by
  refine Eq.trans ?_ (E24 m ρ c)
  show StableHlo.after hostOps2 (W4 m ρ c) (Proc.devRef .tc main_arg12) = _
  after_results_simp

/-! ### Argument 13 (`E3`) -/

theorem E30 (c : Dev nD) : W0 m ρ c (Proc.devRef .tc main_arg13) = (inp m ρ c).E3 := rfl
theorem E31 (c : Dev nD) : W1 m ρ c (Proc.devRef .tc main_arg13) = (inp m ρ c).E3 := by
  refine Eq.trans ?_ (E30 m ρ c)
  show StableHlo.after hostOps0 (W0 m ρ c) (Proc.devRef .tc main_arg13) = _
  after_results_simp
theorem E32 (c : Dev nD) : W2 m ρ c (Proc.devRef .tc main_arg13) = (inp m ρ c).E3 := (W2_of_ne m ρ c main_arg13 (by decide)).trans (E31 m ρ c)
theorem E33 (c : Dev nD) : W3 m ρ c (Proc.devRef .tc main_arg13) = (inp m ρ c).E3 := by
  refine Eq.trans ?_ (E32 m ρ c)
  show StableHlo.after hostOps1 (W2 m ρ c) (Proc.devRef .tc main_arg13) = _
  after_results_simp
theorem E34 (c : Dev nD) : W4 m ρ c (Proc.devRef .tc main_arg13) = (inp m ρ c).E3 := ((W4_arr m ρ c 6).trans (((dat1 (V3 m ρ) c).arrAt_in 6 rfl _).trans (A_eq1 (V3 m ρ) c 6))).trans (E33 m ρ c)
theorem E35 (c : Dev nD) : W5 m ρ c (Proc.devRef .tc main_arg13) = (inp m ρ c).E3 := by
  refine Eq.trans ?_ (E34 m ρ c)
  show StableHlo.after hostOps2 (W4 m ρ c) (Proc.devRef .tc main_arg13) = _
  after_results_simp

/-! ### Argument 14 (`P1W`) -/

theorem P1W0 (c : Dev nD) : W0 m ρ c (Proc.devRef .tc main_arg14) = (inp m ρ c).P1W := rfl
theorem P1W1 (c : Dev nD) : W1 m ρ c (Proc.devRef .tc main_arg14) = (inp m ρ c).P1W := by
  refine Eq.trans ?_ (P1W0 m ρ c)
  show StableHlo.after hostOps0 (W0 m ρ c) (Proc.devRef .tc main_arg14) = _
  after_results_simp
theorem P1W2 (c : Dev nD) : W2 m ρ c (Proc.devRef .tc main_arg14) = (inp m ρ c).P1W := (W2_of_ne m ρ c main_arg14 (by decide)).trans (P1W1 m ρ c)
theorem P1W3 (c : Dev nD) : W3 m ρ c (Proc.devRef .tc main_arg14) = (inp m ρ c).P1W := by
  refine Eq.trans ?_ (P1W2 m ρ c)
  show StableHlo.after hostOps1 (W2 m ρ c) (Proc.devRef .tc main_arg14) = _
  after_results_simp
theorem P1W4 (c : Dev nD) : W4 m ρ c (Proc.devRef .tc main_arg14) = (inp m ρ c).P1W := (W4_of_ne m ρ c main_arg14 (by decide)).trans (P1W3 m ρ c)
theorem P1W5 (c : Dev nD) : W5 m ρ c (Proc.devRef .tc main_arg14) = (inp m ρ c).P1W := by
  refine Eq.trans ?_ (P1W4 m ρ c)
  show StableHlo.after hostOps2 (W4 m ρ c) (Proc.devRef .tc main_arg14) = _
  after_results_simp
theorem P1W6 (c : Dev nD) : W6 m ρ c (Proc.devRef .tc main_arg14) = (inp m ρ c).P1W := (W6_of_ne m ρ c main_arg14 (by decide)).trans (P1W5 m ρ c)

/-! ### Argument 15 (`P1b`) -/

theorem P1b0 (c : Dev nD) : W0 m ρ c (Proc.devRef .tc main_arg15) = (inp m ρ c).P1b := rfl
theorem P1b1 (c : Dev nD) : W1 m ρ c (Proc.devRef .tc main_arg15) = (inp m ρ c).P1b := by
  refine Eq.trans ?_ (P1b0 m ρ c)
  show StableHlo.after hostOps0 (W0 m ρ c) (Proc.devRef .tc main_arg15) = _
  after_results_simp
theorem P1b2 (c : Dev nD) : W2 m ρ c (Proc.devRef .tc main_arg15) = (inp m ρ c).P1b := (W2_of_ne m ρ c main_arg15 (by decide)).trans (P1b1 m ρ c)
theorem P1b3 (c : Dev nD) : W3 m ρ c (Proc.devRef .tc main_arg15) = (inp m ρ c).P1b := by
  refine Eq.trans ?_ (P1b2 m ρ c)
  show StableHlo.after hostOps1 (W2 m ρ c) (Proc.devRef .tc main_arg15) = _
  after_results_simp
theorem P1b4 (c : Dev nD) : W4 m ρ c (Proc.devRef .tc main_arg15) = (inp m ρ c).P1b := (W4_of_ne m ρ c main_arg15 (by decide)).trans (P1b3 m ρ c)
theorem P1b5 (c : Dev nD) : W5 m ρ c (Proc.devRef .tc main_arg15) = (inp m ρ c).P1b := by
  refine Eq.trans ?_ (P1b4 m ρ c)
  show StableHlo.after hostOps2 (W4 m ρ c) (Proc.devRef .tc main_arg15) = _
  after_results_simp
theorem P1b6 (c : Dev nD) : W6 m ρ c (Proc.devRef .tc main_arg15) = (inp m ρ c).P1b := (W6_of_ne m ρ c main_arg15 (by decide)).trans (P1b5 m ρ c)
theorem P1b7 (c : Dev nD) : W7 m ρ c (Proc.devRef .tc main_arg15) = (inp m ρ c).P1b := by
  refine Eq.trans ?_ (P1b6 m ρ c)
  show StableHlo.after hostOps3 (W6 m ρ c) (Proc.devRef .tc main_arg15) = _
  after_results_simp

/-! ### Argument 16 (`P2W`) -/

theorem P2W0 (c : Dev nD) : W0 m ρ c (Proc.devRef .tc main_arg16) = (inp m ρ c).P2W := rfl
theorem P2W1 (c : Dev nD) : W1 m ρ c (Proc.devRef .tc main_arg16) = (inp m ρ c).P2W := by
  refine Eq.trans ?_ (P2W0 m ρ c)
  show StableHlo.after hostOps0 (W0 m ρ c) (Proc.devRef .tc main_arg16) = _
  after_results_simp
theorem P2W2 (c : Dev nD) : W2 m ρ c (Proc.devRef .tc main_arg16) = (inp m ρ c).P2W := (W2_of_ne m ρ c main_arg16 (by decide)).trans (P2W1 m ρ c)
theorem P2W3 (c : Dev nD) : W3 m ρ c (Proc.devRef .tc main_arg16) = (inp m ρ c).P2W := by
  refine Eq.trans ?_ (P2W2 m ρ c)
  show StableHlo.after hostOps1 (W2 m ρ c) (Proc.devRef .tc main_arg16) = _
  after_results_simp
theorem P2W4 (c : Dev nD) : W4 m ρ c (Proc.devRef .tc main_arg16) = (inp m ρ c).P2W := (W4_of_ne m ρ c main_arg16 (by decide)).trans (P2W3 m ρ c)
theorem P2W5 (c : Dev nD) : W5 m ρ c (Proc.devRef .tc main_arg16) = (inp m ρ c).P2W := by
  refine Eq.trans ?_ (P2W4 m ρ c)
  show StableHlo.after hostOps2 (W4 m ρ c) (Proc.devRef .tc main_arg16) = _
  after_results_simp
theorem P2W6 (c : Dev nD) : W6 m ρ c (Proc.devRef .tc main_arg16) = (inp m ρ c).P2W := (W6_of_ne m ρ c main_arg16 (by decide)).trans (P2W5 m ρ c)

/-! ### Argument 17 (`P2b`) -/

theorem P2b0 (c : Dev nD) : W0 m ρ c (Proc.devRef .tc main_arg17) = (inp m ρ c).P2b := rfl
theorem P2b1 (c : Dev nD) : W1 m ρ c (Proc.devRef .tc main_arg17) = (inp m ρ c).P2b := by
  refine Eq.trans ?_ (P2b0 m ρ c)
  show StableHlo.after hostOps0 (W0 m ρ c) (Proc.devRef .tc main_arg17) = _
  after_results_simp
theorem P2b2 (c : Dev nD) : W2 m ρ c (Proc.devRef .tc main_arg17) = (inp m ρ c).P2b := (W2_of_ne m ρ c main_arg17 (by decide)).trans (P2b1 m ρ c)
theorem P2b3 (c : Dev nD) : W3 m ρ c (Proc.devRef .tc main_arg17) = (inp m ρ c).P2b := by
  refine Eq.trans ?_ (P2b2 m ρ c)
  show StableHlo.after hostOps1 (W2 m ρ c) (Proc.devRef .tc main_arg17) = _
  after_results_simp
theorem P2b4 (c : Dev nD) : W4 m ρ c (Proc.devRef .tc main_arg17) = (inp m ρ c).P2b := (W4_of_ne m ρ c main_arg17 (by decide)).trans (P2b3 m ρ c)
theorem P2b5 (c : Dev nD) : W5 m ρ c (Proc.devRef .tc main_arg17) = (inp m ρ c).P2b := by
  refine Eq.trans ?_ (P2b4 m ρ c)
  show StableHlo.after hostOps2 (W4 m ρ c) (Proc.devRef .tc main_arg17) = _
  after_results_simp
theorem P2b6 (c : Dev nD) : W6 m ρ c (Proc.devRef .tc main_arg17) = (inp m ρ c).P2b := (W6_of_ne m ρ c main_arg17 (by decide)).trans (P2b5 m ρ c)
theorem P2b7 (c : Dev nD) : W7 m ρ c (Proc.devRef .tc main_arg17) = (inp m ρ c).P2b := by
  refine Eq.trans ?_ (P2b6 m ρ c)
  show StableHlo.after hostOps3 (W6 m ρ c) (Proc.devRef .tc main_arg17) = _
  after_results_simp

end Cert.KernelIdeal.Chain

end
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.LibKeepdims.lean ====
/-
  Two layout readings used by every reduction that keeps its reduced axis as a unit axis (a row statistic kept as a
  column): a vector [a] viewed as a column [a, 1], and a column [a, 1] spread over the b entries of each row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector's entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelRegion0.lean ====
/-
  The projection kernel's five output arrays as whole-array functions of its input arrays.

  The kernel runs over 100 grid points; point t works on rows 2000·t … 2000·t + 1999 of the row-blocked arrays
  (h, f₂, f₃, the node scale ci, and the five outputs) and sees the two 64×64 weights whole. At an entry (p, q) of its
  block it computes ∑ₖ h(p, k) · w(k, q) for each weight, and from these the three scaled outputs. Row p of point t's
  block is row 2000·t + p of the array, and the sum over k reads only that row of h and column q of the weight, so
  what the point writes back is the block of ONE function of the whole arrays: the product h · w₁, the product h · w₂,
  (h · w₁) ⊙ ci, (f₂ + h · w₂) ⊙ ci and f₃ ⊙ ci. The blocks of the 100 points tile each output array (row r lies in
  the block of point r / 2000), so each output array ends holding that function.
-/
import proofs.«418387_j86114094284913_3_alg».proof.Proof.Gen.KernelIdeal.Frame
import proofs.«418387_j86114094284913_3_alg».proof.Proof.RegionFns
import proofs.«418387_j86114094284913_3_alg».proof.Proof.LibPlainMatmul
import proofs.«418387_j86114094284913_3_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.RegionFns Idealize.ShloMosaic Idealize.ShloMosaic.ValueIdx Idealize.ShloMosaic.TcCoe Idealize.SL.Sem
open scoped BigOperators

/-! ## The block's arithmetic at an entry -/

/-- The product's dimension numbers are those of a plain 2000×64 by 64×64 product. -/
theorem dot_eq_plain : dot_S2000x64_S64x64_S2000x64_1_0_0_1_n_n = DotDims.plain 2000 64 64 := rfl

/-- Entry (p, q) of the first product of blocks: ∑ₖ x(p, k) · w(k, q). -/
theorem blockProd_apply (x0 : Vec Ideal S2000x64 .f32) (x1 : Vec Ideal S64x64 .f32) (p : Fin 2000) (q : Fin 64) :
    k0_pay2 x0 x1 (ix2 p q) = ∑ k : Fin 64, x0 (ix2 p k) * x1 (ix2 k q) := by
  unfold k0_pay2 k0_pay1
  dsimp only
  rw [dot_eq_plain]
  refine (Cert.LibPlainMatmul.matmul_zero_apply 2000 64 64 none _ _ p q).trans ?_
  refine Finset.sum_congr rfl fun k _ => ?_
  rw [truncf_apply, truncf_apply, shapeCast_self, shapeCast_self]

/-- Entry (p, q) of the second product of blocks: ∑ₖ x(p, k) · w(k, q). -/
theorem blockProd2_apply (x0 : Vec Ideal S2000x64 .f32) (x2 : Vec Ideal S64x64 .f32) (p : Fin 2000) (q : Fin 64) :
    k0_pay3 x0 x2 (ix2 p q) = ∑ k : Fin 64, x0 (ix2 p k) * x2 (ix2 k q) := by
  unfold k0_pay3 k0_pay1
  dsimp only
  rw [dot_eq_plain]
  refine (Cert.LibPlainMatmul.matmul_zero_apply 2000 64 64 none _ _ p q).trans ?_
  refine Finset.sum_congr rfl fun k _ => ?_
  rw [truncf_apply, truncf_apply, shapeCast_self, shapeCast_self]

/-- Entry (p, q) of the scaled first product: the product's entry times the scale of row p. -/
theorem blockProdScaled_apply (x0 : Vec Ideal S2000x64 .f32) (x1 : Vec Ideal S64x64 .f32) (x5 : Vec Ideal S2000x1 .f32)
    (p : Fin 2000) (q : Fin 64) :
    k0_pay4 x0 x1 x5 (ix2 p q) = (∑ k : Fin 64, x0 (ix2 p k) * x1 (ix2 k q)) * x5 (ix2 p (0 : Fin 1)) := by
  unfold k0_pay4
  rw [mulf_apply, blockProd_apply, Cert.LibKeepdims.broadcastTo_a1_ab_apply]

/-- Entry (p, q) of the scaled sum: (f(p, q) + the second product's entry) times the scale of row p. -/
theorem blockSumProdScaled_apply (x0 : Vec Ideal S2000x64 .f32) (x2 : Vec Ideal S64x64 .f32) (x5 : Vec Ideal S2000x1 .f32)
    (x3 : Vec Ideal S2000x64 .f32) (p : Fin 2000) (q : Fin 64) :
    k0_pay5 x0 x2 x5 x3 (ix2 p q)
      = (x3 (ix2 p q) + ∑ k : Fin 64, x0 (ix2 p k) * x2 (ix2 k q)) * x5 (ix2 p (0 : Fin 1)) := by
  unfold k0_pay5
  rw [mulf_apply, addf_apply, blockProd2_apply, Cert.LibKeepdims.broadcastTo_a1_ab_apply]

/-- Entry (p, q) of the scaled block: f(p, q) times the scale of row p. -/
theorem blockRowScaled_apply (x5 : Vec Ideal S2000x1 .f32) (x4 : Vec Ideal S2000x64 .f32) (p : Fin 2000) (q : Fin 64) :
    k0_pay6 x5 x4 (ix2 p q) = x4 (ix2 p q) * x5 (ix2 p (0 : Fin 1)) := by
  unfold k0_pay6
  rw [mulf_apply, Cert.LibKeepdims.broadcastTo_a1_ab_apply]

/-! ## From blocks to whole arrays, at one entry

  Here j is an index of a block and i the index of the array where that entry of the block sits: the hypotheses say
  that the blocks hold the arrays' entries of row i₀ (and the weight whole), and that i and j name the same column. -/

/-- The first product of blocks at j is the product of the arrays at i. -/
theorem prod_of_blocks (x0 : Vec Ideal S2000x64 .f32) (x1 : Vec Ideal S64x64 .f32) (H : Mat 200000 64) (W : Mat 64 64)
    (j : S2000x64.Idx) (i : S200000x64.Idx)
    (hH : ∀ k : Fin 64, x0 (ix2 (j 0) k) = H (ix2 (i 0) k))
    (hW : ∀ k q : Fin 64, x1 (ix2 k q) = W (ix2 k q))
    (hq : (i 1).val = (j 1).val) :
    k0_pay2 x0 x1 j = RegionFns.prod H W i := by
  have eq : (i 1 : Fin 64) = j 1 := Fin.ext hq
  refine (congrArg (k0_pay2 x0 x1) (eq_ix2 j)).trans ((blockProd_apply x0 x1 (j 0) (j 1)).trans ?_)
  show _ = ∑ k : Fin 64, H (ix2 (i 0) k) * W (ix2 k (i 1))
  refine Finset.sum_congr rfl fun k _ => ?_
  exact congrArg₂ (· * ·) (hH k) ((hW k (j 1)).trans (congrArg (fun q : Fin 64 => W (ix2 k q)) eq.symm))

/-- The second product of blocks at j is the product of the arrays at i. -/
theorem prod2_of_blocks (x0 : Vec Ideal S2000x64 .f32) (x2 : Vec Ideal S64x64 .f32) (H : Mat 200000 64) (W : Mat 64 64)
    (j : S2000x64.Idx) (i : S200000x64.Idx)
    (hH : ∀ k : Fin 64, x0 (ix2 (j 0) k) = H (ix2 (i 0) k))
    (hW : ∀ k q : Fin 64, x2 (ix2 k q) = W (ix2 k q))
    (hq : (i 1).val = (j 1).val) :
    k0_pay3 x0 x2 j = RegionFns.prod H W i := by
  have eq : (i 1 : Fin 64) = j 1 := Fin.ext hq
  refine (congrArg (k0_pay3 x0 x2) (eq_ix2 j)).trans ((blockProd2_apply x0 x2 (j 0) (j 1)).trans ?_)
  show _ = ∑ k : Fin 64, H (ix2 (i 0) k) * W (ix2 k (i 1))
  refine Finset.sum_congr rfl fun k _ => ?_
  exact congrArg₂ (· * ·) (hH k) ((hW k (j 1)).trans (congrArg (fun q : Fin 64 => W (ix2 k q)) eq.symm))

/-- The scaled first product of blocks at j is (H · W) ⊙ S at i. -/
theorem prodScaled_of_blocks (x0 : Vec Ideal S2000x64 .f32) (x1 : Vec Ideal S64x64 .f32) (x5 : Vec Ideal S2000x1 .f32)
    (H : Mat 200000 64) (W : Mat 64 64) (S : Mat 200000 1) (j : S2000x64.Idx) (i : S200000x64.Idx)
    (hH : ∀ k : Fin 64, x0 (ix2 (j 0) k) = H (ix2 (i 0) k))
    (hW : ∀ k q : Fin 64, x1 (ix2 k q) = W (ix2 k q))
    (hS : x5 (ix2 (j 0) (0 : Fin 1)) = S (ix2 (i 0) (0 : Fin 1)))
    (hq : (i 1).val = (j 1).val) :
    k0_pay4 x0 x1 x5 j = RegionFns.prodScaled H W S i := by
  have eq : (i 1 : Fin 64) = j 1 := Fin.ext hq
  refine (congrArg (k0_pay4 x0 x1 x5) (eq_ix2 j)).trans ((blockProdScaled_apply x0 x1 x5 (j 0) (j 1)).trans ?_)
  show _ = (∑ k : Fin 64, H (ix2 (i 0) k) * W (ix2 k (i 1))) * S (ix2 (i 0) (0 : Fin 1))
  refine congrArg₂ (· * ·) (Finset.sum_congr rfl fun k _ => ?_) hS
  exact congrArg₂ (· * ·) (hH k) ((hW k (j 1)).trans (congrArg (fun q : Fin 64 => W (ix2 k q)) eq.symm))

/-- The scaled sum of blocks at j is (Fm + H · W) ⊙ S at i. -/
theorem sumProdScaled_of_blocks (x0 : Vec Ideal S2000x64 .f32) (x2 : Vec Ideal S64x64 .f32) (x5 : Vec Ideal S2000x1 .f32)
    (x3 : Vec Ideal S2000x64 .f32) (H : Mat 200000 64) (W : Mat 64 64) (Fm : Mat 200000 64) (S : Mat 200000 1)
    (j : S2000x64.Idx) (i : S200000x64.Idx)
    (hH : ∀ k : Fin 64, x0 (ix2 (j 0) k) = H (ix2 (i 0) k))
    (hW : ∀ k q : Fin 64, x2 (ix2 k q) = W (ix2 k q))
    (hF : x3 (ix2 (j 0) (j 1)) = Fm i)
    (hS : x5 (ix2 (j 0) (0 : Fin 1)) = S (ix2 (i 0) (0 : Fin 1)))
    (hq : (i 1).val = (j 1).val) :
    k0_pay5 x0 x2 x5 x3 j = RegionFns.sumProdScaled H W Fm S i := by
  have eq : (i 1 : Fin 64) = j 1 := Fin.ext hq
  refine (congrArg (k0_pay5 x0 x2 x5 x3) (eq_ix2 j)).trans ((blockSumProdScaled_apply x0 x2 x5 x3 (j 0) (j 1)).trans ?_)
  show _ = (Fm i + ∑ k : Fin 64, H (ix2 (i 0) k) * W (ix2 k (i 1))) * S (ix2 (i 0) (0 : Fin 1))
  refine congrArg₂ (· * ·) (congrArg₂ (· + ·) hF (Finset.sum_congr rfl fun k _ => ?_)) hS
  exact congrArg₂ (· * ·) (hH k) ((hW k (j 1)).trans (congrArg (fun q : Fin 64 => W (ix2 k q)) eq.symm))

/-- The scaled block at j is X ⊙ S at i. -/
theorem rowScaled_of_blocks (x5 : Vec Ideal S2000x1 .f32) (x4 : Vec Ideal S2000x64 .f32) (X : Mat 200000 64) (S : Mat 200000 1)
    (j : S2000x64.Idx) (i : S200000x64.Idx)
    (hX : x4 (ix2 (j 0) (j 1)) = X i)
    (hS : x5 (ix2 (j 0) (0 : Fin 1)) = S (ix2 (i 0) (0 : Fin 1))) :
    k0_pay6 x5 x4 j = RegionFns.rowScaled X S i := by
  refine (congrArg (k0_pay6 x5 x4) (eq_ix2 j)).trans ((blockRowScaled_apply x5 x4 (j 0) (j 1)).trans ?_)
  show _ = X i * S (ix2 (i 0) (0 : Fin 1))
  exact congrArg₂ (· * ·) hX hS

/-! ## The index maps over the grid -/

variable (V : (c : Dev nD) → (b : Ref sig .tc) → Buf (Elt Ideal) ((c : Thread nD τ).loc b))

/-- The two zero offsets of a whole-block access, as a function. -/
theorem zeros_eq : (![0, 0] : Fin 2 → Nat) = fun _ => 0 :=
  funext fun a => match a with | ⟨0, _⟩ => rfl | ⟨1, _⟩ => rfl

/-- The index maps, decided over the grid: a row-blocked window's block at point t is block (t, 0) of its array, and a
    whole window's is block (0, 0). -/
theorem index_facts : ∀ t : Fin cfg0.N,
      (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- The same for the five output windows. -/
theorem out_index_facts : ∀ t : Fin cfg0.N,
      (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

/-! ## The input blocks as entries of their arrays -/

/-- Entry (p, k) of h's block at point t is entry (2000·t + p, k) of h. -/
theorem hBlock_apply (c : Dev nD) (t : Fin cfg0.N) (p : Fin 2000) (k : Fin 64) (r : Fin 200000)
    (hr : r.val = t.val * 2000 + p.val) :
    (iblk0 V c 0 t : Vec Ideal S2000x64 .f32) (ix2 p k) = (V c main_v11 : Mat 200000 64) (ix2 r k) := by
  obtain ⟨⟨e0, e1⟩, -⟩ := index_facts t
  show V c main_v11 (((cfg0.win 0).blk t).view.emb (ix2 p k)) = V c main_v11 (ix2 r k)
  refine congrArg (V c main_v11) (funext fun a => Fin.ext ?_)
  match a with
  | ⟨0, _⟩ => show win0_0.index t (0 : Fin 2) * 2000 + 1 * p.val = r.val; omega
  | ⟨1, _⟩ => show win0_0.index t (1 : Fin 2) * 64 + 1 * k.val = k.val; omega

/-- The first weight's block at any point is the weight. -/
theorem w1Block_apply (c : Dev nD) (t : Fin cfg0.N) (k q : Fin 64) :
    (iblk0 V c 1 t : Vec Ideal S64x64 .f32) (ix2 k q) = (V c main_v12 : Mat 64 64) (ix2 k q) := by
  obtain ⟨-, ⟨e0, e1⟩, -⟩ := index_facts t
  show V c main_v12 (((cfg0.win 1).blk t).view.emb (ix2 k q)) = V c main_v12 (ix2 k q)
  refine congrArg (V c main_v12) (funext fun a => Fin.ext ?_)
  match a with
  | ⟨0, _⟩ => show win0_1.index t (0 : Fin 2) * 64 + 1 * k.val = k.val; omega
  | ⟨1, _⟩ => show win0_1.index t (1 : Fin 2) * 64 + 1 * q.val = q.val; omega

/-- The second weight's block at any point is the weight. -/
theorem w2Block_apply (c : Dev nD) (t : Fin cfg0.N) (k q : Fin 64) :
    (iblk0 V c 2 t : Vec Ideal S64x64 .f32) (ix2 k q) = (V c main_v13 : Mat 64 64) (ix2 k q) := by
  obtain ⟨-, -, ⟨e0, e1⟩, -⟩ := index_facts t
  show V c main_v13 (((cfg0.win 2).blk t).view.emb (ix2 k q)) = V c main_v13 (ix2 k q)
  refine congrArg (V c main_v13) (funext fun a => Fin.ext ?_)
  match a with
  | ⟨0, _⟩ => show win0_2.index t (0 : Fin 2) * 64 + 1 * k.val = k.val; omega
  | ⟨1, _⟩ => show win0_2.index t (1 : Fin 2) * 64 + 1 * q.val = q.val; omega

/-- Entry (p, q) of f₂'s block at point t is the entry of f₂ in row 2000·t + p and column q. -/
theorem f2Block_apply (c : Dev nD) (t : Fin cfg0.N) (p : Fin 2000) (q : Fin 64) (i : S200000x64.Idx)
    (h0 : (i 0).val = t.val * 2000 + p.val) (h1 : (i 1).val = q.val) :
    (iblk0 V c 3 t : Vec Ideal S2000x64 .f32) (ix2 p q) = (V c main_arg9 : Mat 200000 64) i := by
  obtain ⟨-, -, -, ⟨e0, e1⟩, -⟩ := index_facts t
  show V c main_arg9 (((cfg0.win 3).blk t).view.emb (ix2 p q)) = V c main_arg9 i
  refine congrArg (V c main_arg9) (funext fun a => Fin.ext ?_)
  match a with
  | ⟨0, _⟩ => show win0_3.index t (0 : Fin 2) * 2000 + 1 * p.val = (i 0).val; omega
  | ⟨1, _⟩ => show win0_3.index t (1 : Fin 2) * 64 + 1 * q.val = (i 1).val; omega

/-- Entry (p, q) of f₃'s block at point t is the entry of f₃ in row 2000·t + p and column q. -/
theorem f3Block_apply (c : Dev nD) (t : Fin cfg0.N) (p : Fin 2000) (q : Fin 64) (i : S200000x64.Idx)
    (h0 : (i 0).val = t.val * 2000 + p.val) (h1 : (i 1).val = q.val) :
    (iblk0 V c 4 t : Vec Ideal S2000x64 .f32) (ix2 p q) = (V c main_arg10 : Mat 200000 64) i := by
  obtain ⟨-, -, -, -, ⟨e0, e1⟩, -⟩ := index_facts t
  show V c main_arg10 (((cfg0.win 4).blk t).view.emb (ix2 p q)) = V c main_arg10 i
  refine congrArg (V c main_arg10) (funext fun a => Fin.ext ?_)
  match a with
  | ⟨0, _⟩ => show win0_4.index t (0 : Fin 2) * 2000 + 1 * p.val = (i 0).val; omega
  | ⟨1, _⟩ => show win0_4.index t (1 : Fin 2) * 64 + 1 * q.val = (i 1).val; omega

/-- Entry p of the scale's block at point t is the scale of row 2000·t + p. -/
theorem ciBlock_apply (c : Dev nD) (t : Fin cfg0.N) (p : Fin 2000) (r : Fin 200000)
    (hr : r.val = t.val * 2000 + p.val) :
    (iblk0 V c 5 t : Vec Ideal S2000x1 .f32) (ix2 p (0 : Fin 1)) = (V c main_arg1 : Mat 200000 1) (ix2 r (0 : Fin 1)) := by
  obtain ⟨-, -, -, -, -, ⟨e0, e1⟩⟩ := index_facts t
  show V c main_arg1 (((cfg0.win 5).blk t).view.emb (ix2 p (0 : Fin 1))) = V c main_arg1 (ix2 r (0 : Fin 1))
  refine congrArg (V c main_arg1) (funext fun a => Fin.ext ?_)
  match a with
  | ⟨0, _⟩ => show win0_5.index t (0 : Fin 2) * 2000 + 1 * p.val = r.val; omega
  | ⟨1, _⟩ => show win0_5.index t (1 : Fin 2) * 1 + 1 * 0 = 0; omega

/-! ## The output blocks: where an entry sits, which indices a block holds, and that the blocks cover the array -/

/-- Entry j of output window 6's block at point t sits in row 2000·t + j₀ and column j₁ of the array. -/
theorem outEntry6 (t : Fin cfg0.N) (j : S2000x64.Idx) :
    ((((cfg0.win 6).blk t).view.emb j) 0).val = t.val * 2000 + (j 0).val
      ∧ ((((cfg0.win 6).blk t).view.emb j) 1).val = (j 1).val := by
  obtain ⟨⟨e0, e1⟩, -⟩ := out_index_facts t
  constructor
  · show win0_6.index t (0 : Fin 2) * 2000 + 1 * (j 0).val = _; omega
  · show win0_6.index t (1 : Fin 2) * 64 + 1 * (j 1).val = _; omega

/-- An index of the array is in output window 6's block at point t iff each coordinate is in the block's range. -/
theorem mem_outBlock6 (t : Fin cfg0.N) (i : S200000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v14_0).slice (win0_6.rect t)).set ↔ _
  rw [View.set_slice_whole, Rect.mem_set_unit]
  exact Iff.rfl

/-- Row r of the array is in the block of point r / 2000, which is written back. -/
theorem cover6 (i : S200000x64.Idx) :
    ∃ t : Fin cfg0.N, (cfg0.win 6).flush t = true ∧ i ∈ ((cfg0.win 6).blk t).view.set := by
  have hi0 : (i 0).val < 200000 := (i 0).isLt
  have hi1 : (i 1).val < 64 := (i 1).isLt
  have hN : (i 0).val / 2000 < cfg0.N := by rw [show cfg0.N = 100 from N_0]; omega
  refine ⟨⟨(i 0).val / 2000, hN⟩, flush0_6 _, ?_⟩
  rw [mem_outBlock6]
  obtain ⟨⟨e0, e1⟩, -⟩ := out_index_facts ⟨(i 0).val / 2000, hN⟩
  have ht : (⟨(i 0).val / 2000, hN⟩ : Fin cfg0.N).val = (i 0).val / 2000 := rfl
  intro a
  match a with
  | ⟨0, _⟩ =>
    show win0_6.index ⟨(i 0).val / 2000, hN⟩ (0 : Fin 2) * 2000 ≤ (i 0).val
      ∧ (i 0).val < win0_6.index ⟨(i 0).val / 2000, hN⟩ (0 : Fin 2) * 2000 + 2000
    omega
  | ⟨1, _⟩ =>
    show win0_6.index ⟨(i 0).val / 2000, hN⟩ (1 : Fin 2) * 64 ≤ (i 1).val
      ∧ (i 1).val < win0_6.index ⟨(i 0).val / 2000, hN⟩ (1 : Fin 2) * 64 + 64
    omega

/-- Entry j of output window 7's block at point t sits in row 2000·t + j₀ and column j₁ of the array. -/
theorem outEntry7 (t : Fin cfg0.N) (j : S2000x64.Idx) :
    ((((cfg0.win 7).blk t).view.emb j) 0).val = t.val * 2000 + (j 0).val
      ∧ ((((cfg0.win 7).blk t).view.emb j) 1).val = (j 1).val := by
  obtain ⟨-, ⟨e0, e1⟩, -⟩ := out_index_facts t
  constructor
  · show win0_7.index t (0 : Fin 2) * 2000 + 1 * (j 0).val = _; omega
  · show win0_7.index t (1 : Fin 2) * 64 + 1 * (j 1).val = _; omega

/-- An index of the array is in output window 7's block at point t iff each coordinate is in the block's range. -/
theorem mem_outBlock7 (t : Fin cfg0.N) (i : S200000x64.Idx) :
    i ∈ ((cfg0.win 7).blk t).view.set ↔ ∀ a : Fin 2, win0_7.index t a * S2000x64.size a ≤ (i a).val
      ∧ (i a).val < win0_7.index t a * S2000x64.size a + S2000x64.size a := by
  show i ∈ ((View.whole main_v14_1).slice (win0_7.rect t)).set ↔ _
  rw [View.set_slice_whole, Rect.mem_set_unit]
  exact Iff.rfl

/-- Row r of the array is in the block of point r / 2000, which is written back. -/
theorem cover7 (i : S200000x64.Idx) :
    ∃ t : Fin cfg0.N, (cfg0.win 7).flush t = true ∧ i ∈ ((cfg0.win 7).blk t).view.set := by
  have hi0 : (i 0).val < 200000 := (i 0).isLt
  have hi1 : (i 1).val < 64 := (i 1).isLt
  have hN : (i 0).val / 2000 < cfg0.N := by rw [show cfg0.N = 100 from N_0]; omega
  refine ⟨⟨(i 0).val / 2000, hN⟩, flush0_7 _, ?_⟩
  rw [mem_outBlock7]
  obtain ⟨-, ⟨e0, e1⟩, -⟩ := out_index_facts ⟨(i 0).val / 2000, hN⟩
  have ht : (⟨(i 0).val / 2000, hN⟩ : Fin cfg0.N).val = (i 0).val / 2000 := rfl
  intro a
  match a with
  | ⟨0, _⟩ =>
    show win0_7.index ⟨(i 0).val / 2000, hN⟩ (0 : Fin 2) * 2000 ≤ (i 0).val
      ∧ (i 0).val < win0_7.index ⟨(i 0).val / 2000, hN⟩ (0 : Fin 2) * 2000 + 2000
    omega
  | ⟨1, _⟩ =>
    show win0_7.index ⟨(i 0).val / 2000, hN⟩ (1 : Fin 2) * 64 ≤ (i 1).val
      ∧ (i 1).val < win0_7.index ⟨(i 0).val / 2000, hN⟩ (1 : Fin 2) * 64 + 64
    omega

/-- Entry j of output window 8's block at point t sits in row 2000·t + j₀ and column j₁ of the array. -/
theorem outEntry8 (t : Fin cfg0.N) (j : S2000x64.Idx) :
    ((((cfg0.win 8).blk t).view.emb j) 0).val = t.val * 2000 + (j 0).val
      ∧ ((((cfg0.win 8).blk t).view.emb j) 1).val = (j 1).val := by
  obtain ⟨-, -, ⟨e0, e1⟩, -⟩ := out_index_facts t
  constructor
  · show win0_8.index t (0 : Fin 2) * 2000 + 1 * (j 0).val = _; omega
  · show win0_8.index t (1 : Fin 2) * 64 + 1 * (j 1).val = _; omega

/-- An index of the array is in output window 8's block at point t iff each coordinate is in the block's range. -/
theorem mem_outBlock8 (t : Fin cfg0.N) (i : S200000x64.Idx) :
    i ∈ ((cfg0.win 8).blk t).view.set ↔ ∀ a : Fin 2, win0_8.index t a * S2000x64.size a ≤ (i a).val
      ∧ (i a).val < win0_8.index t a * S2000x64.size a + S2000x64.size a := by
  show i ∈ ((View.whole main_v14_2).slice (win0_8.rect t)).set ↔ _
  rw [View.set_slice_whole, Rect.mem_set_unit]
  exact Iff.rfl

/-- Row r of the array is in the block of point r / 2000, which is written back. -/
theorem cover8 (i : S200000x64.Idx) :
    ∃ t : Fin cfg0.N, (cfg0.win 8).flush t = true ∧ i ∈ ((cfg0.win 8).blk t).view.set := by
  have hi0 : (i 0).val < 200000 := (i 0).isLt
  have hi1 : (i 1).val < 64 := (i 1).isLt
  have hN : (i 0).val / 2000 < cfg0.N := by rw [show cfg0.N = 100 from N_0]; omega
  refine ⟨⟨(i 0).val / 2000, hN⟩, flush0_8 _, ?_⟩
  rw [mem_outBlock8]
  obtain ⟨-, -, ⟨e0, e1⟩, -⟩ := out_index_facts ⟨(i 0).val / 2000, hN⟩
  have ht : (⟨(i 0).val / 2000, hN⟩ : Fin cfg0.N).val = (i 0).val / 2000 := rfl
  intro a
  match a with
  | ⟨0, _⟩ =>
    show win0_8.index ⟨(i 0).val / 2000, hN⟩ (0 : Fin 2) * 2000 ≤ (i 0).val
      ∧ (i 0).val < win0_8.index ⟨(i 0).val / 2000, hN⟩ (0 : Fin 2) * 2000 + 2000
    omega
  | ⟨1, _⟩ =>
    show win0_8.index ⟨(i 0).val / 2000, hN⟩ (1 : Fin 2) * 64 ≤ (i 1).val
      ∧ (i 1).val < win0_8.index ⟨(i 0).val / 2000, hN⟩ (1 : Fin 2) * 64 + 64
    omega

/-- Entry j of output window 9's block at point t sits in row 2000·t + j₀ and column j₁ of the array. -/
theorem outEntry9 (t : Fin cfg0.N) (j : S2000x64.Idx) :
    ((((cfg0.win 9).blk t).view.emb j) 0).val = t.val * 2000 + (j 0).val
      ∧ ((((cfg0.win 9).blk t).view.emb j) 1).val = (j 1).val := by
  obtain ⟨-, -, -, ⟨e0, e1⟩, -⟩ := out_index_facts t
  constructor
  · show win0_9.index t (0 : Fin 2) * 2000 + 1 * (j 0).val = _; omega
  · show win0_9.index t (1 : Fin 2) * 64 + 1 * (j 1).val = _; omega

/-- An index of the array is in output window 9's block at point t iff each coordinate is in the block's range. -/
theorem mem_outBlock9 (t : Fin cfg0.N) (i : S200000x64.Idx) :
    i ∈ ((cfg0.win 9).blk t).view.set ↔ ∀ a : Fin 2, win0_9.index t a * S2000x64.size a ≤ (i a).val
      ∧ (i a).val < win0_9.index t a * S2000x64.size a + S2000x64.size a := by
  show i ∈ ((View.whole main_v14_3).slice (win0_9.rect t)).set ↔ _
  rw [View.set_slice_whole, Rect.mem_set_unit]
  exact Iff.rfl

/-- Row r of the array is in the block of point r / 2000, which is written back. -/
theorem cover9 (i : S200000x64.Idx) :
    ∃ t : Fin cfg0.N, (cfg0.win 9).flush t = true ∧ i ∈ ((cfg0.win 9).blk t).view.set := by
  have hi0 : (i 0).val < 200000 := (i 0).isLt
  have hi1 : (i 1).val < 64 := (i 1).isLt
  have hN : (i 0).val / 2000 < cfg0.N := by rw [show cfg0.N = 100 from N_0]; omega
  refine ⟨⟨(i 0).val / 2000, hN⟩, flush0_9 _, ?_⟩
  rw [mem_outBlock9]
  obtain ⟨-, -, -, ⟨e0, e1⟩, -⟩ := out_index_facts ⟨(i 0).val / 2000, hN⟩
  have ht : (⟨(i 0).val / 2000, hN⟩ : Fin cfg0.N).val = (i 0).val / 2000 := rfl
  intro a
  match a with
  | ⟨0, _⟩ =>
    show win0_9.index ⟨(i 0).val / 2000, hN⟩ (0 : Fin 2) * 2000 ≤ (i 0).val
      ∧ (i 0).val < win0_9.index ⟨(i 0).val / 2000, hN⟩ (0 : Fin 2) * 2000 + 2000
    omega
  | ⟨1, _⟩ =>
    show win0_9.index ⟨(i 0).val / 2000, hN⟩ (1 : Fin 2) * 64 ≤ (i 1).val
      ∧ (i 1).val < win0_9.index ⟨(i 0).val / 2000, hN⟩ (1 : Fin 2) * 64 + 64
    omega

/-- Entry j of output window 10's block at point t sits in row 2000·t + j₀ and column j₁ of the array. -/
theorem outEntry10 (t : Fin cfg0.N) (j : S2000x64.Idx) :
    ((((cfg0.win 10).blk t).view.emb j) 0).val = t.val * 2000 + (j 0).val
      ∧ ((((cfg0.win 10).blk t).view.emb j) 1).val = (j 1).val := by
  obtain ⟨-, -, -, -, ⟨e0, e1⟩⟩ := out_index_facts t
  constructor
  · show win0_10.index t (0 : Fin 2) * 2000 + 1 * (j 0).val = _; omega
  · show win0_10.index t (1 : Fin 2) * 64 + 1 * (j 1).val = _; omega

/-- An index of the array is in output window 10's block at point t iff each coordinate is in the block's range. -/
theorem mem_outBlock10 (t : Fin cfg0.N) (i : S200000x64.Idx) :
    i ∈ ((cfg0.win 10).blk t).view.set ↔ ∀ a : Fin 2, win0_10.index t a * S2000x64.size a ≤ (i a).val
      ∧ (i a).val < win0_10.index t a * S2000x64.size a + S2000x64.size a := by
  show i ∈ ((View.whole main_v14_4).slice (win0_10.rect t)).set ↔ _
  rw [View.set_slice_whole, Rect.mem_set_unit]
  exact Iff.rfl

/-- Row r of the array is in the block of point r / 2000, which is written back. -/
theorem cover10 (i : S200000x64.Idx) :
    ∃ t : Fin cfg0.N, (cfg0.win 10).flush t = true ∧ i ∈ ((cfg0.win 10).blk t).view.set := by
  have hi0 : (i 0).val < 200000 := (i 0).isLt
  have hi1 : (i 1).val < 64 := (i 1).isLt
  have hN : (i 0).val / 2000 < cfg0.N := by rw [show cfg0.N = 100 from N_0]; omega
  refine ⟨⟨(i 0).val / 2000, hN⟩, flush0_10 _, ?_⟩
  rw [mem_outBlock10]
  obtain ⟨-, -, -, -, ⟨e0, e1⟩⟩ := out_index_facts ⟨(i 0).val / 2000, hN⟩
  have ht : (⟨(i 0).val / 2000, hN⟩ : Fin cfg0.N).val = (i 0).val / 2000 := rfl
  intro a
  match a with
  | ⟨0, _⟩ =>
    show win0_10.index ⟨(i 0).val / 2000, hN⟩ (0 : Fin 2) * 2000 ≤ (i 0).val
      ∧ (i 0).val < win0_10.index ⟨(i 0).val / 2000, hN⟩ (0 : Fin 2) * 2000 + 2000
    omega
  | ⟨1, _⟩ =>
    show win0_10.index ⟨(i 0).val / 2000, hN⟩ (1 : Fin 2) * 64 ≤ (i 1).val
      ∧ (i 1).val < win0_10.index ⟨(i 0).val / 2000, hN⟩ (1 : Fin 2) * 64 + 64
    omega

/-! ## What each point writes back, and the arrays after the region -/

/-- Point t writes back block t of h · w₁. -/
theorem flushed6_eq (c : Dev nD) (t : Fin cfg0.N) :
    (dat0 V c).flushed 6 t
      = ((cfg0.win 6).blk t).view.read (Elt Ideal) (RegionFns.prod (M := 200000) (K := 64) (N := 64) (V c main_v11) (V c main_v12)) := by
  show (cfg0.win 6).cut (grid0.coords t) ((dat0 V c).after 6 t) = _
  rw [after0_6]
  unfold out0_6
  rw [View.canon_unit_zero zeros_eq]
  simp only [View.ld_unit_zero (S := S2000x64) zeros_eq, View.ld_unit_zero (S := S64x64) zeros_eq]
  funext j
  obtain ⟨h0, h1⟩ := outEntry6 t j
  exact prod_of_blocks (iblk0 V c 0 t) (iblk0 V c 1 t) (V c main_v11) (V c main_v12) j (((cfg0.win 6).blk t).view.emb j)
    (fun k => hBlock_apply V c t (j 0) k _ h0) (fun k q => w1Block_apply V c t k q) h1

/-- Point t writes back block t of h · w₂. -/
theorem flushed7_eq (c : Dev nD) (t : Fin cfg0.N) :
    (dat0 V c).flushed 7 t
      = ((cfg0.win 7).blk t).view.read (Elt Ideal) (RegionFns.prod (M := 200000) (K := 64) (N := 64) (V c main_v11) (V c main_v13)) := by
  show (cfg0.win 7).cut (grid0.coords t) ((dat0 V c).after 7 t) = _
  rw [after0_7]
  unfold out0_7
  rw [View.canon_unit_zero zeros_eq]
  simp only [View.ld_unit_zero (S := S2000x64) zeros_eq, View.ld_unit_zero (S := S64x64) zeros_eq]
  funext j
  obtain ⟨h0, h1⟩ := outEntry7 t j
  exact prod2_of_blocks (iblk0 V c 0 t) (iblk0 V c 2 t) (V c main_v11) (V c main_v13) j (((cfg0.win 7).blk t).view.emb j)
    (fun k => hBlock_apply V c t (j 0) k _ h0) (fun k q => w2Block_apply V c t k q) h1

/-- Point t writes back block t of (h · w₁) ⊙ ci. -/
theorem flushed8_eq (c : Dev nD) (t : Fin cfg0.N) :
    (dat0 V c).flushed 8 t
      = ((cfg0.win 8).blk t).view.read (Elt Ideal) (RegionFns.prodScaled (R := 200000) (V c main_v11) (V c main_v12) (V c main_arg1)) := by
  show (cfg0.win 8).cut (grid0.coords t) ((dat0 V c).after 8 t) = _
  rw [after0_8]
  unfold out0_8
  rw [View.canon_unit_zero zeros_eq]
  simp only [View.ld_unit_zero (S := S2000x64) zeros_eq, View.ld_unit_zero (S := S64x64) zeros_eq,
    View.ld_unit_zero (S := S2000x1) zeros_eq]
  funext j
  obtain ⟨h0, h1⟩ := outEntry8 t j
  exact prodScaled_of_blocks (iblk0 V c 0 t) (iblk0 V c 1 t) (iblk0 V c 5 t) (V c main_v11) (V c main_v12) (V c main_arg1) j
    (((cfg0.win 8).blk t).view.emb j)
    (fun k => hBlock_apply V c t (j 0) k _ h0) (fun k q => w1Block_apply V c t k q) (ciBlock_apply V c t (j 0) _ h0) h1

/-- Point t writes back block t of (f₂ + h · w₂) ⊙ ci. -/
theorem flushed9_eq (c : Dev nD) (t : Fin cfg0.N) :
    (dat0 V c).flushed 9 t
      = ((cfg0.win 9).blk t).view.read (Elt Ideal)
          (RegionFns.sumProdScaled (R := 200000) (V c main_v11) (V c main_v13) (V c main_arg9) (V c main_arg1)) := by
  show (cfg0.win 9).cut (grid0.coords t) ((dat0 V c).after 9 t) = _
  rw [after0_9]
  unfold out0_9
  rw [View.canon_unit_zero zeros_eq]
  simp only [View.ld_unit_zero (S := S2000x64) zeros_eq, View.ld_unit_zero (S := S64x64) zeros_eq,
    View.ld_unit_zero (S := S2000x1) zeros_eq]
  funext j
  obtain ⟨h0, h1⟩ := outEntry9 t j
  exact sumProdScaled_of_blocks (iblk0 V c 0 t) (iblk0 V c 2 t) (iblk0 V c 5 t) (iblk0 V c 3 t) (V c main_v11) (V c main_v13)
    (V c main_arg9) (V c main_arg1) j (((cfg0.win 9).blk t).view.emb j)
    (fun k => hBlock_apply V c t (j 0) k _ h0) (fun k q => w2Block_apply V c t k q)
    (f2Block_apply V c t (j 0) (j 1) _ h0 h1) (ciBlock_apply V c t (j 0) _ h0) h1

/-- Point t writes back block t of f₃ ⊙ ci. -/
theorem flushed10_eq (c : Dev nD) (t : Fin cfg0.N) :
    (dat0 V c).flushed 10 t
      = ((cfg0.win 10).blk t).view.read (Elt Ideal) (RegionFns.rowScaled (R := 200000) (C := 64) (V c main_arg10) (V c main_arg1)) := by
  show (cfg0.win 10).cut (grid0.coords t) ((dat0 V c).after 10 t) = _
  rw [after0_10]
  unfold out0_10
  rw [View.canon_unit_zero zeros_eq]
  simp only [View.ld_unit_zero (S := S2000x64) zeros_eq, View.ld_unit_zero (S := S2000x1) zeros_eq]
  funext j
  obtain ⟨h0, h1⟩ := outEntry10 t j
  exact rowScaled_of_blocks (iblk0 V c 5 t) (iblk0 V c 4 t) (V c main_arg10) (V c main_arg1) j (((cfg0.win 10).blk t).view.emb j)
    (f3Block_apply V c t (j 0) (j 1) _ h0 h1) (ciBlock_apply V c t (j 0) _ h0)

/-- After the region the first output array holds h · w₁. -/
theorem final6 (c : Dev nD) :
    (dat0 V c).arrAt 6 cfg0.N = RegionFns.prod (M := 200000) (K := 64) (N := 64) (V c main_v11) (V c main_v12) :=
  (dat0 V c).arrAt_eq_of_cover 6 _ (fun t _ => flushed6_eq V c t) cover6

/-- After the region the second output array holds h · w₂. -/
theorem final7 (c : Dev nD) :
    (dat0 V c).arrAt 7 cfg0.N = RegionFns.prod (M := 200000) (K := 64) (N := 64) (V c main_v11) (V c main_v13) :=
  (dat0 V c).arrAt_eq_of_cover 7 _ (fun t _ => flushed7_eq V c t) cover7

/-- After the region the third output array holds (h · w₁) ⊙ ci. -/
theorem final8 (c : Dev nD) :
    (dat0 V c).arrAt 8 cfg0.N = RegionFns.prodScaled (R := 200000) (V c main_v11) (V c main_v12) (V c main_arg1) :=
  (dat0 V c).arrAt_eq_of_cover 8 _ (fun t _ => flushed8_eq V c t) cover8

/-- After the region the fourth output array holds (f₂ + h · w₂) ⊙ ci. -/
theorem final9 (c : Dev nD) :
    (dat0 V c).arrAt 9 cfg0.N
      = RegionFns.sumProdScaled (R := 200000) (V c main_v11) (V c main_v13) (V c main_arg9) (V c main_arg1) :=
  (dat0 V c).arrAt_eq_of_cover 9 _ (fun t _ => flushed9_eq V c t) cover9

/-- After the region the fifth output array holds f₃ ⊙ ci. -/
theorem final10 (c : Dev nD) :
    (dat0 V c).arrAt 10 cfg0.N = RegionFns.rowScaled (R := 200000) (C := 64) (V c main_arg10) (V c main_arg1) :=
  (dat0 V c).arrAt_eq_of_cover 10 _ (fun t _ => flushed10_eq V c t) cover10

end Cert.KernelIdeal.Region0

end
-- ==== Proof.KernelChain0.lean ====
/-
  The projection kernel in the program: the host leaves it the mean-aggregated review features and the two transposed
  weights; it leaves the two products and the three scaled gather sources.
-/
import proofs.«418387_j86114094284913_3_alg».proof.Proof.KernelChainArgs
import proofs.«418387_j86114094284913_3_alg».proof.Proof.KernelRegion0

set_option maxRecDepth 16384
set_option Elab.async false

noncomputable section

namespace Cert.KernelIdeal.Chain

open Idealize.ShloMosaic Idealize.ShloMosaic.TcCoe Idealize.SL.Sem Idealize.ShloMosaic.StableHlo
open Cert.KernelIdeal Cert.KernelIdeal.Gen Cert.Dataflow

variable (m : (ℓ : Loc nD τ sig) → Buf (Elt Ideal) ℓ) (ρ : Dev nD → PrngReg)

/-! ## The projection kernel: what it finds and what it leaves -/

theorem entry0_h (c : Dev nD) : W1 m ρ c (Proc.devRef .tc main_v11) = hre (inp m ρ c) := by
  show StableHlo.after hostOps0 (W0 m ρ c) (Proc.devRef .tc main_v11) = _
  after_results
  rfl

theorem entry0_w1 (c : Dev nD) : W1 m ρ c (Proc.devRef .tc main_v12) = tr64 (inp m ρ c).W1 := by
  show StableHlo.after hostOps0 (W0 m ρ c) (Proc.devRef .tc main_v12) = _
  after_results
  rfl

theorem entry0_w2 (c : Dev nD) : W1 m ρ c (Proc.devRef .tc main_v13) = tr64 (inp m ρ c).W2 := by
  show StableHlo.after hostOps0 (W0 m ρ c) (Proc.devRef .tc main_v13) = _
  after_results
  rfl

theorem exit0_rfe3 (c : Dev nD) : W2 m ρ c (Proc.devRef .tc main_v14_0) = K.rfe3 (inp m ρ c) := by
  refine (W2_arr m ρ c 6).trans ?_
  rw [Region0.final6 (V1 m ρ) c]
  show RegionFns.prod (W1 m ρ c (Proc.devRef .tc main_v11)) (W1 m ρ c (Proc.devRef .tc main_v12)) = _
  rw [entry0_h, entry0_w1]; rfl

theorem exit0_rfe2 (c : Dev nD) : W2 m ρ c (Proc.devRef .tc main_v14_1) = K.rfe2 (inp m ρ c) := by
  refine (W2_arr m ρ c 7).trans ?_
  rw [Region0.final7 (V1 m ρ) c]
  show RegionFns.prod (W1 m ρ c (Proc.devRef .tc main_v11)) (W1 m ρ c (Proc.devRef .tc main_v13)) = _
  rw [entry0_h, entry0_w2]; rfl

theorem exit0_G1 (c : Dev nD) : W2 m ρ c (Proc.devRef .tc main_v14_2) = K.G1 (inp m ρ c) := by
  refine (W2_arr m ρ c 8).trans ?_
  rw [Region0.final8 (V1 m ρ) c]
  show RegionFns.prodScaled (W1 m ρ c (Proc.devRef .tc main_v11)) (W1 m ρ c (Proc.devRef .tc main_v12)) (W1 m ρ c (Proc.devRef .tc main_arg1)) = _
  rw [entry0_h, entry0_w1, ci1]; rfl

theorem exit0_G2 (c : Dev nD) : W2 m ρ c (Proc.devRef .tc main_v14_3) = K.G2 (inp m ρ c) := by
  refine (W2_arr m ρ c 9).trans ?_
  rw [Region0.final9 (V1 m ρ) c]
  show RegionFns.sumProdScaled (W1 m ρ c (Proc.devRef .tc main_v11)) (W1 m ρ c (Proc.devRef .tc main_v13)) (W1 m ρ c (Proc.devRef .tc main_arg9)) (W1 m ρ c (Proc.devRef .tc main_arg1)) = _
  rw [entry0_h, entry0_w2, f21, ci1]; rfl

theorem exit0_G3 (c : Dev nD) : W2 m ρ c (Proc.devRef .tc main_v14_4) = K.G3 (inp m ρ c) := by
  refine (W2_arr m ρ c 10).trans ?_
  rw [Region0.final10 (V1 m ρ) c]
  show RegionFns.rowScaled (W1 m ρ c (Proc.devRef .tc main_arg10)) (W1 m ρ c (Proc.devRef .tc main_arg1)) = _
  rw [f31, ci1]; rfl

end Cert.KernelIdeal.Chain

end
-- ==== Proof.KernelRegion1.lean ====
/-
  The edge-combine kernel, read as whole arrays.

  The kernel walks the million edges in 250 blocks of 4000 rows. At a block it reads the block's rows of the label column
  and of the three gathered sources, and the three 5×64 tables whole; it builds the 4000×5 one-or-zero matrix
  hot(label of row p, j), multiplies it with each table (so row p of the product is the table row the label of p names),
  and multiplies each source block entry by entry with its product. Row p of block t is row 4000·t + p of every
  row-blocked array, and the blocks cover the arrays, so each output array is, entry by entry,
      source(e, d) · ∑ⱼ hot(label e, j) · table(j, d).
-/
import proofs.«418387_j86114094284913_3_alg».proof.Proof.Gen.KernelIdeal.Frame
import proofs.«418387_j86114094284913_3_alg».proof.Proof.RegionFns
import proofs.«418387_j86114094284913_3_alg».proof.Proof.LibPlainMatmul
import proofs.«418387_j86114094284913_3_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.RegionFns Idealize.ShloMosaic Idealize.ShloMosaic.ValueIdx
open Idealize.ShloMosaic.TcCoe Idealize.SL.Sem
open Idealize.ShloMosaic.Pipeline (Dat)
open scoped BigOperators

/-! ## The block's arithmetic at an entry -/

/-- The printed dimension numbers of the 4000×5 by 5×64 product are the plain ones. -/
theorem dot_eq_plain : dot_S4000x5_S5x64_S4000x64_1_0_0_1_n_n = DotDims.plain 4000 5 64 := rfl

/-- Entry (p, j) of the one-or-zero block: lane number j compared with the label of row p, widened and converted. -/
theorem hotBlock_apply (x0 : Vec Ideal S4000x1 .i32) (p : Fin 4000) (j : Fin 5) :
    k1_pay1 (F := Ideal) x0 (ix2 p j) = hot (x0 (ix2 p (0 : Fin 1))) j := by
  unfold k1_pay1
  show FloatOps.sitofp (F := Ideal) .f32 ((IntOp.cmpi .eq (iota .tc S4000x5 32 [1] _ (ix2 p j))
      (broadcastTo S4000x5 (shapeCast S4000x1 x0 _) _ (ix2 p j))).setWidth 32) = _
  rw [iota_single_apply, shapeCast_self, Cert.LibKeepdims.broadcastTo_a1_ab_apply]
  rfl

/-- Entry (p, d) of a message block: the source entry times the table row the label of row p selects. -/
theorem msgBlock_apply (x0 : Vec Ideal S4000x1 .i32) (tab : Vec Ideal S5x64 .f32) (g : Vec Ideal S4000x64 .f32)
    (p : Fin 4000) (d : Fin 64) :
    k1_pay2 (F := Ideal) x0 tab g (ix2 p d)
      = g (ix2 p d) * ∑ j : Fin 5, hot (x0 (ix2 p (0 : Fin 1))) j * tab (ix2 j d) := by
  unfold k1_pay2
  show shapeCast S4000x64 g _ (ix2 p d)
      * matmul dot_S4000x5_S5x64_S4000x64_1_0_0_1_n_n none (k1_pay1 x0) (truncf .bf16 tab _)
          (constant (F := Ideal) S4000x64 .f32 0x00000000#32) (ix2 p d) = _
  rw [shapeCast_self, dot_eq_plain, Cert.LibPlainMatmul.matmul_zero_apply]
  refine congrArg (g (ix2 p d) * ·) (Finset.sum_congr rfl fun j _ => ?_)
  rw [hotBlock_apply]
  rfl

/-- The second and third message blocks are the same arithmetic as the first, on their own table and source. -/
theorem msgBlock3_apply (x0 : Vec Ideal S4000x1 .i32) (tab : Vec Ideal S5x64 .f32) (g : Vec Ideal S4000x64 .f32)
    (p : Fin 4000) (d : Fin 64) :
    k1_pay3 (F := Ideal) x0 tab g (ix2 p d)
      = g (ix2 p d) * ∑ j : Fin 5, hot (x0 (ix2 p (0 : Fin 1))) j * tab (ix2 j d) :=
  msgBlock_apply x0 tab g p d
theorem msgBlock4_apply (x0 : Vec Ideal S4000x1 .i32) (tab : Vec Ideal S5x64 .f32) (g : Vec Ideal S4000x64 .f32)
    (p : Fin 4000) (d : Fin 64) :
    k1_pay4 (F := Ideal) x0 tab g (ix2 p d)
      = g (ix2 p d) * ∑ j : Fin 5, hot (x0 (ix2 p (0 : Fin 1))) j * tab (ix2 j d) :=
  msgBlock_apply x0 tab g p d

/-! ## Where a block sits in its array -/

theorem zero_offsets : (![0, 0] : Fin 2 → Nat) = fun _ => 0 :=
  funext fun a => match a with | ⟨0, _⟩ => rfl | ⟨1, _⟩ => rfl

/-- The row-blocked inputs (label column and the three sources) are at block (t, 0) at point t. -/
theorem index_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0) :=
  (by decide +kernel : ∀ t : Fin grid1.N, _)

/-- The three tables are at block (0, 0) at every point. -/
theorem index_tables : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0) :=
  (by decide +kernel : ∀ t : Fin grid1.N, _)

/-- The three outputs are at block (t, 0) at point t. -/
theorem index_outs : ∀ t : Fin cfg1.N,
    (win1_7.index t (0 : Fin 2) = t.val ∧ win1_7.index t (1 : Fin 2) = 0)
    ∧ (win1_8.index t (0 : Fin 2) = t.val ∧ win1_8.index t (1 : Fin 2) = 0)
    ∧ (win1_9.index t (0 : Fin 2) = t.val ∧ win1_9.index t (1 : Fin 2) = 0) :=
  (by decide +kernel : ∀ t : Fin grid1.N, _)

theorem points : cfg1.N = 250 := N_1

/-- Row p of block t is a row of the array. -/
theorem row_lt (t : Fin cfg1.N) (p : Fin 4000) : t.val * 4000 + p.val < 1000000 := by
  have ht := t.isLt; have hN := points; have hp := p.isLt; omega

/-- Row p of block t, as a row of the array: 4000·t + p. -/
abbrev row (t : Fin cfg1.N) (p : Fin 4000) : Fin 1000000 := ⟨t.val * 4000 + p.val, row_lt t p⟩

variable (V : (c : Dev nD) → (b : Ref sig .tc) → Buf (Elt Ideal) ((c : Thread nD τ).loc b))

/-! ## The input blocks, read off the arrays -/

/-- Row p of the label block at point t is row 4000·t + p of the label column. -/
theorem labelBlock_apply (c : Dev nD) (t : Fin cfg1.N) (p : Fin 4000) :
    iblk1 V c 0 t (ix2 p (0 : Fin 1)) = V c main_v52 (ix2 (row t p) (0 : Fin 1)) := by
  obtain ⟨⟨e0, e1⟩, -⟩ := index_rows t
  show V c main_v52 (((cfg1.win 0).blk t).view.emb (ix2 p (0 : Fin 1))) = _
  refine congrArg (fun i => V c main_v52 i) (funext fun a => Fin.ext ?_)
  match a with
  | ⟨0, _⟩ => show win1_0.index t (0 : Fin 2) * 4000 + 1 * p.val = t.val * 4000 + p.val; omega
  | ⟨1, _⟩ => show win1_0.index t (1 : Fin 2) * 1 + 1 * 0 = 0; omega

/-- Entry (p, d) of the first source's block at point t is entry (4000·t + p, d) of the source. -/
theorem source1Block_apply (c : Dev nD) (t : Fin cfg1.N) (p : Fin 4000) (d : Fin 64) :
    iblk1 V c 1 t (ix2 p d) = V c main_v37 (ix2 (row t p) d) := by
  obtain ⟨-, ⟨e0, e1⟩, -⟩ := index_rows t
  show V c main_v37 (((cfg1.win 1).blk t).view.emb (ix2 p d)) = _
  refine congrArg (fun i => V c main_v37 i) (funext fun a => Fin.ext ?_)
  match a with
  | ⟨0, _⟩ => show win1_1.index t (0 : Fin 2) * 4000 + 1 * p.val = t.val * 4000 + p.val; omega
  | ⟨1, _⟩ => show win1_1.index t (1 : Fin 2) * 64 + 1 * d.val = d.val; omega

/-- The first table's block at any point is the table. -/
theorem table1Block_apply (c : Dev nD) (t : Fin cfg1.N) (j : Fin 5) (d : Fin 64) :
    iblk1 V c 4 t (ix2 j d) = V c main_arg11 (ix2 j d) := by
  obtain ⟨⟨e0, e1⟩, -⟩ := index_tables t
  show V c main_arg11 (((cfg1.win 4).blk t).view.emb (ix2 j d)) = _
  refine congrArg (fun i => V c main_arg11 i) (funext fun a => Fin.ext ?_)
  match a with
  | ⟨0, _⟩ => show win1_4.index t (0 : Fin 2) * 5 + 1 * j.val = j.val; omega
  | ⟨1, _⟩ => show win1_4.index t (1 : Fin 2) * 64 + 1 * d.val = d.val; omega

theorem table1Block_eq (c : Dev nD) (t : Fin cfg1.N) : iblk1 V c 4 t = V c main_arg11 := by
  funext y
  obtain ⟨j, d, rfl⟩ : ∃ (j : Fin 5) (d : Fin 64), y = ix2 j d := ⟨y 0, y 1, eq_ix2 y⟩
  exact table1Block_apply V c t j d

/-! ## The first output -/

/-- Entry (p, d) of the first output's block at point t is entry (4000·t + p, d) of the array. -/
theorem out1Block_emb (t : Fin cfg1.N) (p : Fin 4000) (d : Fin 64) :
    ((cfg1.win 7).blk t).view.emb (ix2 p d) = ix2 (row t p) d := by
  obtain ⟨⟨e0, e1⟩, -⟩ := index_outs t
  refine funext fun a => Fin.ext ?_
  match a with
  | ⟨0, _⟩ => show win1_7.index t (0 : Fin 2) * 4000 + 1 * p.val = t.val * 4000 + p.val; omega
  | ⟨1, _⟩ => show win1_7.index t (1 : Fin 2) * 64 + 1 * d.val = d.val; omega

/-- What point t writes back to the first output is block t of the message array of the first source and table. -/
theorem flushed7_eq (c : Dev nD) (t : Fin cfg1.N) :
    (dat1 V c).flushed 7 t
      = ((cfg1.win 7).blk t).view.read (Elt Ideal) (edgeMsg (V c main_v52) (V c main_v37) (V c main_arg11)) := by
  show (cfg1.win 7).cut (grid1.coords t) ((dat1 V c).after 7 t) = _
  rw [after1_7]
  unfold out1_7
  rw [View.canon_unit_zero zero_offsets]
  simp only [View.ld_unit_zero (S := S4000x1) zero_offsets, View.ld_unit_zero (S := S5x64) zero_offsets,
    View.ld_unit_zero (S := S4000x64) zero_offsets]
  funext y
  obtain ⟨p, d, rfl⟩ : ∃ (p : Fin 4000) (d : Fin 64), y = ix2 p d := ⟨y 0, y 1, eq_ix2 y⟩
  show k1_pay2 (iblk1 V c 0 t) (iblk1 V c 4 t) (iblk1 V c 1 t) (ix2 p d)
      = edgeMsg (V c main_v52) (V c main_v37) (V c main_arg11) (((cfg1.win 7).blk t).view.emb (ix2 p d))
  refine (msgBlock_apply _ _ _ p d).trans ?_
  rw [out1Block_emb, edgeMsg_apply, labelBlock_apply, source1Block_apply, table1Block_eq]
  rfl

/-- An index of the first output is in point t's block iff each coordinate is in the block's range on its axis. -/
theorem mem_blk7 (t : Fin cfg1.N) (i : S1000000x64.Idx) :
    i ∈ ((cfg1.win 7).blk t).view.set ↔ ∀ a : Fin 2, win1_7.index t a * S4000x64.size a ≤ (i a).val
      ∧ (i a).val < win1_7.index t a * S4000x64.size a + S4000x64.size a := by
  show i ∈ ((View.whole main_v53_0).slice (win1_7.rect t)).set ↔ _
  rw [View.set_slice_whole, Rect.mem_set_unit]
  exact Iff.rfl

/-- Row r of the first output is in the block of point r / 4000. -/
theorem cover7 (i : S1000000x64.Idx) :
    ∃ t : Fin cfg1.N, (cfg1.win 7).flush t = true ∧ i ∈ ((cfg1.win 7).blk t).view.set := by
  have hi0 : (i 0).val < 1000000 := (i 0).isLt
  have hi1 : (i 1).val < 64 := (i 1).isLt
  have hN := points
  obtain ⟨t, ht⟩ : ∃ t : Fin cfg1.N, t.val = (i 0).val / 4000 := ⟨⟨(i 0).val / 4000, by omega⟩, rfl⟩
  obtain ⟨⟨e0, e1⟩, -⟩ := index_outs t
  refine ⟨t, flush1_7 t, ?_⟩
  rw [mem_blk7]
  intro a
  match a with
  | ⟨0, _⟩ =>
    show win1_7.index t (0 : Fin 2) * 4000 ≤ (i 0).val ∧ (i 0).val < win1_7.index t (0 : Fin 2) * 4000 + 4000
    omega
  | ⟨1, _⟩ =>
    show win1_7.index t (1 : Fin 2) * 64 ≤ (i 1).val ∧ (i 1).val < win1_7.index t (1 : Fin 2) * 64 + 64
    omega

/-- THE FIRST OUTPUT after the region: the message array of the label column, the first source and the first table. -/
theorem final7 (c : Dev nD) :
    (dat1 V c).arrAt 7 cfg1.N = edgeMsg (V c main_v52) (V c main_v37) (V c main_arg11) :=
  (dat1 V c).arrAt_eq_of_cover 7 _ (fun t _ => flushed7_eq V c t) cover7
/-- Entry (p, d) of the second source's block at point t is entry (4000·t + p, d) of the source. -/
theorem source2Block_apply (c : Dev nD) (t : Fin cfg1.N) (p : Fin 4000) (d : Fin 64) :
    iblk1 V c 2 t (ix2 p d) = V c main_v44 (ix2 (row t p) d) := by
  obtain ⟨-, -, ⟨e0, e1⟩, -⟩ := index_rows t
  show V c main_v44 (((cfg1.win 2).blk t).view.emb (ix2 p d)) = _
  refine congrArg (fun i => V c main_v44 i) (funext fun a => Fin.ext ?_)
  match a with
  | ⟨0, _⟩ => show win1_2.index t (0 : Fin 2) * 4000 + 1 * p.val = t.val * 4000 + p.val; omega
  | ⟨1, _⟩ => show win1_2.index t (1 : Fin 2) * 64 + 1 * d.val = d.val; omega

/-- The second table's block at any point is the table. -/
theorem table2Block_apply (c : Dev nD) (t : Fin cfg1.N) (j : Fin 5) (d : Fin 64) :
    iblk1 V c 5 t (ix2 j d) = V c main_arg12 (ix2 j d) := by
  obtain ⟨-, ⟨e0, e1⟩, -⟩ := index_tables t
  show V c main_arg12 (((cfg1.win 5).blk t).view.emb (ix2 j d)) = _
  refine congrArg (fun i => V c main_arg12 i) (funext fun a => Fin.ext ?_)
  match a with
  | ⟨0, _⟩ => show win1_5.index t (0 : Fin 2) * 5 + 1 * j.val = j.val; omega
  | ⟨1, _⟩ => show win1_5.index t (1 : Fin 2) * 64 + 1 * d.val = d.val; omega

theorem table2Block_eq (c : Dev nD) (t : Fin cfg1.N) : iblk1 V c 5 t = V c main_arg12 := by
  funext y
  obtain ⟨j, d, rfl⟩ : ∃ (j : Fin 5) (d : Fin 64), y = ix2 j d := ⟨y 0, y 1, eq_ix2 y⟩
  exact table2Block_apply V c t j d

/-! ## The second output -/

/-- Entry (p, d) of the second output's block at point t is entry (4000·t + p, d) of the array. -/
theorem out2Block_emb (t : Fin cfg1.N) (p : Fin 4000) (d : Fin 64) :
    ((cfg1.win 8).blk t).view.emb (ix2 p d) = ix2 (row t p) d := by
  obtain ⟨-, ⟨e0, e1⟩, -⟩ := index_outs t
  refine funext fun a => Fin.ext ?_
  match a with
  | ⟨0, _⟩ => show win1_8.index t (0 : Fin 2) * 4000 + 1 * p.val = t.val * 4000 + p.val; omega
  | ⟨1, _⟩ => show win1_8.index t (1 : Fin 2) * 64 + 1 * d.val = d.val; omega

/-- What point t writes back to the second output is block t of the message array of the second source and table. -/
theorem flushed8_eq (c : Dev nD) (t : Fin cfg1.N) :
    (dat1 V c).flushed 8 t
      = ((cfg1.win 8).blk t).view.read (Elt Ideal) (edgeMsg (V c main_v52) (V c main_v44) (V c main_arg12)) := by
  show (cfg1.win 8).cut (grid1.coords t) ((dat1 V c).after 8 t) = _
  rw [after1_8]
  unfold out1_8
  rw [View.canon_unit_zero zero_offsets]
  simp only [View.ld_unit_zero (S := S4000x1) zero_offsets, View.ld_unit_zero (S := S5x64) zero_offsets,
    View.ld_unit_zero (S := S4000x64) zero_offsets]
  funext y
  obtain ⟨p, d, rfl⟩ : ∃ (p : Fin 4000) (d : Fin 64), y = ix2 p d := ⟨y 0, y 1, eq_ix2 y⟩
  show k1_pay3 (iblk1 V c 0 t) (iblk1 V c 5 t) (iblk1 V c 2 t) (ix2 p d)
      = edgeMsg (V c main_v52) (V c main_v44) (V c main_arg12) (((cfg1.win 8).blk t).view.emb (ix2 p d))
  refine (msgBlock3_apply _ _ _ p d).trans ?_
  rw [out2Block_emb, edgeMsg_apply, labelBlock_apply, source2Block_apply, table2Block_eq]
  rfl

/-- An index of the second output is in point t's block iff each coordinate is in the block's range on its axis. -/
theorem mem_blk8 (t : Fin cfg1.N) (i : S1000000x64.Idx) :
    i ∈ ((cfg1.win 8).blk t).view.set ↔ ∀ a : Fin 2, win1_8.index t a * S4000x64.size a ≤ (i a).val
      ∧ (i a).val < win1_8.index t a * S4000x64.size a + S4000x64.size a := by
  show i ∈ ((View.whole main_v53_1).slice (win1_8.rect t)).set ↔ _
  rw [View.set_slice_whole, Rect.mem_set_unit]
  exact Iff.rfl

/-- Row r of the second output is in the block of point r / 4000. -/
theorem cover8 (i : S1000000x64.Idx) :
    ∃ t : Fin cfg1.N, (cfg1.win 8).flush t = true ∧ i ∈ ((cfg1.win 8).blk t).view.set := by
  have hi0 : (i 0).val < 1000000 := (i 0).isLt
  have hi1 : (i 1).val < 64 := (i 1).isLt
  have hN := points
  obtain ⟨t, ht⟩ : ∃ t : Fin cfg1.N, t.val = (i 0).val / 4000 := ⟨⟨(i 0).val / 4000, by omega⟩, rfl⟩
  obtain ⟨-, ⟨e0, e1⟩, -⟩ := index_outs t
  refine ⟨t, flush1_8 t, ?_⟩
  rw [mem_blk8]
  intro a
  match a with
  | ⟨0, _⟩ =>
    show win1_8.index t (0 : Fin 2) * 4000 ≤ (i 0).val ∧ (i 0).val < win1_8.index t (0 : Fin 2) * 4000 + 4000
    omega
  | ⟨1, _⟩ =>
    show win1_8.index t (1 : Fin 2) * 64 ≤ (i 1).val ∧ (i 1).val < win1_8.index t (1 : Fin 2) * 64 + 64
    omega

/-- THE SECOND OUTPUT after the region: the message array of the label column, the second source and the second table. -/
theorem final8 (c : Dev nD) :
    (dat1 V c).arrAt 8 cfg1.N = edgeMsg (V c main_v52) (V c main_v44) (V c main_arg12) :=
  (dat1 V c).arrAt_eq_of_cover 8 _ (fun t _ => flushed8_eq V c t) cover8
/-- Entry (p, d) of the third source's block at point t is entry (4000·t + p, d) of the source. -/
theorem source3Block_apply (c : Dev nD) (t : Fin cfg1.N) (p : Fin 4000) (d : Fin 64) :
    iblk1 V c 3 t (ix2 p d) = V c main_v51 (ix2 (row t p) d) := by
  obtain ⟨-, -, -, e0, e1⟩ := index_rows t
  show V c main_v51 (((cfg1.win 3).blk t).view.emb (ix2 p d)) = _
  refine congrArg (fun i => V c main_v51 i) (funext fun a => Fin.ext ?_)
  match a with
  | ⟨0, _⟩ => show win1_3.index t (0 : Fin 2) * 4000 + 1 * p.val = t.val * 4000 + p.val; omega
  | ⟨1, _⟩ => show win1_3.index t (1 : Fin 2) * 64 + 1 * d.val = d.val; omega

/-- The third table's block at any point is the table. -/
theorem table3Block_apply (c : Dev nD) (t : Fin cfg1.N) (j : Fin 5) (d : Fin 64) :
    iblk1 V c 6 t (ix2 j d) = V c main_arg13 (ix2 j d) := by
  obtain ⟨-, -, e0, e1⟩ := index_tables t
  show V c main_arg13 (((cfg1.win 6).blk t).view.emb (ix2 j d)) = _
  refine congrArg (fun i => V c main_arg13 i) (funext fun a => Fin.ext ?_)
  match a with
  | ⟨0, _⟩ => show win1_6.index t (0 : Fin 2) * 5 + 1 * j.val = j.val; omega
  | ⟨1, _⟩ => show win1_6.index t (1 : Fin 2) * 64 + 1 * d.val = d.val; omega

theorem table3Block_eq (c : Dev nD) (t : Fin cfg1.N) : iblk1 V c 6 t = V c main_arg13 := by
  funext y
  obtain ⟨j, d, rfl⟩ : ∃ (j : Fin 5) (d : Fin 64), y = ix2 j d := ⟨y 0, y 1, eq_ix2 y⟩
  exact table3Block_apply V c t j d

/-! ## The third output -/

/-- Entry (p, d) of the third output's block at point t is entry (4000·t + p, d) of the array. -/
theorem out3Block_emb (t : Fin cfg1.N) (p : Fin 4000) (d : Fin 64) :
    ((cfg1.win 9).blk t).view.emb (ix2 p d) = ix2 (row t p) d := by
  obtain ⟨-, -, e0, e1⟩ := index_outs t
  refine funext fun a => Fin.ext ?_
  match a with
  | ⟨0, _⟩ => show win1_9.index t (0 : Fin 2) * 4000 + 1 * p.val = t.val * 4000 + p.val; omega
  | ⟨1, _⟩ => show win1_9.index t (1 : Fin 2) * 64 + 1 * d.val = d.val; omega

/-- What point t writes back to the third output is block t of the message array of the third source and table. -/
theorem flushed9_eq (c : Dev nD) (t : Fin cfg1.N) :
    (dat1 V c).flushed 9 t
      = ((cfg1.win 9).blk t).view.read (Elt Ideal) (edgeMsg (V c main_v52) (V c main_v51) (V c main_arg13)) := by
  show (cfg1.win 9).cut (grid1.coords t) ((dat1 V c).after 9 t) = _
  rw [after1_9]
  unfold out1_9
  rw [View.canon_unit_zero zero_offsets]
  simp only [View.ld_unit_zero (S := S4000x1) zero_offsets, View.ld_unit_zero (S := S5x64) zero_offsets,
    View.ld_unit_zero (S := S4000x64) zero_offsets]
  funext y
  obtain ⟨p, d, rfl⟩ : ∃ (p : Fin 4000) (d : Fin 64), y = ix2 p d := ⟨y 0, y 1, eq_ix2 y⟩
  show k1_pay4 (iblk1 V c 0 t) (iblk1 V c 6 t) (iblk1 V c 3 t) (ix2 p d)
      = edgeMsg (V c main_v52) (V c main_v51) (V c main_arg13) (((cfg1.win 9).blk t).view.emb (ix2 p d))
  refine (msgBlock4_apply _ _ _ p d).trans ?_
  rw [out3Block_emb, edgeMsg_apply, labelBlock_apply, source3Block_apply, table3Block_eq]
  rfl

/-- An index of the third output is in point t's block iff each coordinate is in the block's range on its axis. -/
theorem mem_blk9 (t : Fin cfg1.N) (i : S1000000x64.Idx) :
    i ∈ ((cfg1.win 9).blk t).view.set ↔ ∀ a : Fin 2, win1_9.index t a * S4000x64.size a ≤ (i a).val
      ∧ (i a).val < win1_9.index t a * S4000x64.size a + S4000x64.size a := by
  show i ∈ ((View.whole main_v53_2).slice (win1_9.rect t)).set ↔ _
  rw [View.set_slice_whole, Rect.mem_set_unit]
  exact Iff.rfl

/-- Row r of the third output is in the block of point r / 4000. -/
theorem cover9 (i : S1000000x64.Idx) :
    ∃ t : Fin cfg1.N, (cfg1.win 9).flush t = true ∧ i ∈ ((cfg1.win 9).blk t).view.set := by
  have hi0 : (i 0).val < 1000000 := (i 0).isLt
  have hi1 : (i 1).val < 64 := (i 1).isLt
  have hN := points
  obtain ⟨t, ht⟩ : ∃ t : Fin cfg1.N, t.val = (i 0).val / 4000 := ⟨⟨(i 0).val / 4000, by omega⟩, rfl⟩
  obtain ⟨-, -, e0, e1⟩ := index_outs t
  refine ⟨t, flush1_9 t, ?_⟩
  rw [mem_blk9]
  intro a
  match a with
  | ⟨0, _⟩ =>
    show win1_9.index t (0 : Fin 2) * 4000 ≤ (i 0).val ∧ (i 0).val < win1_9.index t (0 : Fin 2) * 4000 + 4000
    omega
  | ⟨1, _⟩ =>
    show win1_9.index t (1 : Fin 2) * 64 ≤ (i 1).val ∧ (i 1).val < win1_9.index t (1 : Fin 2) * 64 + 64
    omega

/-- THE THIRD OUTPUT after the region: the message array of the label column, the third source and the third table. -/
theorem final9 (c : Dev nD) :
    (dat1 V c).arrAt 9 cfg1.N = edgeMsg (V c main_v52) (V c main_v51) (V c main_arg13) :=
  (dat1 V c).arrAt_eq_of_cover 9 _ (fun t _ => flushed9_eq V c t) cover9

end Cert.KernelIdeal.Region1

end
-- ==== Proof.KernelChain1.lean ====
/-
  The host stretch after the projection kernel (the four means, the three gathered sources, the label column) and the
  edge-combine kernel's three message arrays.
-/
import proofs.«418387_j86114094284913_3_alg».proof.Proof.KernelChain0
import proofs.«418387_j86114094284913_3_alg».proof.Proof.KernelRegion1

set_option maxRecDepth 16384
set_option Elab.async false

noncomputable section

namespace Cert.KernelIdeal.Chain

open Idealize.ShloMosaic Idealize.ShloMosaic.TcCoe Idealize.SL.Sem Idealize.ShloMosaic.StableHlo
open Cert.KernelIdeal Cert.KernelIdeal.Gen Cert.Dataflow

variable (m : (ℓ : Loc nD τ sig) → Buf (Elt Ideal) ℓ) (ρ : Dev nD → PrngReg)

/-! ## The means, the gathered sources and the label column the host makes next -/

theorem mean_rfe3_3 (c : Dev nD) : W3 m ρ c (Proc.devRef .tc main_v18) = meanRows (K.rfe3 (inp m ρ c)) := by
  show StableHlo.after hostOps1 (W2 m ρ c) (Proc.devRef .tc main_v18) = _
  after_results_simp
  rw [exit0_rfe3]; rfl

theorem mean_rfe2_3 (c : Dev nD) : W3 m ρ c (Proc.devRef .tc main_v22) = meanRows (K.rfe2 (inp m ρ c)) := by
  show StableHlo.after hostOps1 (W2 m ρ c) (Proc.devRef .tc main_v22) = _
  after_results_simp
  rw [exit0_rfe2]; rfl

theorem mean_f2_3 (c : Dev nD) : W3 m ρ c (Proc.devRef .tc main_v26) = meanRows (inp m ρ c).f2 := by
  show StableHlo.after hostOps1 (W2 m ρ c) (Proc.devRef .tc main_v26) = _
  after_results_simp
  rw [f22]; rfl

theorem mean_f3_3 (c : Dev nD) : W3 m ρ c (Proc.devRef .tc main_v30) = meanRows (inp m ρ c).f3 := by
  show StableHlo.after hostOps1 (W2 m ρ c) (Proc.devRef .tc main_v30) = _
  after_results_simp
  rw [f32]; rfl

theorem entry1_g1 (c : Dev nD) : W3 m ρ c (Proc.devRef .tc main_v37) = gatherSrc (inp m ρ c) (K.G1 (inp m ρ c)) := by
  show StableHlo.after hostOps1 (W2 m ρ c) (Proc.devRef .tc main_v37) = _
  after_results_simp
  rw [exit0_G1, src2]; rfl

theorem entry1_g2 (c : Dev nD) : W3 m ρ c (Proc.devRef .tc main_v44) = gatherSrc (inp m ρ c) (K.G2 (inp m ρ c)) := by
  show StableHlo.after hostOps1 (W2 m ρ c) (Proc.devRef .tc main_v44) = _
  after_results_simp
  rw [exit0_G2, src2]; rfl

theorem entry1_g3 (c : Dev nD) : W3 m ρ c (Proc.devRef .tc main_v51) = gatherSrc (inp m ρ c) (K.G3 (inp m ρ c)) := by
  show StableHlo.after hostOps1 (W2 m ρ c) (Proc.devRef .tc main_v51) = _
  after_results_simp
  rw [exit0_G3, src2]; rfl

theorem entry1_label (c : Dev nD) : W3 m ρ c (Proc.devRef .tc main_v52) = labelCol (inp m ρ c) := by
  show StableHlo.after hostOps1 (W2 m ρ c) (Proc.devRef .tc main_v52) = _
  after_results_simp
  rw [score2]; rfl

/-! ## The edge-combine kernel -/

theorem exit1_re (c : Dev nD) : W4 m ρ c (Proc.devRef .tc main_v53_0) = K.msgRe (inp m ρ c) := by
  refine (W4_arr m ρ c 7).trans ?_
  rw [Region1.final7 (V3 m ρ) c]
  show RegionFns.edgeMsg (W3 m ρ c (Proc.devRef .tc main_v52)) (W3 m ρ c (Proc.devRef .tc main_v37)) (W3 m ρ c (Proc.devRef .tc main_arg11)) = _
  rw [entry1_label, entry1_g1, E13]; rfl

theorem exit1_main (c : Dev nD) : W4 m ρ c (Proc.devRef .tc main_v53_1) = K.msgMain (inp m ρ c) := by
  refine (W4_arr m ρ c 8).trans ?_
  rw [Region1.final8 (V3 m ρ) c]
  show RegionFns.edgeMsg (W3 m ρ c (Proc.devRef .tc main_v52)) (W3 m ρ c (Proc.devRef .tc main_v44)) (W3 m ρ c (Proc.devRef .tc main_arg12)) = _
  rw [entry1_label, entry1_g2, E23]; rfl

theorem exit1_id (c : Dev nD) : W4 m ρ c (Proc.devRef .tc main_v53_2) = K.msgId (inp m ρ c) := by
  refine (W4_arr m ρ c 9).trans ?_
  rw [Region1.final9 (V3 m ρ) c]
  show RegionFns.edgeMsg (W3 m ρ c (Proc.devRef .tc main_v52)) (W3 m ρ c (Proc.devRef .tc main_v51)) (W3 m ρ c (Proc.devRef .tc main_arg13)) = _
  rw [entry1_label, entry1_g3, E33]; rfl

end Cert.KernelIdeal.Chain

end
-- ==== Proof.KernelRegion2.lean ====
/-
  What the node-combine kernel leaves in its six output arrays, each as one function of the arrays it reads.

  The kernel runs over 100 grid points; point t works on rows 2000·t … 2000·t + 1999 of the node scale ci, of the three
  segment sums, and of the label-wise weight sums C, and sees the three 5×64 tables and the four 1×64 means whole. In row
  r and column d it writes
      seg(r, d) · ci(r)                                   into the three plain outputs, and
      (ci(r) · mean(d)) · ∑ₖ C(r, k) · table(k, d)         into the three frozen-mean outputs
  (for one of them mean is the sum of two means). Every row of an output lies in exactly one point's block, so after the
  last point each output array is that function of the input arrays at every entry.
-/
import proofs.«418387_j86114094284913_3_alg».proof.Proof.Gen.KernelIdeal.Frame
import proofs.«418387_j86114094284913_3_alg».proof.Proof.RegionFns
import proofs.«418387_j86114094284913_3_alg».proof.Proof.LibPlainMatmul
import proofs.«418387_j86114094284913_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.RegionFns Idealize.ShloMosaic Idealize.ShloMosaic.ValueIdx
open Idealize.ShloMosaic.TcCoe Idealize.SL.Sem
open Idealize.ShloMosaic.Pipeline (Dat)
open scoped BigOperators

variable (V : (c : Dev nD) → (b : Ref sig .tc) → Buf (Elt Ideal) ((c : Thread nD τ).loc b))

/-! ## The body's arithmetic at one entry of a block -/

/-- The offsets of a whole-block access are all zero. -/
theorem zero_offsets : (![0, 0] : Fin 2 → Nat) = fun _ => 0 :=
  funext fun a => by match a with | ⟨0, _⟩ => rfl | ⟨1, _⟩ => rfl

/-- The product's dimension numbers are those of a 2000×5 by 5×64 product with nothing transposed. -/
theorem dims_plain : dot_S2000x5_S5x64_S2000x64_1_0_0_1_n_n = DotDims.plain 2000 5 64 := rfl

/-- A block x of segment sums scaled by the column s: entry (p, q) is x(p, q) · s(p). -/
theorem scaledBlock8_apply (s : Vec Ideal S2000x1 .f32) (x : Vec Ideal S2000x64 .f32) (p : Fin 2000) (q : Fin 64) :
    k2_pay8 s x (ix2 p q) = x (ix2 p q) * s (ix2 p (0 : Fin 1)) := by
  unfold k2_pay8
  show mulf (F := Ideal) (φ := .f32) (shapeCast S2000x64 x shapeCasts_S2000x64_S2000x64)
      (broadcastTo S2000x64 s broadcasts_S2000x1_S2000x64) (ix2 p q) = _
  rw [mulf_apply, shapeCast_self, Cert.LibKeepdims.broadcastTo_a1_ab_apply]

theorem scaledBlock9_apply (s : Vec Ideal S2000x1 .f32) (x : Vec Ideal S2000x64 .f32) (p : Fin 2000) (q : Fin 64) :
    k2_pay9 s x (ix2 p q) = x (ix2 p q) * s (ix2 p (0 : Fin 1)) := by
  unfold k2_pay9
  show mulf (F := Ideal) (φ := .f32) (shapeCast S2000x64 x shapeCasts_S2000x64_S2000x64)
      (broadcastTo S2000x64 s broadcasts_S2000x1_S2000x64) (ix2 p q) = _
  rw [mulf_apply, shapeCast_self, Cert.LibKeepdims.broadcastTo_a1_ab_apply]

theorem scaledBlock10_apply (s : Vec Ideal S2000x1 .f32) (x : Vec Ideal S2000x64 .f32) (p : Fin 2000) (q : Fin 64) :
    k2_pay10 s x (ix2 p q) = x (ix2 p q) * s (ix2 p (0 : Fin 1)) := by
  unfold k2_pay10
  show mulf (F := Ideal) (φ := .f32) (shapeCast S2000x64 x shapeCasts_S2000x64_S2000x64)
      (broadcastTo S2000x64 s broadcasts_S2000x1_S2000x64) (ix2 p q) = _
  rw [mulf_apply, shapeCast_self, Cert.LibKeepdims.broadcastTo_a1_ab_apply]

/-- The block C of label-wise weight sums times a table E: entry (p, q) is ∑ₖ C(p, k) · E(k, q). Narrowing the two
    operands to the shorter float format changes nothing on the extended reals. -/
theorem tableProduct5_apply (C : Vec Ideal S2000x5 .f32) (E : Vec Ideal S5x64 .f32) (p : Fin 2000) (q : Fin 64) :
    k2_pay5 C E (ix2 p q) = ∑ k : Fin 5, C (ix2 p k) * E (ix2 k q) := by
  unfold k2_pay5 k2_pay4
  show matmul dot_S2000x5_S5x64_S2000x64_1_0_0_1_n_n none
      (truncf (F := Ideal) .bf16 (shapeCast S2000x5 C shapeCasts_S2000x5_S2000x5) bitsLt_bf16_f32)
      (truncf (F := Ideal) .bf16 E bitsLt_bf16_f32) (constant (F := Ideal) S2000x64 .f32 0x00000000#32) (ix2 p q) = _
  rw [dims_plain]
  refine (Cert.LibPlainMatmul.matmul_zero_apply 2000 5 64 none _ _ p q).trans ?_
  refine Finset.sum_congr rfl fun k _ => ?_
  rw [truncf_apply, truncf_apply, shapeCast_self]

theorem tableProduct6_apply (C : Vec Ideal S2000x5 .f32) (E : Vec Ideal S5x64 .f32) (p : Fin 2000) (q : Fin 64) :
    k2_pay6 C E (ix2 p q) = ∑ k : Fin 5, C (ix2 p k) * E (ix2 k q) := by
  unfold k2_pay6 k2_pay4
  show matmul dot_S2000x5_S5x64_S2000x64_1_0_0_1_n_n none
      (truncf (F := Ideal) .bf16 (shapeCast S2000x5 C shapeCasts_S2000x5_S2000x5) bitsLt_bf16_f32)
      (truncf (F := Ideal) .bf16 E bitsLt_bf16_f32) (constant (F := Ideal) S2000x64 .f32 0x00000000#32) (ix2 p q) = _
  rw [dims_plain]
  refine (Cert.LibPlainMatmul.matmul_zero_apply 2000 5 64 none _ _ p q).trans ?_
  refine Finset.sum_congr rfl fun k _ => ?_
  rw [truncf_apply, truncf_apply, shapeCast_self]

theorem tableProduct7_apply (C : Vec Ideal S2000x5 .f32) (E : Vec Ideal S5x64 .f32) (p : Fin 2000) (q : Fin 64) :
    k2_pay7 C E (ix2 p q) = ∑ k : Fin 5, C (ix2 p k) * E (ix2 k q) := by
  unfold k2_pay7 k2_pay4
  show matmul dot_S2000x5_S5x64_S2000x64_1_0_0_1_n_n none
      (truncf (F := Ideal) .bf16 (shapeCast S2000x5 C shapeCasts_S2000x5_S2000x5) bitsLt_bf16_f32)
      (truncf (F := Ideal) .bf16 E bitsLt_bf16_f32) (constant (F := Ideal) S2000x64 .f32 0x00000000#32) (ix2 p q) = _
  rw [dims_plain]
  refine (Cert.LibPlainMatmul.matmul_zero_apply 2000 5 64 none _ _ p q).trans ?_
  refine Finset.sum_congr rfl fun k _ => ?_
  rw [truncf_apply, truncf_apply, shapeCast_self]

/-- The column s times the row μ, times the block m: entry (p, q) is (s(p) · μ(q)) · m(p, q). -/
theorem frozenBlock1_apply (s : Vec Ideal S2000x1 .f32) (m : FVec Ideal S2000x64 .f32) (μ : Vec Ideal S1x64 .f32)
    (p : Fin 2000) (q : Fin 64) :
    k2_pay1 s m μ (ix2 p q) = (s (ix2 p (0 : Fin 1)) * μ (ix2 (0 : Fin 1) q)) * m (ix2 p q) := by
  unfold k2_pay1
  show mulf (F := Ideal) (φ := .f32) (mulf (F := Ideal) (φ := .f32) (broadcastTo S2000x64 s broadcasts_S2000x1_S2000x64)
      (broadcastTo S2000x64 (shapeCast S1x64 μ shapeCasts_S1x64_S1x64) broadcasts_S1x64_S2000x64)) m (ix2 p q) = _
  rw [mulf_apply, mulf_apply, Cert.LibKeepdims.broadcastTo_a1_ab_apply, broadcastTo_1b_ab_apply, shapeCast_self]

theorem frozenBlock3_apply (s : Vec Ideal S2000x1 .f32) (m : FVec Ideal S2000x64 .f32) (μ : Vec Ideal S1x64 .f32)
    (p : Fin 2000) (q : Fin 64) :
    k2_pay3 s m μ (ix2 p q) = (s (ix2 p (0 : Fin 1)) * μ (ix2 (0 : Fin 1) q)) * m (ix2 p q) := by
  unfold k2_pay3
  show mulf (F := Ideal) (φ := .f32) (mulf (F := Ideal) (φ := .f32) (broadcastTo S2000x64 s broadcasts_S2000x1_S2000x64)
      (broadcastTo S2000x64 (shapeCast S1x64 μ shapeCasts_S1x64_S1x64) broadcasts_S1x64_S2000x64)) m (ix2 p q) = _
  rw [mulf_apply, mulf_apply, Cert.LibKeepdims.broadcastTo_a1_ab_apply, broadcastTo_1b_ab_apply, shapeCast_self]

/-- The same with the row the sum of two rows: entry (p, q) is (s(p) · (μ(q) + ν(q))) · m(p, q). -/
theorem frozenBlock2_apply (s : Vec Ideal S2000x1 .f32) (m : FVec Ideal S2000x64 .f32) (μ ν : Vec Ideal S1x64 .f32)
    (p : Fin 2000) (q : Fin 64) :
    k2_pay2 s m μ ν (ix2 p q)
      = (s (ix2 p (0 : Fin 1)) * (μ (ix2 (0 : Fin 1) q) + ν (ix2 (0 : Fin 1) q))) * m (ix2 p q) := by
  unfold k2_pay2
  show mulf (F := Ideal) (φ := .f32) (mulf (F := Ideal) (φ := .f32) (broadcastTo S2000x64 s broadcasts_S2000x1_S2000x64)
      (broadcastTo S2000x64 (addf (F := Ideal) (φ := .f32) (shapeCast S1x64 μ shapeCasts_S1x64_S1x64)
        (shapeCast S1x64 ν shapeCasts_S1x64_S1x64)) broadcasts_S1x64_S2000x64)) m (ix2 p q) = _
  rw [mulf_apply, mulf_apply, Cert.LibKeepdims.broadcastTo_a1_ab_apply, broadcastTo_1b_ab_apply, addf_apply,
    shapeCast_self, shapeCast_self]

/-! ## Where a block sits in its array -/

/-- Window 0 moves down its array one block of rows per grid point and never sideways. -/
theorem blockIndex_0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
/-- Window 1 moves down its array one block of rows per grid point and never sideways. -/
theorem blockIndex_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
/-- Window 2 moves down its array one block of rows per grid point and never sideways. -/
theorem blockIndex_2 : ∀ t : Fin cfg2.N, win2_2.index t (0 : Fin 2) = t.val ∧ win2_2.index t (1 : Fin 2) = 0 :=
  (by decide +kernel : ∀ t : Fin grid2.N, win2_2.index t (0 : Fin 2) = t.val ∧ win2_2.index t (1 : Fin 2) = 0)
/-- Window 3 moves down its array one block of rows per grid point and never sideways. -/
theorem blockIndex_3 : ∀ t : Fin cfg2.N, win2_3.index t (0 : Fin 2) = t.val ∧ win2_3.index t (1 : Fin 2) = 0 :=
  (by decide +kernel : ∀ t : Fin grid2.N, win2_3.index t (0 : Fin 2) = t.val ∧ win2_3.index t (1 : Fin 2) = 0)
/-- Window 4 moves down its array one block of rows per grid point and never sideways. -/
theorem blockIndex_4 : ∀ t : Fin cfg2.N, win2_4.index t (0 : Fin 2) = t.val ∧ win2_4.index t (1 : Fin 2) = 0 :=
  (by decide +kernel : ∀ t : Fin grid2.N, win2_4.index t (0 : Fin 2) = t.val ∧ win2_4.index t (1 : Fin 2) = 0)
/-- Window 12 moves down its array one block of rows per grid point and never sideways. -/
theorem blockIndex_12 : ∀ t : Fin cfg2.N, win2_12.index t (0 : Fin 2) = t.val ∧ win2_12.index t (1 : Fin 2) = 0 :=
  (by decide +kernel : ∀ t : Fin grid2.N, win2_12.index t (0 : Fin 2) = t.val ∧ win2_12.index t (1 : Fin 2) = 0)
/-- Window 13 moves down its array one block of rows per grid point and never sideways. -/
theorem blockIndex_13 : ∀ t : Fin cfg2.N, win2_13.index t (0 : Fin 2) = t.val ∧ win2_13.index t (1 : Fin 2) = 0 :=
  (by decide +kernel : ∀ t : Fin grid2.N, win2_13.index t (0 : Fin 2) = t.val ∧ win2_13.index t (1 : Fin 2) = 0)
/-- Window 14 moves down its array one block of rows per grid point and never sideways. -/
theorem blockIndex_14 : ∀ t : Fin cfg2.N, win2_14.index t (0 : Fin 2) = t.val ∧ win2_14.index t (1 : Fin 2) = 0 :=
  (by decide +kernel : ∀ t : Fin grid2.N, win2_14.index t (0 : Fin 2) = t.val ∧ win2_14.index t (1 : Fin 2) = 0)
/-- Window 15 moves down its array one block of rows per grid point and never sideways. -/
theorem blockIndex_15 : ∀ t : Fin cfg2.N, win2_15.index t (0 : Fin 2) = t.val ∧ win2_15.index t (1 : Fin 2) = 0 :=
  (by decide +kernel : ∀ t : Fin grid2.N, win2_15.index t (0 : Fin 2) = t.val ∧ win2_15.index t (1 : Fin 2) = 0)
/-- Window 16 moves down its array one block of rows per grid point and never sideways. -/
theorem blockIndex_16 : ∀ t : Fin cfg2.N, win2_16.index t (0 : Fin 2) = t.val ∧ win2_16.index t (1 : Fin 2) = 0 :=
  (by decide +kernel : ∀ t : Fin grid2.N, win2_16.index t (0 : Fin 2) = t.val ∧ win2_16.index t (1 : Fin 2) = 0)
/-- Window 17 moves down its array one block of rows per grid point and never sideways. -/
theorem blockIndex_17 : ∀ t : Fin cfg2.N, win2_17.index t (0 : Fin 2) = t.val ∧ win2_17.index t (1 : Fin 2) = 0 :=
  (by decide +kernel : ∀ t : Fin grid2.N, win2_17.index t (0 : Fin 2) = t.val ∧ win2_17.index t (1 : Fin 2) = 0)
/-- Window 5 is its whole array at every grid point. -/
theorem blockIndex_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
/-- Window 6 is its whole array at every grid point. -/
theorem blockIndex_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
/-- Window 7 is its whole array at every grid point. -/
theorem blockIndex_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
/-- Window 8 is its whole array at every grid point. -/
theorem blockIndex_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
/-- Window 9 is its whole array at every grid point. -/
theorem blockIndex_9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)
/-- Window 10 is its whole array at every grid point. -/
theorem blockIndex_10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)
/-- Window 11 is its whole array at every grid point. -/
theorem blockIndex_11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)

/-- Row p of grid point t's block of rows is row 2000·t + p of the array. -/
def rowOf (t : Fin cfg2.N) (p : Fin 2000) : Fin 200000 :=
  ⟨t.val * 2000 + p.val, by have ht : t.val < 100 := t.isLt; have hp := p.isLt; omega⟩

theorem rowOf_val (t : Fin cfg2.N) (p : Fin 2000) : (rowOf t p).val = t.val * 2000 + p.val := rfl

/-- Entry (p, q) of window 0's block at point t is entry (2000·t + p, q) of its array. -/
theorem blockEntry_0 (t : Fin cfg2.N) (p : Fin 2000) (q : Fin 1) :
    ((cfg2.win 0).blk t).view.emb (ix2 p q) = @ix2 200000 1 (rowOf t p) q := by
  funext a; apply Fin.ext
  match a with
  | ⟨0, _⟩ => show win2_0.index t (0 : Fin 2) * 2000 + 1 * p.val = t.val * 2000 + p.val; rw [(blockIndex_0 t).1]; omega
  | ⟨1, _⟩ => show win2_0.index t (1 : Fin 2) * 1 + 1 * q.val = q.val; rw [(blockIndex_0 t).2]; omega
/-- Entry (p, q) of window 1's block at point t is entry (2000·t + p, q) of its array. -/
theorem blockEntry_1 (t : Fin cfg2.N) (p : Fin 2000) (q : Fin 64) :
    ((cfg2.win 1).blk t).view.emb (ix2 p q) = @ix2 200000 64 (rowOf t p) q := by
  funext a; apply Fin.ext
  match a with
  | ⟨0, _⟩ => show win2_1.index t (0 : Fin 2) * 2000 + 1 * p.val = t.val * 2000 + p.val; rw [(blockIndex_1 t).1]; omega
  | ⟨1, _⟩ => show win2_1.index t (1 : Fin 2) * 64 + 1 * q.val = q.val; rw [(blockIndex_1 t).2]; omega
/-- Entry (p, q) of window 2's block at point t is entry (2000·t + p, q) of its array. -/
theorem blockEntry_2 (t : Fin cfg2.N) (p : Fin 2000) (q : Fin 64) :
    ((cfg2.win 2).blk t).view.emb (ix2 p q) = @ix2 200000 64 (rowOf t p) q := by
  funext a; apply Fin.ext
  match a with
  | ⟨0, _⟩ => show win2_2.index t (0 : Fin 2) * 2000 + 1 * p.val = t.val * 2000 + p.val; rw [(blockIndex_2 t).1]; omega
  | ⟨1, _⟩ => show win2_2.index t (1 : Fin 2) * 64 + 1 * q.val = q.val; rw [(blockIndex_2 t).2]; omega
/-- Entry (p, q) of window 3's block at point t is entry (2000·t + p, q) of its array. -/
theorem blockEntry_3 (t : Fin cfg2.N) (p : Fin 2000) (q : Fin 64) :
    ((cfg2.win 3).blk t).view.emb (ix2 p q) = @ix2 200000 64 (rowOf t p) q := by
  funext a; apply Fin.ext
  match a with
  | ⟨0, _⟩ => show win2_3.index t (0 : Fin 2) * 2000 + 1 * p.val = t.val * 2000 + p.val; rw [(blockIndex_3 t).1]; omega
  | ⟨1, _⟩ => show win2_3.index t (1 : Fin 2) * 64 + 1 * q.val = q.val; rw [(blockIndex_3 t).2]; omega
/-- Entry (p, q) of window 4's block at point t is entry (2000·t + p, q) of its array. -/
theorem blockEntry_4 (t : Fin cfg2.N) (p : Fin 2000) (q : Fin 5) :
    ((cfg2.win 4).blk t).view.emb (ix2 p q) = @ix2 200000 5 (rowOf t p) q := by
  funext a; apply Fin.ext
  match a with
  | ⟨0, _⟩ => show win2_4.index t (0 : Fin 2) * 2000 + 1 * p.val = t.val * 2000 + p.val; rw [(blockIndex_4 t).1]; omega
  | ⟨1, _⟩ => show win2_4.index t (1 : Fin 2) * 5 + 1 * q.val = q.val; rw [(blockIndex_4 t).2]; omega
/-- Entry (p, q) of window 12's block at point t is entry (2000·t + p, q) of its array. -/
theorem blockEntry_12 (t : Fin cfg2.N) (p : Fin 2000) (q : Fin 64) :
    ((cfg2.win 12).blk t).view.emb (ix2 p q) = @ix2 200000 64 (rowOf t p) q := by
  funext a; apply Fin.ext
  match a with
  | ⟨0, _⟩ => show win2_12.index t (0 : Fin 2) * 2000 + 1 * p.val = t.val * 2000 + p.val; rw [(blockIndex_12 t).1]; omega
  | ⟨1, _⟩ => show win2_12.index t (1 : Fin 2) * 64 + 1 * q.val = q.val; rw [(blockIndex_12 t).2]; omega
/-- Entry (p, q) of window 13's block at point t is entry (2000·t + p, q) of its array. -/
theorem blockEntry_13 (t : Fin cfg2.N) (p : Fin 2000) (q : Fin 64) :
    ((cfg2.win 13).blk t).view.emb (ix2 p q) = @ix2 200000 64 (rowOf t p) q := by
  funext a; apply Fin.ext
  match a with
  | ⟨0, _⟩ => show win2_13.index t (0 : Fin 2) * 2000 + 1 * p.val = t.val * 2000 + p.val; rw [(blockIndex_13 t).1]; omega
  | ⟨1, _⟩ => show win2_13.index t (1 : Fin 2) * 64 + 1 * q.val = q.val; rw [(blockIndex_13 t).2]; omega
/-- Entry (p, q) of window 14's block at point t is entry (2000·t + p, q) of its array. -/
theorem blockEntry_14 (t : Fin cfg2.N) (p : Fin 2000) (q : Fin 64) :
    ((cfg2.win 14).blk t).view.emb (ix2 p q) = @ix2 200000 64 (rowOf t p) q := by
  funext a; apply Fin.ext
  match a with
  | ⟨0, _⟩ => show win2_14.index t (0 : Fin 2) * 2000 + 1 * p.val = t.val * 2000 + p.val; rw [(blockIndex_14 t).1]; omega
  | ⟨1, _⟩ => show win2_14.index t (1 : Fin 2) * 64 + 1 * q.val = q.val; rw [(blockIndex_14 t).2]; omega
/-- Entry (p, q) of window 15's block at point t is entry (2000·t + p, q) of its array. -/
theorem blockEntry_15 (t : Fin cfg2.N) (p : Fin 2000) (q : Fin 64) :
    ((cfg2.win 15).blk t).view.emb (ix2 p q) = @ix2 200000 64 (rowOf t p) q := by
  funext a; apply Fin.ext
  match a with
  | ⟨0, _⟩ => show win2_15.index t (0 : Fin 2) * 2000 + 1 * p.val = t.val * 2000 + p.val; rw [(blockIndex_15 t).1]; omega
  | ⟨1, _⟩ => show win2_15.index t (1 : Fin 2) * 64 + 1 * q.val = q.val; rw [(blockIndex_15 t).2]; omega
/-- Entry (p, q) of window 16's block at point t is entry (2000·t + p, q) of its array. -/
theorem blockEntry_16 (t : Fin cfg2.N) (p : Fin 2000) (q : Fin 64) :
    ((cfg2.win 16).blk t).view.emb (ix2 p q) = @ix2 200000 64 (rowOf t p) q := by
  funext a; apply Fin.ext
  match a with
  | ⟨0, _⟩ => show win2_16.index t (0 : Fin 2) * 2000 + 1 * p.val = t.val * 2000 + p.val; rw [(blockIndex_16 t).1]; omega
  | ⟨1, _⟩ => show win2_16.index t (1 : Fin 2) * 64 + 1 * q.val = q.val; rw [(blockIndex_16 t).2]; omega
/-- Entry (p, q) of window 17's block at point t is entry (2000·t + p, q) of its array. -/
theorem blockEntry_17 (t : Fin cfg2.N) (p : Fin 2000) (q : Fin 64) :
    ((cfg2.win 17).blk t).view.emb (ix2 p q) = @ix2 200000 64 (rowOf t p) q := by
  funext a; apply Fin.ext
  match a with
  | ⟨0, _⟩ => show win2_17.index t (0 : Fin 2) * 2000 + 1 * p.val = t.val * 2000 + p.val; rw [(blockIndex_17 t).1]; omega
  | ⟨1, _⟩ => show win2_17.index t (1 : Fin 2) * 64 + 1 * q.val = q.val; rw [(blockIndex_17 t).2]; omega
/-- Entry (k, q) of window 5's block at any point is entry (k, q) of its array. -/
theorem blockEntry_5 (t : Fin cfg2.N) (k : Fin 5) (q : Fin 64) :
    ((cfg2.win 5).blk t).view.emb (ix2 k q) = @ix2 5 64 k q := by
  funext a; apply Fin.ext
  match a with
  | ⟨0, _⟩ => show win2_5.index t (0 : Fin 2) * 5 + 1 * k.val = k.val; rw [(blockIndex_5 t).1]; omega
  | ⟨1, _⟩ => show win2_5.index t (1 : Fin 2) * 64 + 1 * q.val = q.val; rw [(blockIndex_5 t).2]; omega
/-- Entry (k, q) of window 6's block at any point is entry (k, q) of its array. -/
theorem blockEntry_6 (t : Fin cfg2.N) (k : Fin 5) (q : Fin 64) :
    ((cfg2.win 6).blk t).view.emb (ix2 k q) = @ix2 5 64 k q := by
  funext a; apply Fin.ext
  match a with
  | ⟨0, _⟩ => show win2_6.index t (0 : Fin 2) * 5 + 1 * k.val = k.val; rw [(blockIndex_6 t).1]; omega
  | ⟨1, _⟩ => show win2_6.index t (1 : Fin 2) * 64 + 1 * q.val = q.val; rw [(blockIndex_6 t).2]; omega
/-- Entry (k, q) of window 7's block at any point is entry (k, q) of its array. -/
theorem blockEntry_7 (t : Fin cfg2.N) (k : Fin 5) (q : Fin 64) :
    ((cfg2.win 7).blk t).view.emb (ix2 k q) = @ix2 5 64 k q := by
  funext a; apply Fin.ext
  match a with
  | ⟨0, _⟩ => show win2_7.index t (0 : Fin 2) * 5 + 1 * k.val = k.val; rw [(blockIndex_7 t).1]; omega
  | ⟨1, _⟩ => show win2_7.index t (1 : Fin 2) * 64 + 1 * q.val = q.val; rw [(blockIndex_7 t).2]; omega
/-- Entry (k, q) of window 8's block at any point is entry (k, q) of its array. -/
theorem blockEntry_8 (t : Fin cfg2.N) (k : Fin 1) (q : Fin 64) :
    ((cfg2.win 8).blk t).view.emb (ix2 k q) = @ix2 1 64 k q := by
  funext a; apply Fin.ext
  match a with
  | ⟨0, _⟩ => show win2_8.index t (0 : Fin 2) * 1 + 1 * k.val = k.val; rw [(blockIndex_8 t).1]; omega
  | ⟨1, _⟩ => show win2_8.index t (1 : Fin 2) * 64 + 1 * q.val = q.val; rw [(blockIndex_8 t).2]; omega
/-- Entry (k, q) of window 9's block at any point is entry (k, q) of its array. -/
theorem blockEntry_9 (t : Fin cfg2.N) (k : Fin 1) (q : Fin 64) :
    ((cfg2.win 9).blk t).view.emb (ix2 k q) = @ix2 1 64 k q := by
  funext a; apply Fin.ext
  match a with
  | ⟨0, _⟩ => show win2_9.index t (0 : Fin 2) * 1 + 1 * k.val = k.val; rw [(blockIndex_9 t).1]; omega
  | ⟨1, _⟩ => show win2_9.index t (1 : Fin 2) * 64 + 1 * q.val = q.val; rw [(blockIndex_9 t).2]; omega
/-- Entry (k, q) of window 10's block at any point is entry (k, q) of its array. -/
theorem blockEntry_10 (t : Fin cfg2.N) (k : Fin 1) (q : Fin 64) :
    ((cfg2.win 10).blk t).view.emb (ix2 k q) = @ix2 1 64 k q := by
  funext a; apply Fin.ext
  match a with
  | ⟨0, _⟩ => show win2_10.index t (0 : Fin 2) * 1 + 1 * k.val = k.val; rw [(blockIndex_10 t).1]; omega
  | ⟨1, _⟩ => show win2_10.index t (1 : Fin 2) * 64 + 1 * q.val = q.val; rw [(blockIndex_10 t).2]; omega
/-- Entry (k, q) of window 11's block at any point is entry (k, q) of its array. -/
theorem blockEntry_11 (t : Fin cfg2.N) (k : Fin 1) (q : Fin 64) :
    ((cfg2.win 11).blk t).view.emb (ix2 k q) = @ix2 1 64 k q := by
  funext a; apply Fin.ext
  match a with
  | ⟨0, _⟩ => show win2_11.index t (0 : Fin 2) * 1 + 1 * k.val = k.val; rw [(blockIndex_11 t).1]; omega
  | ⟨1, _⟩ => show win2_11.index t (1 : Fin 2) * 64 + 1 * q.val = q.val; rw [(blockIndex_11 t).2]; omega

/-! ## What the body reads: each input block as entries of its array -/

theorem read_main_arg1 (c : Dev nD) (t : Fin cfg2.N) (p : Fin 2000) (q : Fin 1) :
    iblk2 V c 0 t (ix2 p q) = V c main_arg1 (@ix2 200000 1 (rowOf t p) q) := by
  show V c main_arg1 (((cfg2.win 0).blk t).view.emb (ix2 p q)) = _
  rw [blockEntry_0 t p q]
theorem read_main_v56 (c : Dev nD) (t : Fin cfg2.N) (p : Fin 2000) (q : Fin 64) :
    iblk2 V c 1 t (ix2 p q) = V c main_v56 (@ix2 200000 64 (rowOf t p) q) := by
  show V c main_v56 (((cfg2.win 1).blk t).view.emb (ix2 p q)) = _
  rw [blockEntry_1 t p q]
theorem read_main_v59 (c : Dev nD) (t : Fin cfg2.N) (p : Fin 2000) (q : Fin 64) :
    iblk2 V c 2 t (ix2 p q) = V c main_v59 (@ix2 200000 64 (rowOf t p) q) := by
  show V c main_v59 (((cfg2.win 2).blk t).view.emb (ix2 p q)) = _
  rw [blockEntry_2 t p q]
theorem read_main_v62 (c : Dev nD) (t : Fin cfg2.N) (p : Fin 2000) (q : Fin 64) :
    iblk2 V c 3 t (ix2 p q) = V c main_v62 (@ix2 200000 64 (rowOf t p) q) := by
  show V c main_v62 (((cfg2.win 3).blk t).view.emb (ix2 p q)) = _
  rw [blockEntry_3 t p q]
theorem read_main_v81 (c : Dev nD) (t : Fin cfg2.N) (p : Fin 2000) (q : Fin 5) :
    iblk2 V c 4 t (ix2 p q) = V c main_v81 (@ix2 200000 5 (rowOf t p) q) := by
  show V c main_v81 (((cfg2.win 4).blk t).view.emb (ix2 p q)) = _
  rw [blockEntry_4 t p q]
theorem read_main_arg11 (c : Dev nD) (t : Fin cfg2.N) (k : Fin 5) (q : Fin 64) :
    iblk2 V c 5 t (ix2 k q) = V c main_arg11 (@ix2 5 64 k q) := by
  show V c main_arg11 (((cfg2.win 5).blk t).view.emb (ix2 k q)) = _
  rw [blockEntry_5 t k q]
theorem read_main_arg12 (c : Dev nD) (t : Fin cfg2.N) (k : Fin 5) (q : Fin 64) :
    iblk2 V c 6 t (ix2 k q) = V c main_arg12 (@ix2 5 64 k q) := by
  show V c main_arg12 (((cfg2.win 6).blk t).view.emb (ix2 k q)) = _
  rw [blockEntry_6 t k q]
theorem read_main_arg13 (c : Dev nD) (t : Fin cfg2.N) (k : Fin 5) (q : Fin 64) :
    iblk2 V c 7 t (ix2 k q) = V c main_arg13 (@ix2 5 64 k q) := by
  show V c main_arg13 (((cfg2.win 7).blk t).view.emb (ix2 k q)) = _
  rw [blockEntry_7 t k q]
theorem read_main_v18 (c : Dev nD) (t : Fin cfg2.N) (k : Fin 1) (q : Fin 64) :
    iblk2 V c 8 t (ix2 k q) = V c main_v18 (@ix2 1 64 k q) := by
  show V c main_v18 (((cfg2.win 8).blk t).view.emb (ix2 k q)) = _
  rw [blockEntry_8 t k q]
theorem read_main_v26 (c : Dev nD) (t : Fin cfg2.N) (k : Fin 1) (q : Fin 64) :
    iblk2 V c 9 t (ix2 k q) = V c main_v26 (@ix2 1 64 k q) := by
  show V c main_v26 (((cfg2.win 9).blk t).view.emb (ix2 k q)) = _
  rw [blockEntry_9 t k q]
theorem read_main_v22 (c : Dev nD) (t : Fin cfg2.N) (k : Fin 1) (q : Fin 64) :
    iblk2 V c 10 t (ix2 k q) = V c main_v22 (@ix2 1 64 k q) := by
  show V c main_v22 (((cfg2.win 10).blk t).view.emb (ix2 k q)) = _
  rw [blockEntry_10 t k q]
theorem read_main_v30 (c : Dev nD) (t : Fin cfg2.N) (k : Fin 1) (q : Fin 64) :
    iblk2 V c 11 t (ix2 k q) = V c main_v30 (@ix2 1 64 k q) := by
  show V c main_v30 (((cfg2.win 11).blk t).view.emb (ix2 k q)) = _
  rw [blockEntry_11 t k q]

/-! ## What each grid point writes back: its block of rows of the output's function -/

/-- Point t writes rows 2000·t … of seg ⊙ ci into output window 12. -/
theorem flushed_12 (c : Dev nD) (t : Fin cfg2.N) :
    (dat2 V c).flushed 12 t = ((cfg2.win 12).blk t).view.read (Elt Ideal) (rowScaled (R := 200000) (C := 64) (V c main_v59) (V c main_arg1)) := by
  show (cfg2.win 12).cut (grid2.coords t) ((dat2 V c).after 12 t) = _
  rw [after2_12]
  unfold out2_12
  rw [View.canon_unit_zero zero_offsets]
  simp only [View.ld_unit_zero (S := S2000x1) zero_offsets, View.ld_unit_zero (S := S2000x64) zero_offsets]
  funext j
  obtain ⟨p, q, rfl⟩ : ∃ (p : Fin 2000) (q : Fin 64), j = ix2 p q := ⟨j 0, j 1, eq_ix2 j⟩
  show k2_pay8 (iblk2 V c 0 t) (iblk2 V c 2 t) (ix2 p q)
    = rowScaled (R := 200000) (C := 64) (V c main_v59) (V c main_arg1) (((cfg2.win 12).blk t).view.emb (ix2 p q))
  rw [blockEntry_12 t p q, rowScaled_apply]
  refine (scaledBlock8_apply (iblk2 V c 0 t) (iblk2 V c 2 t) p q).trans ?_
  rw [read_main_v59 V c t p q, read_main_arg1 V c t p (0 : Fin 1)]

/-- Point t writes rows 2000·t … of seg ⊙ ci into output window 14. -/
theorem flushed_14 (c : Dev nD) (t : Fin cfg2.N) :
    (dat2 V c).flushed 14 t = ((cfg2.win 14).blk t).view.read (Elt Ideal) (rowScaled (R := 200000) (C := 64) (V c main_v56) (V c main_arg1)) := by
  show (cfg2.win 14).cut (grid2.coords t) ((dat2 V c).after 14 t) = _
  rw [after2_14]
  unfold out2_14
  rw [View.canon_unit_zero zero_offsets]
  simp only [View.ld_unit_zero (S := S2000x1) zero_offsets, View.ld_unit_zero (S := S2000x64) zero_offsets]
  funext j
  obtain ⟨p, q, rfl⟩ : ∃ (p : Fin 2000) (q : Fin 64), j = ix2 p q := ⟨j 0, j 1, eq_ix2 j⟩
  show k2_pay9 (iblk2 V c 0 t) (iblk2 V c 1 t) (ix2 p q)
    = rowScaled (R := 200000) (C := 64) (V c main_v56) (V c main_arg1) (((cfg2.win 14).blk t).view.emb (ix2 p q))
  rw [blockEntry_14 t p q, rowScaled_apply]
  refine (scaledBlock9_apply (iblk2 V c 0 t) (iblk2 V c 1 t) p q).trans ?_
  rw [read_main_v56 V c t p q, read_main_arg1 V c t p (0 : Fin 1)]

/-- Point t writes rows 2000·t … of seg ⊙ ci into output window 15. -/
theorem flushed_15 (c : Dev nD) (t : Fin cfg2.N) :
    (dat2 V c).flushed 15 t = ((cfg2.win 15).blk t).view.read (Elt Ideal) (rowScaled (R := 200000) (C := 64) (V c main_v62) (V c main_arg1)) := by
  show (cfg2.win 15).cut (grid2.coords t) ((dat2 V c).after 15 t) = _
  rw [after2_15]
  unfold out2_15
  rw [View.canon_unit_zero zero_offsets]
  simp only [View.ld_unit_zero (S := S2000x1) zero_offsets, View.ld_unit_zero (S := S2000x64) zero_offsets]
  funext j
  obtain ⟨p, q, rfl⟩ : ∃ (p : Fin 2000) (q : Fin 64), j = ix2 p q := ⟨j 0, j 1, eq_ix2 j⟩
  show k2_pay10 (iblk2 V c 0 t) (iblk2 V c 3 t) (ix2 p q)
    = rowScaled (R := 200000) (C := 64) (V c main_v62) (V c main_arg1) (((cfg2.win 15).blk t).view.emb (ix2 p q))
  rw [blockEntry_15 t p q, rowScaled_apply]
  refine (scaledBlock10_apply (iblk2 V c 0 t) (iblk2 V c 3 t) p q).trans ?_
  rw [read_main_v62 V c t p q, read_main_arg1 V c t p (0 : Fin 1)]

/-- Point t writes rows 2000·t … of (ci · mean) · (C · table) into output window 16. -/
theorem flushed_16 (c : Dev nD) (t : Fin cfg2.N) :
    (dat2 V c).flushed 16 t = ((cfg2.win 16).blk t).view.read (Elt Ideal) (frozen (R := 200000) (V c main_arg1) (V c main_v18) (V c main_v81) (V c main_arg11)) := by
  show (cfg2.win 16).cut (grid2.coords t) ((dat2 V c).after 16 t) = _
  rw [after2_16]
  unfold out2_16
  rw [View.canon_unit_zero zero_offsets]
  simp only [View.ld_unit_zero (S := S2000x1) zero_offsets, View.ld_unit_zero (S := S2000x5) zero_offsets, View.ld_unit_zero (S := S5x64) zero_offsets, View.ld_unit_zero (S := S1x64) zero_offsets]
  funext j
  obtain ⟨p, q, rfl⟩ : ∃ (p : Fin 2000) (q : Fin 64), j = ix2 p q := ⟨j 0, j 1, eq_ix2 j⟩
  show k2_pay1 (iblk2 V c 0 t) (k2_pay5 (iblk2 V c 4 t) (iblk2 V c 5 t)) (iblk2 V c 8 t) (ix2 p q)
    = frozen (R := 200000) (V c main_arg1) (V c main_v18) (V c main_v81) (V c main_arg11) (((cfg2.win 16).blk t).view.emb (ix2 p q))
  rw [blockEntry_16 t p q, frozen_apply, prod_apply]
  refine (frozenBlock1_apply (iblk2 V c 0 t) (k2_pay5 (iblk2 V c 4 t) (iblk2 V c 5 t)) (iblk2 V c 8 t) p q).trans ?_
  rw [tableProduct5_apply (iblk2 V c 4 t) (iblk2 V c 5 t) p q, read_main_arg1 V c t p (0 : Fin 1),
    read_main_v18 V c t (0 : Fin 1) q]
  refine congrArg (HMul.hMul _) (Finset.sum_congr rfl fun k _ => ?_)
  rw [read_main_v81 V c t p k, read_main_arg11 V c t k q]

/-- Point t writes rows 2000·t … of (ci · mean) · (C · table) into output window 17. -/
theorem flushed_17 (c : Dev nD) (t : Fin cfg2.N) :
    (dat2 V c).flushed 17 t = ((cfg2.win 17).blk t).view.read (Elt Ideal) (frozen (R := 200000) (V c main_arg1) (V c main_v30) (V c main_v81) (V c main_arg13)) := by
  show (cfg2.win 17).cut (grid2.coords t) ((dat2 V c).after 17 t) = _
  rw [after2_17]
  unfold out2_17
  rw [View.canon_unit_zero zero_offsets]
  simp only [View.ld_unit_zero (S := S2000x1) zero_offsets, View.ld_unit_zero (S := S2000x5) zero_offsets, View.ld_unit_zero (S := S5x64) zero_offsets, View.ld_unit_zero (S := S1x64) zero_offsets]
  funext j
  obtain ⟨p, q, rfl⟩ : ∃ (p : Fin 2000) (q : Fin 64), j = ix2 p q := ⟨j 0, j 1, eq_ix2 j⟩
  show k2_pay3 (iblk2 V c 0 t) (k2_pay7 (iblk2 V c 4 t) (iblk2 V c 7 t)) (iblk2 V c 11 t) (ix2 p q)
    = frozen (R := 200000) (V c main_arg1) (V c main_v30) (V c main_v81) (V c main_arg13) (((cfg2.win 17).blk t).view.emb (ix2 p q))
  rw [blockEntry_17 t p q, frozen_apply, prod_apply]
  refine (frozenBlock3_apply (iblk2 V c 0 t) (k2_pay7 (iblk2 V c 4 t) (iblk2 V c 7 t)) (iblk2 V c 11 t) p q).trans ?_
  rw [tableProduct7_apply (iblk2 V c 4 t) (iblk2 V c 7 t) p q, read_main_arg1 V c t p (0 : Fin 1),
    read_main_v30 V c t (0 : Fin 1) q]
  refine congrArg (HMul.hMul _) (Finset.sum_congr rfl fun k _ => ?_)
  rw [read_main_v81 V c t p k, read_main_arg13 V c t k q]

/-- Point t writes rows 2000·t … of (ci · (mean₁ + mean₂)) · (C · table) into output window 13. -/
theorem flushed_13 (c : Dev nD) (t : Fin cfg2.N) :
    (dat2 V c).flushed 13 t = ((cfg2.win 13).blk t).view.read (Elt Ideal) (frozen2 (R := 200000) (V c main_arg1) (V c main_v26) (V c main_v22) (V c main_v81) (V c main_arg12)) := by
  show (cfg2.win 13).cut (grid2.coords t) ((dat2 V c).after 13 t) = _
  rw [after2_13]
  unfold out2_13
  rw [View.canon_unit_zero zero_offsets]
  simp only [View.ld_unit_zero (S := S2000x1) zero_offsets, View.ld_unit_zero (S := S2000x5) zero_offsets, View.ld_unit_zero (S := S5x64) zero_offsets, View.ld_unit_zero (S := S1x64) zero_offsets]
  funext j
  obtain ⟨p, q, rfl⟩ : ∃ (p : Fin 2000) (q : Fin 64), j = ix2 p q := ⟨j 0, j 1, eq_ix2 j⟩
  show k2_pay2 (iblk2 V c 0 t) (k2_pay6 (iblk2 V c 4 t) (iblk2 V c 6 t)) (iblk2 V c 9 t) (iblk2 V c 10 t) (ix2 p q)
    = frozen2 (R := 200000) (V c main_arg1) (V c main_v26) (V c main_v22) (V c main_v81) (V c main_arg12) (((cfg2.win 13).blk t).view.emb (ix2 p q))
  rw [blockEntry_13 t p q, frozen2_apply, prod_apply]
  refine (frozenBlock2_apply (iblk2 V c 0 t) (k2_pay6 (iblk2 V c 4 t) (iblk2 V c 6 t)) (iblk2 V c 9 t) (iblk2 V c 10 t) p q).trans ?_
  rw [tableProduct6_apply (iblk2 V c 4 t) (iblk2 V c 6 t) p q, read_main_arg1 V c t p (0 : Fin 1),
    read_main_v26 V c t (0 : Fin 1) q, read_main_v22 V c t (0 : Fin 1) q]
  refine congrArg (HMul.hMul _) (Finset.sum_congr rfl fun k _ => ?_)
  rw [read_main_v81 V c t p k, read_main_arg12 V c t k q]

/-! ## Every entry of an output array lies in some point's block -/

/-- An entry is in point t's block of output window 12 iff each coordinate is in the block's range on its axis. -/
theorem mem_block_12 (t : Fin cfg2.N) (i : S200000x64.Idx) :
    i ∈ ((cfg2.win 12).blk t).view.set ↔ ∀ a : Fin 2, win2_12.index t a * S2000x64.size a ≤ (i a).val
      ∧ (i a).val < win2_12.index t a * S2000x64.size a + S2000x64.size a := by
  show i ∈ ((View.whole main_v82_0).slice (win2_12.rect t)).set ↔ _
  rw [View.set_slice_whole, Rect.mem_set_unit]
  exact Iff.rfl

/-- Row r of output window 12 is in the block of point r / 2000, which writes back. -/
theorem covered_12 (i : S200000x64.Idx) :
    ∃ t : Fin cfg2.N, (cfg2.win 12).flush t = true ∧ i ∈ ((cfg2.win 12).blk t).view.set := by
  have hi0 : (i 0).val < 200000 := (i 0).isLt
  have hi1 : (i 1).val < 64 := (i 1).isLt
  obtain ⟨t, ht⟩ : ∃ t : Fin cfg2.N, t.val = (i 0).val / 2000 := ⟨⟨(i 0).val / 2000, by show _ < 100; omega⟩, rfl⟩
  refine ⟨t, flush2_12 t, ?_⟩
  rw [mem_block_12]
  intro a
  match a with
  | ⟨0, _⟩ =>
    show win2_12.index t (0 : Fin 2) * 2000 ≤ (i 0).val ∧ (i 0).val < win2_12.index t (0 : Fin 2) * 2000 + 2000
    rw [(blockIndex_12 t).1]; omega
  | ⟨1, _⟩ =>
    show win2_12.index t (1 : Fin 2) * 64 ≤ (i 1).val ∧ (i 1).val < win2_12.index t (1 : Fin 2) * 64 + 64
    rw [(blockIndex_12 t).2]; omega

/-- An entry is in point t's block of output window 13 iff each coordinate is in the block's range on its axis. -/
theorem mem_block_13 (t : Fin cfg2.N) (i : S200000x64.Idx) :
    i ∈ ((cfg2.win 13).blk t).view.set ↔ ∀ a : Fin 2, win2_13.index t a * S2000x64.size a ≤ (i a).val
      ∧ (i a).val < win2_13.index t a * S2000x64.size a + S2000x64.size a := by
  show i ∈ ((View.whole main_v82_1).slice (win2_13.rect t)).set ↔ _
  rw [View.set_slice_whole, Rect.mem_set_unit]
  exact Iff.rfl

/-- Row r of output window 13 is in the block of point r / 2000, which writes back. -/
theorem covered_13 (i : S200000x64.Idx) :
    ∃ t : Fin cfg2.N, (cfg2.win 13).flush t = true ∧ i ∈ ((cfg2.win 13).blk t).view.set := by
  have hi0 : (i 0).val < 200000 := (i 0).isLt
  have hi1 : (i 1).val < 64 := (i 1).isLt
  obtain ⟨t, ht⟩ : ∃ t : Fin cfg2.N, t.val = (i 0).val / 2000 := ⟨⟨(i 0).val / 2000, by show _ < 100; omega⟩, rfl⟩
  refine ⟨t, flush2_13 t, ?_⟩
  rw [mem_block_13]
  intro a
  match a with
  | ⟨0, _⟩ =>
    show win2_13.index t (0 : Fin 2) * 2000 ≤ (i 0).val ∧ (i 0).val < win2_13.index t (0 : Fin 2) * 2000 + 2000
    rw [(blockIndex_13 t).1]; omega
  | ⟨1, _⟩ =>
    show win2_13.index t (1 : Fin 2) * 64 ≤ (i 1).val ∧ (i 1).val < win2_13.index t (1 : Fin 2) * 64 + 64
    rw [(blockIndex_13 t).2]; omega

/-- An entry is in point t's block of output window 14 iff each coordinate is in the block's range on its axis. -/
theorem mem_block_14 (t : Fin cfg2.N) (i : S200000x64.Idx) :
    i ∈ ((cfg2.win 14).blk t).view.set ↔ ∀ a : Fin 2, win2_14.index t a * S2000x64.size a ≤ (i a).val
      ∧ (i a).val < win2_14.index t a * S2000x64.size a + S2000x64.size a := by
  show i ∈ ((View.whole main_v82_2).slice (win2_14.rect t)).set ↔ _
  rw [View.set_slice_whole, Rect.mem_set_unit]
  exact Iff.rfl

/-- Row r of output window 14 is in the block of point r / 2000, which writes back. -/
theorem covered_14 (i : S200000x64.Idx) :
    ∃ t : Fin cfg2.N, (cfg2.win 14).flush t = true ∧ i ∈ ((cfg2.win 14).blk t).view.set := by
  have hi0 : (i 0).val < 200000 := (i 0).isLt
  have hi1 : (i 1).val < 64 := (i 1).isLt
  obtain ⟨t, ht⟩ : ∃ t : Fin cfg2.N, t.val = (i 0).val / 2000 := ⟨⟨(i 0).val / 2000, by show _ < 100; omega⟩, rfl⟩
  refine ⟨t, flush2_14 t, ?_⟩
  rw [mem_block_14]
  intro a
  match a with
  | ⟨0, _⟩ =>
    show win2_14.index t (0 : Fin 2) * 2000 ≤ (i 0).val ∧ (i 0).val < win2_14.index t (0 : Fin 2) * 2000 + 2000
    rw [(blockIndex_14 t).1]; omega
  | ⟨1, _⟩ =>
    show win2_14.index t (1 : Fin 2) * 64 ≤ (i 1).val ∧ (i 1).val < win2_14.index t (1 : Fin 2) * 64 + 64
    rw [(blockIndex_14 t).2]; omega

/-- An entry is in point t's block of output window 15 iff each coordinate is in the block's range on its axis. -/
theorem mem_block_15 (t : Fin cfg2.N) (i : S200000x64.Idx) :
    i ∈ ((cfg2.win 15).blk t).view.set ↔ ∀ a : Fin 2, win2_15.index t a * S2000x64.size a ≤ (i a).val
      ∧ (i a).val < win2_15.index t a * S2000x64.size a + S2000x64.size a := by
  show i ∈ ((View.whole main_v82_3).slice (win2_15.rect t)).set ↔ _
  rw [View.set_slice_whole, Rect.mem_set_unit]
  exact Iff.rfl

/-- Row r of output window 15 is in the block of point r / 2000, which writes back. -/
theorem covered_15 (i : S200000x64.Idx) :
    ∃ t : Fin cfg2.N, (cfg2.win 15).flush t = true ∧ i ∈ ((cfg2.win 15).blk t).view.set := by
  have hi0 : (i 0).val < 200000 := (i 0).isLt
  have hi1 : (i 1).val < 64 := (i 1).isLt
  obtain ⟨t, ht⟩ : ∃ t : Fin cfg2.N, t.val = (i 0).val / 2000 := ⟨⟨(i 0).val / 2000, by show _ < 100; omega⟩, rfl⟩
  refine ⟨t, flush2_15 t, ?_⟩
  rw [mem_block_15]
  intro a
  match a with
  | ⟨0, _⟩ =>
    show win2_15.index t (0 : Fin 2) * 2000 ≤ (i 0).val ∧ (i 0).val < win2_15.index t (0 : Fin 2) * 2000 + 2000
    rw [(blockIndex_15 t).1]; omega
  | ⟨1, _⟩ =>
    show win2_15.index t (1 : Fin 2) * 64 ≤ (i 1).val ∧ (i 1).val < win2_15.index t (1 : Fin 2) * 64 + 64
    rw [(blockIndex_15 t).2]; omega

/-- An entry is in point t's block of output window 16 iff each coordinate is in the block's range on its axis. -/
theorem mem_block_16 (t : Fin cfg2.N) (i : S200000x64.Idx) :
    i ∈ ((cfg2.win 16).blk t).view.set ↔ ∀ a : Fin 2, win2_16.index t a * S2000x64.size a ≤ (i a).val
      ∧ (i a).val < win2_16.index t a * S2000x64.size a + S2000x64.size a := by
  show i ∈ ((View.whole main_v82_4).slice (win2_16.rect t)).set ↔ _
  rw [View.set_slice_whole, Rect.mem_set_unit]
  exact Iff.rfl

/-- Row r of output window 16 is in the block of point r / 2000, which writes back. -/
theorem covered_16 (i : S200000x64.Idx) :
    ∃ t : Fin cfg2.N, (cfg2.win 16).flush t = true ∧ i ∈ ((cfg2.win 16).blk t).view.set := by
  have hi0 : (i 0).val < 200000 := (i 0).isLt
  have hi1 : (i 1).val < 64 := (i 1).isLt
  obtain ⟨t, ht⟩ : ∃ t : Fin cfg2.N, t.val = (i 0).val / 2000 := ⟨⟨(i 0).val / 2000, by show _ < 100; omega⟩, rfl⟩
  refine ⟨t, flush2_16 t, ?_⟩
  rw [mem_block_16]
  intro a
  match a with
  | ⟨0, _⟩ =>
    show win2_16.index t (0 : Fin 2) * 2000 ≤ (i 0).val ∧ (i 0).val < win2_16.index t (0 : Fin 2) * 2000 + 2000
    rw [(blockIndex_16 t).1]; omega
  | ⟨1, _⟩ =>
    show win2_16.index t (1 : Fin 2) * 64 ≤ (i 1).val ∧ (i 1).val < win2_16.index t (1 : Fin 2) * 64 + 64
    rw [(blockIndex_16 t).2]; omega

/-- An entry is in point t's block of output window 17 iff each coordinate is in the block's range on its axis. -/
theorem mem_block_17 (t : Fin cfg2.N) (i : S200000x64.Idx) :
    i ∈ ((cfg2.win 17).blk t).view.set ↔ ∀ a : Fin 2, win2_17.index t a * S2000x64.size a ≤ (i a).val
      ∧ (i a).val < win2_17.index t a * S2000x64.size a + S2000x64.size a := by
  show i ∈ ((View.whole main_v82_5).slice (win2_17.rect t)).set ↔ _
  rw [View.set_slice_whole, Rect.mem_set_unit]
  exact Iff.rfl

/-- Row r of output window 17 is in the block of point r / 2000, which writes back. -/
theorem covered_17 (i : S200000x64.Idx) :
    ∃ t : Fin cfg2.N, (cfg2.win 17).flush t = true ∧ i ∈ ((cfg2.win 17).blk t).view.set := by
  have hi0 : (i 0).val < 200000 := (i 0).isLt
  have hi1 : (i 1).val < 64 := (i 1).isLt
  obtain ⟨t, ht⟩ : ∃ t : Fin cfg2.N, t.val = (i 0).val / 2000 := ⟨⟨(i 0).val / 2000, by show _ < 100; omega⟩, rfl⟩
  refine ⟨t, flush2_17 t, ?_⟩
  rw [mem_block_17]
  intro a
  match a with
  | ⟨0, _⟩ =>
    show win2_17.index t (0 : Fin 2) * 2000 ≤ (i 0).val ∧ (i 0).val < win2_17.index t (0 : Fin 2) * 2000 + 2000
    rw [(blockIndex_17 t).1]; omega
  | ⟨1, _⟩ =>
    show win2_17.index t (1 : Fin 2) * 64 ≤ (i 1).val ∧ (i 1).val < win2_17.index t (1 : Fin 2) * 64 + 64
    rw [(blockIndex_17 t).2]; omega

/-! ## The output arrays after the last point -/

/-- The first plain output is the main segment sums scaled by the node scale. -/
theorem final12 (c : Dev nD) :
    (dat2 V c).arrAt 12 cfg2.N = RegionFns.rowScaled (V c main_v59) (V c main_arg1) :=
  (dat2 V c).arrAt_eq_of_cover 12 _ (fun t _ => flushed_12 V c t) covered_12

/-- The frozen-mean output of the main stream: (ci · (f2 mean + rf2 mean)) · (C · second table). -/
theorem final13 (c : Dev nD) :
    (dat2 V c).arrAt 13 cfg2.N
      = RegionFns.frozen2 (V c main_arg1) (V c main_v26) (V c main_v22) (V c main_v81) (V c main_arg12) :=
  (dat2 V c).arrAt_eq_of_cover 13 _ (fun t _ => flushed_13 V c t) covered_13

/-- The second plain output is the review-stream segment sums scaled by the node scale. -/
theorem final14 (c : Dev nD) :
    (dat2 V c).arrAt 14 cfg2.N = RegionFns.rowScaled (V c main_v56) (V c main_arg1) :=
  (dat2 V c).arrAt_eq_of_cover 14 _ (fun t _ => flushed_14 V c t) covered_14

/-- The third plain output is the identity-stream segment sums scaled by the node scale. -/
theorem final15 (c : Dev nD) :
    (dat2 V c).arrAt 15 cfg2.N = RegionFns.rowScaled (V c main_v62) (V c main_arg1) :=
  (dat2 V c).arrAt_eq_of_cover 15 _ (fun t _ => flushed_15 V c t) covered_15

/-- The frozen-mean output of the review stream: (ci · rf3 mean) · (C · first table). -/
theorem final16 (c : Dev nD) :
    (dat2 V c).arrAt 16 cfg2.N = RegionFns.frozen (V c main_arg1) (V c main_v18) (V c main_v81) (V c main_arg11) :=
  (dat2 V c).arrAt_eq_of_cover 16 _ (fun t _ => flushed_16 V c t) covered_16

/-- The frozen-mean output of the identity stream: (ci · f3 mean) · (C · third table). -/
theorem final17 (c : Dev nD) :
    (dat2 V c).arrAt 17 cfg2.N = RegionFns.frozen (V c main_arg1) (V c main_v30) (V c main_v81) (V c main_arg13) :=
  (dat2 V c).arrAt_eq_of_cover 17 _ (fun t _ => flushed_17 V c t) covered_17

end Cert.KernelIdeal.Region2

end
-- ==== Proof.KernelChain2.lean ====
/-
  The three segment sums, the label-wise sums of the source scales, the means carried along, and the node-combine
  kernel's six outputs.
-/
import proofs.«418387_j86114094284913_3_alg».proof.Proof.KernelChain1
import proofs.«418387_j86114094284913_3_alg».proof.Proof.KernelRegion2

set_option maxRecDepth 16384
set_option Elab.async false

noncomputable section

namespace Cert.KernelIdeal.Chain

open Idealize.ShloMosaic Idealize.ShloMosaic.TcCoe Idealize.SL.Sem Idealize.ShloMosaic.StableHlo
open Cert.KernelIdeal Cert.KernelIdeal.Gen Cert.Dataflow

variable (m : (ℓ : Loc nD τ sig) → Buf (Elt Ideal) ℓ) (ρ : Dev nD → PrngReg)

/-! ## The segment sums, the label-wise scale sums, and the means carried along -/

theorem entry2_segRe (c : Dev nD) : W5 m ρ c (Proc.devRef .tc main_v56) = segSum64 (inp m ρ c) (K.msgRe (inp m ρ c)) := by
  show StableHlo.after hostOps2 (W4 m ρ c) (Proc.devRef .tc main_v56) = _
  after_results_simp
  rw [exit1_re, dst4]; rfl

theorem entry2_segMain (c : Dev nD) : W5 m ρ c (Proc.devRef .tc main_v59) = segSum64 (inp m ρ c) (K.msgMain (inp m ρ c)) := by
  show StableHlo.after hostOps2 (W4 m ρ c) (Proc.devRef .tc main_v59) = _
  after_results_simp
  rw [exit1_main, dst4]; rfl

theorem entry2_segId (c : Dev nD) : W5 m ρ c (Proc.devRef .tc main_v62) = segSum64 (inp m ρ c) (K.msgId (inp m ρ c)) := by
  show StableHlo.after hostOps2 (W4 m ρ c) (Proc.devRef .tc main_v62) = _
  after_results_simp
  rw [exit1_id, dst4]; rfl

theorem entry2_C (c : Dev nD) : W5 m ρ c (Proc.devRef .tc main_v81) = K.C (inp m ρ c) := by
  show StableHlo.after hostOps2 (W4 m ρ c) (Proc.devRef .tc main_v81) = _
  after_results_simp
  rw [score4, src4, ci4, dst4]; rfl

theorem carried_5 (c : Dev nD) (b : Ref sig .tc) (h3 : ∀ w, Pipeline.arrRef spec1 w ≠ b)
    (h5 : StableHlo.after hostOps2 (W4 m ρ c) (Proc.devRef .tc b) = W4 m ρ c (Proc.devRef .tc b)) :
    W5 m ρ c (Proc.devRef .tc b) = W3 m ρ c (Proc.devRef .tc b) :=
  h5.trans (W4_of_ne m ρ c b h3)

theorem mean_rfe3_5 (c : Dev nD) : W5 m ρ c (Proc.devRef .tc main_v18) = meanRows (K.rfe3 (inp m ρ c)) :=
  (carried_5 m ρ c main_v18 (by decide) (by after_results_simp)).trans (mean_rfe3_3 m ρ c)
theorem mean_rfe2_5 (c : Dev nD) : W5 m ρ c (Proc.devRef .tc main_v22) = meanRows (K.rfe2 (inp m ρ c)) :=
  (carried_5 m ρ c main_v22 (by decide) (by after_results_simp)).trans (mean_rfe2_3 m ρ c)
theorem mean_f2_5 (c : Dev nD) : W5 m ρ c (Proc.devRef .tc main_v26) = meanRows (inp m ρ c).f2 :=
  (carried_5 m ρ c main_v26 (by decide) (by after_results_simp)).trans (mean_f2_3 m ρ c)
theorem mean_f3_5 (c : Dev nD) : W5 m ρ c (Proc.devRef .tc main_v30) = meanRows (inp m ρ c).f3 :=
  (carried_5 m ρ c main_v30 (by decide) (by after_results_simp)).trans (mean_f3_3 m ρ c)

/-! ## The node-combine kernel -/

theorem exit2_rst (c : Dev nD) : W6 m ρ c (Proc.devRef .tc main_v82_0) = K.rst (inp m ρ c) := by
  refine (W6_arr m ρ c 12).trans ?_
  rw [Region2.final12 (V5 m ρ) c]
  show RegionFns.rowScaled (W5 m ρ c (Proc.devRef .tc main_v59)) (W5 m ρ c (Proc.devRef .tc main_arg1)) = _
  rw [entry2_segMain, ci5]; rfl

theorem exit2_rstFreeze (c : Dev nD) : W6 m ρ c (Proc.devRef .tc main_v82_1) = K.rstFreeze (inp m ρ c) := by
  refine (W6_arr m ρ c 13).trans ?_
  rw [Region2.final13 (V5 m ρ) c]
  show RegionFns.frozen2 (W5 m ρ c (Proc.devRef .tc main_arg1)) (W5 m ρ c (Proc.devRef .tc main_v26)) (W5 m ρ c (Proc.devRef .tc main_v22)) (W5 m ρ c (Proc.devRef .tc main_v81)) (W5 m ρ c (Proc.devRef .tc main_arg12)) = _
  rw [ci5, mean_f2_5, mean_rfe2_5, entry2_C, E25]; rfl

theorem exit2_rstRe (c : Dev nD) : W6 m ρ c (Proc.devRef .tc main_v82_2) = K.rstRe (inp m ρ c) := by
  refine (W6_arr m ρ c 14).trans ?_
  rw [Region2.final14 (V5 m ρ) c]
  show RegionFns.rowScaled (W5 m ρ c (Proc.devRef .tc main_v56)) (W5 m ρ c (Proc.devRef .tc main_arg1)) = _
  rw [entry2_segRe, ci5]; rfl

theorem exit2_rstId (c : Dev nD) : W6 m ρ c (Proc.devRef .tc main_v82_3) = K.rstId (inp m ρ c) := by
  refine (W6_arr m ρ c 15).trans ?_
  rw [Region2.final15 (V5 m ρ) c]
  show RegionFns.rowScaled (W5 m ρ c (Proc.devRef .tc main_v62)) (W5 m ρ c (Proc.devRef .tc main_arg1)) = _
  rw [entry2_segId, ci5]; rfl

theorem exit2_rstReFreeze (c : Dev nD) : W6 m ρ c (Proc.devRef .tc main_v82_4) = K.rstReFreeze (inp m ρ c) := by
  refine (W6_arr m ρ c 16).trans ?_
  rw [Region2.final16 (V5 m ρ) c]
  show RegionFns.frozen (W5 m ρ c (Proc.devRef .tc main_arg1)) (W5 m ρ c (Proc.devRef .tc main_v18)) (W5 m ρ c (Proc.devRef .tc main_v81)) (W5 m ρ c (Proc.devRef .tc main_arg11)) = _
  rw [ci5, mean_rfe3_5, entry2_C, E15]; rfl

theorem exit2_rstIdFreeze (c : Dev nD) : W6 m ρ c (Proc.devRef .tc main_v82_5) = K.rstIdFreeze (inp m ρ c) := by
  refine (W6_arr m ρ c 17).trans ?_
  rw [Region2.final17 (V5 m ρ) c]
  show RegionFns.frozen (W5 m ρ c (Proc.devRef .tc main_arg1)) (W5 m ρ c (Proc.devRef .tc main_v30)) (W5 m ρ c (Proc.devRef .tc main_v81)) (W5 m ρ c (Proc.devRef .tc main_arg13)) = _
  rw [ci5, mean_f3_5, entry2_C, E35]; rfl

end Cert.KernelIdeal.Chain

end
-- ==== Proof.PredictorFn.lean ====
/-
  The rating predictor as a whole-array function, entry by entry.

  A row b of the two embedding tables gives the feature vector ue(b, ·) ⊙ ie(b, ·). The first layer sends it through
  the weight p1 and adds the bias b1; the activation keeps a positive entry and scales any other by the constant
  one tenth (kept as its 32-bit word, never evaluated); the second layer sends the activated row through p2 and adds b2:
    hidden(b, k)  = (∑ⱼ (ue(b, j) · ie(b, j)) · p1(j, k)) + b1(k),
    predict(b, q) = (∑ₖ leaky(hidden(b, k)) · p2(k, q)) + b2(q).
  Row b of the result reads only row b of ue and ie, so a block of rows of the result is the same function of the same
  block of rows of ue and ie (`predict_rows`).
-/
import Idealize.ShloMosaic.PureOps.Ideal
import Idealize.ShloMosaic.Lib.ValueIdx

noncomputable section

namespace Cert.PredictorFn

open Idealize.ShloMosaic Idealize.ShloMosaic.ValueIdx
open scoped BigOperators

/-- A matrix of extended reals with a rows and b columns. -/
abbrev Mat (a b : ℕ) : Type := (⟨2, ![a, b]⟩ : Shape).Idx → EReal
/-- A vector of a extended reals. -/
abbrev Vec1 (a : ℕ) : Type := (⟨1, ![a]⟩ : Shape).Idx → EReal

/-- The activation: x where x is above zero, one tenth of x elsewhere. The comparison is the ordered "greater than"
    against the zero word, and one tenth is the 32-bit word 0x3DCCCCCD read as an extended real. -/
def leaky (x : EReal) : EReal :=
  Scalar.select (FloatOps.cmpf (F := Ideal) (φ := .f32) .ogt x (Ideal.ofBits .f32 0x00000000#32)) x
    (Ideal.ofBits .f32 0x3DCCCCCD#32 * x)

/-- The activation as a case split on the sign: the ordered comparison on the extended reals is the order's. -/
theorem leaky_eq (x : EReal) :
    leaky x = if Ideal.ofBits .f32 0x00000000#32 < x then x else Ideal.ofBits .f32 0x3DCCCCCD#32 * x := by
  unfold leaky Scalar.select
  show (if Ideal.cmp .ogt x (Ideal.ofBits .f32 0x00000000#32) = 1 then _ else _) = _
  unfold Ideal.cmp
  by_cases h : Ideal.ofBits .f32 0x00000000#32 < x
  · rw [if_pos h, if_pos (by simp [h])]
  · rw [if_neg h, if_neg (by simp [h])]

/-- Entry (b, k) of the first layer: (∑ⱼ (ue(b, j) · ie(b, j)) · p1(j, k)) + b1(k). -/
def hiddenAt {R : ℕ} (ue ie : Mat R 64) (p1 : Mat 64 64) (b1 : Vec1 64) (b : Fin R) (k : Fin 64) : EReal :=
  (∑ j : Fin 64, (ue (ix2 b j) * ie (ix2 b j)) * p1 (ix2 j k)) + b1 (ix1 k)

/-- The first layer. -/
def hidden {R : ℕ} (ue ie : Mat R 64) (p1 : Mat 64 64) (b1 : Vec1 64) : Mat R 64 :=
  fun i => hiddenAt ue ie p1 b1 (i 0) (i 1)

theorem hidden_apply {R : ℕ} (ue ie : Mat R 64) (p1 : Mat 64 64) (b1 : Vec1 64) (b : Fin R) (k : Fin 64) :
    hidden ue ie p1 b1 (ix2 b k) = (∑ j : Fin 64, (ue (ix2 b j) * ie (ix2 b j)) * p1 (ix2 j k)) + b1 (ix1 k) := rfl

/-- Entry (b, q) of the prediction: (∑ₖ leaky(hidden(b, k)) · p2(k, q)) + b2(q). -/
def predictAt {R : ℕ} (ue ie : Mat R 64) (p1 : Mat 64 64) (b1 : Vec1 64) (p2 : Mat 64 5) (b2 : Vec1 5)
    (b : Fin R) (q : Fin 5) : EReal :=
  (∑ k : Fin 64, leaky (hidden ue ie p1 b1 (ix2 b k)) * p2 (ix2 k q)) + b2 (ix1 q)

/-- The prediction. -/
def predict {R : ℕ} (ue ie : Mat R 64) (p1 : Mat 64 64) (b1 : Vec1 64) (p2 : Mat 64 5) (b2 : Vec1 5) : Mat R 5 :=
  fun i => predictAt ue ie p1 b1 p2 b2 (i 0) (i 1)

theorem predict_apply {R : ℕ} (ue ie : Mat R 64) (p1 : Mat 64 64) (b1 : Vec1 64) (p2 : Mat 64 5) (b2 : Vec1 5)
    (b : Fin R) (q : Fin 5) :
    predict ue ie p1 b1 p2 b2 (ix2 b q)
      = (∑ k : Fin 64, leaky (hidden ue ie p1 b1 (ix2 b k)) * p2 (ix2 k q)) + b2 (ix1 q) := rfl

/-- Row b of the first layer reads only row b of the two tables: two pairs of tables that agree on a row (row b of one
    pair, row b' of the other) give the same row of the first layer. -/
theorem hidden_rows {R R' : ℕ} (ue ie : Mat R 64) (ue' ie' : Mat R' 64) (p1 : Mat 64 64) (b1 : Vec1 64)
    (b : Fin R) (b' : Fin R') (hue : ∀ j : Fin 64, ue (ix2 b j) = ue' (ix2 b' j))
    (hie : ∀ j : Fin 64, ie (ix2 b j) = ie' (ix2 b' j)) (k : Fin 64) :
    hidden ue ie p1 b1 (ix2 b k) = hidden ue' ie' p1 b1 (ix2 b' k) := by
  rw [hidden_apply, hidden_apply]
  exact congrArg (· + b1 (ix1 k)) (Finset.sum_congr rfl fun j _ => by rw [hue j, hie j])

/-- The same for the prediction. -/
theorem predict_rows {R R' : ℕ} (ue ie : Mat R 64) (ue' ie' : Mat R' 64) (p1 : Mat 64 64) (b1 : Vec1 64)
    (p2 : Mat 64 5) (b2 : Vec1 5) (b : Fin R) (b' : Fin R') (hue : ∀ j : Fin 64, ue (ix2 b j) = ue' (ix2 b' j))
    (hie : ∀ j : Fin 64, ie (ix2 b j) = ie' (ix2 b' j)) (q : Fin 5) :
    predict ue ie p1 b1 p2 b2 (ix2 b q) = predict ue' ie' p1 b1 p2 b2 (ix2 b' q) := by
  rw [predict_apply, predict_apply]
  exact congrArg (· + b2 (ix1 q)) (Finset.sum_congr rfl fun k _ => by
    rw [hidden_rows ue ie ue' ie' p1 b1 b b' hue hie k])

end Cert.PredictorFn

end
-- ==== Proof.KernelRegion3.lean ====
/-
  What the predictor kernel leaves in its two output arrays, as whole-array functions of its input arrays.

  The kernel walks four blocks of 2048 rows. At a block it reads the same 2048 rows of the user embeddings and of the two
  item embeddings, and the two weight matrices and the two biases whole; it writes 2048 rows of each rating head. Row r of
  a head depends only on row r of the embeddings, so each head is the prediction function of the whole arrays:
  the first head of the user and item embeddings, the second of the user and the frozen item embeddings.
  The steps: the body's arithmetic on blocks is the prediction function of the blocks, entry by entry; block t of an
  embedding array is its rows 2048 t … 2048 t + 2047 and a small input's block is the input; so what point t writes back
  is block t of the prediction of the arrays; the four blocks cover the 8192 rows.
-/
import proofs.«418387_j86114094284913_3_alg».proof.Proof.Gen.KernelIdeal.Frame
import proofs.«418387_j86114094284913_3_alg».proof.Proof.PredictorFn
import proofs.«418387_j86114094284913_3_alg».proof.Proof.LibPlainMatmul
import proofs.«418387_j86114094284913_3_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Cert.PredictorFn
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The body's arithmetic on blocks -/

/-- The first layer of a block of 2048 rows, at an entry. -/
theorem hiddenBlock_apply (x0 x2 : Vec Ideal S2048x64 .f32) (x3 : Vec Ideal S64x64 .f32) (x4 : Vec Ideal S64 .f32)
    (p : Fin 2048) (k : Fin 64) :
    k3_pay6 (F := Ideal) x0 x2 x3 x4 (ix2 p k) = hidden x0 x2 x3 x4 (ix2 p k) := by
  unfold k3_pay6 k3_pay2 k3_pay3
  simp only [shapeCast_self]
  rw [hidden_apply]
  refine (addf_apply _ _ _).trans ?_
  refine congrArg₂ (· + ·) ?_ ?_
  · refine (Cert.LibPlainMatmul.matmul_zero_apply 2048 64 64 none _ _ p k).trans ?_
    exact Finset.sum_congr rfl fun j _ => rfl
  · refine (broadcastTo_1b_ab_apply _ _ p k).trans ?_
    exact shapeCast_a_1a_apply x4 _ 0 k

/-- The second layer of a block of 2048 rows over any first-layer block h, at an entry. -/
theorem outputBlock_apply (x5 : Vec Ideal S64x5 .f32) (x6 : Vec Ideal S5 .f32) (h : FVec Ideal S2048x64 .f32)
    (p : Fin 2048) (q : Fin 5) :
    k3_pay1 (F := Ideal) (k3_pay4 x5) x6 h (k3_pay7 (F := Ideal)) (ix2 p q)
      = (∑ k : Fin 64, leaky (h (ix2 p k)) * x5 (ix2 k q)) + x6 (ix1 q) := by
  unfold k3_pay1 k3_pay4 k3_pay7
  simp only [shapeCast_self]
  refine (addf_apply _ _ _).trans ?_
  refine congrArg₂ (· + ·) ?_ ?_
  · refine (Cert.LibPlainMatmul.matmul_zero_apply 2048 64 5 none _ _ p q).trans ?_
    exact Finset.sum_congr rfl fun k _ => rfl
  · refine (broadcastTo_1b_ab_apply _ _ p q).trans ?_
    exact shapeCast_a_1a_apply x6 _ 0 q

/-- The first head's payload is the second layer over the first layer of the same blocks. -/
theorem pay5_eq (x0 x1 : Vec Ideal S2048x64 .f32) (x3 : Vec Ideal S64x64 .f32) (x5 : Vec Ideal S64x5 .f32)
    (x4 : Vec Ideal S64 .f32) (x6 : Vec Ideal S5 .f32) :
    k3_pay5 (F := Ideal) x0 x1 x3 x5 x4 x6 = k3_pay1 (k3_pay4 x5) x6 (k3_pay6 x0 x1 x3 x4) (k3_pay7 (F := Ideal)) := rfl

/-- Both layers of a block of 2048 rows, at an entry: the prediction of the blocks. -/
theorem predictBlock_apply (x0 x1 : Vec Ideal S2048x64 .f32) (x3 : Vec Ideal S64x64 .f32) (x4 : Vec Ideal S64 .f32)
    (x5 : Vec Ideal S64x5 .f32) (x6 : Vec Ideal S5 .f32) (p : Fin 2048) (q : Fin 5) :
    k3_pay1 (F := Ideal) (k3_pay4 x5) x6 (k3_pay6 x0 x1 x3 x4) (k3_pay7 (F := Ideal)) (ix2 p q)
      = predict x0 x1 x3 x4 x5 x6 (ix2 p q) := by
  rw [predict_apply]
  refine (outputBlock_apply x5 x6 _ p q).trans ?_
  refine congrArg (· + x6 (ix1 q)) (Finset.sum_congr rfl fun k _ => ?_)
  rw [hiddenBlock_apply]

/-- Two predictions agree at a pair of rows when the embeddings agree on those rows and the small inputs are equal. -/
theorem predict_congr_rows {R R' : ℕ} (ue ie : Mat R 64) (ue' ie' : Mat R' 64) (p1 p1' : Mat 64 64) (b1 b1' : Vec1 64)
    (p2 p2' : Mat 64 5) (b2 b2' : Vec1 5) (b : Fin R) (b' : Fin R')
    (hue : ∀ j : Fin 64, ue (ix2 b j) = ue' (ix2 b' j)) (hie : ∀ j : Fin 64, ie (ix2 b j) = ie' (ix2 b' j))
    (hp1 : p1 = p1') (hb1 : b1 = b1') (hp2 : p2 = p2') (hb2 : b2 = b2') (q : Fin 5) :
    predict ue ie p1 b1 p2 b2 (ix2 b q) = predict ue' ie' p1' b1' p2' b2' (ix2 b' q) := by
  subst hp1 hb1 hp2 hb2
  exact predict_rows ue ie ue' ie' p1 b1 p2 b2 b b' hue hie q

/-! ## The blocks as parts of the arrays -/

theorem zeros2 : (![0, 0] : Fin 2 → Nat) = fun _ => 0 := funext fun a => by fin_cases a <;> rfl
theorem zeros1 : (![0] : Fin 1 → Nat) = fun _ => 0 := funext fun a => by fin_cases a; rfl

/-- The index maps over the four grid points: a row-blocked window is at block (t, 0), a whole window at block 0. -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- Row p of block t is row 2048 t + p of the array. -/
def rowOf (t : Fin cfg3.N) (p : Fin 2048) : Fin 8192 :=
  ⟨t.val * 2048 + p.val, by have := t.isLt; have hN : cfg3.N = 4 := N_3; have := p.isLt; omega⟩

theorem rowOf_val (t : Fin cfg3.N) (p : Fin 2048) : (rowOf t p).val = t.val * 2048 + p.val := rfl

/-- Block t of the user embeddings is their rows 2048 t …. -/
theorem ueBlock_apply (c : Dev nD) (t : Fin cfg3.N) (p : Fin 2048) (j : Fin 64) :
    (iblk3 V c 0 t : Vec Ideal S2048x64 .f32) (ix2 p j) = (V c main_v89 : Vec Ideal S8192x64 .f32) (ix2 (rowOf t p) j) := by
  show V c main_v89 (((cfg3.win 0).blk t).view.emb (ix2 p j)) = V c main_v89 (ix2 (rowOf t p) j)
  refine congrArg (V c main_v89) (funext fun a => Fin.ext ?_)
  obtain ⟨e0, e1, -⟩ := index_facts t
  match a with
  | ⟨0, _⟩ => show win3_0.index t (0 : Fin 2) * 2048 + 1 * p.val = t.val * 2048 + p.val; omega
  | ⟨1, _⟩ => show win3_0.index t (1 : Fin 2) * 64 + 1 * j.val = j.val; omega

/-- Block t of the item embeddings is their rows 2048 t …. -/
theorem ieBlock_apply (c : Dev nD) (t : Fin cfg3.N) (p : Fin 2048) (j : Fin 64) :
    (iblk3 V c 1 t : Vec Ideal S2048x64 .f32) (ix2 p j) = (V c main_v96 : Vec Ideal S8192x64 .f32) (ix2 (rowOf t p) j) := by
  show V c main_v96 (((cfg3.win 1).blk t).view.emb (ix2 p j)) = V c main_v96 (ix2 (rowOf t p) j)
  refine congrArg (V c main_v96) (funext fun a => Fin.ext ?_)
  obtain ⟨-, -, e0, e1, -⟩ := index_facts t
  match a with
  | ⟨0, _⟩ => show win3_1.index t (0 : Fin 2) * 2048 + 1 * p.val = t.val * 2048 + p.val; omega
  | ⟨1, _⟩ => show win3_1.index t (1 : Fin 2) * 64 + 1 * j.val = j.val; omega

/-- Block t of the frozen item embeddings is their rows 2048 t …. -/
theorem ieFrozenBlock_apply (c : Dev nD) (t : Fin cfg3.N) (p : Fin 2048) (j : Fin 64) :
    (iblk3 V c 2 t : Vec Ideal S2048x64 .f32) (ix2 p j) = (V c main_v103 : Vec Ideal S8192x64 .f32) (ix2 (rowOf t p) j) := by
  show V c main_v103 (((cfg3.win 2).blk t).view.emb (ix2 p j)) = V c main_v103 (ix2 (rowOf t p) j)
  refine congrArg (V c main_v103) (funext fun a => Fin.ext ?_)
  obtain ⟨-, -, -, -, e0, e1, -⟩ := index_facts t
  match a with
  | ⟨0, _⟩ => show win3_2.index t (0 : Fin 2) * 2048 + 1 * p.val = t.val * 2048 + p.val; omega
  | ⟨1, _⟩ => show win3_2.index t (1 : Fin 2) * 64 + 1 * j.val = j.val; omega

/-- The first weight's block is the weight, at every point. -/
theorem weight1Block_eq (c : Dev nD) (t : Fin cfg3.N) :
    (iblk3 V c 3 t : Vec Ideal S64x64 .f32) = (V c main_v104 : Vec Ideal S64x64 .f32) := by
  funext y
  show V c main_v104 (((cfg3.win 3).blk t).view.emb y) = V c main_v104 y
  refine congrArg (V c main_v104) (funext fun a => Fin.ext ?_)
  obtain ⟨-, -, -, -, -, -, e0, e1, -⟩ := index_facts t
  match a with
  | ⟨0, _⟩ => show win3_3.index t (0 : Fin 2) * 64 + 1 * (y 0).val = (y 0).val; omega
  | ⟨1, _⟩ => show win3_3.index t (1 : Fin 2) * 64 + 1 * (y 1).val = (y 1).val; omega

/-- The first bias's block is the bias. -/
theorem bias1Block_eq (c : Dev nD) (t : Fin cfg3.N) :
    (iblk3 V c 4 t : Vec Ideal S64 .f32) = (V c main_arg15 : Vec Ideal S64 .f32) := by
  funext y
  show V c main_arg15 (((cfg3.win 4).blk t).view.emb y) = V c main_arg15 y
  refine congrArg (V c main_arg15) (funext fun a => Fin.ext ?_)
  obtain ⟨-, -, -, -, -, -, -, -, e0, -⟩ := index_facts t
  match a with
  | ⟨0, _⟩ => show win3_4.index t (0 : Fin 1) * 64 + 1 * (y 0).val = (y 0).val; omega

/-- The second weight's block is the weight. -/
theorem weight2Block_eq (c : Dev nD) (t : Fin cfg3.N) :
    (iblk3 V c 5 t : Vec Ideal S64x5 .f32) = (V c main_v105 : Vec Ideal S64x5 .f32) := by
  funext y
  show V c main_v105 (((cfg3.win 5).blk t).view.emb y) = V c main_v105 y
  refine congrArg (V c main_v105) (funext fun a => Fin.ext ?_)
  obtain ⟨-, -, -, -, -, -, -, -, -, e0, e1, -⟩ := index_facts t
  match a with
  | ⟨0, _⟩ => show win3_5.index t (0 : Fin 2) * 64 + 1 * (y 0).val = (y 0).val; omega
  | ⟨1, _⟩ => show win3_5.index t (1 : Fin 2) * 5 + 1 * (y 1).val = (y 1).val; omega

/-- The second bias's block is the bias. -/
theorem bias2Block_eq (c : Dev nD) (t : Fin cfg3.N) :
    (iblk3 V c 6 t : Vec Ideal S5 .f32) = (V c main_arg17 : Vec Ideal S5 .f32) := by
  funext y
  show V c main_arg17 (((cfg3.win 6).blk t).view.emb y) = V c main_arg17 y
  refine congrArg (V c main_arg17) (funext fun a => Fin.ext ?_)
  obtain ⟨-, -, -, -, -, -, -, -, -, -, -, e0, -⟩ := index_facts t
  match a with
  | ⟨0, _⟩ => show win3_6.index t (0 : Fin 1) * 5 + 1 * (y 0).val = (y 0).val; omega

/-- Entry (p, q) of the first head's block t sits at (2048 t + p, q) of its array. -/
theorem head1_emb (t : Fin cfg3.N) (p : Fin 2048) (q : Fin 5) :
    ((cfg3.win 7).blk t).view.emb (ix2 p q) = (ix2 (rowOf t p) q : S8192x5.Idx) := by
  funext a; apply Fin.ext
  obtain ⟨-, -, -, -, -, -, -, -, -, -, -, -, e0, e1, -⟩ := index_facts t
  match a with
  | ⟨0, _⟩ => show win3_7.index t (0 : Fin 2) * 2048 + 1 * p.val = t.val * 2048 + p.val; omega
  | ⟨1, _⟩ => show win3_7.index t (1 : Fin 2) * 5 + 1 * q.val = q.val; omega

/-- Entry (p, q) of the second head's block t sits at (2048 t + p, q) of its array. -/
theorem head2_emb (t : Fin cfg3.N) (p : Fin 2048) (q : Fin 5) :
    ((cfg3.win 8).blk t).view.emb (ix2 p q) = (ix2 (rowOf t p) q : S8192x5.Idx) := by
  funext a; apply Fin.ext
  obtain ⟨-, -, -, -, -, -, -, -, -, -, -, -, -, -, e0, e1⟩ := index_facts t
  match a with
  | ⟨0, _⟩ => show win3_8.index t (0 : Fin 2) * 2048 + 1 * p.val = t.val * 2048 + p.val; omega
  | ⟨1, _⟩ => show win3_8.index t (1 : Fin 2) * 5 + 1 * q.val = q.val; omega

/-! ## What each point writes back -/

/-- The first head's array after the kernel: the prediction of the user and item embeddings. -/
abbrev head1 (c : Dev nD) : Vec Ideal S8192x5 .f32 :=
  predict (R := 8192) (V c main_v89) (V c main_v96) (V c main_v104) (V c main_arg15) (V c main_v105) (V c main_arg17)

/-- The second head's array after the kernel: the prediction of the user and frozen item embeddings. -/
abbrev head2 (c : Dev nD) : Vec Ideal S8192x5 .f32 :=
  predict (R := 8192) (V c main_v89) (V c main_v103) (V c main_v104) (V c main_arg15) (V c main_v105) (V c main_arg17)

/-- The first head's payload over the blocks at point t is block t of `head1`. -/
theorem head1_block (c : Dev nD) (t : Fin cfg3.N) (y : S2048x5.Idx) :
    k3_pay5 (F := Ideal) (iblk3 V c 0 t) (iblk3 V c 1 t) (iblk3 V c 3 t) (iblk3 V c 5 t) (iblk3 V c 4 t) (iblk3 V c 6 t) y
      = head1 V c (((cfg3.win 7).blk t).view.emb y) := by
  obtain ⟨p, q, rfl⟩ : ∃ (p : Fin 2048) (q : Fin 5), y = ix2 p q := ⟨y 0, y 1, eq_ix2 y⟩
  rw [head1_emb t p q]
  refine (congrFun (pay5_eq _ _ _ _ _ _) (ix2 p q)).trans ?_
  refine (predictBlock_apply _ _ _ _ _ _ p q).trans ?_
  exact predict_congr_rows _ _ _ _ _ _ _ _ _ _ _ _ p (rowOf t p) (ueBlock_apply V c t p) (ieBlock_apply V c t p)
    (weight1Block_eq V c t) (bias1Block_eq V c t) (weight2Block_eq V c t) (bias2Block_eq V c t) q

/-- The second head's payload over the blocks at point t is block t of `head2`. -/
theorem head2_block (c : Dev nD) (t : Fin cfg3.N) (y : S2048x5.Idx) :
    k3_pay1 (F := Ideal) (k3_pay4 (iblk3 V c 5 t)) (iblk3 V c 6 t)
        (k3_pay6 (iblk3 V c 0 t) (iblk3 V c 2 t) (iblk3 V c 3 t) (iblk3 V c 4 t)) (k3_pay7 (F := Ideal)) y
      = head2 V c (((cfg3.win 8).blk t).view.emb y) := by
  obtain ⟨p, q, rfl⟩ : ∃ (p : Fin 2048) (q : Fin 5), y = ix2 p q := ⟨y 0, y 1, eq_ix2 y⟩
  rw [head2_emb t p q]
  refine (predictBlock_apply _ _ _ _ _ _ p q).trans ?_
  exact predict_congr_rows _ _ _ _ _ _ _ _ _ _ _ _ p (rowOf t p) (ueBlock_apply V c t p) (ieFrozenBlock_apply V c t p)
    (weight1Block_eq V c t) (bias1Block_eq V c t) (weight2Block_eq V c t) (bias2Block_eq V c t) q

/-- What point t writes back to the first head's array is block t of `head1`. -/
theorem flushed7_eq (c : Dev nD) (t : Fin cfg3.N) :
    (dat3 V c).flushed 7 t = ((cfg3.win 7).blk t).view.read (Elt Ideal) (head1 V c) := by
  show (cfg3.win 7).cut (grid3.coords t) ((dat3 V c).after 7 t) = _
  rw [after3_7]
  unfold out3_7
  rw [View.canon_unit_zero zeros2]
  simp only [View.ld_unit_zero (S := S2048x64) zeros2, View.ld_unit_zero (S := S64x64) zeros2,
    View.ld_unit_zero (S := S64x5) zeros2, View.ld_unit_zero (S := S64) zeros1, View.ld_unit_zero (S := S5) zeros1]
  funext j
  exact head1_block V c t j

/-- What point t writes back to the second head's array is block t of `head2`. -/
theorem flushed8_eq (c : Dev nD) (t : Fin cfg3.N) :
    (dat3 V c).flushed 8 t = ((cfg3.win 8).blk t).view.read (Elt Ideal) (head2 V c) := by
  show (cfg3.win 8).cut (grid3.coords t) ((dat3 V c).after 8 t) = _
  rw [after3_8]
  unfold out3_8
  rw [View.canon_unit_zero zeros2]
  simp only [View.ld_unit_zero (S := S2048x64) zeros2, View.ld_unit_zero (S := S64x64) zeros2,
    View.ld_unit_zero (S := S64x5) zeros2, View.ld_unit_zero (S := S64) zeros1, View.ld_unit_zero (S := S5) zeros1]
  funext j
  exact head2_block V c t j

/-! ## The four blocks cover the array -/

/-- An index is in point t's block of the first head iff each coordinate is in the block's range on its axis. -/
theorem mem_blk7 (t : Fin cfg3.N) (i : S8192x5.Idx) :
    i ∈ ((cfg3.win 7).blk t).view.set ↔ ∀ a : Fin 2, win3_7.index t a * S2048x5.size a ≤ (i a).val ∧ (i a).val < win3_7.index t a * S2048x5.size a + S2048x5.size a := by
  show i ∈ ((View.whole main_v106_0).slice (win3_7.rect t)).set ↔ _
  rw [View.set_slice_whole, Rect.mem_set_unit]
  exact Iff.rfl

/-- The same for the second head. -/
theorem mem_blk8 (t : Fin cfg3.N) (i : S8192x5.Idx) :
    i ∈ ((cfg3.win 8).blk t).view.set ↔ ∀ a : Fin 2, win3_8.index t a * S2048x5.size a ≤ (i a).val ∧ (i a).val < win3_8.index t a * S2048x5.size a + S2048x5.size a := by
  show i ∈ ((View.whole main_v106_1).slice (win3_8.rect t)).set ↔ _
  rw [View.set_slice_whole, Rect.mem_set_unit]
  exact Iff.rfl

/-- The point whose block holds row r: r / 2048. -/
def pointOf (i : S8192x5.Idx) : Fin cfg3.N :=
  ⟨(i 0).val / 2048, by have hi : (i 0).val < 8192 := (i 0).isLt; have hN : cfg3.N = 4 := N_3; omega⟩

theorem pointOf_val (i : S8192x5.Idx) : (pointOf i).val = (i 0).val / 2048 := rfl

/-- Every index of the first head's array is in the block of the point its row names. -/
theorem cover7 (i : S8192x5.Idx) : ∃ t : Fin cfg3.N, (cfg3.win 7).flush t = true ∧ i ∈ ((cfg3.win 7).blk t).view.set := by
  refine ⟨pointOf i, flush3_7 _, ?_⟩
  rw [mem_blk7]
  obtain ⟨-, -, -, -, -, -, -, -, -, -, -, -, e0, e1, -⟩ := index_facts (pointOf i)
  have hv := pointOf_val i
  have h1 : (i 1).val < 5 := (i 1).isLt
  intro a
  match a with
  | ⟨0, _⟩ => show win3_7.index (pointOf i) (0 : Fin 2) * 2048 ≤ (i 0).val ∧ (i 0).val < win3_7.index (pointOf i) (0 : Fin 2) * 2048 + 2048; omega
  | ⟨1, _⟩ => show win3_7.index (pointOf i) (1 : Fin 2) * 5 ≤ (i 1).val ∧ (i 1).val < win3_7.index (pointOf i) (1 : Fin 2) * 5 + 5; omega

/-- The same for the second head. -/
theorem cover8 (i : S8192x5.Idx) : ∃ t : Fin cfg3.N, (cfg3.win 8).flush t = true ∧ i ∈ ((cfg3.win 8).blk t).view.set := by
  refine ⟨pointOf i, flush3_8 _, ?_⟩
  rw [mem_blk8]
  obtain ⟨-, -, -, -, -, -, -, -, -, -, -, -, -, -, e0, e1⟩ := index_facts (pointOf i)
  have hv := pointOf_val i
  have h1 : (i 1).val < 5 := (i 1).isLt
  intro a
  match a with
  | ⟨0, _⟩ => show win3_8.index (pointOf i) (0 : Fin 2) * 2048 ≤ (i 0).val ∧ (i 0).val < win3_8.index (pointOf i) (0 : Fin 2) * 2048 + 2048; omega
  | ⟨1, _⟩ => show win3_8.index (pointOf i) (1 : Fin 2) * 5 ≤ (i 1).val ∧ (i 1).val < win3_8.index (pointOf i) (1 : Fin 2) * 5 + 5; omega

/-! ## The arrays after the kernel -/

/-- THE FIRST HEAD after the kernel is the prediction of the user and item embeddings as the kernel finds them. -/
theorem final7 (c : Dev nD) :
    (dat3 V c).arrAt 7 cfg3.N = PredictorFn.predict (V c main_v89) (V c main_v96) (V c main_v104) (V c main_arg15) (V c main_v105) (V c main_arg17) :=
  (dat3 V c).arrAt_eq_of_cover 7 (head1 V c) (fun t _ => flushed7_eq V c t) (cover7)

/-- THE SECOND HEAD after the kernel is the prediction of the user and frozen item embeddings as the kernel finds them. -/
theorem final8 (c : Dev nD) :
    (dat3 V c).arrAt 8 cfg3.N = PredictorFn.predict (V c main_v89) (V c main_v103) (V c main_v104) (V c main_arg15) (V c main_v105) (V c main_arg17) :=
  (dat3 V c).arrAt_eq_of_cover 8 (head2 V c) (fun t _ => flushed8_eq V c t) (cover8)

end Cert.KernelIdeal.Region3

end
-- ==== Proof.DataflowPredictor.lean ====
/-
  The prediction head in the two dataflows.

  The reference applies, to the product of the two gathered embedding rows, a first layer x · P1Wᵀ + P1b, the activation
  "x where x ≥ 0, one tenth of x elsewhere" (written as a comparison with zero, a product with the broadcast constant and
  a select), and a second layer · P2Wᵀ + P2b, all as host operations on whole arrays. The kernel's head is the same
  function written entry by entry (PredictorFn.predict) of the same gathered rows and the same transposed weights.
-/
import proofs.«418387_j86114094284913_3_alg».proof.Proof.Dataflow
import proofs.«418387_j86114094284913_3_alg».proof.Proof.PredictorFn

noncomputable section

namespace Cert.Dataflow

open Idealize.ShloMosaic Idealize.ShloMosaic.ValueIdx

abbrev SB5 : Shape := ⟨2, ![8192, 5]⟩

/-- One tenth, as the 32-bit word both programs carry. -/
def tenth : FVec Ideal S_ .f32 := constant S_ .f32 0x3DCCCCCD#32

namespace R

/-- The first layer on whole arrays: x · P1Wᵀ + P1b. -/
def hidden (x : FVec Ideal SB64 .f32) (p1w : FVec Ideal S64x64 .f32) (p1b : FVec Ideal S64 .f32) : FVec Ideal SB64 .f32 :=
  addf (Host.dotGeneral (DotDims.plain 8192 64 64) none x (tr64 p1w))
    (broadcastInDim SB64 ![0, 1] (by decide) (broadcastInDim S1x64 (![1] : Fin 1 → Fin S1x64.rank) (by decide) p1b))

/-- The activation on whole arrays: x where x ≥ 0, one tenth of x elsewhere. -/
def leakyRelu (x : FVec Ideal SB64 .f32) : FVec Ideal SB64 .f32 :=
  select (cmpf .oge x (broadcastInDim SB64 (![] : Fin 0 → Fin SB64.rank) (by decide) zero)) x
    (mulf (broadcastInDim SB64 (![] : Fin 0 → Fin SB64.rank) (by decide) (id tenth)) x)

/-- The predictor on whole arrays. -/
def predictor (ue ie : FVec Ideal SB64 .f32) (p1w : FVec Ideal S64x64 .f32) (p1b : FVec Ideal S64 .f32)
    (p2w : FVec Ideal S5x64 .f32) (p2b : FVec Ideal S5 .f32) : FVec Ideal SB5 .f32 :=
  addf (Host.dotGeneral (DotDims.plain 8192 64 5) none (leakyRelu (hidden (mulf ue ie) p1w p1b)) (tr5 p2w))
    (broadcastInDim SB5 ![0, 1] (by decide) (broadcastInDim S1x5 (![1] : Fin 1 → Fin S1x5.rank) (by decide) p2b))

variable (a : Inputs)

def pred : FVec Ideal SB5 .f32 := predictor (ue a) (ie a) a.P1W a.P1b a.P2W a.P2b
def predFreeze : FVec Ideal SB5 .f32 := predictor (ue a) (ieFreeze a) a.P1W a.P1b a.P2W a.P2b

end R

namespace K

variable (a : Inputs)

def pred : FVec Ideal SB5 .f32 :=
  Cert.PredictorFn.predict (ue a) (ie a) (tr64 a.P1W) a.P1b (tr5 a.P2W) a.P2b
def predFreeze : FVec Ideal SB5 .f32 :=
  Cert.PredictorFn.predict (ue a) (ieFreeze a) (tr64 a.P1W) a.P1b (tr5 a.P2W) a.P2b

end K

end Cert.Dataflow

end
-- ==== Proof.KernelChain3.lean ====
/-
  The rows the predictor reads, the two predictions, and the six node outputs carried to the end: the program's eight
  results as the kernel's dataflow of its arguments.
-/
import proofs.«418387_j86114094284913_3_alg».proof.Proof.KernelChain2
import proofs.«418387_j86114094284913_3_alg».proof.Proof.KernelRegion3
import proofs.«418387_j86114094284913_3_alg».proof.Proof.DataflowPredictor

set_option maxRecDepth 16384
set_option Elab.async false

noncomputable section

namespace Cert.KernelIdeal.Chain

open Idealize.ShloMosaic Idealize.ShloMosaic.TcCoe Idealize.SL.Sem Idealize.ShloMosaic.StableHlo
open Cert.KernelIdeal Cert.KernelIdeal.Gen Cert.Dataflow

variable (m : (ℓ : Loc nD τ sig) → Buf (Elt Ideal) ℓ) (ρ : Dev nD → PrngReg)

/-! ## The rows the predictor reads, and the predictor -/

theorem entry3_ue (c : Dev nD) : W7 m ρ c (Proc.devRef .tc main_v89) = K.ue (inp m ρ c) := by
  show StableHlo.after hostOps3 (W6 m ρ c) (Proc.devRef .tc main_v89) = _
  after_results_simp
  rw [exit2_rst, users6]; rfl

theorem entry3_ie (c : Dev nD) : W7 m ρ c (Proc.devRef .tc main_v96) = K.ie (inp m ρ c) := by
  show StableHlo.after hostOps3 (W6 m ρ c) (Proc.devRef .tc main_v96) = _
  after_results_simp
  rw [exit2_rst, items6]; rfl

theorem entry3_ieFreeze (c : Dev nD) : W7 m ρ c (Proc.devRef .tc main_v103) = K.ieFreeze (inp m ρ c) := by
  show StableHlo.after hostOps3 (W6 m ρ c) (Proc.devRef .tc main_v103) = _
  after_results_simp
  rw [exit2_rstFreeze, items6]; rfl

theorem entry3_p1 (c : Dev nD) : W7 m ρ c (Proc.devRef .tc main_v104) = tr64 (inp m ρ c).P1W := by
  show StableHlo.after hostOps3 (W6 m ρ c) (Proc.devRef .tc main_v104) = _
  after_results_simp
  rw [P1W6]; rfl

theorem entry3_p2 (c : Dev nD) : W7 m ρ c (Proc.devRef .tc main_v105) = tr5 (inp m ρ c).P2W := by
  show StableHlo.after hostOps3 (W6 m ρ c) (Proc.devRef .tc main_v105) = _
  after_results_simp
  rw [P2W6]; rfl

theorem result_pred (c : Dev nD) : W8 m ρ c (Proc.devRef .tc main_v106_0) = K.pred (inp m ρ c) := by
  refine (W8_arr m ρ c 7).trans ?_
  rw [Region3.final7 (V7 m ρ) c]
  show PredictorFn.predict (W7 m ρ c (Proc.devRef .tc main_v89)) (W7 m ρ c (Proc.devRef .tc main_v96)) (W7 m ρ c (Proc.devRef .tc main_v104)) (W7 m ρ c (Proc.devRef .tc main_arg15)) (W7 m ρ c (Proc.devRef .tc main_v105)) (W7 m ρ c (Proc.devRef .tc main_arg17)) = _
  rw [entry3_ue, entry3_ie, entry3_p1, P1b7, entry3_p2, P2b7]; rfl

theorem result_predFreeze (c : Dev nD) : W8 m ρ c (Proc.devRef .tc main_v106_1) = K.predFreeze (inp m ρ c) := by
  refine (W8_arr m ρ c 8).trans ?_
  rw [Region3.final8 (V7 m ρ) c]
  show PredictorFn.predict (W7 m ρ c (Proc.devRef .tc main_v89)) (W7 m ρ c (Proc.devRef .tc main_v103)) (W7 m ρ c (Proc.devRef .tc main_v104)) (W7 m ρ c (Proc.devRef .tc main_arg15)) (W7 m ρ c (Proc.devRef .tc main_v105)) (W7 m ρ c (Proc.devRef .tc main_arg17)) = _
  rw [entry3_ue, entry3_ieFreeze, entry3_p1, P1b7, entry3_p2, P2b7]; rfl

/-- A node output is untouched by the last host stretch and the predictor kernel. -/
theorem carried_8 (c : Dev nD) (b : Ref sig .tc) (h7 : ∀ w, Pipeline.arrRef spec3 w ≠ b)
    (h : StableHlo.after hostOps3 (W6 m ρ c) (Proc.devRef .tc b) = W6 m ρ c (Proc.devRef .tc b)) :
    W8 m ρ c (Proc.devRef .tc b) = W6 m ρ c (Proc.devRef .tc b) :=
  (W8_of_ne m ρ c b h7).trans h

theorem result_rst (c : Dev nD) : W8 m ρ c (Proc.devRef .tc main_v82_0) = K.rst (inp m ρ c) :=
  (carried_8 m ρ c main_v82_0 (by decide) (by after_results_simp)).trans (exit2_rst m ρ c)
theorem result_rstFreeze (c : Dev nD) : W8 m ρ c (Proc.devRef .tc main_v82_1) = K.rstFreeze (inp m ρ c) :=
  (carried_8 m ρ c main_v82_1 (by decide) (by after_results_simp)).trans (exit2_rstFreeze m ρ c)
theorem result_rstRe (c : Dev nD) : W8 m ρ c (Proc.devRef .tc main_v82_2) = K.rstRe (inp m ρ c) :=
  (carried_8 m ρ c main_v82_2 (by decide) (by after_results_simp)).trans (exit2_rstRe m ρ c)
theorem result_rstId (c : Dev nD) : W8 m ρ c (Proc.devRef .tc main_v82_3) = K.rstId (inp m ρ c) :=
  (carried_8 m ρ c main_v82_3 (by decide) (by after_results_simp)).trans (exit2_rstId m ρ c)
theorem result_rstReFreeze (c : Dev nD) : W8 m ρ c (Proc.devRef .tc main_v82_4) = K.rstReFreeze (inp m ρ c) :=
  (carried_8 m ρ c main_v82_4 (by decide) (by after_results_simp)).trans (exit2_rstReFreeze m ρ c)
theorem result_rstIdFreeze (c : Dev nD) : W8 m ρ c (Proc.devRef .tc main_v82_5) = K.rstIdFreeze (inp m ρ c) :=
  (carried_8 m ρ c main_v82_5 (by decide) (by after_results_simp)).trans (exit2_rstIdFreeze m ρ c)

end Cert.KernelIdeal.Chain

end
-- ==== Proof.ReferenceOps.lean ====
import proofs.«418387_j86114094284913_3_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of the reference's window 0, in order (60 of them): a call of a module-local function
    stands as that function's own operations over the call's buffers. -/
abbrev ops0 : List (HloOp τ sig (Elt F)) :=
  [ nullary main_cst (constant S_ .f32 0x3F800000#32),
    unary main_cst main_v0 (broadcastInDim S1000000 ![] bcast_S_S1000000 : (⟨S_, .f32⟩ : BufTy).Contents (Elt F) → (⟨S1000000, .f32⟩ : BufTy).Contents (Elt F)),
    nullary main_cst_0 (constant S_ .f32 0x00000000#32),
    unary main_cst_0 main_v1 (broadcastInDim S200000 ![] bcast_S_S200000 : (⟨S_, .f32⟩ : BufTy).Contents (Elt F) → (⟨S200000, .f32⟩ : BufTy).Contents (Elt F)),
    unary main_arg3 main_v2 (broadcastInDim S1000000x1 ![0] bcast_S1000000_S1000000x1_0 : (⟨S1000000, .i32⟩ : BufTy).Contents (Elt F) → (⟨S1000000x1, .i32⟩ : BufTy).Contents (Elt F)),
    ternary main_v1 main_v2 main_v0 main_v3 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v3 main_v4 (broadcastInDim S200000x1 ![0] bcast_S200000_S200000x1_0 : (⟨S200000, .f32⟩ : BufTy).Contents (Elt F) → (⟨S200000x1, .f32⟩ : BufTy).Contents (Elt F)),
    nullary main_cst_1 (constant S_ .f32 0x00000000#32),
    unary main_cst_1 main_v5 (broadcastInDim S200000x64 ![] bcast_S_S200000x64 : (⟨S_, .f32⟩ : BufTy).Contents (Elt F) → (⟨S200000x64, .f32⟩ : BufTy).Contents (Elt F)),
    unary main_arg3 main_v6 (broadcastInDim S1000000x1 ![0] bcast_S1000000_S1000000x1_0 : (⟨S1000000, .i32⟩ : BufTy).Contents (Elt F) → (⟨S1000000x1, .i32⟩ : BufTy).Contents (Elt F)),
    ternary main_v5 main_v6 main_arg0 main_v7 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_2 (constant S_ .f32 0x3F800000#32),
    unary main_cst_2 main_v8 (broadcastInDim S200000x1 ![] bcast_S_S200000x1 : (⟨S_, .f32⟩ : BufTy).Contents (Elt F) → (⟨S200000x1, .f32⟩ : BufTy).Contents (Elt F)),
    binary main_v4 main_v8 main_v9 (maximumf : (⟨S200000x1, .f32⟩ : BufTy).Contents (Elt F) → (⟨S200000x1, .f32⟩ : BufTy).Contents (Elt F) → (⟨S200000x1, .f32⟩ : BufTy).Contents (Elt F)),
    unary main_v9 main_v10 (broadcastInDim S200000x64 ![0, 1] bcast_S200000x1_S200000x64_0_1 : (⟨S200000x1, .f32⟩ : BufTy).Contents (Elt F) → (⟨S200000x64, .f32⟩ : BufTy).Contents (Elt F)),
    binary main_v7 main_v10 main_v11 (Host.divf : (⟨S200000x64, .f32⟩ : BufTy).Contents (Elt F) → (⟨S200000x64, .f32⟩ : BufTy).Contents (Elt F) → (⟨S200000x64, .f32⟩ : BufTy).Contents (Elt F)),
    nullary main_c (constantI S_ 32 0#32),
    unary main_c main_v12 (broadcastInDim S1000000 ![] bcast_S_S1000000 : (⟨S_, .i32⟩ : BufTy).Contents (Elt F) → (⟨S1000000, .i32⟩ : BufTy).Contents (Elt F)),
    binary main_arg4 main_v12 main_v13 (cmpi .slt : (⟨S1000000, .i32⟩ : BufTy).Contents (Elt F) → (⟨S1000000, .i32⟩ : BufTy).Contents (Elt F) → (⟨S1000000, .i1⟩ : BufTy).Contents (Elt F)),
    nullary main_c_3 (constantI S_ 32 5#32),
    unary main_c_3 main_v14 (broadcastInDim S1000000 ![] bcast_S_S1000000 : (⟨S_, .i32⟩ : BufTy).Contents (Elt F) → (⟨S1000000, .i32⟩ : BufTy).Contents (Elt F)),
    binary main_arg4 main_v14 main_v15 (addi : (⟨S1000000, .i32⟩ : BufTy).Contents (Elt F) → (⟨S1000000, .i32⟩ : BufTy).Contents (Elt F) → (⟨S1000000, .i32⟩ : BufTy).Contents (Elt F)),
    ternary main_v13 main_v15 main_arg4 main_v16 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v16 main_v17 (broadcastInDim S1000000x1 ![0] bcast_S1000000_S1000000x1_0 : (⟨S1000000, .i32⟩ : BufTy).Contents (Elt F) → (⟨S1000000x1, .i32⟩ : BufTy).Contents (Elt F)),
    binary main_arg11 main_v17 main_v18 ((fun x i => Host.gather gather_S5x64_S1000000x1_S1000000x64_1_0_n_n_0_1_164 x i) : (⟨S5x64, .f32⟩ : BufTy).Contents (Elt F) → (⟨S1000000x1, .i32⟩ : BufTy).Contents (Elt F) → (⟨S1000000x64, .f32⟩ : BufTy).Contents (Elt F)),
    nullary main_c_4 (constantI S_ 32 0#32),
    unary main_c_4 main_v19 (broadcastInDim S1000000 ![] bcast_S_S1000000 : (⟨S_, .i32⟩ : BufTy).Contents (Elt F) → (⟨S1000000, .i32⟩ : BufTy).Contents (Elt F)),
    binary main_arg4 main_v19 main_v20 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 5#32),
    unary main_c_5 main_v21 (broadcastInDim S1000000 ![] bcast_S_S1000000 : (⟨S_, .i32⟩ : BufTy).Contents (Elt F) → (⟨S1000000, .i32⟩ : BufTy).Contents (Elt F)),
    binary main_arg4 main_v21 main_v22 (addi : (⟨S1000000, .i32⟩ : BufTy).Contents (Elt F) → (⟨S1000000, .i32⟩ : BufTy).Contents (Elt F) → (⟨S1000000, .i32⟩ : BufTy).Contents (Elt F)),
    ternary main_v20 main_v22 main_arg4 main_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v23 main_v24 (broadcastInDim S1000000x1 ![0] bcast_S1000000_S1000000x1_0 : (⟨S1000000, .i32⟩ : BufTy).Contents (Elt F) → (⟨S1000000x1, .i32⟩ : BufTy).Contents (Elt F)),
    binary main_arg12 main_v24 main_v25 ((fun x i => Host.gather gather_S5x64_S1000000x1_S1000000x64_1_0_n_n_0_1_164 x i) : (⟨S5x64, .f32⟩ : BufTy).Contents (Elt F) → (⟨S1000000x1, .i32⟩ : BufTy).Contents (Elt F) → (⟨S1000000x64, .f32⟩ : BufTy).Contents (Elt F)),
    nullary main_c_6 (constantI S_ 32 0#32),
    unary main_c_6 main_v26 (broadcastInDim S1000000 ![] bcast_S_S1000000 : (⟨S_, .i32⟩ : BufTy).Contents (Elt F) → (⟨S1000000, .i32⟩ : BufTy).Contents (Elt F)),
    binary main_arg4 main_v26 main_v27 (cmpi .slt : (⟨S1000000, .i32⟩ : BufTy).Contents (Elt F) → (⟨S1000000, .i32⟩ : BufTy).Contents (Elt F) → (⟨S1000000, .i1⟩ : BufTy).Contents (Elt F)),
    nullary main_c_7 (constantI S_ 32 5#32),
    unary main_c_7 main_v28 (broadcastInDim S1000000 ![] bcast_S_S1000000 : (⟨S_, .i32⟩ : BufTy).Contents (Elt F) → (⟨S1000000, .i32⟩ : BufTy).Contents (Elt F)),
    binary main_arg4 main_v28 main_v29 (addi : (⟨S1000000, .i32⟩ : BufTy).Contents (Elt F) → (⟨S1000000, .i32⟩ : BufTy).Contents (Elt F) → (⟨S1000000, .i32⟩ : BufTy).Contents (Elt F)),
    ternary main_v27 main_v29 main_arg4 main_v30 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v30 main_v31 (broadcastInDim S1000000x1 ![0] bcast_S1000000_S1000000x1_0 : (⟨S1000000, .i32⟩ : BufTy).Contents (Elt F) → (⟨S1000000x1, .i32⟩ : BufTy).Contents (Elt F)),
    binary main_arg13 main_v31 main_v32 ((fun x i => Host.gather gather_S5x64_S1000000x1_S1000000x64_1_0_n_n_0_1_164 x i) : (⟨S5x64, .f32⟩ : BufTy).Contents (Elt F) → (⟨S1000000x1, .i32⟩ : BufTy).Contents (Elt F) → (⟨S1000000x64, .f32⟩ : BufTy).Contents (Elt F)),
    nullary main_c_8 (constantI S_ 32 0#32),
    unary main_c_8 main_v33 (broadcastInDim S1000000 ![] bcast_S_S1000000 : (⟨S_, .i32⟩ : BufTy).Contents (Elt F) → (⟨S1000000, .i32⟩ : BufTy).Contents (Elt F)),
    binary main_arg2 main_v33 main_v34 (cmpi .slt : (⟨S1000000, .i32⟩ : BufTy).Contents (Elt F) → (⟨S1000000, .i32⟩ : BufTy).Contents (Elt F) → (⟨S1000000, .i1⟩ : BufTy).Contents (Elt F)),
    nullary main_c_9 (constantI S_ 32 200000#32),
    unary main_c_9 main_v35 (broadcastInDim S1000000 ![] bcast_S_S1000000 : (⟨S_, .i32⟩ : BufTy).Contents (Elt F) → (⟨S1000000, .i32⟩ : BufTy).Contents (Elt F)),
    binary main_arg2 main_v35 main_v36 (addi : (⟨S1000000, .i32⟩ : BufTy).Contents (Elt F) → (⟨S1000000, .i32⟩ : BufTy).Contents (Elt F) → (⟨S1000000, .i32⟩ : BufTy).Contents (Elt F)),
    ternary main_v34 main_v36 main_arg2 main_v37 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v37 main_v38 (broadcastInDim S1000000x1 ![0] bcast_S1000000_S1000000x1_0 : (⟨S1000000, .i32⟩ : BufTy).Contents (Elt F) → (⟨S1000000x1, .i32⟩ : BufTy).Contents (Elt F)),
    binary main_arg1 main_v38 main_v39 ((fun x i => Host.gather gather_S200000x1_S1000000x1_S1000000x1_1_0_n_n_0_1_11 x i) : (⟨S200000x1, .f32⟩ : BufTy).Contents (Elt F) → (⟨S1000000x1, .i32⟩ : BufTy).Contents (Elt F) → (⟨S1000000x1, .f32⟩ : BufTy).Contents (Elt F)),
    unary main_arg7 main_v40 ((transpose S64x64 [1, 0] · transposes_S64x64_S64x64_1_0) : (⟨S64x64, .f32⟩ : BufTy).Contents (Elt F) → (⟨S64x64, .f32⟩ : BufTy).Contents (Elt F)),
    binary main_v11 main_v40 main_v41 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    nullary main_c_10 (constantI S_ 32 0#32),
    unary main_c_10 main_v42 (broadcastInDim S1000000 ![] bcast_S_S1000000 : (⟨S_, .i32⟩ : BufTy).Contents (Elt F) → (⟨S1000000, .i32⟩ : BufTy).Contents (Elt F)),
    binary main_arg2 main_v42 main_v43 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 200000#32),
    unary main_c_11 main_v44 (broadcastInDim S1000000 ![] bcast_S_S1000000 : (⟨S_, .i32⟩ : BufTy).Contents (Elt F) → (⟨S1000000, .i32⟩ : BufTy).Contents (Elt F)),
    binary main_arg2 main_v44 main_v45 (addi : (⟨S1000000, .i32⟩ : BufTy).Contents (Elt F) → (⟨S1000000, .i32⟩ : BufTy).Contents (Elt F) → (⟨S1000000, .i32⟩ : BufTy).Contents (Elt F)) ]

/-- The operations of the reference's window 1, in order (60 of them): a call of a module-local function
    stands as that function's own operations over the call's buffers. -/
abbrev ops1 : List (HloOp τ sig (Elt F)) :=
  [ ternary main_v43 main_v45 main_arg2 main_v46 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v46 main_v47 (broadcastInDim S1000000x1 ![0] bcast_S1000000_S1000000x1_0 : (⟨S1000000, .i32⟩ : BufTy).Contents (Elt F) → (⟨S1000000x1, .i32⟩ : BufTy).Contents (Elt F)),
    binary main_v41 main_v47 main_v48 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    binary main_v48 main_v18 main_v49 (mulf : (⟨S1000000x64, .f32⟩ : BufTy).Contents (Elt F) → (⟨S1000000x64, .f32⟩ : BufTy).Contents (Elt F) → (⟨S1000000x64, .f32⟩ : BufTy).Contents (Elt F)),
    unary main_v39 main_v50 (broadcastInDim S1000000x64 ![0, 1] bcast_S1000000x1_S1000000x64_0_1 : (⟨S1000000x1, .f32⟩ : BufTy).Contents (Elt F) → (⟨S1000000x64, .f32⟩ : BufTy).Contents (Elt F)),
    binary main_v49 main_v50 main_v51 (mulf : (⟨S1000000x64, .f32⟩ : BufTy).Contents (Elt F) → (⟨S1000000x64, .f32⟩ : BufTy).Contents (Elt F) → (⟨S1000000x64, .f32⟩ : BufTy).Contents (Elt F)),
    nullary main_cst_12 (constant S_ .f32 0x00000000#32),
    unary main_cst_12 main_v52 (broadcastInDim S200000x64 ![] bcast_S_S200000x64 : (⟨S_, .f32⟩ : BufTy).Contents (Elt F) → (⟨S200000x64, .f32⟩ : BufTy).Contents (Elt F)),
    unary main_arg3 main_v53 (broadcastInDim S1000000x1 ![0] bcast_S1000000_S1000000x1_0 : (⟨S1000000, .i32⟩ : BufTy).Contents (Elt F) → (⟨S1000000x1, .i32⟩ : BufTy).Contents (Elt F)),
    ternary main_v52 main_v53 main_v51 main_v54 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    unary main_arg1 main_v55 (broadcastInDim S200000x64 ![0, 1] bcast_S200000x1_S200000x64_0_1 : (⟨S200000x1, .f32⟩ : BufTy).Contents (Elt F) → (⟨S200000x64, .f32⟩ : BufTy).Contents (Elt F)),
    binary main_v54 main_v55 main_v56 (mulf : (⟨S200000x64, .f32⟩ : BufTy).Contents (Elt F) → (⟨S200000x64, .f32⟩ : BufTy).Contents (Elt F) → (⟨S200000x64, .f32⟩ : BufTy).Contents (Elt F)),
    nullary main_cst_13 (constant S_ .f32 0x00000000#32),
    binary main_v41 main_cst_13 main_v57 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    unary main_v57 main_v58 (broadcastInDim S1x64 ![1] bcast_S64_S1x64_1 : (⟨S64, .f32⟩ : BufTy).Contents (Elt F) → (⟨S1x64, .f32⟩ : BufTy).Contents (Elt F)),
    nullary main_cst_14 (constant S_ .f32 0x48435000#32),
    unary main_cst_14 main_v59 (broadcastInDim S1x64 ![] bcast_S_S1x64 : (⟨S_, .f32⟩ : BufTy).Contents (Elt F) → (⟨S1x64, .f32⟩ : BufTy).Contents (Elt F)),
    binary main_v58 main_v59 main_v60 (Host.divf : (⟨S1x64, .f32⟩ : BufTy).Contents (Elt F) → (⟨S1x64, .f32⟩ : BufTy).Contents (Elt F) → (⟨S1x64, .f32⟩ : BufTy).Contents (Elt F)),
    unary main_v60 main_v61 (broadcastInDim S1000000x64 ![0, 1] bcast_S1x64_S1000000x64_0_1 : (⟨S1x64, .f32⟩ : BufTy).Contents (Elt F) → (⟨S1000000x64, .f32⟩ : BufTy).Contents (Elt F)),
    binary main_v61 main_v18 main_v62 (mulf : (⟨S1000000x64, .f32⟩ : BufTy).Contents (Elt F) → (⟨S1000000x64, .f32⟩ : BufTy).Contents (Elt F) → (⟨S1000000x64, .f32⟩ : BufTy).Contents (Elt F)),
    unary main_v39 main_v63 (broadcastInDim S1000000x64 ![0, 1] bcast_S1000000x1_S1000000x64_0_1 : (⟨S1000000x1, .f32⟩ : BufTy).Contents (Elt F) → (⟨S1000000x64, .f32⟩ : BufTy).Contents (Elt F)),
    binary main_v62 main_v63 main_v64 (mulf : (⟨S1000000x64, .f32⟩ : BufTy).Contents (Elt F) → (⟨S1000000x64, .f32⟩ : BufTy).Contents (Elt F) → (⟨S1000000x64, .f32⟩ : BufTy).Contents (Elt F)),
    nullary main_cst_15 (constant S_ .f32 0x00000000#32),
    unary main_cst_15 main_v65 (broadcastInDim S200000x64 ![] bcast_S_S200000x64 : (⟨S_, .f32⟩ : BufTy).Contents (Elt F) → (⟨S200000x64, .f32⟩ : BufTy).Contents (Elt F)),
    unary main_arg3 main_v66 (broadcastInDim S1000000x1 ![0] bcast_S1000000_S1000000x1_0 : (⟨S1000000, .i32⟩ : BufTy).Contents (Elt F) → (⟨S1000000x1, .i32⟩ : BufTy).Contents (Elt F)),
    ternary main_v65 main_v66 main_v64 main_v67 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    unary main_arg1 main_v68 (broadcastInDim S200000x64 ![0, 1] bcast_S200000x1_S200000x64_0_1 : (⟨S200000x1, .f32⟩ : BufTy).Contents (Elt F) → (⟨S200000x64, .f32⟩ : BufTy).Contents (Elt F)),
    binary main_v67 main_v68 main_v69 (mulf : (⟨S200000x64, .f32⟩ : BufTy).Contents (Elt F) → (⟨S200000x64, .f32⟩ : BufTy).Contents (Elt F) → (⟨S200000x64, .f32⟩ : BufTy).Contents (Elt F)),
    unary main_arg8 main_v70 ((transpose S64x64 [1, 0] · transposes_S64x64_S64x64_1_0) : (⟨S64x64, .f32⟩ : BufTy).Contents (Elt F) → (⟨S64x64, .f32⟩ : BufTy).Contents (Elt F)),
    binary main_v11 main_v70 main_v71 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    nullary main_c_16 (constantI S_ 32 0#32),
    unary main_c_16 main_v72 (broadcastInDim S1000000 ![] bcast_S_S1000000 : (⟨S_, .i32⟩ : BufTy).Contents (Elt F) → (⟨S1000000, .i32⟩ : BufTy).Contents (Elt F)),
    binary main_arg2 main_v72 main_v73 (cmpi .slt : (⟨S1000000, .i32⟩ : BufTy).Contents (Elt F) → (⟨S1000000, .i32⟩ : BufTy).Contents (Elt F) → (⟨S1000000, .i1⟩ : BufTy).Contents (Elt F)),
    nullary main_c_17 (constantI S_ 32 200000#32),
    unary main_c_17 main_v74 (broadcastInDim S1000000 ![] bcast_S_S1000000 : (⟨S_, .i32⟩ : BufTy).Contents (Elt F) → (⟨S1000000, .i32⟩ : BufTy).Contents (Elt F)),
    binary main_arg2 main_v74 main_v75 (addi : (⟨S1000000, .i32⟩ : BufTy).Contents (Elt F) → (⟨S1000000, .i32⟩ : BufTy).Contents (Elt F) → (⟨S1000000, .i32⟩ : BufTy).Contents (Elt F)),
    ternary main_v73 main_v75 main_arg2 main_v76 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v76 main_v77 (broadcastInDim S1000000x1 ![0] bcast_S1000000_S1000000x1_0 : (⟨S1000000, .i32⟩ : BufTy).Contents (Elt F) → (⟨S1000000x1, .i32⟩ : BufTy).Contents (Elt F)),
    binary main_arg9 main_v77 main_v78 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_c_18 (constantI S_ 32 0#32),
    unary main_c_18 main_v79 (broadcastInDim S1000000 ![] bcast_S_S1000000 : (⟨S_, .i32⟩ : BufTy).Contents (Elt F) → (⟨S1000000, .i32⟩ : BufTy).Contents (Elt F)),
    binary main_arg2 main_v79 main_v80 (cmpi .slt : (⟨S1000000, .i32⟩ : BufTy).Contents (Elt F) → (⟨S1000000, .i32⟩ : BufTy).Contents (Elt F) → (⟨S1000000, .i1⟩ : BufTy).Contents (Elt F)),
    nullary main_c_19 (constantI S_ 32 200000#32),
    unary main_c_19 main_v81 (broadcastInDim S1000000 ![] bcast_S_S1000000 : (⟨S_, .i32⟩ : BufTy).Contents (Elt F) → (⟨S1000000, .i32⟩ : BufTy).Contents (Elt F)),
    binary main_arg2 main_v81 main_v82 (addi : (⟨S1000000, .i32⟩ : BufTy).Contents (Elt F) → (⟨S1000000, .i32⟩ : BufTy).Contents (Elt F) → (⟨S1000000, .i32⟩ : BufTy).Contents (Elt F)),
    ternary main_v80 main_v82 main_arg2 main_v83 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v83 main_v84 (broadcastInDim S1000000x1 ![0] bcast_S1000000_S1000000x1_0 : (⟨S1000000, .i32⟩ : BufTy).Contents (Elt F) → (⟨S1000000x1, .i32⟩ : BufTy).Contents (Elt F)),
    binary main_v71 main_v84 main_v85 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    binary main_v78 main_v85 main_v86 (addf : (⟨S1000000x64, .f32⟩ : BufTy).Contents (Elt F) → (⟨S1000000x64, .f32⟩ : BufTy).Contents (Elt F) → (⟨S1000000x64, .f32⟩ : BufTy).Contents (Elt F)),
    binary main_v86 main_v25 main_v87 (mulf : (⟨S1000000x64, .f32⟩ : BufTy).Contents (Elt F) → (⟨S1000000x64, .f32⟩ : BufTy).Contents (Elt F) → (⟨S1000000x64, .f32⟩ : BufTy).Contents (Elt F)),
    unary main_v39 main_v88 (broadcastInDim S1000000x64 ![0, 1] bcast_S1000000x1_S1000000x64_0_1 : (⟨S1000000x1, .f32⟩ : BufTy).Contents (Elt F) → (⟨S1000000x64, .f32⟩ : BufTy).Contents (Elt F)),
    binary main_v87 main_v88 main_v89 (mulf : (⟨S1000000x64, .f32⟩ : BufTy).Contents (Elt F) → (⟨S1000000x64, .f32⟩ : BufTy).Contents (Elt F) → (⟨S1000000x64, .f32⟩ : BufTy).Contents (Elt F)),
    nullary main_cst_20 (constant S_ .f32 0x00000000#32),
    unary main_cst_20 main_v90 (broadcastInDim S200000x64 ![] bcast_S_S200000x64 : (⟨S_, .f32⟩ : BufTy).Contents (Elt F) → (⟨S200000x64, .f32⟩ : BufTy).Contents (Elt F)),
    unary main_arg3 main_v91 (broadcastInDim S1000000x1 ![0] bcast_S1000000_S1000000x1_0 : (⟨S1000000, .i32⟩ : BufTy).Contents (Elt F) → (⟨S1000000x1, .i32⟩ : BufTy).Contents (Elt F)),
    ternary main_v90 main_v91 main_v89 main_v92 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    unary main_arg1 main_v93 (broadcastInDim S200000x64 ![0, 1] bcast_S200000x1_S200000x64_0_1 : (⟨S200000x1, .f32⟩ : BufTy).Contents (Elt F) → (⟨S200000x64, .f32⟩ : BufTy).Contents (Elt F)),
    binary main_v92 main_v93 main_v94 (mulf : (⟨S200000x64, .f32⟩ : BufTy).Contents (Elt F) → (⟨S200000x64, .f32⟩ : BufTy).Contents (Elt F) → (⟨S200000x64, .f32⟩ : BufTy).Contents (Elt F)),
    nullary main_cst_21 (constant S_ .f32 0x00000000#32),
    binary main_arg9 main_cst_21 main_v95 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)) ]

/-- The operations of the reference's window 2, in order (60 of them): a call of a module-local function
    stands as that function's own operations over the call's buffers. -/
abbrev ops2 : List (HloOp τ sig (Elt F)) :=
  [ unary main_v95 main_v96 (broadcastInDim S1x64 ![1] bcast_S64_S1x64_1 : (⟨S64, .f32⟩ : BufTy).Contents (Elt F) → (⟨S1x64, .f32⟩ : BufTy).Contents (Elt F)),
    nullary main_cst_22 (constant S_ .f32 0x48435000#32),
    unary main_cst_22 main_v97 (broadcastInDim S1x64 ![] bcast_S_S1x64 : (⟨S_, .f32⟩ : BufTy).Contents (Elt F) → (⟨S1x64, .f32⟩ : BufTy).Contents (Elt F)),
    binary main_v96 main_v97 main_v98 (Host.divf : (⟨S1x64, .f32⟩ : BufTy).Contents (Elt F) → (⟨S1x64, .f32⟩ : BufTy).Contents (Elt F) → (⟨S1x64, .f32⟩ : BufTy).Contents (Elt F)),
    nullary main_cst_23 (constant S_ .f32 0x00000000#32),
    binary main_v71 main_cst_23 main_v99 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    unary main_v99 main_v100 (broadcastInDim S1x64 ![1] bcast_S64_S1x64_1 : (⟨S64, .f32⟩ : BufTy).Contents (Elt F) → (⟨S1x64, .f32⟩ : BufTy).Contents (Elt F)),
    nullary main_cst_24 (constant S_ .f32 0x48435000#32),
    unary main_cst_24 main_v101 (broadcastInDim S1x64 ![] bcast_S_S1x64 : (⟨S_, .f32⟩ : BufTy).Contents (Elt F) → (⟨S1x64, .f32⟩ : BufTy).Contents (Elt F)),
    binary main_v100 main_v101 main_v102 (Host.divf : (⟨S1x64, .f32⟩ : BufTy).Contents (Elt F) → (⟨S1x64, .f32⟩ : BufTy).Contents (Elt F) → (⟨S1x64, .f32⟩ : BufTy).Contents (Elt F)),
    binary main_v98 main_v102 main_v103 (addf : (⟨S1x64, .f32⟩ : BufTy).Contents (Elt F) → (⟨S1x64, .f32⟩ : BufTy).Contents (Elt F) → (⟨S1x64, .f32⟩ : BufTy).Contents (Elt F)),
    unary main_v103 main_v104 (broadcastInDim S1000000x64 ![0, 1] bcast_S1x64_S1000000x64_0_1 : (⟨S1x64, .f32⟩ : BufTy).Contents (Elt F) → (⟨S1000000x64, .f32⟩ : BufTy).Contents (Elt F)),
    binary main_v104 main_v25 main_v105 (mulf : (⟨S1000000x64, .f32⟩ : BufTy).Contents (Elt F) → (⟨S1000000x64, .f32⟩ : BufTy).Contents (Elt F) → (⟨S1000000x64, .f32⟩ : BufTy).Contents (Elt F)),
    unary main_v39 main_v106 (broadcastInDim S1000000x64 ![0, 1] bcast_S1000000x1_S1000000x64_0_1 : (⟨S1000000x1, .f32⟩ : BufTy).Contents (Elt F) → (⟨S1000000x64, .f32⟩ : BufTy).Contents (Elt F)),
    binary main_v105 main_v106 main_v107 (mulf : (⟨S1000000x64, .f32⟩ : BufTy).Contents (Elt F) → (⟨S1000000x64, .f32⟩ : BufTy).Contents (Elt F) → (⟨S1000000x64, .f32⟩ : BufTy).Contents (Elt F)),
    nullary main_cst_25 (constant S_ .f32 0x00000000#32),
    unary main_cst_25 main_v108 (broadcastInDim S200000x64 ![] bcast_S_S200000x64 : (⟨S_, .f32⟩ : BufTy).Contents (Elt F) → (⟨S200000x64, .f32⟩ : BufTy).Contents (Elt F)),
    unary main_arg3 main_v109 (broadcastInDim S1000000x1 ![0] bcast_S1000000_S1000000x1_0 : (⟨S1000000, .i32⟩ : BufTy).Contents (Elt F) → (⟨S1000000x1, .i32⟩ : BufTy).Contents (Elt F)),
    ternary main_v108 main_v109 main_v107 main_v110 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    unary main_arg1 main_v111 (broadcastInDim S200000x64 ![0, 1] bcast_S200000x1_S200000x64_0_1 : (⟨S200000x1, .f32⟩ : BufTy).Contents (Elt F) → (⟨S200000x64, .f32⟩ : BufTy).Contents (Elt F)),
    binary main_v110 main_v111 main_v112 (mulf : (⟨S200000x64, .f32⟩ : BufTy).Contents (Elt F) → (⟨S200000x64, .f32⟩ : BufTy).Contents (Elt F) → (⟨S200000x64, .f32⟩ : BufTy).Contents (Elt F)),
    nullary main_c_26 (constantI S_ 32 0#32),
    unary main_c_26 main_v113 (broadcastInDim S1000000 ![] bcast_S_S1000000 : (⟨S_, .i32⟩ : BufTy).Contents (Elt F) → (⟨S1000000, .i32⟩ : BufTy).Contents (Elt F)),
    binary main_arg2 main_v113 main_v114 (cmpi .slt : (⟨S1000000, .i32⟩ : BufTy).Contents (Elt F) → (⟨S1000000, .i32⟩ : BufTy).Contents (Elt F) → (⟨S1000000, .i1⟩ : BufTy).Contents (Elt F)),
    nullary main_c_27 (constantI S_ 32 200000#32),
    unary main_c_27 main_v115 (broadcastInDim S1000000 ![] bcast_S_S1000000 : (⟨S_, .i32⟩ : BufTy).Contents (Elt F) → (⟨S1000000, .i32⟩ : BufTy).Contents (Elt F)),
    binary main_arg2 main_v115 main_v116 (addi : (⟨S1000000, .i32⟩ : BufTy).Contents (Elt F) → (⟨S1000000, .i32⟩ : BufTy).Contents (Elt F) → (⟨S1000000, .i32⟩ : BufTy).Contents (Elt F)),
    ternary main_v114 main_v116 main_arg2 main_v117 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v117 main_v118 (broadcastInDim S1000000x1 ![0] bcast_S1000000_S1000000x1_0 : (⟨S1000000, .i32⟩ : BufTy).Contents (Elt F) → (⟨S1000000x1, .i32⟩ : BufTy).Contents (Elt F)),
    binary main_arg10 main_v118 main_v119 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    binary main_v119 main_v32 main_v120 (mulf : (⟨S1000000x64, .f32⟩ : BufTy).Contents (Elt F) → (⟨S1000000x64, .f32⟩ : BufTy).Contents (Elt F) → (⟨S1000000x64, .f32⟩ : BufTy).Contents (Elt F)),
    unary main_v39 main_v121 (broadcastInDim S1000000x64 ![0, 1] bcast_S1000000x1_S1000000x64_0_1 : (⟨S1000000x1, .f32⟩ : BufTy).Contents (Elt F) → (⟨S1000000x64, .f32⟩ : BufTy).Contents (Elt F)),
    binary main_v120 main_v121 main_v122 (mulf : (⟨S1000000x64, .f32⟩ : BufTy).Contents (Elt F) → (⟨S1000000x64, .f32⟩ : BufTy).Contents (Elt F) → (⟨S1000000x64, .f32⟩ : BufTy).Contents (Elt F)),
    nullary main_cst_28 (constant S_ .f32 0x00000000#32),
    unary main_cst_28 main_v123 (broadcastInDim S200000x64 ![] bcast_S_S200000x64 : (⟨S_, .f32⟩ : BufTy).Contents (Elt F) → (⟨S200000x64, .f32⟩ : BufTy).Contents (Elt F)),
    unary main_arg3 main_v124 (broadcastInDim S1000000x1 ![0] bcast_S1000000_S1000000x1_0 : (⟨S1000000, .i32⟩ : BufTy).Contents (Elt F) → (⟨S1000000x1, .i32⟩ : BufTy).Contents (Elt F)),
    ternary main_v123 main_v124 main_v122 main_v125 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    unary main_arg1 main_v126 (broadcastInDim S200000x64 ![0, 1] bcast_S200000x1_S200000x64_0_1 : (⟨S200000x1, .f32⟩ : BufTy).Contents (Elt F) → (⟨S200000x64, .f32⟩ : BufTy).Contents (Elt F)),
    binary main_v125 main_v126 main_v127 (mulf : (⟨S200000x64, .f32⟩ : BufTy).Contents (Elt F) → (⟨S200000x64, .f32⟩ : BufTy).Contents (Elt F) → (⟨S200000x64, .f32⟩ : BufTy).Contents (Elt F)),
    nullary main_cst_29 (constant S_ .f32 0x00000000#32),
    binary main_arg10 main_cst_29 main_v128 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    unary main_v128 main_v129 (broadcastInDim S1x64 ![1] bcast_S64_S1x64_1 : (⟨S64, .f32⟩ : BufTy).Contents (Elt F) → (⟨S1x64, .f32⟩ : BufTy).Contents (Elt F)),
    nullary main_cst_30 (constant S_ .f32 0x48435000#32),
    unary main_cst_30 main_v130 (broadcastInDim S1x64 ![] bcast_S_S1x64 : (⟨S_, .f32⟩ : BufTy).Contents (Elt F) → (⟨S1x64, .f32⟩ : BufTy).Contents (Elt F)),
    binary main_v129 main_v130 main_v131 (Host.divf : (⟨S1x64, .f32⟩ : BufTy).Contents (Elt F) → (⟨S1x64, .f32⟩ : BufTy).Contents (Elt F) → (⟨S1x64, .f32⟩ : BufTy).Contents (Elt F)),
    unary main_v131 main_v132 (broadcastInDim S1000000x64 ![0, 1] bcast_S1x64_S1000000x64_0_1 : (⟨S1x64, .f32⟩ : BufTy).Contents (Elt F) → (⟨S1000000x64, .f32⟩ : BufTy).Contents (Elt F)),
    binary main_v132 main_v32 main_v133 (mulf : (⟨S1000000x64, .f32⟩ : BufTy).Contents (Elt F) → (⟨S1000000x64, .f32⟩ : BufTy).Contents (Elt F) → (⟨S1000000x64, .f32⟩ : BufTy).Contents (Elt F)),
    unary main_v39 main_v134 (broadcastInDim S1000000x64 ![0, 1] bcast_S1000000x1_S1000000x64_0_1 : (⟨S1000000x1, .f32⟩ : BufTy).Contents (Elt F) → (⟨S1000000x64, .f32⟩ : BufTy).Contents (Elt F)),
    binary main_v133 main_v134 main_v135 (mulf : (⟨S1000000x64, .f32⟩ : BufTy).Contents (Elt F) → (⟨S1000000x64, .f32⟩ : BufTy).Contents (Elt F) → (⟨S1000000x64, .f32⟩ : BufTy).Contents (Elt F)),
    nullary main_cst_31 (constant S_ .f32 0x00000000#32),
    unary main_cst_31 main_v136 (broadcastInDim S200000x64 ![] bcast_S_S200000x64 : (⟨S_, .f32⟩ : BufTy).Contents (Elt F) → (⟨S200000x64, .f32⟩ : BufTy).Contents (Elt F)),
    unary main_arg3 main_v137 (broadcastInDim S1000000x1 ![0] bcast_S1000000_S1000000x1_0 : (⟨S1000000, .i32⟩ : BufTy).Contents (Elt F) → (⟨S1000000x1, .i32⟩ : BufTy).Contents (Elt F)),
    ternary main_v136 main_v137 main_v135 main_v138 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    unary main_arg1 main_v139 (broadcastInDim S200000x64 ![0, 1] bcast_S200000x1_S200000x64_0_1 : (⟨S200000x1, .f32⟩ : BufTy).Contents (Elt F) → (⟨S200000x64, .f32⟩ : BufTy).Contents (Elt F)),
    binary main_v138 main_v139 main_v140 (mulf : (⟨S200000x64, .f32⟩ : BufTy).Contents (Elt F) → (⟨S200000x64, .f32⟩ : BufTy).Contents (Elt F) → (⟨S200000x64, .f32⟩ : BufTy).Contents (Elt F)),
    nullary main_c_32 (constantI S_ 32 0#32),
    unary main_c_32 main_v141 (broadcastInDim S8192 ![] bcast_S_S8192 : (⟨S_, .i32⟩ : BufTy).Contents (Elt F) → (⟨S8192, .i32⟩ : BufTy).Contents (Elt F)),
    binary main_arg5 main_v141 main_v142 (cmpi .slt : (⟨S8192, .i32⟩ : BufTy).Contents (Elt F) → (⟨S8192, .i32⟩ : BufTy).Contents (Elt F) → (⟨S8192, .i1⟩ : BufTy).Contents (Elt F)),
    nullary main_c_33 (constantI S_ 32 200000#32),
    unary main_c_33 main_v143 (broadcastInDim S8192 ![] bcast_S_S8192 : (⟨S_, .i32⟩ : BufTy).Contents (Elt F) → (⟨S8192, .i32⟩ : BufTy).Contents (Elt F)) ]

/-- The operations of the reference's window 3, in order (60 of them): a call of a module-local function
    stands as that function's own operations over the call's buffers. -/
abbrev ops3 : List (HloOp τ sig (Elt F)) :=
  [ binary main_arg5 main_v143 main_v144 (addi : (⟨S8192, .i32⟩ : BufTy).Contents (Elt F) → (⟨S8192, .i32⟩ : BufTy).Contents (Elt F) → (⟨S8192, .i32⟩ : BufTy).Contents (Elt F)),
    ternary main_v142 main_v144 main_arg5 main_v145 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v145 main_v146 (broadcastInDim S8192x1 ![0] bcast_S8192_S8192x1_0 : (⟨S8192, .i32⟩ : BufTy).Contents (Elt F) → (⟨S8192x1, .i32⟩ : BufTy).Contents (Elt F)),
    binary main_v94 main_v146 main_v147 ((fun x i => Host.gather gather_S200000x64_S8192x1_S8192x64_1_0_n_n_0_1_164 x i) : (⟨S200000x64, .f32⟩ : BufTy).Contents (Elt F) → (⟨S8192x1, .i32⟩ : BufTy).Contents (Elt F) → (⟨S8192x64, .f32⟩ : BufTy).Contents (Elt F)),
    nullary main_c_34 (constantI S_ 32 0#32),
    unary main_c_34 main_v148 (broadcastInDim S8192 ![] bcast_S_S8192 : (⟨S_, .i32⟩ : BufTy).Contents (Elt F) → (⟨S8192, .i32⟩ : BufTy).Contents (Elt F)),
    binary main_arg6 main_v148 main_v149 (cmpi .slt : (⟨S8192, .i32⟩ : BufTy).Contents (Elt F) → (⟨S8192, .i32⟩ : BufTy).Contents (Elt F) → (⟨S8192, .i1⟩ : BufTy).Contents (Elt F)),
    nullary main_c_35 (constantI S_ 32 200000#32),
    unary main_c_35 main_v150 (broadcastInDim S8192 ![] bcast_S_S8192 : (⟨S_, .i32⟩ : BufTy).Contents (Elt F) → (⟨S8192, .i32⟩ : BufTy).Contents (Elt F)),
    binary main_arg6 main_v150 main_v151 (addi : (⟨S8192, .i32⟩ : BufTy).Contents (Elt F) → (⟨S8192, .i32⟩ : BufTy).Contents (Elt F) → (⟨S8192, .i32⟩ : BufTy).Contents (Elt F)),
    ternary main_v149 main_v151 main_arg6 main_v152 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v152 main_v153 (broadcastInDim S8192x1 ![0] bcast_S8192_S8192x1_0 : (⟨S8192, .i32⟩ : BufTy).Contents (Elt F) → (⟨S8192x1, .i32⟩ : BufTy).Contents (Elt F)),
    binary main_v94 main_v153 main_v154 ((fun x i => Host.gather gather_S200000x64_S8192x1_S8192x64_1_0_n_n_0_1_164 x i) : (⟨S200000x64, .f32⟩ : BufTy).Contents (Elt F) → (⟨S8192x1, .i32⟩ : BufTy).Contents (Elt F) → (⟨S8192x64, .f32⟩ : BufTy).Contents (Elt F)),
    binary main_v147 main_v154 main_v155 (mulf : (⟨S8192x64, .f32⟩ : BufTy).Contents (Elt F) → (⟨S8192x64, .f32⟩ : BufTy).Contents (Elt F) → (⟨S8192x64, .f32⟩ : BufTy).Contents (Elt F)),
    unary main_arg14 main_v156 ((transpose S64x64 [1, 0] · transposes_S64x64_S64x64_1_0) : (⟨S64x64, .f32⟩ : BufTy).Contents (Elt F) → (⟨S64x64, .f32⟩ : BufTy).Contents (Elt F)),
    binary main_v155 main_v156 main_v157 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    unary main_arg15 main_v158 (broadcastInDim S1x64 ![1] bcast_S64_S1x64_1 : (⟨S64, .f32⟩ : BufTy).Contents (Elt F) → (⟨S1x64, .f32⟩ : BufTy).Contents (Elt F)),
    unary main_v158 main_v159 (broadcastInDim S8192x64 ![0, 1] bcast_S1x64_S8192x64_0_1 : (⟨S1x64, .f32⟩ : BufTy).Contents (Elt F) → (⟨S8192x64, .f32⟩ : BufTy).Contents (Elt F)),
    binary main_v157 main_v159 main_v160 (addf : (⟨S8192x64, .f32⟩ : BufTy).Contents (Elt F) → (⟨S8192x64, .f32⟩ : BufTy).Contents (Elt F) → (⟨S8192x64, .f32⟩ : BufTy).Contents (Elt F)),
    nullary main_cst_36 (constant S_ .f32 0x3DCCCCCD#32),
    TRef.nullary main_call0.cst (constant S_ .f32 0x00000000#32),
    TRef.unary main_call0.cst main_call0.v0 (broadcastInDim S8192x64 ![] bcast_S_S8192x64),
    TRef.binary (.of main_v160) main_call0.v0 main_call0.v1 (cmpf .oge),
    TRef.unary (.of main_cst_36) main_call0.v2 id,
    TRef.unary main_call0.v2 main_call0.v3 (broadcastInDim S8192x64 ![] bcast_S_S8192x64),
    TRef.binary main_call0.v3 (.of main_v160) main_call0.v4 mulf,
    TRef.ternary main_call0.v1 (.of main_v160) main_call0.v4 main_call0.call0.v0 select,
    unary main_arg16 main_v162 ((transpose S64x5 [1, 0] · transposes_S5x64_S64x5_1_0) : (⟨S5x64, .f32⟩ : BufTy).Contents (Elt F) → (⟨S64x5, .f32⟩ : BufTy).Contents (Elt F)),
    binary main_v161 main_v162 main_v163 ((fun l r => Host.dotGeneral dot_S8192x64_S64x5_S8192x5_1_0_0_1_n_n none l r) : (⟨S8192x64, .f32⟩ : BufTy).Contents (Elt F) → (⟨S64x5, .f32⟩ : BufTy).Contents (Elt F) → (⟨S8192x5, .f32⟩ : BufTy).Contents (Elt F)),
    unary main_arg17 main_v164 (broadcastInDim S1x5 ![1] bcast_S5_S1x5_1 : (⟨S5, .f32⟩ : BufTy).Contents (Elt F) → (⟨S1x5, .f32⟩ : BufTy).Contents (Elt F)),
    unary main_v164 main_v165 (broadcastInDim S8192x5 ![0, 1] bcast_S1x5_S8192x5_0_1 : (⟨S1x5, .f32⟩ : BufTy).Contents (Elt F) → (⟨S8192x5, .f32⟩ : BufTy).Contents (Elt F)),
    binary main_v163 main_v165 main_v166 (addf : (⟨S8192x5, .f32⟩ : BufTy).Contents (Elt F) → (⟨S8192x5, .f32⟩ : BufTy).Contents (Elt F) → (⟨S8192x5, .f32⟩ : BufTy).Contents (Elt F)),
    nullary main_c_37 (constantI S_ 32 0#32),
    unary main_c_37 main_v167 (broadcastInDim S8192 ![] bcast_S_S8192 : (⟨S_, .i32⟩ : BufTy).Contents (Elt F) → (⟨S8192, .i32⟩ : BufTy).Contents (Elt F)),
    binary main_arg6 main_v167 main_v168 (cmpi .slt : (⟨S8192, .i32⟩ : BufTy).Contents (Elt F) → (⟨S8192, .i32⟩ : BufTy).Contents (Elt F) → (⟨S8192, .i1⟩ : BufTy).Contents (Elt F)),
    nullary main_c_38 (constantI S_ 32 200000#32),
    unary main_c_38 main_v169 (broadcastInDim S8192 ![] bcast_S_S8192 : (⟨S_, .i32⟩ : BufTy).Contents (Elt F) → (⟨S8192, .i32⟩ : BufTy).Contents (Elt F)),
    binary main_arg6 main_v169 main_v170 (addi : (⟨S8192, .i32⟩ : BufTy).Contents (Elt F) → (⟨S8192, .i32⟩ : BufTy).Contents (Elt F) → (⟨S8192, .i32⟩ : BufTy).Contents (Elt F)),
    ternary main_v168 main_v170 main_arg6 main_v171 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v171 main_v172 (broadcastInDim S8192x1 ![0] bcast_S8192_S8192x1_0 : (⟨S8192, .i32⟩ : BufTy).Contents (Elt F) → (⟨S8192x1, .i32⟩ : BufTy).Contents (Elt F)),
    binary main_v112 main_v172 main_v173 ((fun x i => Host.gather gather_S200000x64_S8192x1_S8192x64_1_0_n_n_0_1_164 x i) : (⟨S200000x64, .f32⟩ : BufTy).Contents (Elt F) → (⟨S8192x1, .i32⟩ : BufTy).Contents (Elt F) → (⟨S8192x64, .f32⟩ : BufTy).Contents (Elt F)),
    binary main_v147 main_v173 main_v174 (mulf : (⟨S8192x64, .f32⟩ : BufTy).Contents (Elt F) → (⟨S8192x64, .f32⟩ : BufTy).Contents (Elt F) → (⟨S8192x64, .f32⟩ : BufTy).Contents (Elt F)),
    unary main_arg14 main_v175 ((transpose S64x64 [1, 0] · transposes_S64x64_S64x64_1_0) : (⟨S64x64, .f32⟩ : BufTy).Contents (Elt F) → (⟨S64x64, .f32⟩ : BufTy).Contents (Elt F)),
    binary main_v174 main_v175 main_v176 ((fun l r => Host.dotGeneral dot_S8192x64_S64x64_S8192x64_1_0_0_1_n_n none l r) : (⟨S8192x64, .f32⟩ : BufTy).Contents (Elt F) → (⟨S64x64, .f32⟩ : BufTy).Contents (Elt F) → (⟨S8192x64, .f32⟩ : BufTy).Contents (Elt F)),
    unary main_arg15 main_v177 (broadcastInDim S1x64 ![1] bcast_S64_S1x64_1 : (⟨S64, .f32⟩ : BufTy).Contents (Elt F) → (⟨S1x64, .f32⟩ : BufTy).Contents (Elt F)),
    unary main_v177 main_v178 (broadcastInDim S8192x64 ![0, 1] bcast_S1x64_S8192x64_0_1 : (⟨S1x64, .f32⟩ : BufTy).Contents (Elt F) → (⟨S8192x64, .f32⟩ : BufTy).Contents (Elt F)),
    binary main_v176 main_v178 main_v179 (addf : (⟨S8192x64, .f32⟩ : BufTy).Contents (Elt F) → (⟨S8192x64, .f32⟩ : BufTy).Contents (Elt F) → (⟨S8192x64, .f32⟩ : BufTy).Contents (Elt F)),
    nullary main_cst_39 (constant S_ .f32 0x3DCCCCCD#32),
    TRef.nullary main_call1.cst (constant S_ .f32 0x00000000#32),
    TRef.unary main_call1.cst main_call1.v0 (broadcastInDim S8192x64 ![] bcast_S_S8192x64),
    TRef.binary (.of main_v179) main_call1.v0 main_call1.v1 (cmpf .oge),
    TRef.unary (.of main_cst_39) main_call1.v2 id,
    TRef.unary main_call1.v2 main_call1.v3 (broadcastInDim S8192x64 ![] bcast_S_S8192x64),
    TRef.binary main_call1.v3 (.of main_v179) main_call1.v4 mulf,
    TRef.ternary main_call1.v1 (.of main_v179) main_call1.v4 main_call1.call0.v0 select,
    unary main_arg16 main_v181 ((transpose S64x5 [1, 0] · transposes_S5x64_S64x5_1_0) : (⟨S5x64, .f32⟩ : BufTy).Contents (Elt F) → (⟨S64x5, .f32⟩ : BufTy).Contents (Elt F)),
    binary main_v180 main_v181 main_v182 ((fun l r => Host.dotGeneral dot_S8192x64_S64x5_S8192x5_1_0_0_1_n_n none l r) : (⟨S8192x64, .f32⟩ : BufTy).Contents (Elt F) → (⟨S64x5, .f32⟩ : BufTy).Contents (Elt F) → (⟨S8192x5, .f32⟩ : BufTy).Contents (Elt F)),
    unary main_arg17 main_v183 (broadcastInDim S1x5 ![1] bcast_S5_S1x5_1 : (⟨S5, .f32⟩ : BufTy).Contents (Elt F) → (⟨S1x5, .f32⟩ : BufTy).Contents (Elt F)),
    unary main_v183 main_v184 (broadcastInDim S8192x5 ![0, 1] bcast_S1x5_S8192x5_0_1 : (⟨S1x5, .f32⟩ : BufTy).Contents (Elt F) → (⟨S8192x5, .f32⟩ : BufTy).Contents (Elt F)),
    binary main_v182 main_v184 main_v185 (addf : (⟨S8192x5, .f32⟩ : BufTy).Contents (Elt F) → (⟨S8192x5, .f32⟩ : BufTy).Contents (Elt F) → (⟨S8192x5, .f32⟩ : BufTy).Contents (Elt F)) ]

/-- All 240 operations of the reference, in order. -/
abbrev ops : List (HloOp τ sig (Elt F)) := ops0 ++ ops1 ++ ops2 ++ ops3

end Cert.ReferenceIdeal.HandRun

end
-- ==== Proof.ReferenceRun.lean ====
import proofs.«418387_j86114094284913_3_alg».proof.Proof.ReferenceOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The program is the straight line of its operations

Each window of the program is a chain of host steps, and so is the line of its operations: the two are the same
chain, step for step, once sequencing is unfolded. The last window calls the leaky rectifier twice, which in turn
calls the select; a call is the callee's body at the call's arguments and buffers, so unfolding the two
definitions leaves the same chain with the callee's seven steps in the call's place. -/

set_option maxRecDepth 8192 in
theorem main_part0_eq (c : Dev nD) : main_part0 (F := F) c = seq ops0 := rfl

set_option maxRecDepth 8192 in
theorem main_part1_eq (c : Dev nD) : main_part1 (F := F) c = seq ops1 := rfl

set_option maxRecDepth 8192 in
theorem main_part2_eq (c : Dev nD) : main_part2 (F := F) c = seq ops2 := rfl

set_option maxRecDepth 8192 in
theorem main_part3_eq (c : Dev nD) : main_part3 (F := F) c = seq ops3 := rfl

/-- The whole program is the four windows in turn, and a line cut in pieces runs as its pieces in turn. -/
theorem main_eq (c : Dev nD) : main (F := F) c = seq ops := by
  show main (F := F) c = seq (ops0 ++ ops1 ++ ops2 ++ ops3)
  rw [seq_append, seq_append, seq_append, bind_assoc, bind_assoc,
    ← main_part0_eq c, ← main_part1_eq c, ← main_part2_eq c, ← main_part3_eq c]
  rfl

/-! ## The fold over a line cut in pieces -/

/-- The contents after two lines run in turn are the second line's from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole program, window by window. -/
theorem after_ops (V : Valuation τ sig (Elt F)) :
    after ops V = after ops3 (after ops2 (after ops1 (after ops0 V))) := by
  show after (ops0 ++ ops1 ++ ops2 ++ ops3) V = _
  rw [after_append, after_append, after_append]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- Every operation of the first window touches TensorCore buffers only. -/
theorem ops0_sub : (ops0 : List (HloOp τ sig (Elt F))).Forall fun op => op.bufs ⊆ tcRefs τ sig := by
  simp only [ops0, List.Forall, nullary_bufs_sub, unary_bufs_sub, binary_bufs_sub, ternary_bufs_sub, and_self]
theorem ops1_sub : (ops1 : List (HloOp τ sig (Elt F))).Forall fun op => op.bufs ⊆ tcRefs τ sig := by
  simp only [ops1, List.Forall, nullary_bufs_sub, unary_bufs_sub, binary_bufs_sub, ternary_bufs_sub, and_self]
theorem ops2_sub : (ops2 : List (HloOp τ sig (Elt F))).Forall fun op => op.bufs ⊆ tcRefs τ sig := by
  simp only [ops2, List.Forall, nullary_bufs_sub, unary_bufs_sub, binary_bufs_sub, ternary_bufs_sub, and_self]
theorem ops3_sub : (ops3 : List (HloOp τ sig (Elt F))).Forall fun op => op.bufs ⊆ tcRefs τ sig := by
  simp only [ops3, List.Forall, nullary_bufs_sub, unary_bufs_sub, binary_bufs_sub, ternary_bufs_sub, and_self]

theorem ops_sub : (ops : List (HloOp τ sig (Elt F))).Forall fun op => op.bufs ⊆ tcRefs τ sig :=
  List.forall_append.2 ⟨List.forall_append.2 ⟨List.forall_append.2 ⟨ops0_sub, ops1_sub⟩, ops2_sub⟩, ops3_sub⟩

/-- Every operation determines the contents it writes: none leaves a buffer at contents of the machine's
    choosing. Window by window, each operation's set of such buffers is empty by computation. -/
theorem ops0_fresh : (ops0 : List (HloOp τ sig (Elt F))).Forall fun op => op.fresh = ∅ := by
  simp only [ops0, List.Forall]; and_intros <;> rfl
theorem ops1_fresh : (ops1 : List (HloOp τ sig (Elt F))).Forall fun op => op.fresh = ∅ := by
  simp only [ops1, List.Forall]; and_intros <;> rfl
theorem ops2_fresh : (ops2 : List (HloOp τ sig (Elt F))).Forall fun op => op.fresh = ∅ := by
  simp only [ops2, List.Forall]; and_intros <;> rfl
theorem ops3_fresh : (ops3 : List (HloOp τ sig (Elt F))).Forall fun op => op.fresh = ∅ := by
  simp only [ops3, List.Forall]; and_intros <;> rfl

theorem ops_fresh : ∀ op ∈ (ops : List (HloOp τ sig (Elt F))), op.fresh = ∅ :=
  List.forall_iff_forall_mem.1
    (List.forall_append.2 ⟨List.forall_append.2 ⟨List.forall_append.2 ⟨ops0_fresh, ops1_fresh⟩, ops2_fresh⟩, ops3_fresh⟩)

/-! ## The run -/

/-- On every device, for any float values, from any memory with zero counters: every weakly fair execution of the
    reference on the TensorCores terminates, and every final state has each TensorCore buffer at the fold of the
    operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HandRun

end
-- ==== Proof.ReferenceTerms.lean ====
/-
  The reference program's result buffers, read as the dataflow's terms.

  The program is a straight line of 240 whole-array operations, cut into four windows. For an arbitrary valuation of
  its buffers, each window is read on its own: the buffers a later window (or the caller) needs are stated as terms of
  the dataflow over the eighteen inputs, given that the buffers the window reads from earlier ones already are such
  terms; every other buffer a window does not write is carried through it unchanged. Chaining the windows gives the
  eight results, and the argument buffers are never written.
-/
import proofs.«418387_j86114094284913_3_alg».proof.Proof.ReferenceOps
import proofs.«418387_j86114094284913_3_alg».proof.Proof.Dataflow
import proofs.«418387_j86114094284913_3_alg».proof.Proof.DataflowPredictor
import Idealize.ShloMosaic.Lib.StableHlo.Run

noncomputable section

namespace Cert.ReferenceTerms

open Cert.ReferenceIdeal Cert.ReferenceIdeal.Gen Cert.ReferenceIdeal.HandRun
open Idealize.ShloMosaic Idealize.SL.Sem Idealize.ShloMosaic.StableHlo

/-- The contents of the reference program's buffers, at the exact instance. -/
abbrev Contents : Type := Valuation τ sig (Elt Ideal)

/-- Running two lists of operations one after the other is running their concatenation. -/
theorem after_concat (l₁ l₂ : List (HloOp τ sig (Elt Ideal))) (W : Contents) :
    after (l₁ ++ l₂) W = after l₂ (after l₁ W) := by
  induction l₁ generalizing W with
  | nil => rfl
  | cons op l ih => rw [List.cons_append, after_cons, after_cons, ih]

/-! ## The wrap-around of a position word, in the pieces the program computes apart -/

/-- Where a vector of E position words is negative. -/
def negE (v : IVec Cert.Dataflow.SE 32) : IVec Cert.Dataflow.SE 1 :=
  cmpi .slt v (broadcastInDim Cert.Dataflow.SE (![] : Fin 0 → Fin Cert.Dataflow.SE.rank) (by decide) (constantI Cert.Dataflow.S_ 32 0#32))
/-- A vector of E position words moved up by the table's length. -/
def upE (n : BitVec 32) (v : IVec Cert.Dataflow.SE 32) : IVec Cert.Dataflow.SE 32 :=
  addi v (broadcastInDim Cert.Dataflow.SE (![] : Fin 0 → Fin Cert.Dataflow.SE.rank) (by decide) (constantI Cert.Dataflow.S_ 32 n))
/-- Where a vector of B position words is negative. -/
def negB (v : IVec Cert.Dataflow.SB 32) : IVec Cert.Dataflow.SB 1 :=
  cmpi .slt v (broadcastInDim Cert.Dataflow.SB (![] : Fin 0 → Fin Cert.Dataflow.SB.rank) (by decide) (constantI Cert.Dataflow.S_ 32 0#32))
/-- The table's length at each of B positions. -/
def lenB (n : BitVec 32) : IVec Cert.Dataflow.SB 32 :=
  broadcastInDim Cert.Dataflow.SB (![] : Fin 0 → Fin Cert.Dataflow.SB.rank) (by decide) (constantI Cert.Dataflow.S_ 32 n)

/-- The wrap-around is the choice between the word moved up and the word itself, by its sign. -/
theorem wrapE_eq (n : BitVec 32) (v : IVec Cert.Dataflow.SE 32) : Cert.Dataflow.wrapE n v = select (negE v) (upE n v) v := rfl
theorem wrapB_eq (n : BitVec 32) (v : IVec Cert.Dataflow.SB 32) : Cert.Dataflow.wrapB n v = select (negB v) (addi v (lenB n)) v := rfl

/-- The eighteen inputs a valuation holds in the argument buffers. -/
def inputsOf (V : Contents) : Cert.Dataflow.Inputs :=
  ⟨V (Proc.devRef .tc main_arg0),
   V (Proc.devRef .tc main_arg1),
   V (Proc.devRef .tc main_arg2),
   V (Proc.devRef .tc main_arg3),
   V (Proc.devRef .tc main_arg4),
   V (Proc.devRef .tc main_arg5),
   V (Proc.devRef .tc main_arg6),
   V (Proc.devRef .tc main_arg7),
   V (Proc.devRef .tc main_arg8),
   V (Proc.devRef .tc main_arg9),
   V (Proc.devRef .tc main_arg10),
   V (Proc.devRef .tc main_arg11),
   V (Proc.devRef .tc main_arg12),
   V (Proc.devRef .tc main_arg13),
   V (Proc.devRef .tc main_arg14),
   V (Proc.devRef .tc main_arg15),
   V (Proc.devRef .tc main_arg16),
   V (Proc.devRef .tc main_arg17)⟩

/-- The argument buffers hold the inputs `a`. -/
structure ArgsHold (W : Contents) (a : Cert.Dataflow.Inputs) : Prop where
  rf : W (Proc.devRef .tc main_arg0) = a.rf
  ci : W (Proc.devRef .tc main_arg1) = a.ci
  src : W (Proc.devRef .tc main_arg2) = a.src
  dst : W (Proc.devRef .tc main_arg3) = a.dst
  score : W (Proc.devRef .tc main_arg4) = a.score
  users : W (Proc.devRef .tc main_arg5) = a.users
  items : W (Proc.devRef .tc main_arg6) = a.items
  W1 : W (Proc.devRef .tc main_arg7) = a.W1
  W2 : W (Proc.devRef .tc main_arg8) = a.W2
  f2 : W (Proc.devRef .tc main_arg9) = a.f2
  f3 : W (Proc.devRef .tc main_arg10) = a.f3
  E1 : W (Proc.devRef .tc main_arg11) = a.E1
  E2 : W (Proc.devRef .tc main_arg12) = a.E2
  E3 : W (Proc.devRef .tc main_arg13) = a.E3
  P1W : W (Proc.devRef .tc main_arg14) = a.P1W
  P1b : W (Proc.devRef .tc main_arg15) = a.P1b
  P2W : W (Proc.devRef .tc main_arg16) = a.P2W
  P2b : W (Proc.devRef .tc main_arg17) = a.P2b

theorem argsHold_inputsOf (V : Contents) : ArgsHold V (inputsOf V) :=
  ⟨rfl, rfl, rfl, rfl, rfl, rfl, rfl, rfl, rfl, rfl, rfl, rfl, rfl, rfl, rfl, rfl, rfl, rfl⟩

/-! ## The first three windows -/

/-! ### ops0 -/

/-- The buffers the operations of `ops0` write, in order. -/
abbrev written0 : List (Ref sig .tc) := [main_cst, main_v0, main_cst_0, main_v1, main_v2, main_v3, main_v4, main_cst_1, main_v5, main_v6, main_v7, main_cst_2, main_v8, main_v9, main_v10, main_v11, main_c, main_v12, main_v13, main_c_3, main_v14, main_v15, main_v16, main_v17, main_v18, main_c_4, main_v19, main_v20, main_c_5, main_v21, main_v22, main_v23, main_v24, main_v25, main_c_6, main_v26, main_v27, main_c_7, main_v28, main_v29, main_v30, main_v31, main_v32, main_c_8, main_v33, main_v34, main_c_9, main_v35, main_v36, main_v37, main_v38, main_v39, main_v40, main_v41, main_c_10, main_v42, main_v43, main_c_11, main_v44, main_v45]

theorem ops0_writes : (ops0 : List (HloOp τ sig (Elt Ideal))).Forall fun op => op.writes ⊆ (written0.map (Proc.devRef (τ := τ) .tc)).toFinset := by
  simp only [ops0, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `ops0` does not write keeps its contents through it. -/
theorem keep0 (W : Contents) (r : Ref sig .tc) (h : r ∉ written0) :
    after ops0 W (Proc.devRef .tc r) = W (Proc.devRef .tc r) :=
  after_of_writes_sub ops0 W ops0_writes h

theorem argsHold_after0 {W : Contents} {a : Cert.Dataflow.Inputs} (h : ArgsHold W a) : ArgsHold (after ops0 W) a :=
  ⟨(keep0 W main_arg0 (by decide)).trans h.rf,
   (keep0 W main_arg1 (by decide)).trans h.ci,
   (keep0 W main_arg2 (by decide)).trans h.src,
   (keep0 W main_arg3 (by decide)).trans h.dst,
   (keep0 W main_arg4 (by decide)).trans h.score,
   (keep0 W main_arg5 (by decide)).trans h.users,
   (keep0 W main_arg6 (by decide)).trans h.items,
   (keep0 W main_arg7 (by decide)).trans h.W1,
   (keep0 W main_arg8 (by decide)).trans h.W2,
   (keep0 W main_arg9 (by decide)).trans h.f2,
   (keep0 W main_arg10 (by decide)).trans h.f3,
   (keep0 W main_arg11 (by decide)).trans h.E1,
   (keep0 W main_arg12 (by decide)).trans h.E2,
   (keep0 W main_arg13 (by decide)).trans h.E3,
   (keep0 W main_arg14 (by decide)).trans h.P1W,
   (keep0 W main_arg15 (by decide)).trans h.P1b,
   (keep0 W main_arg16 (by decide)).trans h.P2W,
   (keep0 W main_arg17 (by decide)).trans h.P2b⟩

/-- After the first window: the mean-aggregated review features, the three gathered label tables, the gathered source scale, the first projection, and the sign and the moved-up copy of the source words. -/
structure After0 (W : Contents) (a : Cert.Dataflow.Inputs) : Prop where
  args : ArgsHold W a
  hre : W (Proc.devRef .tc main_v11) = Cert.Dataflow.hre a
  rows1 : W (Proc.devRef .tc main_v18) = Cert.Dataflow.R.tableRows a a.E1
  rows2 : W (Proc.devRef .tc main_v25) = Cert.Dataflow.R.tableRows a a.E2
  rows3 : W (Proc.devRef .tc main_v32) = Cert.Dataflow.R.tableRows a a.E3
  ciSrc : W (Proc.devRef .tc main_v39) = Cert.Dataflow.ciSrc a
  rfe3 : W (Proc.devRef .tc main_v41) = Cert.Dataflow.R.rfe3 a
  srcNeg : W (Proc.devRef .tc main_v43) = negE a.src
  srcUp : W (Proc.devRef .tc main_v45) = upE 200000#32 a.src

set_option maxRecDepth 16384 in
set_option maxHeartbeats 2000000 in
theorem stage0_hre {W : Contents} {a : Cert.Dataflow.Inputs} (h : ArgsHold W a) :
    after ops0 W (Proc.devRef .tc main_v11) = Cert.Dataflow.hre a := by
  simp only [ops0]
  after_results_simp
  simp only [h.rf, h.ci, h.src, h.dst, h.score, h.users, h.items, h.W1, h.W2, h.f2, h.f3, h.E1, h.E2, h.E3, h.P1W, h.P1b, h.P2W, h.P2b] <;> rfl

set_option maxRecDepth 16384 in
set_option maxHeartbeats 2000000 in
theorem stage0_rows1 {W : Contents} {a : Cert.Dataflow.Inputs} (h : ArgsHold W a) :
    after ops0 W (Proc.devRef .tc main_v18) = Cert.Dataflow.R.tableRows a a.E1 := by
  simp only [ops0]
  after_results_simp
  simp only [h.rf, h.ci, h.src, h.dst, h.score, h.users, h.items, h.W1, h.W2, h.f2, h.f3, h.E1, h.E2, h.E3, h.P1W, h.P1b, h.P2W, h.P2b] <;> rfl

set_option maxRecDepth 16384 in
set_option maxHeartbeats 2000000 in
theorem stage0_rows2 {W : Contents} {a : Cert.Dataflow.Inputs} (h : ArgsHold W a) :
    after ops0 W (Proc.devRef .tc main_v25) = Cert.Dataflow.R.tableRows a a.E2 := by
  simp only [ops0]
  after_results_simp
  simp only [h.rf, h.ci, h.src, h.dst, h.score, h.users, h.items, h.W1, h.W2, h.f2, h.f3, h.E1, h.E2, h.E3, h.P1W, h.P1b, h.P2W, h.P2b] <;> rfl

set_option maxRecDepth 16384 in
set_option maxHeartbeats 2000000 in
theorem stage0_rows3 {W : Contents} {a : Cert.Dataflow.Inputs} (h : ArgsHold W a) :
    after ops0 W (Proc.devRef .tc main_v32) = Cert.Dataflow.R.tableRows a a.E3 := by
  simp only [ops0]
  after_results_simp
  simp only [h.rf, h.ci, h.src, h.dst, h.score, h.users, h.items, h.W1, h.W2, h.f2, h.f3, h.E1, h.E2, h.E3, h.P1W, h.P1b, h.P2W, h.P2b] <;> rfl

set_option maxRecDepth 16384 in
set_option maxHeartbeats 2000000 in
theorem stage0_ciSrc {W : Contents} {a : Cert.Dataflow.Inputs} (h : ArgsHold W a) :
    after ops0 W (Proc.devRef .tc main_v39) = Cert.Dataflow.ciSrc a := by
  simp only [ops0]
  after_results_simp
  simp only [h.rf, h.ci, h.src, h.dst, h.score, h.users, h.items, h.W1, h.W2, h.f2, h.f3, h.E1, h.E2, h.E3, h.P1W, h.P1b, h.P2W, h.P2b] <;> rfl

set_option maxRecDepth 16384 in
set_option maxHeartbeats 2000000 in
theorem stage0_rfe3 {W : Contents} {a : Cert.Dataflow.Inputs} (h : ArgsHold W a) :
    after ops0 W (Proc.devRef .tc main_v41) = Cert.Dataflow.R.rfe3 a := by
  simp only [ops0]
  after_results_simp
  simp only [h.rf, h.ci, h.src, h.dst, h.score, h.users, h.items, h.W1, h.W2, h.f2, h.f3, h.E1, h.E2, h.E3, h.P1W, h.P1b, h.P2W, h.P2b] <;> rfl

set_option maxRecDepth 16384 in
set_option maxHeartbeats 2000000 in
theorem stage0_srcNeg {W : Contents} {a : Cert.Dataflow.Inputs} (h : ArgsHold W a) :
    after ops0 W (Proc.devRef .tc main_v43) = negE a.src := by
  simp only [ops0]
  after_results_simp
  simp only [h.rf, h.ci, h.src, h.dst, h.score, h.users, h.items, h.W1, h.W2, h.f2, h.f3, h.E1, h.E2, h.E3, h.P1W, h.P1b, h.P2W, h.P2b] <;> rfl

set_option maxRecDepth 16384 in
set_option maxHeartbeats 2000000 in
theorem stage0_srcUp {W : Contents} {a : Cert.Dataflow.Inputs} (h : ArgsHold W a) :
    after ops0 W (Proc.devRef .tc main_v45) = upE 200000#32 a.src := by
  simp only [ops0]
  after_results_simp
  simp only [h.rf, h.ci, h.src, h.dst, h.score, h.users, h.items, h.W1, h.W2, h.f2, h.f3, h.E1, h.E2, h.E3, h.P1W, h.P1b, h.P2W, h.P2b] <;> rfl

theorem stage0 {W : Contents} {a : Cert.Dataflow.Inputs} (h : ArgsHold W a) : After0 (after ops0 W) a where
  args := argsHold_after0 h
  hre := stage0_hre h
  rows1 := stage0_rows1 h
  rows2 := stage0_rows2 h
  rows3 := stage0_rows3 h
  ciSrc := stage0_ciSrc h
  rfe3 := stage0_rfe3 h
  srcNeg := stage0_srcNeg h
  srcUp := stage0_srcUp h

/-! ### ops1 -/

/-- The buffers the operations of `ops1` write, in order. -/
abbrev written1 : List (Ref sig .tc) := [main_v46, main_v47, main_v48, main_v49, main_v50, main_v51, main_cst_12, main_v52, main_v53, main_v54, main_v55, main_v56, main_cst_13, main_v57, main_v58, main_cst_14, main_v59, main_v60, main_v61, main_v62, main_v63, main_v64, main_cst_15, main_v65, main_v66, main_v67, main_v68, main_v69, main_v70, main_v71, main_c_16, main_v72, main_v73, main_c_17, main_v74, main_v75, main_v76, main_v77, main_v78, main_c_18, main_v79, main_v80, main_c_19, main_v81, main_v82, main_v83, main_v84, main_v85, main_v86, main_v87, main_v88, main_v89, main_cst_20, main_v90, main_v91, main_v92, main_v93, main_v94, main_cst_21, main_v95]

theorem ops1_writes : (ops1 : List (HloOp τ sig (Elt Ideal))).Forall fun op => op.writes ⊆ (written1.map (Proc.devRef (τ := τ) .tc)).toFinset := by
  simp only [ops1, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `ops1` does not write keeps its contents through it. -/
theorem keep1 (W : Contents) (r : Ref sig .tc) (h : r ∉ written1) :
    after ops1 W (Proc.devRef .tc r) = W (Proc.devRef .tc r) :=
  after_of_writes_sub ops1 W ops1_writes h

theorem argsHold_after1 {W : Contents} {a : Cert.Dataflow.Inputs} (h : ArgsHold W a) : ArgsHold (after ops1 W) a :=
  ⟨(keep1 W main_arg0 (by decide)).trans h.rf,
   (keep1 W main_arg1 (by decide)).trans h.ci,
   (keep1 W main_arg2 (by decide)).trans h.src,
   (keep1 W main_arg3 (by decide)).trans h.dst,
   (keep1 W main_arg4 (by decide)).trans h.score,
   (keep1 W main_arg5 (by decide)).trans h.users,
   (keep1 W main_arg6 (by decide)).trans h.items,
   (keep1 W main_arg7 (by decide)).trans h.W1,
   (keep1 W main_arg8 (by decide)).trans h.W2,
   (keep1 W main_arg9 (by decide)).trans h.f2,
   (keep1 W main_arg10 (by decide)).trans h.f3,
   (keep1 W main_arg11 (by decide)).trans h.E1,
   (keep1 W main_arg12 (by decide)).trans h.E2,
   (keep1 W main_arg13 (by decide)).trans h.E3,
   (keep1 W main_arg14 (by decide)).trans h.P1W,
   (keep1 W main_arg15 (by decide)).trans h.P1b,
   (keep1 W main_arg16 (by decide)).trans h.P2W,
   (keep1 W main_arg17 (by decide)).trans h.P2b⟩

/-- After the second window: the review results, the second projection, the main result and the column sums of the second feature table; the label tables and the source scale still in place. -/
structure After1 (W : Contents) (a : Cert.Dataflow.Inputs) : Prop where
  args : ArgsHold W a
  rows2 : W (Proc.devRef .tc main_v25) = Cert.Dataflow.R.tableRows a a.E2
  rows3 : W (Proc.devRef .tc main_v32) = Cert.Dataflow.R.tableRows a a.E3
  ciSrc : W (Proc.devRef .tc main_v39) = Cert.Dataflow.ciSrc a
  rstRe : W (Proc.devRef .tc main_v56) = Cert.Dataflow.R.rstRe a
  rstReFreeze : W (Proc.devRef .tc main_v69) = Cert.Dataflow.R.rstReFreeze a
  rfe2 : W (Proc.devRef .tc main_v71) = Cert.Dataflow.R.rfe2 a
  rst : W (Proc.devRef .tc main_v94) = Cert.Dataflow.R.rst a
  sumsF2 : W (Proc.devRef .tc main_v95) = Cert.Dataflow.colSums a.f2

set_option maxRecDepth 16384 in
set_option maxHeartbeats 2000000 in
theorem stage1_rstRe {W : Contents} {a : Cert.Dataflow.Inputs} (h : After0 W a) :
    after ops1 W (Proc.devRef .tc main_v56) = Cert.Dataflow.R.rstRe a := by
  simp only [ops1]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.hre, h.rows1, h.rows2, h.rows3, h.ciSrc, h.rfe3, h.srcNeg, h.srcUp] <;> rfl

set_option maxRecDepth 16384 in
set_option maxHeartbeats 2000000 in
theorem stage1_rstReFreeze {W : Contents} {a : Cert.Dataflow.Inputs} (h : After0 W a) :
    after ops1 W (Proc.devRef .tc main_v69) = Cert.Dataflow.R.rstReFreeze a := by
  simp only [ops1]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.hre, h.rows1, h.rows2, h.rows3, h.ciSrc, h.rfe3, h.srcNeg, h.srcUp] <;> rfl

set_option maxRecDepth 16384 in
set_option maxHeartbeats 2000000 in
theorem stage1_rfe2 {W : Contents} {a : Cert.Dataflow.Inputs} (h : After0 W a) :
    after ops1 W (Proc.devRef .tc main_v71) = Cert.Dataflow.R.rfe2 a := by
  simp only [ops1]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.hre, h.rows1, h.rows2, h.rows3, h.ciSrc, h.rfe3, h.srcNeg, h.srcUp] <;> rfl

set_option maxRecDepth 16384 in
set_option maxHeartbeats 2000000 in
theorem stage1_rst {W : Contents} {a : Cert.Dataflow.Inputs} (h : After0 W a) :
    after ops1 W (Proc.devRef .tc main_v94) = Cert.Dataflow.R.rst a := by
  simp only [ops1]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.hre, h.rows1, h.rows2, h.rows3, h.ciSrc, h.rfe3, h.srcNeg, h.srcUp] <;> rfl

set_option maxRecDepth 16384 in
set_option maxHeartbeats 2000000 in
theorem stage1_sumsF2 {W : Contents} {a : Cert.Dataflow.Inputs} (h : After0 W a) :
    after ops1 W (Proc.devRef .tc main_v95) = Cert.Dataflow.colSums a.f2 := by
  simp only [ops1]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.hre, h.rows1, h.rows2, h.rows3, h.ciSrc, h.rfe3, h.srcNeg, h.srcUp] <;> rfl

theorem stage1 {W : Contents} {a : Cert.Dataflow.Inputs} (h : After0 W a) : After1 (after ops1 W) a where
  args := argsHold_after1 h.args
  rows2 := (keep1 W main_v25 (by decide)).trans h.rows2
  rows3 := (keep1 W main_v32 (by decide)).trans h.rows3
  ciSrc := (keep1 W main_v39 (by decide)).trans h.ciSrc
  rstRe := stage1_rstRe h
  rstReFreeze := stage1_rstReFreeze h
  rfe2 := stage1_rfe2 h
  rst := stage1_rst h
  sumsF2 := stage1_sumsF2 h

/-! ### ops2 -/

/-- The buffers the operations of `ops2` write, in order. -/
abbrev written2 : List (Ref sig .tc) := [main_v96, main_cst_22, main_v97, main_v98, main_cst_23, main_v99, main_v100, main_cst_24, main_v101, main_v102, main_v103, main_v104, main_v105, main_v106, main_v107, main_cst_25, main_v108, main_v109, main_v110, main_v111, main_v112, main_c_26, main_v113, main_v114, main_c_27, main_v115, main_v116, main_v117, main_v118, main_v119, main_v120, main_v121, main_v122, main_cst_28, main_v123, main_v124, main_v125, main_v126, main_v127, main_cst_29, main_v128, main_v129, main_cst_30, main_v130, main_v131, main_v132, main_v133, main_v134, main_v135, main_cst_31, main_v136, main_v137, main_v138, main_v139, main_v140, main_c_32, main_v141, main_v142, main_c_33, main_v143]

theorem ops2_writes : (ops2 : List (HloOp τ sig (Elt Ideal))).Forall fun op => op.writes ⊆ (written2.map (Proc.devRef (τ := τ) .tc)).toFinset := by
  simp only [ops2, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `ops2` does not write keeps its contents through it. -/
theorem keep2 (W : Contents) (r : Ref sig .tc) (h : r ∉ written2) :
    after ops2 W (Proc.devRef .tc r) = W (Proc.devRef .tc r) :=
  after_of_writes_sub ops2 W ops2_writes h

theorem argsHold_after2 {W : Contents} {a : Cert.Dataflow.Inputs} (h : ArgsHold W a) : ArgsHold (after ops2 W) a :=
  ⟨(keep2 W main_arg0 (by decide)).trans h.rf,
   (keep2 W main_arg1 (by decide)).trans h.ci,
   (keep2 W main_arg2 (by decide)).trans h.src,
   (keep2 W main_arg3 (by decide)).trans h.dst,
   (keep2 W main_arg4 (by decide)).trans h.score,
   (keep2 W main_arg5 (by decide)).trans h.users,
   (keep2 W main_arg6 (by decide)).trans h.items,
   (keep2 W main_arg7 (by decide)).trans h.W1,
   (keep2 W main_arg8 (by decide)).trans h.W2,
   (keep2 W main_arg9 (by decide)).trans h.f2,
   (keep2 W main_arg10 (by decide)).trans h.f3,
   (keep2 W main_arg11 (by decide)).trans h.E1,
   (keep2 W main_arg12 (by decide)).trans h.E2,
   (keep2 W main_arg13 (by decide)).trans h.E3,
   (keep2 W main_arg14 (by decide)).trans h.P1W,
   (keep2 W main_arg15 (by decide)).trans h.P1b,
   (keep2 W main_arg16 (by decide)).trans h.P2W,
   (keep2 W main_arg17 (by decide)).trans h.P2b⟩

/-- After the third window: the frozen main result, the identity results, and the sign and table length for the user positions; the earlier results still in place. -/
structure After2 (W : Contents) (a : Cert.Dataflow.Inputs) : Prop where
  args : ArgsHold W a
  rstRe : W (Proc.devRef .tc main_v56) = Cert.Dataflow.R.rstRe a
  rstReFreeze : W (Proc.devRef .tc main_v69) = Cert.Dataflow.R.rstReFreeze a
  rst : W (Proc.devRef .tc main_v94) = Cert.Dataflow.R.rst a
  rstFreeze : W (Proc.devRef .tc main_v112) = Cert.Dataflow.R.rstFreeze a
  rstId : W (Proc.devRef .tc main_v127) = Cert.Dataflow.R.rstId a
  rstIdFreeze : W (Proc.devRef .tc main_v140) = Cert.Dataflow.R.rstIdFreeze a
  usersNeg : W (Proc.devRef .tc main_v142) = negB a.users
  lenUsers : W (Proc.devRef .tc main_v143) = lenB 200000#32

set_option maxRecDepth 16384 in
set_option maxHeartbeats 2000000 in
theorem stage2_rstFreeze {W : Contents} {a : Cert.Dataflow.Inputs} (h : After1 W a) :
    after ops2 W (Proc.devRef .tc main_v112) = Cert.Dataflow.R.rstFreeze a := by
  simp only [ops2]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.rows2, h.rows3, h.ciSrc, h.rstRe, h.rstReFreeze, h.rfe2, h.rst, h.sumsF2] <;> rfl

set_option maxRecDepth 16384 in
set_option maxHeartbeats 2000000 in
theorem stage2_rstId {W : Contents} {a : Cert.Dataflow.Inputs} (h : After1 W a) :
    after ops2 W (Proc.devRef .tc main_v127) = Cert.Dataflow.R.rstId a := by
  simp only [ops2]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.rows2, h.rows3, h.ciSrc, h.rstRe, h.rstReFreeze, h.rfe2, h.rst, h.sumsF2] <;> rfl

set_option maxRecDepth 16384 in
set_option maxHeartbeats 2000000 in
theorem stage2_rstIdFreeze {W : Contents} {a : Cert.Dataflow.Inputs} (h : After1 W a) :
    after ops2 W (Proc.devRef .tc main_v140) = Cert.Dataflow.R.rstIdFreeze a := by
  simp only [ops2]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.rows2, h.rows3, h.ciSrc, h.rstRe, h.rstReFreeze, h.rfe2, h.rst, h.sumsF2] <;> rfl

set_option maxRecDepth 16384 in
set_option maxHeartbeats 2000000 in
theorem stage2_usersNeg {W : Contents} {a : Cert.Dataflow.Inputs} (h : After1 W a) :
    after ops2 W (Proc.devRef .tc main_v142) = negB a.users := by
  simp only [ops2]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.rows2, h.rows3, h.ciSrc, h.rstRe, h.rstReFreeze, h.rfe2, h.rst, h.sumsF2] <;> rfl

set_option maxRecDepth 16384 in
set_option maxHeartbeats 2000000 in
theorem stage2_lenUsers {W : Contents} {a : Cert.Dataflow.Inputs} (h : After1 W a) :
    after ops2 W (Proc.devRef .tc main_v143) = lenB 200000#32 := by
  simp only [ops2]
  after_results_simp <;> rfl

theorem stage2 {W : Contents} {a : Cert.Dataflow.Inputs} (h : After1 W a) : After2 (after ops2 W) a where
  args := argsHold_after2 h.args
  rstRe := (keep2 W main_v56 (by decide)).trans h.rstRe
  rstReFreeze := (keep2 W main_v69 (by decide)).trans h.rstReFreeze
  rst := (keep2 W main_v94 (by decide)).trans h.rst
  rstFreeze := stage2_rstFreeze h
  rstId := stage2_rstId h
  rstIdFreeze := stage2_rstIdFreeze h
  usersNeg := stage2_usersNeg h
  lenUsers := stage2_lenUsers h

/-! ## The last window, cut into six stretches

The two predictions each go through a first layer, the activation (the operations of a module-local function, over
buffers that carry their value's type) and a second layer. Each stretch is read on its own, the activation and the second
layer over whatever their input buffer holds. -/

abbrev ops3a : List (HloOp τ sig (Elt Ideal)) := ops3.take 19
abbrev ops3b : List (HloOp τ sig (Elt Ideal)) := (ops3.drop 19).take 8
abbrev ops3c : List (HloOp τ sig (Elt Ideal)) := (ops3.drop 27).take 5
abbrev ops3d : List (HloOp τ sig (Elt Ideal)) := (ops3.drop 32).take 15
abbrev ops3e : List (HloOp τ sig (Elt Ideal)) := (ops3.drop 47).take 8
abbrev ops3f : List (HloOp τ sig (Elt Ideal)) := ops3.drop 55

/-- The last window is its six stretches in order. -/
theorem ops3_split : (ops3 : List (HloOp τ sig (Elt Ideal))) = ops3a ++ ops3b ++ ops3c ++ ops3d ++ ops3e ++ ops3f := rfl

/-- The second layer on whole arrays: x · P2Wᵀ + P2b. -/
def outLayer (x : FVec Ideal Cert.Dataflow.SB64 .f32) (p2w : FVec Ideal Cert.Dataflow.S5x64 .f32) (p2b : FVec Ideal Cert.Dataflow.S5 .f32) :
    FVec Ideal Cert.Dataflow.SB5 .f32 :=
  addf (Host.dotGeneral (DotDims.plain 8192 64 5) none x (Cert.Dataflow.tr5 p2w))
    (broadcastInDim Cert.Dataflow.SB5 ![0, 1] (by decide)
      (broadcastInDim Cert.Dataflow.S1x5 (![1] : Fin 1 → Fin Cert.Dataflow.S1x5.rank) (by decide) p2b))

/-- The activation of the first prediction, of whatever the first layer's buffer holds. -/
theorem activation0 (W : Contents) :
    after ops3b W (Proc.devRef .tc main_v161) = Cert.Dataflow.R.leakyRelu (W (Proc.devRef .tc main_v160)) := by
  simp only [ops3b, ops3, List.take_succ_cons, List.take_zero, List.drop_succ_cons, List.drop_zero]
  after_results_simp <;> rfl

/-- The activation of the second prediction, of whatever the first layer's buffer holds. -/
theorem activation1 (W : Contents) :
    after ops3e W (Proc.devRef .tc main_v180) = Cert.Dataflow.R.leakyRelu (W (Proc.devRef .tc main_v179)) := by
  simp only [ops3e, ops3, List.take_succ_cons, List.take_zero, List.drop_succ_cons, List.drop_zero]
  after_results_simp <;> rfl

/-- The second layer of the first prediction, of whatever the activation's buffer holds. -/
theorem outLayer0 (W : Contents) :
    after ops3c W (Proc.devRef .tc main_v166)
      = outLayer (W (Proc.devRef .tc main_v161)) (W (Proc.devRef .tc main_arg16)) (W (Proc.devRef .tc main_arg17)) := by
  simp only [ops3c, ops3, List.take_succ_cons, List.take_zero, List.drop_succ_cons, List.drop_zero]
  after_results_simp <;> rfl

/-- The second layer of the second prediction, of whatever the activation's buffer holds. -/
theorem outLayer1 (W : Contents) :
    after ops3f W (Proc.devRef .tc main_v185)
      = outLayer (W (Proc.devRef .tc main_v180)) (W (Proc.devRef .tc main_arg16)) (W (Proc.devRef .tc main_arg17)) := by
  simp only [ops3f, ops3, List.take_succ_cons, List.take_zero, List.drop_succ_cons, List.drop_zero]
  after_results_simp <;> rfl

/-! ### ops3a -/

/-- The buffers the operations of `ops3a` write, in order. -/
abbrev written3a : List (Ref sig .tc) := [main_v144, main_v145, main_v146, main_v147, main_c_34, main_v148, main_v149, main_c_35, main_v150, main_v151, main_v152, main_v153, main_v154, main_v155, main_v156, main_v157, main_v158, main_v159, main_v160]

theorem ops3a_writes : (ops3a : List (HloOp τ sig (Elt Ideal))).Forall fun op => op.writes ⊆ (written3a.map (Proc.devRef (τ := τ) .tc)).toFinset := by
  simp only [ops3a, ops3, List.take_succ_cons, List.take_zero, List.drop_succ_cons, List.drop_zero, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `ops3a` does not write keeps its contents through it. -/
theorem keep3a (W : Contents) (r : Ref sig .tc) (h : r ∉ written3a) :
    after ops3a W (Proc.devRef .tc r) = W (Proc.devRef .tc r) :=
  after_of_writes_sub ops3a W ops3a_writes h

theorem argsHold_after3a {W : Contents} {a : Cert.Dataflow.Inputs} (h : ArgsHold W a) : ArgsHold (after ops3a W) a :=
  ⟨(keep3a W main_arg0 (by decide)).trans h.rf,
   (keep3a W main_arg1 (by decide)).trans h.ci,
   (keep3a W main_arg2 (by decide)).trans h.src,
   (keep3a W main_arg3 (by decide)).trans h.dst,
   (keep3a W main_arg4 (by decide)).trans h.score,
   (keep3a W main_arg5 (by decide)).trans h.users,
   (keep3a W main_arg6 (by decide)).trans h.items,
   (keep3a W main_arg7 (by decide)).trans h.W1,
   (keep3a W main_arg8 (by decide)).trans h.W2,
   (keep3a W main_arg9 (by decide)).trans h.f2,
   (keep3a W main_arg10 (by decide)).trans h.f3,
   (keep3a W main_arg11 (by decide)).trans h.E1,
   (keep3a W main_arg12 (by decide)).trans h.E2,
   (keep3a W main_arg13 (by decide)).trans h.E3,
   (keep3a W main_arg14 (by decide)).trans h.P1W,
   (keep3a W main_arg15 (by decide)).trans h.P1b,
   (keep3a W main_arg16 (by decide)).trans h.P2W,
   (keep3a W main_arg17 (by decide)).trans h.P2b⟩

/-- After the first stretch of the last window: the user rows of the main result and the first layer of the first prediction. -/
structure After3a (W : Contents) (a : Cert.Dataflow.Inputs) : Prop where
  args : ArgsHold W a
  rstRe : W (Proc.devRef .tc main_v56) = Cert.Dataflow.R.rstRe a
  rstReFreeze : W (Proc.devRef .tc main_v69) = Cert.Dataflow.R.rstReFreeze a
  rst : W (Proc.devRef .tc main_v94) = Cert.Dataflow.R.rst a
  rstFreeze : W (Proc.devRef .tc main_v112) = Cert.Dataflow.R.rstFreeze a
  rstId : W (Proc.devRef .tc main_v127) = Cert.Dataflow.R.rstId a
  rstIdFreeze : W (Proc.devRef .tc main_v140) = Cert.Dataflow.R.rstIdFreeze a
  ue : W (Proc.devRef .tc main_v147) = Cert.Dataflow.R.ue a
  hidden : W (Proc.devRef .tc main_v160) = Cert.Dataflow.R.hidden (mulf (Cert.Dataflow.R.ue a) (Cert.Dataflow.R.ie a)) a.P1W a.P1b

set_option maxRecDepth 16384 in
set_option maxHeartbeats 2000000 in
theorem stage3a_ue {W : Contents} {a : Cert.Dataflow.Inputs} (h : After2 W a) :
    after ops3a W (Proc.devRef .tc main_v147) = Cert.Dataflow.R.ue a := by
  simp only [ops3a, ops3, List.take_succ_cons, List.take_zero, List.drop_succ_cons, List.drop_zero]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.rstRe, h.rstReFreeze, h.rst, h.rstFreeze, h.rstId, h.rstIdFreeze, h.usersNeg, h.lenUsers] <;> rfl

set_option maxRecDepth 16384 in
set_option maxHeartbeats 2000000 in
theorem stage3a_hidden {W : Contents} {a : Cert.Dataflow.Inputs} (h : After2 W a) :
    after ops3a W (Proc.devRef .tc main_v160) = Cert.Dataflow.R.hidden (mulf (Cert.Dataflow.R.ue a) (Cert.Dataflow.R.ie a)) a.P1W a.P1b := by
  simp only [ops3a, ops3, List.take_succ_cons, List.take_zero, List.drop_succ_cons, List.drop_zero]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.rstRe, h.rstReFreeze, h.rst, h.rstFreeze, h.rstId, h.rstIdFreeze, h.usersNeg, h.lenUsers] <;> rfl

theorem stage3a {W : Contents} {a : Cert.Dataflow.Inputs} (h : After2 W a) : After3a (after ops3a W) a where
  args := argsHold_after3a h.args
  rstRe := (keep3a W main_v56 (by decide)).trans h.rstRe
  rstReFreeze := (keep3a W main_v69 (by decide)).trans h.rstReFreeze
  rst := (keep3a W main_v94 (by decide)).trans h.rst
  rstFreeze := (keep3a W main_v112 (by decide)).trans h.rstFreeze
  rstId := (keep3a W main_v127 (by decide)).trans h.rstId
  rstIdFreeze := (keep3a W main_v140 (by decide)).trans h.rstIdFreeze
  ue := stage3a_ue h
  hidden := stage3a_hidden h

/-! ### ops3b -/

/-- The buffers the operations of `ops3b` write, in order. -/
abbrev written3b : List (Ref sig .tc) := [main_cst_36, main_call0_cst, main_call0_v0, main_call0_v1, main_call0_v2, main_call0_v3, main_call0_v4, main_v161]

theorem ops3b_writes : (ops3b : List (HloOp τ sig (Elt Ideal))).Forall fun op => op.writes ⊆ (written3b.map (Proc.devRef (τ := τ) .tc)).toFinset := by
  simp only [ops3b, ops3, List.take_succ_cons, List.take_zero, List.drop_succ_cons, List.drop_zero, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `ops3b` does not write keeps its contents through it. -/
theorem keep3b (W : Contents) (r : Ref sig .tc) (h : r ∉ written3b) :
    after ops3b W (Proc.devRef .tc r) = W (Proc.devRef .tc r) :=
  after_of_writes_sub ops3b W ops3b_writes h

theorem argsHold_after3b {W : Contents} {a : Cert.Dataflow.Inputs} (h : ArgsHold W a) : ArgsHold (after ops3b W) a :=
  ⟨(keep3b W main_arg0 (by decide)).trans h.rf,
   (keep3b W main_arg1 (by decide)).trans h.ci,
   (keep3b W main_arg2 (by decide)).trans h.src,
   (keep3b W main_arg3 (by decide)).trans h.dst,
   (keep3b W main_arg4 (by decide)).trans h.score,
   (keep3b W main_arg5 (by decide)).trans h.users,
   (keep3b W main_arg6 (by decide)).trans h.items,
   (keep3b W main_arg7 (by decide)).trans h.W1,
   (keep3b W main_arg8 (by decide)).trans h.W2,
   (keep3b W main_arg9 (by decide)).trans h.f2,
   (keep3b W main_arg10 (by decide)).trans h.f3,
   (keep3b W main_arg11 (by decide)).trans h.E1,
   (keep3b W main_arg12 (by decide)).trans h.E2,
   (keep3b W main_arg13 (by decide)).trans h.E3,
   (keep3b W main_arg14 (by decide)).trans h.P1W,
   (keep3b W main_arg15 (by decide)).trans h.P1b,
   (keep3b W main_arg16 (by decide)).trans h.P2W,
   (keep3b W main_arg17 (by decide)).trans h.P2b⟩

/-- After the activation of the first prediction. -/
structure After3b (W : Contents) (a : Cert.Dataflow.Inputs) : Prop where
  args : ArgsHold W a
  rstRe : W (Proc.devRef .tc main_v56) = Cert.Dataflow.R.rstRe a
  rstReFreeze : W (Proc.devRef .tc main_v69) = Cert.Dataflow.R.rstReFreeze a
  rst : W (Proc.devRef .tc main_v94) = Cert.Dataflow.R.rst a
  rstFreeze : W (Proc.devRef .tc main_v112) = Cert.Dataflow.R.rstFreeze a
  rstId : W (Proc.devRef .tc main_v127) = Cert.Dataflow.R.rstId a
  rstIdFreeze : W (Proc.devRef .tc main_v140) = Cert.Dataflow.R.rstIdFreeze a
  ue : W (Proc.devRef .tc main_v147) = Cert.Dataflow.R.ue a
  act : W (Proc.devRef .tc main_v161) = Cert.Dataflow.R.leakyRelu (Cert.Dataflow.R.hidden (mulf (Cert.Dataflow.R.ue a) (Cert.Dataflow.R.ie a)) a.P1W a.P1b)

theorem stage3b {W : Contents} {a : Cert.Dataflow.Inputs} (h : After3a W a) : After3b (after ops3b W) a where
  args := argsHold_after3b h.args
  rstRe := (keep3b W main_v56 (by decide)).trans h.rstRe
  rstReFreeze := (keep3b W main_v69 (by decide)).trans h.rstReFreeze
  rst := (keep3b W main_v94 (by decide)).trans h.rst
  rstFreeze := (keep3b W main_v112 (by decide)).trans h.rstFreeze
  rstId := (keep3b W main_v127 (by decide)).trans h.rstId
  rstIdFreeze := (keep3b W main_v140 (by decide)).trans h.rstIdFreeze
  ue := (keep3b W main_v147 (by decide)).trans h.ue
  act := (activation0 W).trans (congrArg Cert.Dataflow.R.leakyRelu h.hidden)

/-! ### ops3c -/

/-- The buffers the operations of `ops3c` write, in order. -/
abbrev written3c : List (Ref sig .tc) := [main_v162, main_v163, main_v164, main_v165, main_v166]

theorem ops3c_writes : (ops3c : List (HloOp τ sig (Elt Ideal))).Forall fun op => op.writes ⊆ (written3c.map (Proc.devRef (τ := τ) .tc)).toFinset := by
  simp only [ops3c, ops3, List.take_succ_cons, List.take_zero, List.drop_succ_cons, List.drop_zero, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `ops3c` does not write keeps its contents through it. -/
theorem keep3c (W : Contents) (r : Ref sig .tc) (h : r ∉ written3c) :
    after ops3c W (Proc.devRef .tc r) = W (Proc.devRef .tc r) :=
  after_of_writes_sub ops3c W ops3c_writes h

theorem argsHold_after3c {W : Contents} {a : Cert.Dataflow.Inputs} (h : ArgsHold W a) : ArgsHold (after ops3c W) a :=
  ⟨(keep3c W main_arg0 (by decide)).trans h.rf,
   (keep3c W main_arg1 (by decide)).trans h.ci,
   (keep3c W main_arg2 (by decide)).trans h.src,
   (keep3c W main_arg3 (by decide)).trans h.dst,
   (keep3c W main_arg4 (by decide)).trans h.score,
   (keep3c W main_arg5 (by decide)).trans h.users,
   (keep3c W main_arg6 (by decide)).trans h.items,
   (keep3c W main_arg7 (by decide)).trans h.W1,
   (keep3c W main_arg8 (by decide)).trans h.W2,
   (keep3c W main_arg9 (by decide)).trans h.f2,
   (keep3c W main_arg10 (by decide)).trans h.f3,
   (keep3c W main_arg11 (by decide)).trans h.E1,
   (keep3c W main_arg12 (by decide)).trans h.E2,
   (keep3c W main_arg13 (by decide)).trans h.E3,
   (keep3c W main_arg14 (by decide)).trans h.P1W,
   (keep3c W main_arg15 (by decide)).trans h.P1b,
   (keep3c W main_arg16 (by decide)).trans h.P2W,
   (keep3c W main_arg17 (by decide)).trans h.P2b⟩

/-- After the second layer of the first prediction. -/
structure After3c (W : Contents) (a : Cert.Dataflow.Inputs) : Prop where
  args : ArgsHold W a
  rstRe : W (Proc.devRef .tc main_v56) = Cert.Dataflow.R.rstRe a
  rstReFreeze : W (Proc.devRef .tc main_v69) = Cert.Dataflow.R.rstReFreeze a
  rst : W (Proc.devRef .tc main_v94) = Cert.Dataflow.R.rst a
  rstFreeze : W (Proc.devRef .tc main_v112) = Cert.Dataflow.R.rstFreeze a
  rstId : W (Proc.devRef .tc main_v127) = Cert.Dataflow.R.rstId a
  rstIdFreeze : W (Proc.devRef .tc main_v140) = Cert.Dataflow.R.rstIdFreeze a
  ue : W (Proc.devRef .tc main_v147) = Cert.Dataflow.R.ue a
  pred : W (Proc.devRef .tc main_v166) = Cert.Dataflow.R.pred a

theorem stage3c {W : Contents} {a : Cert.Dataflow.Inputs} (h : After3b W a) : After3c (after ops3c W) a where
  args := argsHold_after3c h.args
  rstRe := (keep3c W main_v56 (by decide)).trans h.rstRe
  rstReFreeze := (keep3c W main_v69 (by decide)).trans h.rstReFreeze
  rst := (keep3c W main_v94 (by decide)).trans h.rst
  rstFreeze := (keep3c W main_v112 (by decide)).trans h.rstFreeze
  rstId := (keep3c W main_v127 (by decide)).trans h.rstId
  rstIdFreeze := (keep3c W main_v140 (by decide)).trans h.rstIdFreeze
  ue := (keep3c W main_v147 (by decide)).trans h.ue
  pred := (outLayer0 W).trans (by rw [h.act, h.args.P2W, h.args.P2b]; rfl)

/-! ### ops3d -/

/-- The buffers the operations of `ops3d` write, in order. -/
abbrev written3d : List (Ref sig .tc) := [main_c_37, main_v167, main_v168, main_c_38, main_v169, main_v170, main_v171, main_v172, main_v173, main_v174, main_v175, main_v176, main_v177, main_v178, main_v179]

theorem ops3d_writes : (ops3d : List (HloOp τ sig (Elt Ideal))).Forall fun op => op.writes ⊆ (written3d.map (Proc.devRef (τ := τ) .tc)).toFinset := by
  simp only [ops3d, ops3, List.take_succ_cons, List.take_zero, List.drop_succ_cons, List.drop_zero, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `ops3d` does not write keeps its contents through it. -/
theorem keep3d (W : Contents) (r : Ref sig .tc) (h : r ∉ written3d) :
    after ops3d W (Proc.devRef .tc r) = W (Proc.devRef .tc r) :=
  after_of_writes_sub ops3d W ops3d_writes h

theorem argsHold_after3d {W : Contents} {a : Cert.Dataflow.Inputs} (h : ArgsHold W a) : ArgsHold (after ops3d W) a :=
  ⟨(keep3d W main_arg0 (by decide)).trans h.rf,
   (keep3d W main_arg1 (by decide)).trans h.ci,
   (keep3d W main_arg2 (by decide)).trans h.src,
   (keep3d W main_arg3 (by decide)).trans h.dst,
   (keep3d W main_arg4 (by decide)).trans h.score,
   (keep3d W main_arg5 (by decide)).trans h.users,
   (keep3d W main_arg6 (by decide)).trans h.items,
   (keep3d W main_arg7 (by decide)).trans h.W1,
   (keep3d W main_arg8 (by decide)).trans h.W2,
   (keep3d W main_arg9 (by decide)).trans h.f2,
   (keep3d W main_arg10 (by decide)).trans h.f3,
   (keep3d W main_arg11 (by decide)).trans h.E1,
   (keep3d W main_arg12 (by decide)).trans h.E2,
   (keep3d W main_arg13 (by decide)).trans h.E3,
   (keep3d W main_arg14 (by decide)).trans h.P1W,
   (keep3d W main_arg15 (by decide)).trans h.P1b,
   (keep3d W main_arg16 (by decide)).trans h.P2W,
   (keep3d W main_arg17 (by decide)).trans h.P2b⟩

/-- After the first layer of the second prediction. -/
structure After3d (W : Contents) (a : Cert.Dataflow.Inputs) : Prop where
  args : ArgsHold W a
  rstRe : W (Proc.devRef .tc main_v56) = Cert.Dataflow.R.rstRe a
  rstReFreeze : W (Proc.devRef .tc main_v69) = Cert.Dataflow.R.rstReFreeze a
  rst : W (Proc.devRef .tc main_v94) = Cert.Dataflow.R.rst a
  rstFreeze : W (Proc.devRef .tc main_v112) = Cert.Dataflow.R.rstFreeze a
  rstId : W (Proc.devRef .tc main_v127) = Cert.Dataflow.R.rstId a
  rstIdFreeze : W (Proc.devRef .tc main_v140) = Cert.Dataflow.R.rstIdFreeze a
  pred : W (Proc.devRef .tc main_v166) = Cert.Dataflow.R.pred a
  hiddenF : W (Proc.devRef .tc main_v179) = Cert.Dataflow.R.hidden (mulf (Cert.Dataflow.R.ue a) (Cert.Dataflow.R.ieFreeze a)) a.P1W a.P1b

set_option maxRecDepth 16384 in
set_option maxHeartbeats 2000000 in
theorem stage3d_hiddenF {W : Contents} {a : Cert.Dataflow.Inputs} (h : After3c W a) :
    after ops3d W (Proc.devRef .tc main_v179) = Cert.Dataflow.R.hidden (mulf (Cert.Dataflow.R.ue a) (Cert.Dataflow.R.ieFreeze a)) a.P1W a.P1b := by
  simp only [ops3d, ops3, List.take_succ_cons, List.take_zero, List.drop_succ_cons, List.drop_zero]
  after_results_simp
  simp only [h.args.rf, h.args.ci, h.args.src, h.args.dst, h.args.score, h.args.users, h.args.items, h.args.W1, h.args.W2, h.args.f2, h.args.f3, h.args.E1, h.args.E2, h.args.E3, h.args.P1W, h.args.P1b, h.args.P2W, h.args.P2b, h.rstRe, h.rstReFreeze, h.rst, h.rstFreeze, h.rstId, h.rstIdFreeze, h.ue, h.pred] <;> rfl

theorem stage3d {W : Contents} {a : Cert.Dataflow.Inputs} (h : After3c W a) : After3d (after ops3d W) a where
  args := argsHold_after3d h.args
  rstRe := (keep3d W main_v56 (by decide)).trans h.rstRe
  rstReFreeze := (keep3d W main_v69 (by decide)).trans h.rstReFreeze
  rst := (keep3d W main_v94 (by decide)).trans h.rst
  rstFreeze := (keep3d W main_v112 (by decide)).trans h.rstFreeze
  rstId := (keep3d W main_v127 (by decide)).trans h.rstId
  rstIdFreeze := (keep3d W main_v140 (by decide)).trans h.rstIdFreeze
  pred := (keep3d W main_v166 (by decide)).trans h.pred
  hiddenF := stage3d_hiddenF h

/-! ### ops3e -/

/-- The buffers the operations of `ops3e` write, in order. -/
abbrev written3e : List (Ref sig .tc) := [main_cst_39, main_call1_cst, main_call1_v0, main_call1_v1, main_call1_v2, main_call1_v3, main_call1_v4, main_v180]

theorem ops3e_writes : (ops3e : List (HloOp τ sig (Elt Ideal))).Forall fun op => op.writes ⊆ (written3e.map (Proc.devRef (τ := τ) .tc)).toFinset := by
  simp only [ops3e, ops3, List.take_succ_cons, List.take_zero, List.drop_succ_cons, List.drop_zero, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `ops3e` does not write keeps its contents through it. -/
theorem keep3e (W : Contents) (r : Ref sig .tc) (h : r ∉ written3e) :
    after ops3e W (Proc.devRef .tc r) = W (Proc.devRef .tc r) :=
  after_of_writes_sub ops3e W ops3e_writes h

theorem argsHold_after3e {W : Contents} {a : Cert.Dataflow.Inputs} (h : ArgsHold W a) : ArgsHold (after ops3e W) a :=
  ⟨(keep3e W main_arg0 (by decide)).trans h.rf,
   (keep3e W main_arg1 (by decide)).trans h.ci,
   (keep3e W main_arg2 (by decide)).trans h.src,
   (keep3e W main_arg3 (by decide)).trans h.dst,
   (keep3e W main_arg4 (by decide)).trans h.score,
   (keep3e W main_arg5 (by decide)).trans h.users,
   (keep3e W main_arg6 (by decide)).trans h.items,
   (keep3e W main_arg7 (by decide)).trans h.W1,
   (keep3e W main_arg8 (by decide)).trans h.W2,
   (keep3e W main_arg9 (by decide)).trans h.f2,
   (keep3e W main_arg10 (by decide)).trans h.f3,
   (keep3e W main_arg11 (by decide)).trans h.E1,
   (keep3e W main_arg12 (by decide)).trans h.E2,
   (keep3e W main_arg13 (by decide)).trans h.E3,
   (keep3e W main_arg14 (by decide)).trans h.P1W,
   (keep3e W main_arg15 (by decide)).trans h.P1b,
   (keep3e W main_arg16 (by decide)).trans h.P2W,
   (keep3e W main_arg17 (by decide)).trans h.P2b⟩

/-- After the activation of the second prediction. -/
structure After3e (W : Contents) (a : Cert.Dataflow.Inputs) : Prop where
  args : ArgsHold W a
  rstRe : W (Proc.devRef .tc main_v56) = Cert.Dataflow.R.rstRe a
  rstReFreeze : W (Proc.devRef .tc main_v69) = Cert.Dataflow.R.rstReFreeze a
  rst : W (Proc.devRef .tc main_v94) = Cert.Dataflow.R.rst a
  rstFreeze : W (Proc.devRef .tc main_v112) = Cert.Dataflow.R.rstFreeze a
  rstId : W (Proc.devRef .tc main_v127) = Cert.Dataflow.R.rstId a
  rstIdFreeze : W (Proc.devRef .tc main_v140) = Cert.Dataflow.R.rstIdFreeze a
  pred : W (Proc.devRef .tc main_v166) = Cert.Dataflow.R.pred a
  actF : W (Proc.devRef .tc main_v180) = Cert.Dataflow.R.leakyRelu (Cert.Dataflow.R.hidden (mulf (Cert.Dataflow.R.ue a) (Cert.Dataflow.R.ieFreeze a)) a.P1W a.P1b)

theorem stage3e {W : Contents} {a : Cert.Dataflow.Inputs} (h : After3d W a) : After3e (after ops3e W) a where
  args := argsHold_after3e h.args
  rstRe := (keep3e W main_v56 (by decide)).trans h.rstRe
  rstReFreeze := (keep3e W main_v69 (by decide)).trans h.rstReFreeze
  rst := (keep3e W main_v94 (by decide)).trans h.rst
  rstFreeze := (keep3e W main_v112 (by decide)).trans h.rstFreeze
  rstId := (keep3e W main_v127 (by decide)).trans h.rstId
  rstIdFreeze := (keep3e W main_v140 (by decide)).trans h.rstIdFreeze
  pred := (keep3e W main_v166 (by decide)).trans h.pred
  actF := (activation1 W).trans (congrArg Cert.Dataflow.R.leakyRelu h.hiddenF)

/-! ### ops3f -/

/-- The buffers the operations of `ops3f` write, in order. -/
abbrev written3f : List (Ref sig .tc) := [main_v181, main_v182, main_v183, main_v184, main_v185]

theorem ops3f_writes : (ops3f : List (HloOp τ sig (Elt Ideal))).Forall fun op => op.writes ⊆ (written3f.map (Proc.devRef (τ := τ) .tc)).toFinset := by
  simp only [ops3f, ops3, List.take_succ_cons, List.take_zero, List.drop_succ_cons, List.drop_zero, List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer `ops3f` does not write keeps its contents through it. -/
theorem keep3f (W : Contents) (r : Ref sig .tc) (h : r ∉ written3f) :
    after ops3f W (Proc.devRef .tc r) = W (Proc.devRef .tc r) :=
  after_of_writes_sub ops3f W ops3f_writes h

theorem argsHold_after3f {W : Contents} {a : Cert.Dataflow.Inputs} (h : ArgsHold W a) : ArgsHold (after ops3f W) a :=
  ⟨(keep3f W main_arg0 (by decide)).trans h.rf,
   (keep3f W main_arg1 (by decide)).trans h.ci,
   (keep3f W main_arg2 (by decide)).trans h.src,
   (keep3f W main_arg3 (by decide)).trans h.dst,
   (keep3f W main_arg4 (by decide)).trans h.score,
   (keep3f W main_arg5 (by decide)).trans h.users,
   (keep3f W main_arg6 (by decide)).trans h.items,
   (keep3f W main_arg7 (by decide)).trans h.W1,
   (keep3f W main_arg8 (by decide)).trans h.W2,
   (keep3f W main_arg9 (by decide)).trans h.f2,
   (keep3f W main_arg10 (by decide)).trans h.f3,
   (keep3f W main_arg11 (by decide)).trans h.E1,
   (keep3f W main_arg12 (by decide)).trans h.E2,
   (keep3f W main_arg13 (by decide)).trans h.E3,
   (keep3f W main_arg14 (by decide)).trans h.P1W,
   (keep3f W main_arg15 (by decide)).trans h.P1b,
   (keep3f W main_arg16 (by decide)).trans h.P2W,
   (keep3f W main_arg17 (by decide)).trans h.P2b⟩

/-- After the whole program: the two predictions and the six earlier results. -/
structure After3f (W : Contents) (a : Cert.Dataflow.Inputs) : Prop where
  args : ArgsHold W a
  rstRe : W (Proc.devRef .tc main_v56) = Cert.Dataflow.R.rstRe a
  rstReFreeze : W (Proc.devRef .tc main_v69) = Cert.Dataflow.R.rstReFreeze a
  rst : W (Proc.devRef .tc main_v94) = Cert.Dataflow.R.rst a
  rstFreeze : W (Proc.devRef .tc main_v112) = Cert.Dataflow.R.rstFreeze a
  rstId : W (Proc.devRef .tc main_v127) = Cert.Dataflow.R.rstId a
  rstIdFreeze : W (Proc.devRef .tc main_v140) = Cert.Dataflow.R.rstIdFreeze a
  pred : W (Proc.devRef .tc main_v166) = Cert.Dataflow.R.pred a
  predFreeze : W (Proc.devRef .tc main_v185) = Cert.Dataflow.R.predFreeze a

theorem stage3f {W : Contents} {a : Cert.Dataflow.Inputs} (h : After3e W a) : After3f (after ops3f W) a where
  args := argsHold_after3f h.args
  rstRe := (keep3f W main_v56 (by decide)).trans h.rstRe
  rstReFreeze := (keep3f W main_v69 (by decide)).trans h.rstReFreeze
  rst := (keep3f W main_v94 (by decide)).trans h.rst
  rstFreeze := (keep3f W main_v112 (by decide)).trans h.rstFreeze
  rstId := (keep3f W main_v127 (by decide)).trans h.rstId
  rstIdFreeze := (keep3f W main_v140 (by decide)).trans h.rstIdFreeze
  pred := (keep3f W main_v166 (by decide)).trans h.pred
  predFreeze := (outLayer1 W).trans (by rw [h.actF, h.args.P2W, h.args.P2b]; rfl)

/-! ## The whole program -/

/-- The last window, from what the third leaves. -/
theorem stage3 {W : Contents} {a : Cert.Dataflow.Inputs} (h : After2 W a) : After3f (after ops3 W) a := by
  have h' := stage3f (stage3e (stage3d (stage3c (stage3b (stage3a h)))))
  rw [ops3_split, after_concat, after_concat, after_concat, after_concat, after_concat]
  exact h'

/-- After all 240 operations, from any valuation: the eight results are the dataflow's terms over the inputs the
    valuation holds, and the argument buffers are as they were. -/
theorem after_ops (V : Contents) : After3f (after ops V) (inputsOf V) := by
  have h := stage3 (stage2 (stage1 (stage0 (argsHold_inputsOf V))))
  show After3f (after (ops0 ++ ops1 ++ ops2 ++ ops3) V) (inputsOf V)
  rw [after_concat, after_concat, after_concat]
  exact h

theorem result_pred (V : Contents) : after ops V (Proc.devRef .tc main_v166) = Cert.Dataflow.R.pred (inputsOf V) := (after_ops V).pred
theorem result_predFreeze (V : Contents) : after ops V (Proc.devRef .tc main_v185) = Cert.Dataflow.R.predFreeze (inputsOf V) := (after_ops V).predFreeze
theorem result_rst (V : Contents) : after ops V (Proc.devRef .tc main_v94) = Cert.Dataflow.R.rst (inputsOf V) := (after_ops V).rst
theorem result_rstFreeze (V : Contents) : after ops V (Proc.devRef .tc main_v112) = Cert.Dataflow.R.rstFreeze (inputsOf V) := (after_ops V).rstFreeze
theorem result_rstRe (V : Contents) : after ops V (Proc.devRef .tc main_v56) = Cert.Dataflow.R.rstRe (inputsOf V) := (after_ops V).rstRe
theorem result_rstId (V : Contents) : after ops V (Proc.devRef .tc main_v127) = Cert.Dataflow.R.rstId (inputsOf V) := (after_ops V).rstId
theorem result_rstReFreeze (V : Contents) : after ops V (Proc.devRef .tc main_v69) = Cert.Dataflow.R.rstReFreeze (inputsOf V) := (after_ops V).rstReFreeze
theorem result_rstIdFreeze (V : Contents) : after ops V (Proc.devRef .tc main_v140) = Cert.Dataflow.R.rstIdFreeze (inputsOf V) := (after_ops V).rstIdFreeze

/-- The eighteen argument buffers hold after the run what they held before it. -/
theorem args_kept (V : Contents) : ArgsHold (after ops V) (inputsOf V) := (after_ops V).args

/-! The same, buffer by buffer. -/
theorem arg0_kept (V : Contents) : after ops V (Proc.devRef .tc main_arg0) = V (Proc.devRef .tc main_arg0) := (after_ops V).args.rf
theorem arg1_kept (V : Contents) : after ops V (Proc.devRef .tc main_arg1) = V (Proc.devRef .tc main_arg1) := (after_ops V).args.ci
theorem arg2_kept (V : Contents) : after ops V (Proc.devRef .tc main_arg2) = V (Proc.devRef .tc main_arg2) := (after_ops V).args.src
theorem arg3_kept (V : Contents) : after ops V (Proc.devRef .tc main_arg3) = V (Proc.devRef .tc main_arg3) := (after_ops V).args.dst
theorem arg4_kept (V : Contents) : after ops V (Proc.devRef .tc main_arg4) = V (Proc.devRef .tc main_arg4) := (after_ops V).args.score
theorem arg5_kept (V : Contents) : after ops V (Proc.devRef .tc main_arg5) = V (Proc.devRef .tc main_arg5) := (after_ops V).args.users
theorem arg6_kept (V : Contents) : after ops V (Proc.devRef .tc main_arg6) = V (Proc.devRef .tc main_arg6) := (after_ops V).args.items
theorem arg7_kept (V : Contents) : after ops V (Proc.devRef .tc main_arg7) = V (Proc.devRef .tc main_arg7) := (after_ops V).args.W1
theorem arg8_kept (V : Contents) : after ops V (Proc.devRef .tc main_arg8) = V (Proc.devRef .tc main_arg8) := (after_ops V).args.W2
theorem arg9_kept (V : Contents) : after ops V (Proc.devRef .tc main_arg9) = V (Proc.devRef .tc main_arg9) := (after_ops V).args.f2
theorem arg10_kept (V : Contents) : after ops V (Proc.devRef .tc main_arg10) = V (Proc.devRef .tc main_arg10) := (after_ops V).args.f3
theorem arg11_kept (V : Contents) : after ops V (Proc.devRef .tc main_arg11) = V (Proc.devRef .tc main_arg11) := (after_ops V).args.E1
theorem arg12_kept (V : Contents) : after ops V (Proc.devRef .tc main_arg12) = V (Proc.devRef .tc main_arg12) := (after_ops V).args.E2
theorem arg13_kept (V : Contents) : after ops V (Proc.devRef .tc main_arg13) = V (Proc.devRef .tc main_arg13) := (after_ops V).args.E3
theorem arg14_kept (V : Contents) : after ops V (Proc.devRef .tc main_arg14) = V (Proc.devRef .tc main_arg14) := (after_ops V).args.P1W
theorem arg15_kept (V : Contents) : after ops V (Proc.devRef .tc main_arg15) = V (Proc.devRef .tc main_arg15) := (after_ops V).args.P1b
theorem arg16_kept (V : Contents) : after ops V (Proc.devRef .tc main_arg16) = V (Proc.devRef .tc main_arg16) := (after_ops V).args.P2W
theorem arg17_kept (V : Contents) : after ops V (Proc.devRef .tc main_arg17) = V (Proc.devRef .tc main_arg17) := (after_ops V).args.P2b

end Cert.ReferenceTerms

end
-- ==== Proof.LibSegmentSum.lean ====
/-
  A scatter-add of rows, read at one entry, on the extended reals.

  E update rows of width D are added into an array of N rows; update row e goes to the row number its index word
  names (read as a signed integer, not clamped; a row number outside 0 … N − 1 drops the row). Update entry (e, k)
  lands on array entry (n, k') exactly when the e-th index word reads n and k = k'. So the result at (n, k) is the
  array's entry there plus the sum, over the update rows whose index word reads n, of their entries in column k:
  a segment sum.
-/
import Idealize.ShloMosaic.PureOps.Ideal
import Idealize.ShloMosaic.PureOps.Contract
import Idealize.ShloMosaic.Lib.ValueIdx
import proofs.«418387_j86114094284913_3_alg».proof.Proof.LibRowIndex

noncomputable section

namespace Cert.LibSegmentSum

open Idealize.ShloMosaic Idealize.ShloMosaic.ValueIdx Cert.RowIndex

open scoped BigOperators

section Coordinates

variable {N D E w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- Axis 0 of the array is the scattered one: the window starts at the row's index word, read signed. -/
private theorem start_zero :
    (rowScatterDims N D E wf).start j idx 0 = (idx (ix2 (j 0) (0 : Fin 1))).toInt := by
  unfold ScatterDims.start
  rw [dif_pos (show (0 : Fin 2) ∈ (rowScatterDims N D E wf).scatterDimsToOperandDims from List.mem_singleton.mpr rfl)]
  have hsi : (rowScatterDims N D E wf).siIdx j
      ⟨List.idxOf (0 : Fin 2) (rowScatterDims N D E wf).scatterDimsToOperandDims,
        List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- Axis 0 of the array is inserted: it carries no window coordinate. -/
private theorem window_zero : (rowScatterDims N D E wf).window j 0 = 0 := by
  unfold ScatterDims.window
  rw [dif_neg]
  intro hk
  simp [ScatterDims.sKept, Shape.kept, List.mem_filter] at hk

/-- Axis 1 of the array is not addressed by the index word: the window starts at column 0. -/
private theorem start_one : (rowScatterDims N D E wf).start j idx 1 = 0 := by
  unfold ScatterDims.start
  rw [dif_neg]
  intro hk
  exact Nat.one_ne_zero (congrArg Fin.val (List.mem_singleton.mp hk))

/-- Axis 1 of the array is the window axis: its window coordinate is the update's column. -/
private theorem window_one : (rowScatterDims N D E wf).window j 1 = (j 1).val := by
  unfold ScatterDims.window
  have h1 : (1 : Fin 2) ∈ (rowScatterDims N D E wf).sKept := by
    show (1 : Fin 2) ∈ (List.finRange 2).filter (fun a => decide (a ∉ [(0 : Fin 2)]))
    decide
  rw [dif_pos h1]
  rfl

end Coordinates

/-- WHERE AN UPDATE ENTRY LANDS: entry (e, k) of the updates lands on entry (n, k') of the array exactly when the
    e-th index word, read as a signed integer, is n, and the columns agree. -/
theorem rowScatter_resultIdx_iff {N D E w : Nat} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (k' : Fin D) :
    (rowScatterDims N D E wf).resultIdx? (ix2 e k) idx = some (ix2 n k')
      ↔ (idx (ix2 e (0 : Fin 1))).toInt = (n.val : ℤ) ∧ k = k' := by
  have hs0 := start_zero wf idx (ix2 e k)
  have hw0 := window_zero wf (ix2 e k)
  have hs1 := start_one wf idx (ix2 e k)
  have hw1 := window_one wf (ix2 e k)
  have he : (ix2 e k : (⟨2, ![E, D]⟩ : Shape).Idx) 0 = e := rfl
  have hk : (ix2 e k : (⟨2, ![E, D]⟩ : Shape).Idx) 1 = k := rfl
  rw [he] at hs0
  rw [hk] at hw1
  constructor
  · intro h
    unfold ScatterDims.resultIdx? at h
    split at h
    · rename_i hall
      have hi := Option.some.inj h
      have h0 := hall 0
      have e0 : ((rowScatterDims N D E wf).start (ix2 e k) idx 0 + (rowScatterDims N D E wf).window (ix2 e k) 0).toNat
          = n.val := by
        have := congrArg (fun f : (⟨2, ![N, D]⟩ : Shape).Idx => (f 0).val) hi
        exact this
      have e1 : ((rowScatterDims N D E wf).start (ix2 e k) idx 1 + (rowScatterDims N D E wf).window (ix2 e k) 1).toNat
          = k'.val := by
        have := congrArg (fun f : (⟨2, ![N, D]⟩ : Shape).Idx => (f 1).val) hi
        exact this
      rw [hs0, hw0] at h0 e0
      rw [hs1, hw1] at e1
      refine ⟨?_, Fin.ext ?_⟩
      · have := h0.1
        omega
      · omega
    · exact absurd h (by simp)
  · rintro ⟨hn, rfl⟩
    have hall : ∀ a : Fin 2, 0 ≤ (rowScatterDims N D E wf).start (ix2 e k) idx a + (rowScatterDims N D E wf).window (ix2 e k) a
        ∧ (rowScatterDims N D E wf).start (ix2 e k) idx a + (rowScatterDims N D E wf).window (ix2 e k) a
          < (⟨2, ![N, D]⟩ : Shape).size a := by
      intro a
      match a with
      | ⟨0, _⟩ =>
        show 0 ≤ (rowScatterDims N D E wf).start (ix2 e k) idx 0 + (rowScatterDims N D E wf).window (ix2 e k) 0
          ∧ (rowScatterDims N D E wf).start (ix2 e k) idx 0 + (rowScatterDims N D E wf).window (ix2 e k) 0 < (N : ℤ)
        rw [hs0, hw0, hn]
        have := n.isLt
        omega
      | ⟨1, _⟩ =>
        show 0 ≤ (rowScatterDims N D E wf).start (ix2 e k) idx 1 + (rowScatterDims N D E wf).window (ix2 e k) 1
          ∧ (rowScatterDims N D E wf).start (ix2 e k) idx 1 + (rowScatterDims N D E wf).window (ix2 e k) 1 < (D : ℤ)
        rw [hs1, hw1]
        have := k.isLt
        omega
    unfold ScatterDims.resultIdx?
    rw [dif_pos hall]
    congr 1
    funext a
    refine Fin.ext ?_
    match a with
    | ⟨0, _⟩ =>
      show ((rowScatterDims N D E wf).start (ix2 e k) idx 0 + (rowScatterDims N D E wf).window (ix2 e k) 0).toNat = n.val
      rw [hs0, hw0, hn]
      omega
    | ⟨1, _⟩ =>
      show ((rowScatterDims N D E wf).start (ix2 e k) idx 1 + (rowScatterDims N D E wf).window (ix2 e k) 1).toNat = k.val
      rw [hs1, hw1]
      omega

/-- THE SCATTER-ADD READ AT (n, k): the array's entry plus the sum, over the update rows whose index word reads n,
    of the update's entry in column k. -/
theorem scatterAdd_row_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w)
    (upd : FVec Ideal ⟨2, ![E, D]⟩ φ) (n : Fin N) (k : Fin D) :
    Host.scatterAdd (rowScatterDims N D E wf) x idx upd (ix2 n k)
      = x (ix2 n k) + ∑ e ∈ Finset.univ.filter (fun e : Fin E => (idx (ix2 e (0 : Fin 1))).toInt = (n.val : ℤ)),
          upd (ix2 e k) := by
  show x (ix2 n k) + ∑ j ∈ Finset.univ.filter
      (fun j => (rowScatterDims N D E wf).resultIdx? j idx = some (ix2 n k)), upd j = _
  congr 1
  symm
  refine Finset.sum_bij (fun e _ => (ix2 e k : (⟨2, ![E, D]⟩ : Shape).Idx)) ?_ ?_ ?_ ?_
  · intro e he
    rw [Finset.mem_filter] at he ⊢
    exact ⟨Finset.mem_univ _, (rowScatter_resultIdx_iff wf idx e k n k).mpr ⟨he.2, rfl⟩⟩
  · intro e₁ _ e₂ _ h
    have := congrFun h 0
    exact this
  · intro j hj
    rw [Finset.mem_filter] at hj
    have hj2 := hj.2
    rw [eq_ix2 j] at hj2
    have := (rowScatter_resultIdx_iff wf idx (j 0) (j 1) n k).mp hj2
    refine ⟨j 0, Finset.mem_filter.mpr ⟨Finset.mem_univ _, this.1⟩, ?_⟩
    · rw [← this.2]
      exact (eq_ix2 j).symm
  · intro e _
    rfl

end Cert.LibSegmentSum

end
-- ==== Proof.LibHostRead.lean ====
/-
  Array operations of a whole-array program, each read at one entry, generic in the sizes.

  A broadcast along named axes reads, at a result entry, the operand entry whose coordinate on each operand axis
  is the result's coordinate on the axis it is sent to, and 0 where the operand axis has extent one. Five shapes of
  it are stated here with both entries written out in coordinates: a vector set up as a column, a column spread over
  the columns of a matrix, a row spread over its rows, a vector set up as a row, and a scalar spread over anything.
  A matrix transpose swaps the two coordinates. A sum of a matrix over its rows is, at column q, the initial value
  plus the sum over the rows p of the entry (p, q). A product of two matrices contracted on the left operand's
  columns and the right operand's rows is, at (p, q), the sum over k of l(p, k) · r(k, q). A lookup of table rows by
  a column of row numbers and the scatter-adds of rows and of scalars are restated for any record of dimension
  numbers whose fields are those of a row lookup, a row scatter, a scalar scatter. Last come a few facts on single
  words: an iota reads its coordinate, a one-bit truth value converted to a number is 1 or 0, an equality test gives
  the bit 1 exactly at equal words, and a small non-negative word is its own row number.
-/
import Idealize.ShloMosaic.PureOps.Ideal
import Idealize.ShloMosaic.PureOps.Contract
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«418387_j86114094284913_3_alg».proof.Proof.LibRowGather
import proofs.«418387_j86114094284913_3_alg».proof.Proof.LibRowIndex
import proofs.«418387_j86114094284913_3_alg».proof.Proof.LibSegmentSum
import proofs.«418387_j86114094284913_3_alg».proof.Proof.LibSegmentCount
import proofs.«418387_j86114094284913_3_alg».proof.Proof.LibPlainMatmul

noncomputable section

open scoped BigOperators

namespace Cert.LibHostRead

open Idealize.ShloMosaic Idealize.ShloMosaic.ValueIdx

/-! ## A broadcast along named axes, read at an entry -/

section Broadcast

variable {α : Type}

/-- A vector [a] set up as a column [a, 1] (operand axis 0 sent to result axis 0) reads, at (p, u), the vector's
    entry p, whatever the unit coordinate u. -/
theorem broadcastInDim_vec_col_apply {a : ℕ}
    (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ (no_index ![0]) h x (ix2 p u) = x (ix1 p) :=
  broadcastInDim_apply _ h x _ _ fun c => match c with
    | ⟨0, _⟩ => by
      show p.val = if a = 1 then 0 else p.val
      split
      · have := p.isLt; omega
      · rfl

/-- A column [a, 1] spread over the b columns of a matrix [a, b] (axes sent to themselves) reads, at (p, q), the
    column's entry in row p. -/
theorem broadcastInDim_col_mat_apply {a b : ℕ}
    (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ (no_index ![0, 1]) h x (ix2 p q) = x (ix2 p (0 : Fin 1)) :=
  broadcastInDim_apply _ h x _ _ fun c => match c with
    | ⟨0, _⟩ => by
      show p.val = if a = 1 then 0 else p.val
      split
      · have := p.isLt; omega
      · rfl
    | ⟨1, _⟩ => rfl

/-- A row [1, b] spread over the a rows of a matrix [a, b] (axes sent to themselves) reads, at (p, q), the row's
    entry in column q. -/
theorem broadcastInDim_row_mat_apply {a b : ℕ}
    (h : (⟨2, ![1, b]⟩ : Shape).BroadcastsInDim ⟨2, ![a, b]⟩ ![0, 1])
    (x : (⟨2, ![1, b]⟩ : Shape).Idx → α) (p : Fin a) (q : Fin b) :
    broadcastInDim ⟨2, ![a, b]⟩ (no_index ![0, 1]) h x (ix2 p q) = x (ix2 (0 : Fin 1) q) :=
  broadcastInDim_apply _ h x _ _ fun c => match c with
    | ⟨0, _⟩ => rfl
    | ⟨1, _⟩ => by
      show q.val = if b = 1 then 0 else q.val
      split
      · have := q.isLt; omega
      · rfl

/-- A vector [b] set up as a row [1, b] (operand axis 0 sent to result axis 1) reads, at (u, q), the vector's
    entry q, whatever the unit coordinate u. -/
theorem broadcastInDim_vec_row_apply {b : ℕ}
    (h : (⟨1, ![b]⟩ : Shape).BroadcastsInDim ⟨2, ![1, b]⟩ ![1])
    (x : (⟨1, ![b]⟩ : Shape).Idx → α) (u : Fin 1) (q : Fin b) :
    broadcastInDim ⟨2, ![1, b]⟩ (no_index ![1]) h x (ix2 u q) = x (ix1 q) :=
  broadcastInDim_apply _ h x _ _ fun c => match c with
    | ⟨0, _⟩ => by
      show q.val = if b = 1 then 0 else q.val
      split
      · have := q.isLt; omega
      · rfl

/-- A scalar spread over any shape reads the scalar at every entry. -/
theorem broadcastInDim_scalar_apply' {s : Shape}
    (h : (⟨0, ![]⟩ : Shape).BroadcastsInDim s ![])
    (x : (⟨0, ![]⟩ : Shape).Idx → α) (i : s.Idx) :
    broadcastInDim s (no_index ![]) h x i = x ix0 :=
  broadcastInDim_scalar_apply h x i

end Broadcast

/-! ## A matrix transpose, read at an entry -/

section Transpose

variable {α : Type}

/-- A matrix [a, b] transposed into [b, a] reads, at (q, p), the operand's entry (p, q). (A program that writes the
    operation as a function of its operand, with the shape fact last, is this after the function is applied.) -/
theorem transpose_mat_apply {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ (no_index [1, 0]) x h (ix2 q p) = x (ix2 p q) :=
  transpose_ix2_apply x h q p

end Transpose

/-! ## A sum of a matrix over its rows, read at an entry -/

section ReduceRows

/-- The fact that a matrix [n, d] with axis 0 removed is the vector [d], with the result known to have an axis. -/
theorem reduces_rows_of_reducesTo {n d : ℕ} (h : (⟨2, ![n, d]⟩ : Shape).ReducesTo [0] ⟨1, ![d]⟩) :
    (⟨2, ![n, d]⟩ : Shape).Reduces [0] ⟨1, ![d]⟩ := by
  obtain ⟨h1, h2⟩ := h
  exact ⟨h1, Nat.one_pos, h2⟩

/-- The matrix entry above result entry q with row coordinate p is (p, q). -/
theorem lift_rows {n d : ℕ} (h' : (⟨2, ![n, d]⟩ : Shape).Reduces [0] ⟨1, ![d]⟩) (q : Fin d)
    (p : Fin ((⟨2, ![n, d]⟩ : Shape).size 0)) :
    h'.lift (ix1 q) p = ix2 (n0 := n) p q := by
  funext c
  refine Fin.ext ?_
  match c with
  | ⟨0, _⟩ => rfl
  | ⟨1, _⟩ => rfl

/-- THE SUM OVER THE ROWS READ AT q: the initial value plus the sum, over the n rows p, of the entry (p, q). -/
theorem reduceAdd_rows_apply {n d : ℕ} {φ : FTy} (x : FVec Ideal ⟨2, ![n, d]⟩ φ)
    (init : (⟨0, ![]⟩ : Shape).Idx → Ideal φ)
    (h : (⟨2, ![n, d]⟩ : Shape).ReducesTo [0] ⟨1, ![d]⟩) (hu : 0 < (⟨0, ![]⟩ : Shape).numel) (q : Fin d) :
    Host.reduceAdd x init h hu (ix1 q) = init ix0 + ∑ p : Fin n, x (ix2 p q) := by
  rw [hostReduceAdd_apply, Ideal.hostReduceAdd_single h (reduces_rows_of_reducesTo h), eq_ix0 (Shape.Idx.first hu)]
  congr 1
  exact Finset.sum_congr rfl fun p _ => congrArg x (lift_rows _ q p)

end ReduceRows

/-! ## A matrix product, read at an entry -/

section MatrixProduct

variable {φ₁ φ₂ : FTy}

/-- ENTRY (p, q) OF A PLAIN PRODUCT of an M×K by a K×N matrix (left operand contracted on its axis 1, right operand
    on its axis 0, no batch axes): the sum over k of l(p, k) · r(k, q), with nothing added in front. -/
theorem dotGeneral_plain_apply (M K N : ℕ) (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  show FloatOps.dotGeneral (DotDims.plain M K N) prec .single l r (ix2 p q) = _
  rw [Ideal.dotGeneral_apply, ← Equiv.sum_comp (contrEquiv1 (DotDims.plain M K N) K rfl rfl).symm]
  refine Finset.sum_congr rfl fun k _ => ?_
  rw [Cert.LibPlainMatmul.lhsIdx_plain, Cert.LibPlainMatmul.rhsIdx_plain]

/-- A record of dimension numbers between those three shapes whose six lists are the plain product's IS the plain
    product's record: the remaining field is a proof. -/
theorem dotDims_eq_plain {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- ENTRY (p, q) OF A PRODUCT whose dimension numbers are given as a record with the plain product's six lists (each
    hypothesis holds by unfolding a record written out field by field): the sum over k of l(p, k) · r(k, q). -/
theorem dotGeneral_apply_of_fields {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  rw [dotDims_eq_plain d h1 h2 h3 h4 h5 h6]
  exact dotGeneral_plain_apply M K N prec l r p q

end MatrixProduct

/-! ## A lookup of rows and the two scatter-adds, for a record given by its fields -/

section ByFields

open Cert.LibRowGather Cert.RowIndex Cert.LibSegmentSum Cert.LibSegmentCount

variable {α : Type}

/-- THE LOOKUP OF ROWS READ AT (p, k), for dimension numbers given as a record whose fields are the row lookup's
    (offset axis 1, collapsed operand axis 0, no batching axes, start-index map [0], index-vector axis 1, slice sizes
    [1, D]; each hypothesis holds by unfolding a record written out field by field): the table at the clamped row
    number ids[p, 0] and column k. -/
theorem gather_row_apply_of_fields {N D R w : ℕ} (hN : 0 < N)
    (d : GatherDims ⟨2, ![N, D]⟩ ⟨2, ![R, 1]⟩ ⟨2, ![R, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (ids : IVec ⟨2, ![R, 1]⟩ w) (p : Fin R) (k : Fin D) :
    Host.gather d x ids (ix2 p k) = x (ix2 (clampRow N hN (ids (ix2 p (0 : Fin 1)))) k) := by
  obtain ⟨od, cs, ob, sb, sm, iv, ss, wf⟩ := d
  simp only at h1 h2 h3 h4 h5 h6 h7
  subst h1 h2 h3 h4 h5 h6 h7
  exact gather_row_apply hN wf x ids p k

/-- THE SCATTER-ADD OF ROWS READ AT (n, k), for dimension numbers given as a record whose fields are the row
    scatter's (update window axis 1, inserted operand axis 0, scattered operand axis 0, index-vector axis 1): the
    array's entry plus the sum, over the update rows whose index word reads n, of the update's entry in column k. -/
theorem scatterAdd_row_apply_of_fields {N D E w : ℕ} {φ : FTy}
    (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : FVec Ideal ⟨2, ![N, D]⟩ φ) (idx : IVec ⟨2, ![E, 1]⟩ w) (upd : FVec Ideal ⟨2, ![E, D]⟩ φ)
    (n : Fin N) (k : Fin D) :
    Host.scatterAdd d x idx upd (ix2 n k)
      = x (ix2 n k) + ∑ e ∈ Finset.univ.filter (fun e : Fin E => (idx (ix2 e (0 : Fin 1))).toInt = (n.val : ℤ)),
          upd (ix2 e k) := by
  obtain ⟨uw, iw, so, iv, wf⟩ := d
  simp only at h1 h2 h3 h4
  subst h1 h2 h3 h4
  exact scatterAdd_row_apply wf x idx upd n k

/-- THE SCATTER-ADD OF SCALARS READ AT n, for dimension numbers given as a record whose fields are the scalar
    scatter's (no update window axis, inserted operand axis 0, scattered operand axis 0, index-vector axis 1): the
    vector's entry plus the sum of the updates whose index word reads n. -/
theorem scatterAdd_vec_apply_of_fields {N E w : ℕ} {φ : FTy}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (n : Fin N) :
    Host.scatterAdd d x idx upd (ix1 n)
      = x (ix1 n) + ∑ e ∈ Finset.univ.filter (fun e : Fin E => (idx (ix2 e (0 : Fin 1))).toInt = (n.val : ℤ)),
          upd (ix1 e) := by
  obtain ⟨uw, iw, so, iv, wf⟩ := d
  simp only at h1 h2 h3 h4
  subst h1 h2 h3 h4
  exact scatterAdd_vec_apply wf x idx upd n

end ByFields

/-! ## Single words -/

section Words

open Cert.LibRowGather

/-- An iota along axis d reads, at an entry, that entry's coordinate on axis d as a word. -/
theorem iotaInDim_read {s : Shape} (w : ℕ) (d : Fin s.rank) (i : s.Idx) :
    iotaInDim s w d i = BitVec.ofNat w (i d).val := rfl

/-- A one-bit truth value read as an unsigned number is 1 for the bit 1 and 0 for the bit 0. -/
theorem uitofp_bit (φ : FTy) (b : BitVec 1) :
    FloatOps.uitofp (F := Ideal) φ b = if b = 1#1 then 1 else 0 := by
  show ((b.toNat : ℝ) : EReal) = _
  rcases BitVec.eq_zero_or_eq_one b with rfl | rfl
  · rw [if_neg (by decide)]
    show (((0 : ℕ) : ℝ) : EReal) = 0
    rw [Nat.cast_zero, EReal.coe_zero]
  · rw [if_pos rfl]
    show (((1 : ℕ) : ℝ) : EReal) = 1
    rw [Nat.cast_one, EReal.coe_one]

/-- A one-bit truth value widened with zeros to v bits (v at least 2) and read as a signed number is 1 for the
    bit 1 and 0 for the bit 0. -/
theorem sitofp_widened_bit (φ : FTy) (v : ℕ) (hv : 2 ≤ v) (b : BitVec 1) :
    FloatOps.sitofp (F := Ideal) φ (b.setWidth v) = if b = 1#1 then 1 else 0 := by
  show (((b.setWidth v).toInt : ℝ) : EReal) = _
  have hpow : 2 ^ 2 ≤ 2 ^ v := Nat.pow_le_pow_right (by decide) hv
  have hnat : (b.setWidth v).toNat = b.toNat := by
    rw [BitVec.toNat_setWidth]
    have := b.isLt
    exact Nat.mod_eq_of_lt (by omega)
  have hint : (b.setWidth v).toInt = (b.toNat : ℤ) := by
    rw [BitVec.toInt_eq_toNat_cond, hnat, if_pos (by have := b.isLt; omega)]
  rw [hint]
  rcases BitVec.eq_zero_or_eq_one b with rfl | rfl
  · rw [if_neg (by decide)]
    show ((((0 : ℕ) : ℤ) : ℝ) : EReal) = 0
    rw [Nat.cast_zero, Int.cast_zero, EReal.coe_zero]
  · rw [if_pos rfl]
    show ((((1 : ℕ) : ℤ) : ℝ) : EReal) = 1
    rw [Nat.cast_one, Int.cast_one, EReal.coe_one]

/-- The equality test of two words gives the bit 1 exactly when the words are equal. -/
theorem cmpi_eq_one_iff {w : ℕ} (x y : BitVec w) : IntOp.cmpi .eq x y = 1#1 ↔ x = y := by
  show BitVec.ofBool (x == y) = 1#1 ↔ x = y
  by_cases h : x = y
  · subst h
    rw [beq_self_eq_true]
    exact ⟨fun _ => rfl, fun _ => rfl⟩
  · rw [beq_eq_false_iff_ne.mpr h]
    exact ⟨fun h' => absurd h' (by decide), fun h' => absurd h' h⟩

/-- A 32-bit word that is not negative as a signed integer reads the same signed and unsigned. -/
theorem toInt_toNat_of_nonneg (v : BitVec 32) (h0 : 0 ≤ v.toInt) : v.toInt.toNat = v.toNat := by
  have hc := BitVec.toInt_eq_toNat_cond v
  have := v.isLt
  split at hc <;> omega

/-- A word whose signed value is one of the row numbers 0 … N − 1 is its own clamp: the clamped row is that
    value. -/
theorem clampRow_of_range {N w : ℕ} (hN : 0 < N) (v : BitVec w) (h0 : 0 ≤ v.toInt) (hlt : v.toInt < (N : ℤ)) :
    clampRow N hN v = ⟨v.toInt.toNat, by omega⟩ := by
  refine Fin.ext ?_
  show min v.toInt.toNat (N - 1) = v.toInt.toNat
  omega

/-- For a 32-bit word whose signed value is one of the row numbers 0 … N − 1 (N at most 2³¹), the word of a row
    number j is that word exactly when j is its signed value. -/
theorem ofNat_eq_iff_of_range {N : ℕ} (hN : N ≤ 2 ^ 31) (v : BitVec 32) (h0 : 0 ≤ v.toInt) (hlt : v.toInt < (N : ℤ))
    (j : Fin N) : BitVec.ofNat 32 j.val = v ↔ j.val = v.toInt.toNat := by
  have hv := toInt_toNat_of_nonneg v h0
  have hj := j.isLt
  constructor
  · intro h
    rw [hv, ← h, BitVec.toNat_ofNat]
    exact (Nat.mod_eq_of_lt (by omega)).symm
  · intro h
    refine BitVec.eq_of_toNat_eq ?_
    rw [BitVec.toNat_ofNat, h, hv]
    exact Nat.mod_eq_of_lt v.isLt

/-- The same with the row number written as the clamped row of the word: the word of row number j is the word
    exactly when j is the word's clamped row. -/
theorem ofNat_eq_iff_eq_clampRow {N : ℕ} (hN0 : 0 < N) (hN : N ≤ 2 ^ 31) (v : BitVec 32) (h0 : 0 ≤ v.toInt)
    (hlt : v.toInt < (N : ℤ)) (j : Fin N) : BitVec.ofNat 32 j.val = v ↔ j = clampRow N hN0 v := by
  rw [ofNat_eq_iff_of_range hN v h0 hlt j, clampRow_of_range hN0 v h0 hlt]
  exact ⟨fun h => Fin.ext h, fun h => congrArg Fin.val h⟩

end Words

end Cert.LibHostRead

end
-- ==== Proof.BridgePlain.lean ====
/-
  The kernel's flow and the reference's flow agree on the two products, on the three edge-message arrays and on
  the three plain node outputs (for labels in range).

  A product: both sides have ∑ₖ h(n, k) · w(k, d) at (n, d); the reference's product adds it to a zero.
  A message at (e, d): the kernel has G(src e, d) · pick(e, d), where G(n, d) = x(n, d) · ci(n) is a node array
  already scaled by the node scale and pick(e, d) = ∑ⱼ hot(label e, j) · table(j, d); the reference has
  (x(src e, d) · table(row e, d)) · ci(src e), where row e is the label word wrapped into the five rows and clamped.
  For a label ℓ with 0 ≤ ℓ < 5 the wrap leaves the word alone, its clamp is ℓ, the indicator hot(ℓ, j) is 1 at j = ℓ
  and 0 elsewhere, so pick(e, d) = table(ℓ, d), and the two sides differ by the order of a product of three factors.
  A node output: both sides scale the same segment sum of equal messages, row n by ci(n).
-/
import Mathlib.Data.EReal.Inv
import Idealize.ShloMosaic.PureOps.Ideal.Laws
import Idealize.ShloMosaic.Lib.ValueIdx
import Idealize.ShloMosaic.Lib.ValueLayout
import proofs.«418387_j86114094284913_3_alg».proof.Proof.Dataflow
import proofs.«418387_j86114094284913_3_alg».proof.Proof.LibRowGather
import proofs.«418387_j86114094284913_3_alg».proof.Proof.LibRowIndex
import proofs.«418387_j86114094284913_3_alg».proof.Proof.LibPlainMatmul
import proofs.«418387_j86114094284913_3_alg».proof.Proof.LibHostRead

noncomputable section

open scoped BigOperators

namespace Cert.Bridge

open Idealize.ShloMosaic Idealize.ShloMosaic.ValueIdx Cert.RegionFns Cert.Dataflow Cert.LibRowGather

/-! ## The label indicator and the table row it picks -/

/-- The equality test of two equal words answers the bit one. -/
theorem cmpi_eq_of_eq {w : Nat} (x y : BitVec w) (h : x = y) : IntOp.cmpi .eq x y = 1#1 := by
  subst h
  simp [IntOp.cmpi]

/-- The equality test of two different words answers the bit zero. -/
theorem cmpi_eq_of_ne {w : Nat} (x y : BitVec w) (h : x ≠ y) : IntOp.cmpi .eq x y = 0#1 := by
  have hb : (x == y) = false := beq_eq_false_iff_ne.mpr h
  show BitVec.ofBool (x == y) = 0#1
  rw [hb]
  rfl

/-- The word of a lane number below five reads, as a signed integer, that number. -/
theorem toInt_laneWord : ∀ n : Fin 5, (BitVec.ofNat 32 n.val).toInt = (n.val : ℤ) := by decide

/-- Different lane numbers below five have different words. -/
theorem laneWord_injective : ∀ j n : Fin 5, BitVec.ofNat 32 j.val = BitVec.ofNat 32 n.val → j = n := by decide

/-- A word that reads, as a signed integer, a number below five is the word of that number. -/
theorem word_eq_laneWord (v : BitVec 32) (n : Fin 5) (h : v.toInt = (n.val : ℤ)) : v = BitVec.ofNat 32 n.val :=
  BitVec.eq_of_toInt_eq (h.trans (toInt_laneWord n).symm)

/-- The label a word in range names, as one of the five rows. -/
def labelOf (v : BitVec 32) (h : 0 ≤ v.toInt ∧ v.toInt < 5) : Fin 5 := ⟨v.toInt.toNat, by omega⟩

/-- A word in range reads, as a signed integer, its label. -/
theorem toInt_eq_labelOf (v : BitVec 32) (h : 0 ≤ v.toInt ∧ v.toInt < 5) : v.toInt = ((labelOf v h).val : ℤ) := by
  show v.toInt = ((v.toInt.toNat : ℕ) : ℤ)
  omega

/-- The indicator at the label's own lane is one. -/
theorem hot_self (v : BitVec 32) (n : Fin 5) (h : v.toInt = (n.val : ℤ)) : hot v n = 1 := by
  unfold hot
  rw [cmpi_eq_of_eq _ _ (word_eq_laneWord v n h).symm]
  show ((((1#1 : BitVec 1).setWidth 32).toInt : ℝ) : EReal) = 1
  have h1 : ((1#1 : BitVec 1).setWidth 32).toInt = 1 := by decide
  rw [h1]
  simp

/-- The indicator at any other lane is zero. -/
theorem hot_other (v : BitVec 32) (n j : Fin 5) (h : v.toInt = (n.val : ℤ)) (hj : j ≠ n) : hot v j = 0 := by
  unfold hot
  have hne : BitVec.ofNat 32 j.val ≠ v := fun he =>
    hj (laneWord_injective j n (he.trans (word_eq_laneWord v n h)))
  rw [cmpi_eq_of_ne _ _ hne]
  show ((((0#1 : BitVec 1).setWidth 32).toInt : ℝ) : EReal) = 0
  have h0 : ((0#1 : BitVec 1).setWidth 32).toInt = 0 := by decide
  rw [h0]
  simp

/-- THE PICKED ROW: where the edge's label word reads the row number n, ∑ⱼ hot(label, j) · table(j, d) = table(n, d). -/
theorem pickAt_of_label {R : ℕ} (lab : Col32 R) (tab : Mat 5 64) (e : Fin R) (d : Fin 64) (n : Fin 5)
    (h : (lab (ix2 e (0 : Fin 1))).toInt = (n.val : ℤ)) : pickAt lab tab e d = tab (ix2 n d) := by
  unfold pickAt
  rw [Finset.sum_eq_single n]
  · rw [hot_self _ n h, one_mul]
  · intro j _ hj
    rw [hot_other _ n j h hj, zero_mul]
  · intro hn
    exact absurd (Finset.mem_univ n) hn

/-! ## The index columns at an edge -/

variable (a : Inputs)

/-- The bare label column at edge e is the e-th label word. -/
theorem labelCol_apply (e : Fin 1000000) : labelCol a (ix2 e (0 : Fin 1)) = a.score (ix1 e) := by
  unfold labelCol colE
  rw [Cert.LibHostRead.broadcastInDim_vec_col_apply]

/-- The wrapped label column at edge e, for a non-negative label word, is that word too. -/
theorem labelRowCol_apply (e : Fin 1000000) (h : 0 ≤ (a.score (ix1 e)).toInt) :
    labelRowCol a (ix2 e (0 : Fin 1)) = a.score (ix1 e) := by
  unfold labelRowCol colE
  rw [Cert.LibHostRead.broadcastInDim_vec_col_apply]
  show Scalar.select (IntOp.cmpi .slt (a.score (ix1 e)) 0#32) (IntOp.addi (a.score (ix1 e)) 5#32) (a.score (ix1 e))
    = a.score (ix1 e)
  exact Cert.RowIndex.wrap_of_nonneg _ _ h

/-! ## The lookups at an edge -/

/-- The source row of edge e: its wrapped source word clamped into the node rows. -/
def srcRow (e : Fin 1000000) : Fin 200000 :=
  clampRow 200000 (by decide) (srcCol a (ix2 e (0 : Fin 1)))

/-- The gathered node rows at (e, d): the node array at the edge's source row. -/
theorem gatherSrc_apply (x : FVec Ideal SN64 .f32) (e : Fin 1000000) (d : Fin 64) :
    gatherSrc a x (ix2 e d) = x (ix2 (srcRow a e) d) := by
  unfold gatherSrc srcRow
  exact gather_row_apply (by decide) _ x (srcCol a) e d

/-- The gathered node scale at e: the scale of the edge's source row. -/
theorem ciSrc_apply (e : Fin 1000000) : ciSrc a (ix2 e (0 : Fin 1)) = a.ci (ix2 (srcRow a e) (0 : Fin 1)) := by
  unfold ciSrc srcRow
  exact gather_row_apply (by decide) _ a.ci (srcCol a) e (0 : Fin 1)

/-- The gathered scale spread over the columns reads the edge's scale in every column. -/
theorem ciSrcWide_apply (e : Fin 1000000) (d : Fin 64) :
    R.ciSrcWide a (ix2 e d) = a.ci (ix2 (srcRow a e) (0 : Fin 1)) := by
  unfold R.ciSrcWide
  rw [Cert.LibHostRead.broadcastInDim_col_mat_apply, ciSrc_apply]

/-- The node scale spread over the columns reads the node's scale in every column. -/
theorem ciWide_apply (n : Fin 200000) (d : Fin 64) : R.ciWide a (ix2 n d) = a.ci (ix2 n (0 : Fin 1)) := by
  unfold R.ciWide
  rw [Cert.LibHostRead.broadcastInDim_col_mat_apply]

/-- The gathered table rows at (e, d), for a label in range: the table at the label's row. -/
theorem tableRows_apply (tab : FVec Ideal S5x64 .f32) (e : Fin 1000000) (d : Fin 64)
    (hl : 0 ≤ (a.score (ix1 e)).toInt ∧ (a.score (ix1 e)).toInt < 5) :
    R.tableRows a tab (ix2 e d) = tab (ix2 (labelOf _ hl) d) := by
  unfold R.tableRows
  rw [gather_row_apply (by decide : 0 < 5) _ tab (labelRowCol a) e d, labelRowCol_apply a e hl.1,
    Cert.RowIndex.clampRow_of_toInt _ _ _ (toInt_eq_labelOf _ hl)]

/-- The sum of two gathered node arrays is the gathered sum. -/
theorem addf_gatherSrc (x y : FVec Ideal SN64 .f32) :
    addf (gatherSrc a x) (gatherSrc a y) = gatherSrc a (addf x y) := by
  funext i
  obtain ⟨e, d, rfl⟩ : ∃ (e : Fin 1000000) (d : Fin 64), i = ix2 e d := ⟨i 0, i 1, eq_ix2 i⟩
  rw [addf_apply, gatherSrc_apply, gatherSrc_apply, gatherSrc_apply, addf_apply]

/-! ## The two products -/

/-- A host product of an M×K by a K×N matrix at (p, q): ∑ₖ l(p, k) · r(k, q), the zero it is added to dropped. -/
theorem dotGeneral_plain_apply (M K N : Nat) (prec : Option ContractPrecision)
    (l : FVec Ideal ⟨2, ![M, K]⟩ .f32) (r : FVec Ideal ⟨2, ![K, N]⟩ .f32) (p : Fin M) (q : Fin N) :
    Host.dotGeneral (F := Ideal) (DotDims.plain M K N) prec l r (ix2 p q) = ∑ k : Fin K, l (ix2 p k) * r (ix2 k q) := by
  simp only [Host.dotGeneral]
  rw [Ideal.dotGeneral_apply, ← Equiv.sum_comp (contrEquiv1 (DotDims.plain M K N) K rfl rfl).symm]
  refine Finset.sum_congr rfl fun k _ => ?_
  rw [Cert.LibPlainMatmul.lhsIdx_plain, Cert.LibPlainMatmul.rhsIdx_plain]

/-- The entrywise product of matrices is the host's product. -/
theorem prod_eq_dotGeneral (h : FVec Ideal SN64 .f32) (w : FVec Ideal S64x64 .f32) :
    prod h w = Host.dotGeneral (F := Ideal) (DotDims.plain 200000 64 64) none h w := by
  funext i
  obtain ⟨p, q, rfl⟩ : ∃ (p : Fin 200000) (q : Fin 64), i = ix2 p q := ⟨i 0, i 1, eq_ix2 i⟩
  rw [prod_apply, dotGeneral_plain_apply]

theorem rfe3_eq : K.rfe3 a = R.rfe3 a := by
  unfold K.rfe3 R.rfe3
  exact prod_eq_dotGeneral _ _

theorem rfe2_eq : K.rfe2 a = R.rfe2 a := by
  unfold K.rfe2 R.rfe2
  exact prod_eq_dotGeneral _ _

/-! ## The three edge-message arrays -/

/-- THE MESSAGE LAW: where the kernel's gather source is the reference's node array scaled row by row by the node
    scale, the kernel's message (gathered source times picked table row) is the reference's (gathered array times
    gathered table row, times gathered scale), for labels in range. -/
theorem edgeMsg_eq (hlab : ∀ e : Fin 1000000, 0 ≤ (a.score (ix1 e)).toInt ∧ (a.score (ix1 e)).toInt < 5)
    (gK gR : FVec Ideal SN64 .f32) (tab : FVec Ideal S5x64 .f32)
    (hg : ∀ (n : Fin 200000) (d : Fin 64), gK (ix2 n d) = gR (ix2 n d) * a.ci (ix2 n (0 : Fin 1))) :
    edgeMsg (labelCol a) (gatherSrc a gK) tab
      = mulf (mulf (gatherSrc a gR) (R.tableRows a tab)) (R.ciSrcWide a) := by
  funext i
  obtain ⟨e, d, rfl⟩ : ∃ (e : Fin 1000000) (d : Fin 64), i = ix2 e d := ⟨i 0, i 1, eq_ix2 i⟩
  have hl := hlab e
  have hpick : pickAt (labelCol a) tab e d = tab (ix2 (labelOf _ hl) d) :=
    pickAt_of_label (labelCol a) tab e d (labelOf _ hl) (by rw [labelCol_apply]; exact toInt_eq_labelOf _ hl)
  rw [edgeMsg_apply, mulf_apply, mulf_apply, gatherSrc_apply, gatherSrc_apply, tableRows_apply a tab e d hl,
    ciSrcWide_apply, hg, hpick]
  exact mul_right_comm _ _ _

variable (hlab : ∀ e : Fin 1000000, 0 ≤ (a.score (ix1 e)).toInt ∧ (a.score (ix1 e)).toInt < 5)
include hlab

theorem msgRe_eq : K.msgRe a = R.msgRe a := by
  unfold K.msgRe R.msgRe
  refine edgeMsg_eq a hlab (K.G1 a) (R.rfe3 a) a.E1 fun n d => ?_
  rw [← rfe3_eq a]
  rfl

theorem msgMain_eq : K.msgMain a = R.msgMain a := by
  unfold K.msgMain R.msgMain
  rw [addf_gatherSrc]
  refine edgeMsg_eq a hlab (K.G2 a) (addf a.f2 (R.rfe2 a)) a.E2 fun n d => ?_
  rw [← rfe2_eq a]
  rfl

theorem msgId_eq : K.msgId a = R.msgId a := by
  unfold K.msgId R.msgId
  exact edgeMsg_eq a hlab (K.G3 a) a.f3 a.E3 fun n d => rfl

/-! ## The three plain node outputs -/

omit hlab in
/-- Scaling row n by ci(n) is the product with the node scale spread over the columns. -/
theorem rowScaled_eq_mulf_ciWide (x : FVec Ideal SN64 .f32) : rowScaled x a.ci = mulf x (R.ciWide a) := by
  funext i
  obtain ⟨n, d, rfl⟩ : ∃ (n : Fin 200000) (d : Fin 64), i = ix2 n d := ⟨i 0, i 1, eq_ix2 i⟩
  rw [rowScaled_apply, mulf_apply, ciWide_apply]

theorem rstRe_eq : K.rstRe a = R.rstRe a := by
  unfold K.rstRe R.rstRe
  rw [msgRe_eq a hlab]
  exact rowScaled_eq_mulf_ciWide a _

theorem rst_eq : K.rst a = R.rst a := by
  unfold K.rst R.rst
  rw [msgMain_eq a hlab]
  exact rowScaled_eq_mulf_ciWide a _

theorem rstId_eq : K.rstId a = R.rstId a := by
  unfold K.rstId R.rstId
  rw [msgId_eq a hlab]
  exact rowScaled_eq_mulf_ciWide a _

end Cert.Bridge

end
-- ==== Proof.FrozenMeanLaw.lean ====
/-
  The law behind the three frozen-mean outputs.

  At one node and one feature column, the edges arriving at the node carry a weight c(e) (the source's scale) and a
  label row(e) in 0 … 4 that selects a row of a five-row table T. The reference adds, over those edges, the product
  (M · T(row e)) · c(e) of a mean M, the selected table entry and the weight. The kernel first adds the weights label
  by label, C(j) = 0 + ∑ₑ [row e = j] · c(e), then contracts the five sums with the table, ∑ⱼ C(j) · T(j), and only then
  multiplies by M. With M, the table entries and the weights real numbers the two agree: a real factor moves across a
  finite sum, the sum over the labels of the indicator picks the one label of each edge, and the two sums exchange.
  The node's own scale multiplies both sides at the end and needs no finiteness.
-/
import Mathlib.Data.EReal.Operations
import Mathlib.Data.EReal.Inv
import Mathlib.Algebra.BigOperators.Group.Finset.Basic
import Mathlib.Algebra.BigOperators.Ring.Finset
import Mathlib.Algebra.BigOperators.Fin

noncomputable section

namespace Cert.FrozenMeanLaw

open scoped BigOperators

/-- The coercion of the reals into the extended reals commutes with finite sums. -/
theorem coe_sum {ι : Type*} (s : Finset ι) (f : ι → ℝ) : ((∑ e ∈ s, f e : ℝ) : EReal) = ∑ e ∈ s, (f e : EReal) := by
  classical
  induction s using Finset.induction_on with
  | empty => simp
  | insert a s ha ih => rw [Finset.sum_insert ha, Finset.sum_insert ha, EReal.coe_add, ih]

/-- The identity over the reals: summing m · t(row e) · c(e) over the edges is m times the table contracted with the
    label-wise sums of the weights. -/
theorem real_law {ι : Type*} [DecidableEq ι] (s : Finset ι) (m : ℝ) (t : Fin 5 → ℝ) (c : ι → ℝ) (row : ι → Fin 5) :
    ∑ e ∈ s, (m * t (row e)) * c e
      = m * ∑ j : Fin 5, (∑ e ∈ s, (if row e = j then (1 : ℝ) else 0) * c e) * t j := by
  have h1 : ∀ j : Fin 5, (∑ e ∈ s, (if row e = j then (1 : ℝ) else 0) * c e) * t j
      = ∑ e ∈ s, (if row e = j then c e * t j else 0) := fun j => by
    rw [Finset.sum_mul]
    refine Finset.sum_congr rfl fun e _ => ?_
    split <;> simp
  simp only [h1]
  rw [Finset.sum_comm, Finset.mul_sum]
  refine Finset.sum_congr rfl fun e _ => ?_
  rw [Finset.sum_ite_eq Finset.univ (row e) (fun j => c e * t j)]
  simp only [Finset.mem_univ, if_true]
  ring

/-- THE LAW on the extended reals, in the two programs' own groupings. `oh e j` is the indicator of `row e = j` as
    the programs compute it (one or zero); `cn` is the node's own scale. -/
theorem frozen_mean_law {ι : Type*} [DecidableEq ι] (s : Finset ι) (M cn : EReal) (T : Fin 5 → EReal) (c : ι → EReal)
    (row : ι → Fin 5) (oh : ι → Fin 5 → EReal)
    (hM : ∃ m : ℝ, M = (m : EReal)) (hT : ∀ j, ∃ r : ℝ, T j = (r : EReal)) (hc : ∀ e, ∃ r : ℝ, c e = (r : EReal))
    (hoh : ∀ e j, oh e j = if row e = j then (1 : EReal) else 0) :
    (0 + ∑ e ∈ s, (M * T (row e)) * c e) * cn
      = (cn * M) * ∑ j : Fin 5, (0 + ∑ e ∈ s, oh e j * c e) * T j := by
  obtain ⟨m, rfl⟩ := hM
  choose t ht using hT
  choose γ hγ using hc
  have hL : (0 + ∑ e ∈ s, ((m : EReal) * T (row e)) * c e) = ((∑ e ∈ s, (m * t (row e)) * γ e : ℝ) : EReal) := by
    rw [zero_add, coe_sum]
    refine Finset.sum_congr rfl fun e _ => ?_
    rw [ht, hγ, EReal.coe_mul, EReal.coe_mul]
  have hR : (∑ j : Fin 5, (0 + ∑ e ∈ s, oh e j * c e) * T j)
      = ((∑ j : Fin 5, (∑ e ∈ s, (if row e = j then (1 : ℝ) else 0) * γ e) * t j : ℝ) : EReal) := by
    rw [coe_sum]
    refine Finset.sum_congr rfl fun j _ => ?_
    rw [zero_add, ht, EReal.coe_mul, coe_sum]
    congr 1
    refine Finset.sum_congr rfl fun e _ => ?_
    rw [hoh, hγ, EReal.coe_mul]
    split <;> simp
  rw [hL, hR, real_law s m t γ row, EReal.coe_mul, mul_comm _ cn, mul_assoc]

end Cert.FrozenMeanLaw

end
-- ==== Proof.BridgeFrozen.lean ====
/-
  The three frozen-mean outputs of the two programs agree.

  At node n and feature column d the kernel's flow forms (ci(n) · mean(d)) · ∑ⱼ C(n, j) · tab(j, d), where C(n, j) adds,
  over the edges arriving at n, the indicator "the edge's label is j" times the scale of the edge's source. The
  reference adds, over the same edges, (mean(d) · tab(label e, d)) · ci(src e) and multiplies the sum by ci(n). With
  every label in 0 … 4 the indicator is one at the edge's own label and zero elsewhere, the reference's wrapped and
  clamped label is the label itself, and the two sides are the two sides of the frozen-mean law.
-/
import proofs.«418387_j86114094284913_3_alg».proof.Proof.Dataflow
import proofs.«418387_j86114094284913_3_alg».proof.Proof.FrozenMeanLaw
import proofs.«418387_j86114094284913_3_alg».proof.Proof.LibSegmentSum
import proofs.«418387_j86114094284913_3_alg».proof.Proof.LibRowGather
import proofs.«418387_j86114094284913_3_alg».proof.Proof.LibRowIndex
import proofs.«418387_j86114094284913_3_alg».proof.Proof.LibHostRead

noncomputable section

namespace Cert.Bridge.Frozen

open Idealize.ShloMosaic Idealize.ShloMosaic.ValueIdx Cert.RegionFns Cert.Dataflow Cert.LibHostRead
open scoped BigOperators

/-- Every entry of an array of extended reals is a real number. -/
def AllRealArr {s : Shape} (x : s.Idx → EReal) : Prop := ∀ i, ∃ r : ℝ, x i = (r : EReal)

/-- The entrywise sum of two arrays of real numbers is an array of real numbers. -/
theorem AllRealArr.add {s : Shape} {x y : FVec Ideal s .f32} (hx : AllRealArr x) (hy : AllRealArr y) :
    AllRealArr (addf x y) := fun i => by
  obtain ⟨r, hr⟩ := hx i
  obtain ⟨t, ht⟩ := hy i
  exact ⟨r + t, by rw [addf_apply, hr, ht, EReal.coe_add]⟩

/-! ## Single words -/

/-- A word that reads, as a signed integer, the natural number k is the word of k. -/
theorem word_of_toInt (v : BitVec 32) (k : ℕ) (h : v.toInt = (k : ℤ)) : v = BitVec.ofNat 32 k :=
  calc v = BitVec.ofInt 32 v.toInt := (BitVec.ofInt_toInt).symm
    _ = BitVec.ofInt 32 (k : ℤ) := by rw [h]
    _ = BitVec.ofNat 32 k := BitVec.ofInt_natCast 32 k

/-- The one-bit answer of "word of r = word of j", read as an unsigned number, is one when r = j and zero otherwise,
    for r and j among the five labels. -/
theorem eqBit_indicator (r j : Fin 5) :
    (((IntOp.cmpi .eq (BitVec.ofNat 32 r.val) (BitVec.ofNat 32 j.val)).toNat : ℝ) : EReal)
      = if r = j then (1 : EReal) else 0 := by
  by_cases h : r = j
  · subst h
    rw [if_pos rfl]
    have hb : IntOp.cmpi .eq (BitVec.ofNat 32 r.val) (BitVec.ofNat 32 r.val) = 1#1 := by
      show BitVec.ofBool (BitVec.ofNat 32 r.val == BitVec.ofNat 32 r.val) = 1#1
      rw [beq_self_eq_true]
      rfl
    rw [hb]
    simp
  · rw [if_neg h]
    have hne : BitVec.ofNat 32 r.val ≠ BitVec.ofNat 32 j.val := by
      intro heq
      have hn := congrArg BitVec.toNat heq
      simp only [BitVec.toNat_ofNat] at hn
      apply h
      apply Fin.ext
      have := r.isLt
      have := j.isLt
      omega
    have hb : IntOp.cmpi .eq (BitVec.ofNat 32 r.val) (BitVec.ofNat 32 j.val) = 0#1 := by
      show BitVec.ofBool (BitVec.ofNat 32 r.val == BitVec.ofNat 32 j.val) = 0#1
      rw [beq_eq_false_iff_ne.mpr hne]
      rfl
    rw [hb]
    simp

/-- The host's label indicator at one entry, before its operands are read. -/
theorem uitofp_cmpi_eq_apply {s : Shape} (x y : IVec s 32) (i : s.Idx) :
    (uitofp .f32 (cmpi .eq x y) : FVec Ideal s .f32) i = (((IntOp.cmpi .eq (x i) (y i)).toNat : ℝ) : EReal) := rfl

/-! ## The shared stages at one entry -/

section Entries

variable (a : Inputs)

/-- The zero array reads zero everywhere. -/
theorem zeroFill_apply {s : Shape} (h : (⟨0, ![]⟩ : Shape).BroadcastsInDim s ![]) (i : s.Idx) :
    broadcastInDim s ![] h (Cert.Dataflow.zero) i = (0 : EReal) := by
  rw [broadcastInDim_scalar_apply']
  exact Ideal.ofBits_zero_f32

/-- The label column at edge e is the label word of e. -/
theorem labelCol_apply (e : Fin 1000000) : labelCol a (ix2 e (0 : Fin 1)) = a.score (ix1 e) := by
  unfold labelCol colE
  rw [broadcastInDim_vec_col_apply]

/-- The wrap-around of negative positions leaves a non-negative word alone, at one edge. -/
theorem wrapE_apply_of_nonneg (c : BitVec 32) (v : IVec SE 32) (e : Fin 1000000) (h : 0 ≤ (v (ix1 e)).toInt) :
    wrapE c v (ix1 e) = v (ix1 e) := by
  unfold wrapE
  rw [select_apply]
  show Scalar.select (IntOp.cmpi .slt (v (ix1 e)) (broadcastInDim SE (![] : Fin 0 → Fin SE.rank) _ (constantI S_ 32 0#32) (ix1 e)))
      (IntOp.addi (v (ix1 e)) (broadcastInDim SE (![] : Fin 0 → Fin SE.rank) _ (constantI S_ 32 c) (ix1 e))) (v (ix1 e)) = _
  rw [broadcastInDim_scalar_apply', broadcastInDim_scalar_apply']
  exact Cert.RowIndex.wrap_of_nonneg _ _ h

/-- The source's scale of an edge is a real number when every node scale is. -/
theorem ciSrc_real (hci : AllRealArr a.ci) (e : Fin 1000000) :
    ∃ r : ℝ, ciSrc a (ix2 e (0 : Fin 1)) = (r : EReal) := by
  unfold ciSrc
  rw [Cert.LibRowGather.gather_row_apply (by decide : 0 < 200000)]
  exact hci _

/-- The edges whose destination word reads node n. -/
def edgesInto (n : Fin 200000) : Finset (Fin 1000000) :=
  Finset.univ.filter (fun e : Fin 1000000 => (dstCol a (ix2 e (0 : Fin 1))).toInt = (n.val : ℤ))

/-- C(n, j): zero plus the sum, over the edges arriving at n, of the indicator times the source's scale. -/
theorem C_apply (n : Fin 200000) (j : Fin 5) :
    K.C a (ix2 n j) = 0 + ∑ e ∈ edgesInto a n, K.oneHot a (ix2 e j) * ciSrc a (ix2 e (0 : Fin 1)) := by
  unfold K.C segSum5 edgesInto
  rw [Cert.LibSegmentSum.scatterAdd_row_apply, zeroFill_apply]
  refine congrArg (HAdd.hAdd (0 : EReal)) ?_
  refine Finset.sum_congr rfl fun e _ => ?_
  rw [mulf_apply, broadcastInDim_col_mat_apply]

variable (hlab : ∀ e : Fin 1000000, 0 ≤ (a.score (ix1 e)).toInt ∧ (a.score (ix1 e)).toInt < 5)

/-- The label of edge e as one of the five table rows. -/
def labelRow (e : Fin 1000000) : Fin 5 :=
  ⟨(a.score (ix1 e)).toInt.toNat, by have := hlab e; omega⟩

include hlab

theorem labelRow_toInt (e : Fin 1000000) : (a.score (ix1 e)).toInt = ((labelRow a hlab e).val : ℤ) :=
  (Int.toNat_of_nonneg (hlab e).1).symm

/-- The wrapped label column at edge e is still the label word of e. -/
theorem labelRowCol_apply (e : Fin 1000000) : labelRowCol a (ix2 e (0 : Fin 1)) = a.score (ix1 e) := by
  unfold labelRowCol colE
  rw [broadcastInDim_vec_col_apply]
  exact wrapE_apply_of_nonneg 5#32 a.score e (hlab e).1

/-- The reference's table lookup at (e, d) reads the table at the edge's own label. -/
theorem tableRows_apply (tab : FVec Ideal S5x64 .f32) (e : Fin 1000000) (d : Fin 64) :
    R.tableRows a tab (ix2 e d) = tab (ix2 (labelRow a hlab e) d) := by
  unfold R.tableRows
  rw [Cert.LibRowGather.gather_row_apply (by decide : 0 < 5)]
  have hrow : Cert.LibRowGather.clampRow 5 (by decide) (labelRowCol a (ix2 e (0 : Fin 1))) = labelRow a hlab e := by
    apply Cert.RowIndex.clampRow_of_toInt
    rw [labelRowCol_apply a hlab e]
    exact labelRow_toInt a hlab e
  rw [hrow]

/-- The host's label indicator at (e, j) is one at the edge's own label and zero elsewhere. -/
theorem oneHot_apply (e : Fin 1000000) (j : Fin 5) :
    K.oneHot a (ix2 e j) = if labelRow a hlab e = j then (1 : EReal) else 0 := by
  unfold K.oneHot
  rw [uitofp_cmpi_eq_apply, broadcastInDim_col_mat_apply, labelCol_apply, broadcastInDim_row_mat_apply,
    broadcastInDim_vec_row_apply, iotaInDim_apply,
    word_of_toInt (a.score (ix1 e)) (labelRow a hlab e).val (labelRow_toInt a hlab e)]
  exact eqBit_indicator (labelRow a hlab e) j

/-- The reference's segment sum at (n, d): zero plus the sum, over the edges arriving at n, of
    (mean(d) · tab(label e, d)) · ci(src e). -/
theorem refSum_apply (mean : FVec Ideal S1x64 .f32) (tab : FVec Ideal S5x64 .f32) (n : Fin 200000) (d : Fin 64) :
    segSum64 a (mulf (mulf (R.wideE mean) (R.tableRows a tab)) (R.ciSrcWide a)) (ix2 n d)
      = 0 + ∑ e ∈ edgesInto a n,
          (mean (ix2 (0 : Fin 1) d) * tab (ix2 (labelRow a hlab e) d)) * ciSrc a (ix2 e (0 : Fin 1)) := by
  unfold segSum64 edgesInto
  rw [Cert.LibSegmentSum.scatterAdd_row_apply, zeroFill_apply]
  refine congrArg (HAdd.hAdd (0 : EReal)) ?_
  refine Finset.sum_congr rfl fun e _ => ?_
  rw [mulf_apply, mulf_apply, tableRows_apply a hlab]
  unfold R.wideE R.ciSrcWide
  rw [broadcastInDim_row_mat_apply, broadcastInDim_col_mat_apply]

end Entries

/-! ## The frozen-mean outputs -/

/-- The kernel's two-mean form is the one-mean form at the sum of the means. -/
theorem frozen2_eq_frozen {R : ℕ} (ci : Mat R 1) (m₁ m₂ : Mat 1 64) (C : Mat R 5) (tab : Mat 5 64) :
    frozen2 ci m₁ m₂ C tab = frozen ci (addf (F := Ideal) (s := ⟨2, ![1, 64]⟩) (φ := .f32) m₁ m₂) C tab := rfl

section Outputs

variable (a : Inputs)
  (hlab : ∀ e : Fin 1000000, 0 ≤ (a.score (ix1 e)).toInt ∧ (a.score (ix1 e)).toInt < 5)
  (hci : AllRealArr a.ci)

include hlab hci

/-- One entry of the general statement. -/
theorem frozen_eq_at (mean : FVec Ideal S1x64 .f32) (tab : FVec Ideal S5x64 .f32)
    (hmean : AllRealArr mean) (htab : AllRealArr tab) (n : Fin 200000) (d : Fin 64) :
    frozen a.ci mean (K.C a) tab (ix2 n d)
      = mulf (segSum64 a (mulf (mulf (R.wideE mean) (R.tableRows a tab)) (R.ciSrcWide a))) (R.ciWide a) (ix2 n d) := by
  rw [frozen_apply, prod_apply, mulf_apply, refSum_apply a hlab]
  unfold R.ciWide
  rw [broadcastInDim_col_mat_apply]
  have hC : ∀ j : Fin 5, K.C a (ix2 n j) * tab (ix2 j d)
      = (0 + ∑ e ∈ edgesInto a n, K.oneHot a (ix2 e j) * ciSrc a (ix2 e (0 : Fin 1))) * tab (ix2 j d) :=
    fun j => by rw [C_apply]
  rw [Finset.sum_congr rfl fun j _ => hC j]
  exact (Cert.FrozenMeanLaw.frozen_mean_law (edgesInto a n) (mean (ix2 (0 : Fin 1) d)) (a.ci (ix2 n (0 : Fin 1)))
    (fun j => tab (ix2 j d)) (fun e => ciSrc a (ix2 e (0 : Fin 1))) (labelRow a hlab)
    (fun e j => K.oneHot a (ix2 e j)) (hmean _) (fun j => htab _) (ciSrc_real a hci)
    (oneHot_apply a hlab)).symm

/-- THE GENERAL STATEMENT: for any real mean row and real table, the kernel's frozen-mean array is the reference's. -/
theorem frozen_eq (mean : FVec Ideal S1x64 .f32) (tab : FVec Ideal S5x64 .f32)
    (hmean : AllRealArr mean) (htab : AllRealArr tab) :
    frozen a.ci mean (K.C a) tab
      = mulf (segSum64 a (mulf (mulf (R.wideE mean) (R.tableRows a tab)) (R.ciSrcWide a))) (R.ciWide a) := by
  funext i
  rw [eq_ix2 i]
  exact frozen_eq_at a hlab hci mean tab hmean htab (i 0) (i 1)

/-- The review-feature frozen mean. -/
theorem rstReFreeze_eq (hr3 : K.rfe3 a = R.rfe3 a)
    (hmean : AllRealArr (meanRows (R.rfe3 a))) (htab : AllRealArr a.E1) :
    K.rstReFreeze a = R.rstReFreeze a := by
  unfold K.rstReFreeze R.rstReFreeze R.frozenRe
  rw [hr3]
  exact frozen_eq a hlab hci _ _ hmean htab

/-- The identity-feature frozen mean. -/
theorem rstIdFreeze_eq (hmean : AllRealArr (meanRows a.f3)) (htab : AllRealArr a.E3) :
    K.rstIdFreeze a = R.rstIdFreeze a := by
  unfold K.rstIdFreeze R.rstIdFreeze R.frozenId
  exact frozen_eq a hlab hci _ _ hmean htab

/-- The main frozen mean. -/
theorem rstFreeze_eq (hr2 : K.rfe2 a = R.rfe2 a)
    (hmean₁ : AllRealArr (meanRows a.f2)) (hmean₂ : AllRealArr (meanRows (R.rfe2 a))) (htab : AllRealArr a.E2) :
    K.rstFreeze a = R.rstFreeze a := by
  unfold K.rstFreeze R.rstFreeze R.frozenMain
  rw [hr2, frozen2_eq_frozen]
  exact frozen_eq a hlab hci _ _ (hmean₁.add hmean₂) htab

end Outputs

end Cert.Bridge.Frozen

end
-- ==== Proof.PredictorRef.lean ====
/-
  The host's predictor is the prediction function.

  The reference computes a rating head with whole-array operations: the entrywise product of the two embedding arrays,
  its product with the first weight, the first bias spread over the rows, the activation (keep an entry that is at least
  zero, scale any other by one tenth), the product with the second weight and the second bias spread over the rows.
  Read at an entry (r, q) this is (∑ₖ act(hidden(r, k)) · p2(k, q)) + b2(q) with hidden(r, k) = (∑ⱼ (ue(r, j) · ie(r, j)) · p1(j, k)) + b1(k).
  The host's activation tests "at least zero" where the prediction function tests "above zero"; the two agree everywhere,
  since they differ only at zero, where one tenth of zero is zero.
-/
import proofs.«418387_j86114094284913_3_alg».proof.ReferenceIdeal
import proofs.«418387_j86114094284913_3_alg».proof.Proof.PredictorFn
import proofs.«418387_j86114094284913_3_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.PredictorRef

open Cert.ReferenceIdeal Cert.ReferenceIdeal.Facts₀ Cert.PredictorFn
open Idealize.ShloMosaic Idealize.ShloMosaic.ValueIdx
open scoped BigOperators

variable [Cert.ReferenceIdeal.Facts]

/-! ## The host's operations at an entry -/

/-- Entry (a, b) of the host's plain product: ∑ₖ l(a, k) · r(k, b). -/
theorem hostProduct_apply {φ₁ φ₂ : FTy} (M K N : Nat) (prec : Option ContractPrecision)
    (l : FVec Ideal ⟨2, ![M, K]⟩ φ₁) (r : FVec Ideal ⟨2, ![K, N]⟩ φ₂) (a : Fin M) (b : Fin N) :
    Host.dotGeneral (DotDims.plain M K N) prec l r (ix2 a b) = ∑ k : Fin K, l (ix2 a k) * r (ix2 k b) := by
  simp only [Host.dotGeneral]
  rw [Ideal.dotGeneral_apply, ← Equiv.sum_comp (contrEquiv1 (DotDims.plain M K N) K rfl rfl).symm]
  refine Finset.sum_congr rfl fun k _ => ?_
  rw [Cert.LibPlainMatmul.lhsIdx_plain, Cert.LibPlainMatmul.rhsIdx_plain]

/-- A vector of 64 spread over 8192 rows reads, at (r, k), its entry k. -/
theorem bias1_apply (b1 : FVec Ideal S64 .f32) (r : Fin 8192) (k : Fin 64) :
    broadcastInDim S8192x64 ![0, 1] bcast_S1x64_S8192x64_0_1 (broadcastInDim S1x64 ![1] bcast_S64_S1x64_1 b1) (ix2 r k)
      = b1 (ix1 k) := by
  refine (broadcastInDim_apply _ _ _ (ix2 r k) (ix2 (0 : Fin 1) k) fun a => ?_).trans ?_
  · match a with
    | ⟨0, _⟩ => rfl
    | ⟨1, _⟩ => rfl
  · refine broadcastInDim_apply _ _ _ (ix2 (0 : Fin 1) k) (ix1 k) fun a => ?_
    match a with
    | ⟨0, _⟩ => rfl

/-- A vector of 5 spread over 8192 rows reads, at (r, q), its entry q. -/
theorem bias2_apply (b2 : FVec Ideal S5 .f32) (r : Fin 8192) (q : Fin 5) :
    broadcastInDim S8192x5 ![0, 1] bcast_S1x5_S8192x5_0_1 (broadcastInDim S1x5 ![1] bcast_S5_S1x5_1 b2) (ix2 r q)
      = b2 (ix1 q) := by
  refine (broadcastInDim_apply _ _ _ (ix2 r q) (ix2 (0 : Fin 1) q) fun a => ?_).trans ?_
  · match a with
    | ⟨0, _⟩ => rfl
    | ⟨1, _⟩ => rfl
  · refine broadcastInDim_apply _ _ _ (ix2 (0 : Fin 1) q) (ix1 q) fun a => ?_
    match a with
    | ⟨0, _⟩ => rfl

/-- Keeping what is at least zero and keeping what is above zero are the same activation: at zero the scaled value is zero. -/
theorem select_ge_eq_leaky (x : EReal) :
    Scalar.select (FloatOps.cmpf (F := Ideal) (φ := .f32) .oge x (Ideal.ofBits .f32 0x00000000#32)) x
      (Ideal.ofBits .f32 0x3DCCCCCD#32 * x) = leaky x := by
  rw [leaky_eq]
  show (if Ideal.cmp .oge x (Ideal.ofBits .f32 0x00000000#32) = 1 then x else Ideal.ofBits .f32 0x3DCCCCCD#32 * x) = _
  rw [Ideal.ofBits_zero_f32]
  unfold Ideal.cmp
  rcases lt_trichotomy x 0 with h | h | h
  · have h1 : ¬ (0 ≤ x) := not_le.mpr h
    have h2 : ¬ (0 < x) := not_lt.mpr h.le
    rw [if_neg (by simp [h1]), if_neg h2]
  · subst h
    rw [if_pos (by simp), if_neg (lt_irrefl _), mul_zero]
  · have h1 : (0 : EReal) ≤ x := h.le
    rw [if_pos (by simp [h1]), if_pos h]

/-! ## The host's predictor as a term -/

/-- The host's first layer: the product of the entrywise product with the first weight, plus the spread bias. -/
def refHidden (ue ie : FVec Ideal S8192x64 .f32) (p1 : FVec Ideal S64x64 .f32) (b1 : FVec Ideal S64 .f32) :
    FVec Ideal S8192x64 .f32 :=
  addf (Host.dotGeneral dot_S8192x64_S64x64_S8192x64_1_0_0_1_n_n none (mulf ue ie) p1)
    (broadcastInDim S8192x64 ![0, 1] bcast_S1x64_S8192x64_0_1 (broadcastInDim S1x64 ![1] bcast_S64_S1x64_1 b1))

/-- The host's activation with slope constant `slope`: compare with the spread zero, scale by the spread slope, select. -/
def refLeaky (x : FVec Ideal S8192x64 .f32) (slope : FVec Ideal S_ .f32) : FVec Ideal S8192x64 .f32 :=
  select (cmpf .oge x (broadcastInDim S8192x64 ![] bcast_S_S8192x64 (constant (F := Ideal) S_ .f32 0x00000000#32)))
    x (mulf (broadcastInDim S8192x64 ![] bcast_S_S8192x64 (id slope)) x)

/-- The host's rating head. -/
def refPredict (ue ie : FVec Ideal S8192x64 .f32) (p1 : FVec Ideal S64x64 .f32) (b1 : FVec Ideal S64 .f32)
    (p2 : FVec Ideal S64x5 .f32) (b2 : FVec Ideal S5 .f32) : FVec Ideal S8192x5 .f32 :=
  addf (Host.dotGeneral dot_S8192x64_S64x5_S8192x5_1_0_0_1_n_n none
      (refLeaky (refHidden ue ie p1 b1) (constant (F := Ideal) S_ .f32 0x3DCCCCCD#32)) p2)
    (broadcastInDim S8192x5 ![0, 1] bcast_S1x5_S8192x5_0_1 (broadcastInDim S1x5 ![1] bcast_S5_S1x5_1 b2))

/-- The host's first layer at an entry is the prediction function's. -/
theorem refHidden_apply (ue ie : FVec Ideal S8192x64 .f32) (p1 : FVec Ideal S64x64 .f32) (b1 : FVec Ideal S64 .f32)
    (r : Fin 8192) (k : Fin 64) : refHidden ue ie p1 b1 (ix2 r k) = hidden ue ie p1 b1 (ix2 r k) := by
  unfold refHidden
  rw [hidden_apply]
  refine (addf_apply _ _ _).trans ?_
  refine congrArg₂ (· + ·) ?_ (bias1_apply b1 r k)
  refine (hostProduct_apply 8192 64 64 none _ _ r k).trans ?_
  exact Finset.sum_congr rfl fun j _ => rfl

/-- The host's activation of the one-tenth constant at an entry is the prediction function's activation. -/
theorem refLeaky_apply (x : FVec Ideal S8192x64 .f32) (i : S8192x64.Idx) :
    refLeaky x (constant (F := Ideal) S_ .f32 0x3DCCCCCD#32) i = leaky (x i) :=
  select_ge_eq_leaky (x i)

/-- The host's rating head at an entry is the prediction function's. -/
theorem refPredict_apply (ue ie : FVec Ideal S8192x64 .f32) (p1 : FVec Ideal S64x64 .f32) (b1 : FVec Ideal S64 .f32)
    (p2 : FVec Ideal S64x5 .f32) (b2 : FVec Ideal S5 .f32) (r : Fin 8192) (q : Fin 5) :
    refPredict ue ie p1 b1 p2 b2 (ix2 r q) = predict ue ie p1 b1 p2 b2 (ix2 r q) := by
  unfold refPredict
  rw [predict_apply]
  refine (addf_apply _ _ _).trans ?_
  refine congrArg₂ (· + ·) ?_ (bias2_apply b2 r q)
  refine (hostProduct_apply 8192 64 5 none _ _ r q).trans ?_
  refine Finset.sum_congr rfl fun k _ => ?_
  refine congrArg (· * p2 (ix2 k q)) ?_
  refine (refLeaky_apply _ (ix2 r k)).trans ?_
  rw [refHidden_apply]

/-- THE HOST'S RATING HEAD IS THE PREDICTION FUNCTION of its six operands, as whole arrays. -/
theorem refPredict_eq (ue ie : FVec Ideal S8192x64 .f32) (p1 : FVec Ideal S64x64 .f32) (b1 : FVec Ideal S64 .f32)
    (p2 : FVec Ideal S64x5 .f32) (b2 : FVec Ideal S5 .f32) :
    refPredict ue ie p1 b1 p2 b2 = predict ue ie p1 b1 p2 b2 := by
  funext i
  obtain ⟨r, q, rfl⟩ : ∃ (r : Fin 8192) (q : Fin 5), i = ix2 r q := ⟨i 0, i 1, eq_ix2 i⟩
  exact refPredict_apply ue ie p1 b1 p2 b2 r q

/-- The same with the host's operations spelt out as the reference prints them. -/
theorem host_predict_eq (ue ie : FVec Ideal S8192x64 .f32) (p1 : FVec Ideal S64x64 .f32) (b1 : FVec Ideal S64 .f32)
    (p2 : FVec Ideal S64x5 .f32) (b2 : FVec Ideal S5 .f32) :
    addf (Host.dotGeneral dot_S8192x64_S64x5_S8192x5_1_0_0_1_n_n none
        (select
          (cmpf .oge
            (addf (Host.dotGeneral dot_S8192x64_S64x64_S8192x64_1_0_0_1_n_n none (mulf ue ie) p1)
              (broadcastInDim S8192x64 ![0, 1] bcast_S1x64_S8192x64_0_1 (broadcastInDim S1x64 ![1] bcast_S64_S1x64_1 b1)))
            (broadcastInDim S8192x64 ![] bcast_S_S8192x64 (constant (F := Ideal) S_ .f32 0x00000000#32)))
          (addf (Host.dotGeneral dot_S8192x64_S64x64_S8192x64_1_0_0_1_n_n none (mulf ue ie) p1)
            (broadcastInDim S8192x64 ![0, 1] bcast_S1x64_S8192x64_0_1 (broadcastInDim S1x64 ![1] bcast_S64_S1x64_1 b1)))
          (mulf (broadcastInDim S8192x64 ![] bcast_S_S8192x64 (id (constant (F := Ideal) S_ .f32 0x3DCCCCCD#32)))
            (addf (Host.dotGeneral dot_S8192x64_S64x64_S8192x64_1_0_0_1_n_n none (mulf ue ie) p1)
              (broadcastInDim S8192x64 ![0, 1] bcast_S1x64_S8192x64_0_1 (broadcastInDim S1x64 ![1] bcast_S64_S1x64_1 b1)))))
        p2)
      (broadcastInDim S8192x5 ![0, 1] bcast_S1x5_S8192x5_0_1 (broadcastInDim S1x5 ![1] bcast_S5_S1x5_1 b2))
      = predict ue ie p1 b1 p2 b2 :=
  refPredict_eq ue ie p1 b1 p2 b2

end Cert.PredictorRef

end
-- ==== Proof.BridgePredictor.lean ====
/-
  The two prediction heads agree.

  The reference's predictor on whole arrays, written over literal shapes, is the same term as the host's rating head
  over the reference's own records (the dimension records have the same fields, and side conditions are propositions),
  and that head is the prediction function of the same operands with the two weights transposed. The kernel's head is
  that prediction function of its own gathered rows; where the node embeddings the two flows gather from are equal, the
  gathered rows are equal and so are the heads.
-/
import proofs.«418387_j86114094284913_3_alg».proof.Proof.DataflowPredictor
import proofs.«418387_j86114094284913_3_alg».proof.Proof.PredictorRef
import proofs.«418387_j86114094284913_3_alg».proof.Proof.PredictorFn
import proofs.«418387_j86114094284913_3_alg».proof.Proof.Gen.ReferenceIdeal

set_option maxRecDepth 16384

noncomputable section

namespace Cert.Bridge

open Cert.Dataflow Idealize.ShloMosaic Idealize.ShloMosaic.ValueIdx

/-- The reference's predictor over literal shapes is the host's rating head over the reference's records. -/
theorem predictor_eq_refPredict (ue ie : FVec Ideal SB64 .f32) (p1w : FVec Ideal Cert.Dataflow.S64x64 .f32)
    (p1b : FVec Ideal Cert.Dataflow.S64 .f32) (p2w : FVec Ideal Cert.Dataflow.S5x64 .f32) (p2b : FVec Ideal Cert.Dataflow.S5 .f32) :
    R.predictor ue ie p1w p1b p2w p2b = Cert.PredictorRef.refPredict ue ie (tr64 p1w) p1b (tr5 p2w) p2b := rfl

/-- THE REFERENCE'S PREDICTOR IS THE PREDICTION FUNCTION of the same rows, the two weights transposed. -/
theorem predictor_eq (ue ie : FVec Ideal Cert.Dataflow.SB64 .f32) (p1w : FVec Ideal Cert.Dataflow.S64x64 .f32)
    (p1b : FVec Ideal Cert.Dataflow.S64 .f32) (p2w : FVec Ideal Cert.Dataflow.S5x64 .f32) (p2b : FVec Ideal Cert.Dataflow.S5 .f32) :
    Cert.Dataflow.R.predictor ue ie p1w p1b p2w p2b
      = Cert.PredictorFn.predict ue ie (Cert.Dataflow.tr64 p1w) p1b (Cert.Dataflow.tr5 p2w) p2b :=
  (predictor_eq_refPredict ue ie p1w p1b p2w p2b).trans
    (Cert.PredictorRef.refPredict_eq ue ie (tr64 p1w) p1b (tr5 p2w) p2b)

variable (a : Cert.Dataflow.Inputs)

/-- Where the two flows' node embeddings are equal, the first rating heads are equal. -/
theorem pred_eq (h : Cert.Dataflow.K.rst a = Cert.Dataflow.R.rst a) : Cert.Dataflow.K.pred a = Cert.Dataflow.R.pred a := by
  unfold K.pred R.pred K.ue K.ie R.ue R.ie
  rw [h]
  exact (predictor_eq _ _ _ _ _ _).symm

/-- Where the node embeddings and the frozen node embeddings are equal, the second rating heads are equal. -/
theorem predFreeze_eq (h : Cert.Dataflow.K.rst a = Cert.Dataflow.R.rst a)
    (hf : Cert.Dataflow.K.rstFreeze a = Cert.Dataflow.R.rstFreeze a) :
    Cert.Dataflow.K.predFreeze a = Cert.Dataflow.R.predFreeze a := by
  unfold K.predFreeze R.predFreeze K.ue K.ieFreeze R.ue R.ieFreeze
  rw [h, hf]
  exact (predictor_eq _ _ _ _ _ _).symm

end Cert.Bridge

end
-- ==== Proof.MeansFinite.lean ====
/-
  With finite inputs, the four means the frozen outputs use are real numbers.

  An array is real when every entry is the coercion of a real number. Sums and products of reals are real, the larger
  of two reals is real, and a real divided by a nonzero real is real. Reading one entry of a broadcast or of a
  transpose reads one entry of its operand, so both keep an array real. A scatter-add at an entry is the array's entry
  plus a finite sum of update entries, and a sum over the rows is the initial value plus a finite sum of entries, so
  both keep arrays real. The degree of a node is then real, the larger of it and one is a real at least one, hence
  nonzero, and the mean-aggregated review features (a segment sum divided by that) are real. A matrix product of real
  matrices is real. The mean over the nodes divides a real column sum by the real 200000, which is not zero.
-/
import Mathlib.Data.EReal.Operations
import Mathlib.Data.EReal.Inv
import Mathlib.Algebra.BigOperators.Group.Finset.Basic
import Idealize.ShloMosaic.PureOps
import Idealize.ShloMosaic.PureOps.Ideal
import Idealize.ShloMosaic.PureOps.Ideal.Laws
import Idealize.ShloMosaic.Lib.ValueIdx
import Idealize.ShloMosaic.Lib.IdealHost
import proofs.«418387_j86114094284913_3_alg».proof.Proof.Dataflow

noncomputable section

namespace Cert.Bridge.Finite

open Idealize.ShloMosaic Idealize.ShloMosaic.ValueIdx Cert.Dataflow Cert.RegionFns
open scoped BigOperators

/-- Every entry of the array is the coercion of a real number. -/
def AllReal {s : Shape} (x : s.Idx → EReal) : Prop := ∀ i, ∃ r : ℝ, x i = (r : EReal)

/-- Every entry of the array is the coercion of a real number that is not zero. -/
def AllRealNonzero {s : Shape} (x : s.Idx → EReal) : Prop := ∀ i, ∃ r : ℝ, x i = (r : EReal) ∧ r ≠ 0

/-! ## Single extended reals -/

theorem real_zero : ∃ r : ℝ, (0 : EReal) = (r : EReal) := ⟨0, EReal.coe_zero.symm⟩

theorem real_add {x y : EReal} (hx : ∃ r : ℝ, x = (r : EReal)) (hy : ∃ r : ℝ, y = (r : EReal)) :
    ∃ r : ℝ, x + y = (r : EReal) := by
  obtain ⟨p, rfl⟩ := hx
  obtain ⟨q, rfl⟩ := hy
  exact ⟨p + q, (EReal.coe_add p q).symm⟩

theorem real_mul {x y : EReal} (hx : ∃ r : ℝ, x = (r : EReal)) (hy : ∃ r : ℝ, y = (r : EReal)) :
    ∃ r : ℝ, x * y = (r : EReal) := by
  obtain ⟨p, rfl⟩ := hx
  obtain ⟨q, rfl⟩ := hy
  exact ⟨p * q, (EReal.coe_mul p q).symm⟩

/-- A finite sum of reals is real. -/
theorem real_sum {ι : Type*} (s : Finset ι) (f : ι → EReal) (hf : ∀ i ∈ s, ∃ r : ℝ, f i = (r : EReal)) :
    ∃ r : ℝ, ∑ i ∈ s, f i = (r : EReal) :=
  Finset.sum_induction f (fun x => ∃ r : ℝ, x = (r : EReal)) (fun _ _ => real_add) real_zero hf

/-- The larger of a real and one is a real that is not zero. -/
theorem real_max_one_nonzero {x : EReal} (hx : ∃ r : ℝ, x = (r : EReal)) :
    ∃ r : ℝ, max x 1 = (r : EReal) ∧ r ≠ 0 := by
  obtain ⟨p, rfl⟩ := hx
  refine ⟨max p 1, ?_, ?_⟩
  · rw [← EReal.coe_one]
    exact (EReal.coe_strictMono.monotone.map_max (a := p) (b := 1)).symm
  · have h : (1 : ℝ) ≤ max p 1 := le_max_right p 1
    intro h0
    rw [h0] at h
    exact absurd h (by norm_num)

/-- A real divided by a nonzero real is real. -/
theorem real_div {x y : EReal} (hx : ∃ r : ℝ, x = (r : EReal)) (hy : ∃ r : ℝ, y = (r : EReal) ∧ r ≠ 0) :
    ∃ r : ℝ, Ideal.div x y = (r : EReal) := by
  obtain ⟨p, rfl⟩ := hx
  obtain ⟨q, rfl, hq⟩ := hy
  exact ⟨p * (1 / q), by rw [Ideal.div_coe hq, EReal.coe_mul]⟩

/-! ## Array operations that keep an array real -/

/-- An entry of a broadcast is an entry of its operand. -/
theorem allReal_broadcastInDim {s t : Shape} (dims : Fin s.rank → Fin t.rank) (h : s.BroadcastsInDim t dims)
    (x : s.Idx → EReal) (hx : AllReal x) : AllReal (broadcastInDim t dims h x) := fun _ => hx _

theorem allRealNonzero_broadcastInDim {s t : Shape} (dims : Fin s.rank → Fin t.rank) (h : s.BroadcastsInDim t dims)
    (x : s.Idx → EReal) (hx : AllRealNonzero x) : AllRealNonzero (broadcastInDim t dims h x) := fun _ => hx _

/-- An entry of a transpose is an entry of its operand. -/
theorem allReal_transpose {s t : Shape} (perm : List (Fin s.rank)) (x : s.Idx → EReal) (h : s.Transposes perm t)
    (hx : AllReal x) : AllReal (transpose t perm x h) := fun _ => hx _

/-- A scatter-add of real updates into a real array is real. -/
theorem allReal_scatterAdd {s si su : Shape} {w : Nat} {φ : FTy} (d : ScatterDims s si su) (x : FVec Ideal s φ)
    (idx : IVec si w) (upd : FVec Ideal su φ) (hx : AllReal x) (hu : AllReal upd) :
    AllReal (Host.scatterAdd d x idx upd) := by
  intro i
  show ∃ r : ℝ, x i + ∑ j ∈ Finset.univ.filter (fun j => d.resultIdx? j idx = some i), upd j = (r : EReal)
  exact real_add (hx i) (real_sum _ _ fun j _ => hu j)

/-- A sum over some axes of a real array, from a real initial value, is real. -/
theorem allReal_reduceAdd {s t u : Shape} {φ : FTy} {axes : List (Fin s.rank)} (x : FVec Ideal s φ)
    (init : u.Idx → Ideal φ) (h : s.ReducesTo axes t) (hu : 0 < u.numel) (hx : AllReal x) (hi : AllReal init) :
    AllReal (Host.reduceAdd x init h hu) := by
  intro j
  show ∃ r : ℝ, init (Shape.Idx.first hu) + ∑ i ∈ Finset.univ.filter (fun i => h.drop i = j), x i = (r : EReal)
  exact real_add (hi _) (real_sum _ _ fun i _ => hx i)

/-- A real array divided entry by entry by an array of nonzero reals is real. -/
theorem allReal_divf {s : Shape} {φ : FTy} (x y : FVec Ideal s φ) (hx : AllReal x) (hy : AllRealNonzero y) :
    AllReal (Host.divf x y) := fun i => real_div (hx i) (hy i)

/-- The sum of two real arrays is real. -/
theorem allReal_addf {s : Shape} {φ : FTy} (x y : FVec Ideal s φ) (hx : AllReal x) (hy : AllReal y) :
    AllReal (addf x y) := fun i => real_add (hx i) (hy i)

/-- The larger, entry by entry, of a real array and an array of ones is an array of nonzero reals. -/
theorem allRealNonzero_max_one {s : Shape} {φ : FTy} (x y : FVec Ideal s φ) (hx : AllReal x) (hy : ∀ i, y i = 1) :
    AllRealNonzero (maximumf x y) := by
  intro i
  show ∃ r : ℝ, max (x i) (y i) = (r : EReal) ∧ r ≠ 0
  rw [hy i]
  exact real_max_one_nonzero (hx i)

/-- A product of real matrices is real. -/
theorem allReal_prod {M K N : ℕ} (l : Mat M K) (r : Mat K N) (hl : AllReal l) (hr : AllReal r) :
    AllReal (prod l r) := by
  intro i
  show ∃ q : ℝ, ∑ k : Fin K, l (ix2 (i 0) k) * r (ix2 k (i 1)) = (q : EReal)
  exact real_sum _ _ fun k _ => real_mul (hl _) (hr _)

/-! ## The three constants -/

theorem zero_real : AllReal Cert.Dataflow.zero := fun _ => ⟨0, by
  show Ideal.ofBits .f32 0x00000000#32 = _
  rw [Ideal.ofBits_zero_f32]; rfl⟩

theorem one_apply (i : S_.Idx) : Cert.Dataflow.one i = 1 := by
  show Ideal.ofBits .f32 0x3F800000#32 = _
  exact Ideal.ofBits_one_f32

theorem one_real : AllReal Cert.Dataflow.one := fun i => ⟨1, by rw [one_apply]; rfl⟩

/-- The pattern of the node count is the real 200000. -/
theorem ofBits_nodeCount : Ideal.ofBits .f32 0x48435000#32 = ((200000 : ℝ) : EReal) := by
  simp [Ideal.ofBits, Ideal.ieee, -EReal.coe_mul]; norm_num

theorem nodeCount_nonzero : AllRealNonzero Cert.Dataflow.nodeCount := fun _ => ⟨200000, by
  show Ideal.ofBits .f32 0x48435000#32 = _
  exact ofBits_nodeCount, by norm_num⟩

/-! ## The stages -/

variable (a : Inputs)

/-- A segment sum of real edge rows is real. -/
theorem segSum64_real (upd : FVec Ideal SE64 .f32) (hupd : AllReal upd) : AllReal (segSum64 a upd) := by
  unfold segSum64
  exact allReal_scatterAdd _ _ _ _ (allReal_broadcastInDim _ _ _ zero_real) hupd

/-- The degree of every node is real. -/
theorem degree_real : AllReal (degree a) := by
  unfold degree
  exact allReal_scatterAdd _ _ _ _ (allReal_broadcastInDim _ _ _ zero_real) (allReal_broadcastInDim _ _ _ one_real)

/-- The mean-aggregated review features are real when the review features are. -/
theorem hre_real (hrf : AllReal a.rf) : AllReal (hre a) := by
  unfold hre
  refine allReal_divf _ _ (segSum64_real a a.rf hrf) (allRealNonzero_broadcastInDim _ _ _ ?_)
  refine allRealNonzero_max_one _ _ (allReal_broadcastInDim _ _ _ (degree_real a)) fun i => ?_
  rw [broadcastInDim_scalar_apply]
  exact one_apply _

theorem tr64_real (w : FVec Ideal S64x64 .f32) (hw : AllReal w) : AllReal (tr64 w) := by
  unfold tr64
  exact allReal_transpose _ _ _ hw

theorem rfe3_real (hrf : AllReal a.rf) (hW1 : AllReal a.W1) : AllReal (K.rfe3 a) := by
  unfold K.rfe3
  exact allReal_prod _ _ (hre_real a hrf) (tr64_real a.W1 hW1)

theorem rfe2_real (hrf : AllReal a.rf) (hW2 : AllReal a.W2) : AllReal (K.rfe2 a) := by
  unfold K.rfe2
  exact allReal_prod _ _ (hre_real a hrf) (tr64_real a.W2 hW2)

/-- The column sums over the nodes of a real node matrix are real. -/
theorem colSums_real (x : FVec Ideal SN64 .f32) (hx : AllReal x) : AllReal (colSums x) := by
  unfold colSums
  exact allReal_reduceAdd _ _ _ _ hx zero_real

/-- The mean over the nodes of a real node matrix is real. -/
theorem meanRows_real (x : FVec Ideal SN64 .f32) (hx : AllReal x) : AllReal (meanRows x) := by
  unfold meanRows
  exact allReal_divf _ _ (allReal_broadcastInDim _ _ _ (colSums_real x hx))
    (allRealNonzero_broadcastInDim _ _ _ nodeCount_nonzero)

theorem mean_rfe3_real (hrf : AllReal a.rf) (hW1 : AllReal a.W1) : AllReal (meanRows (K.rfe3 a)) :=
  meanRows_real _ (rfe3_real a hrf hW1)

theorem mean_rfe2_real (hrf : AllReal a.rf) (hW2 : AllReal a.W2) : AllReal (meanRows (K.rfe2 a)) :=
  meanRows_real _ (rfe2_real a hrf hW2)

theorem mean_f2_real (hf2 : AllReal a.f2) : AllReal (meanRows a.f2) := meanRows_real _ hf2

theorem mean_f3_real (hf3 : AllReal a.f3) : AllReal (meanRows a.f3) := meanRows_real _ hf3

theorem mean_sum_real (hrf : AllReal a.rf) (hW2 : AllReal a.W2) (hf2 : AllReal a.f2) :
    AllReal (addf (meanRows a.f2) (meanRows (K.rfe2 a))) :=
  allReal_addf _ _ (mean_f2_real a hf2) (mean_rfe2_real a hrf hW2)

end Cert.Bridge.Finite

end
-- ==== Proof.FlowsAgree.lean ====
/-
  With labels in 0 … 4 and finite review features, scales, weights, node features and label tables, the kernel's dataflow
  and the reference's give the same eight results.

  The three plain node outputs agree by regrouping the factors of each edge's message (the label picks one table row on
  both sides). The three frozen-mean outputs agree by the frozen-mean law, which needs the means real: the means of the
  input features are real because the inputs are, and the means of the two projections are real because the
  mean-aggregated review features, their products with the weights, and a finite sum divided by the node count are.
  The two predictions are the same predictor of the same gathered rows of outputs already shown equal.
-/
import proofs.«418387_j86114094284913_3_alg».proof.Proof.BridgePlain
import proofs.«418387_j86114094284913_3_alg».proof.Proof.BridgeFrozen
import proofs.«418387_j86114094284913_3_alg».proof.Proof.BridgePredictor
import proofs.«418387_j86114094284913_3_alg».proof.Proof.MeansFinite

noncomputable section

namespace Cert.Bridge

open Idealize.ShloMosaic Idealize.ShloMosaic.ValueIdx Cert.Dataflow Cert.Bridge.Finite Cert.Bridge.Frozen

/-- The eight results of the two flows agree. -/
theorem flows_agree (a : Inputs)
    (hlab : ∀ e : Fin 1000000, 0 ≤ (a.score (ix1 e)).toInt ∧ (a.score (ix1 e)).toInt < 5)
    (hrf : AllReal a.rf) (hci : AllReal a.ci) (hW1 : AllReal a.W1) (hW2 : AllReal a.W2)
    (hf2 : AllReal a.f2) (hf3 : AllReal a.f3) (hE1 : AllReal a.E1) (hE2 : AllReal a.E2) (hE3 : AllReal a.E3) :
    K.pred a = R.pred a ∧ K.predFreeze a = R.predFreeze a ∧ K.rst a = R.rst a ∧ K.rstFreeze a = R.rstFreeze a
      ∧ K.rstRe a = R.rstRe a ∧ K.rstId a = R.rstId a ∧ K.rstReFreeze a = R.rstReFreeze a
      ∧ K.rstIdFreeze a = R.rstIdFreeze a := by
  have hr3 : K.rfe3 a = R.rfe3 a := rfe3_eq a
  have hr2 : K.rfe2 a = R.rfe2 a := rfe2_eq a
  have h_rst : K.rst a = R.rst a := rst_eq a hlab
  have hm3 : AllReal (meanRows (R.rfe3 a)) := hr3 ▸ mean_rfe3_real a hrf hW1
  have hm2 : AllReal (meanRows (R.rfe2 a)) := hr2 ▸ mean_rfe2_real a hrf hW2
  have h_rstF : K.rstFreeze a = R.rstFreeze a :=
    rstFreeze_eq a hlab hci hr2 (mean_f2_real a hf2) hm2 hE2
  exact ⟨pred_eq a h_rst, predFreeze_eq a h_rst h_rstF, h_rst, h_rstF, rstRe_eq a hlab, rstId_eq a hlab,
    rstReFreeze_eq a hlab hci hr3 hm3 hE1, rstIdFreeze_eq a hlab hci (mean_f3_real a hf3) hE3⟩

end Cert.Bridge

end
-- ==== Proof.InputFacts.lean ====
/-
  The precondition of this certificate, decoded over the extended reals. The printed predicate is a conjunction of
  fourteen all-reductions: for each of the thirteen float inputs, "every entry has absolute value below +∞"; for the
  integer input of edge labels, "every word w satisfies 0 ≤ w and w < 5, signed". The predicate being all ones, each
  float input has only real entries (an extended real x with max x (-x) < ⊤ is neither ⊤ nor ⊥), and each label, read
  as a signed integer, lies in [0, 5).
-/
import proofs.«418387_j86114094284913_3_alg».proof.Pre_finite_inputs
import proofs.«418387_j86114094284913_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.InputFacts

open Idealize.ShloMosaic Cert.Pre_finite_inputs

/-- The rank-0 shape has exactly one index. -/
instance subsingleton_scalar_idx : Subsingleton S_.Idx := ⟨fun a b => funext fun d => d.elim0⟩

/-- An extended real whose absolute value max x (-x) lies strictly below +∞ is neither infinity: it is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 denotes +∞. -/
theorem ofBits_inf : Ideal.ofBits .f32 0x7F800000#32 = (⊤ : EReal) := by
  simp [Ideal.ofBits, Ideal.ieee]

/-- One element of the test "|x| < +∞", read over the extended reals. -/
theorem exists_real_of_cmp (x : EReal)
    (h : Ideal.cmp .olt (max x (-x)) (Ideal.ofBits .f32 0x7F800000#32) = 1#1) : ∃ r : ℝ, x = (r : EReal) := by
  rw [ofBits_inf] at h
  simp only [Ideal.cmp, StableHlo.Predicate.ofBool_eq_one_iff, decide_eq_true_eq] at h
  exact exists_real_of_abs_lt_top x h

/-- The all-reduction of the test |a| < +∞ over every axis of an array being 1, every entry of the array is a real number. -/
theorem allReal_of_reduce {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
          (cmpf .olt (Host.absf a) (broadcastInDim s ![] hb (constant (F := Ideal) S_ .f32 0x7F800000#32)))
          (constantI S_ 1 1#1) hr h0 ValueIdx.ix0 = 1#1) (i : s.Idx) : ∃ r : ℝ, a i = (r : EReal) := by
  have hi := Host.reduce_andi_all _ _ hr h0 ValueIdx.ix0 e i
  exact exists_real_of_cmp (a i) hi

/-- The all-reduction of the test 0 ≤ a ∧ a < 5 (signed) being 1, every word of the array lies in [0, 5). -/
theorem range_of_reduce {s : Shape} {axes : List (Fin s.rank)} (a : IVec s 32)
    (hb : S_.BroadcastsInDim s (![] : Fin 0 → Fin s.rank)) (hr : s.ReducesTo axes S_) (h0 : 0 < S_.numel)
    (e : Host.reduce IntOp.andi
          (andi (cmpi .sge a (broadcastInDim s ![] hb (constantI S_ 32 0#32)))
                (cmpi .slt a (broadcastInDim s ![] hb (constantI S_ 32 5#32))))
          (constantI S_ 1 1#1) hr h0 ValueIdx.ix0 = 1#1) (i : s.Idx) : 0 ≤ (a i).toInt ∧ (a i).toInt < 5 := by
  have hi := Host.reduce_andi_all _ _ hr h0 ValueIdx.ix0 e i
  obtain ⟨hge, hlt⟩ := IntOp.andi_eq_one.1 hi
  have hge' : (0#32 : BitVec 32).toInt ≤ (a i).toInt := IntOp.cmpi_sge.1 hge
  have hlt' : (a i).toInt < (5#32 : BitVec 32).toInt := IntOp.cmpi_slt.1 hlt
  have z : (0#32 : BitVec 32).toInt = 0 := by decide
  have f : (5#32 : BitVec 32).toInt = 5 := by decide
  rw [z] at hge'; rw [f] at hlt'
  exact ⟨hge', hlt'⟩

/-- A conjunction of two one-bit arrays that is 1 at an index has both operands 1 there. -/
theorem and_split {s : Shape} {x y : IVec s 1} {i : s.Idx} (h : andi x y i = 1#1) : x i = 1#1 ∧ y i = 1#1 :=
  IntOp.andi_eq_one.1 h

/-- What the precondition says, array by array: each of the thirteen float inputs has only real entries, and every
    edge label is a signed word in [0, 5). -/
structure Decoded (a0 : FVec Ideal S1000000x64 .f32) (a1 : FVec Ideal S200000x1 .f32) (a7 : FVec Ideal S64x64 .f32) (a8 : FVec Ideal S64x64 .f32) (a9 : FVec Ideal S200000x64 .f32) (a10 : FVec Ideal S200000x64 .f32) (a11 : FVec Ideal S5x64 .f32) (a12 : FVec Ideal S5x64 .f32) (a13 : FVec Ideal S5x64 .f32) (a14 : FVec Ideal S64x64 .f32) (a15 : FVec Ideal S64 .f32) (a16 : FVec Ideal S5x64 .f32) (a17 : FVec Ideal S5 .f32) (a4 : IVec S1000000 32) : Prop where
  real0 : ∀ i, ∃ r : ℝ, a0 i = (r : EReal)
  real1 : ∀ i, ∃ r : ℝ, a1 i = (r : EReal)
  real7 : ∀ i, ∃ r : ℝ, a7 i = (r : EReal)
  real8 : ∀ i, ∃ r : ℝ, a8 i = (r : EReal)
  real9 : ∀ i, ∃ r : ℝ, a9 i = (r : EReal)
  real10 : ∀ i, ∃ r : ℝ, a10 i = (r : EReal)
  real11 : ∀ i, ∃ r : ℝ, a11 i = (r : EReal)
  real12 : ∀ i, ∃ r : ℝ, a12 i = (r : EReal)
  real13 : ∀ i, ∃ r : ℝ, a13 i = (r : EReal)
  real14 : ∀ i, ∃ r : ℝ, a14 i = (r : EReal)
  real15 : ∀ i, ∃ r : ℝ, a15 i = (r : EReal)
  real16 : ∀ i, ∃ r : ℝ, a16 i = (r : EReal)
  real17 : ∀ i, ∃ r : ℝ, a17 i = (r : EReal)
  labels : ∀ i : S1000000.Idx, 0 ≤ (a4 i).toInt ∧ (a4 i).toInt < 5

variable [Cert.Pre_finite_inputs.Facts]
variable {a0 : FVec Ideal S1000000x64 .f32} {a1 : FVec Ideal S200000x1 .f32}
  {a2 a3 a4 : IVec S1000000 32} {a5 a6 : IVec S8192 32}
  {a7 a8 : FVec Ideal S64x64 .f32} {a9 a10 : FVec Ideal S200000x64 .f32}
  {a11 a12 a13 : FVec Ideal S5x64 .f32} {a14 : FVec Ideal S64x64 .f32} {a15 : FVec Ideal S64 .f32}
  {a16 : FVec Ideal S5x64 .f32} {a17 : FVec Ideal S5 .f32}
variable (h : Cert.Pre_finite_inputs.fn (F := Ideal) a0 a1 a2 a3 a4 a5 a6 a7 a8 a9 a10 a11 a12 a13 a14 a15 a16 a17 = fun _ => 1#1)
include h

/-- The predicate is a left-nested conjunction of fourteen all-reductions; read at its one index and split once, each
    conjunct gives the fact about its own array. -/
theorem decoded : Decoded a0 a1 a7 a8 a9 a10 a11 a12 a13 a14 a15 a16 a17 a4 := by
  have e := congrFun h ValueIdx.ix0
  dsimp only [fn, fn_part1, fn_part2, fn_part3, fn_part4] at e
  obtain ⟨e, e4⟩ := and_split e
  obtain ⟨e, e17⟩ := and_split e
  obtain ⟨e, e16⟩ := and_split e
  obtain ⟨e, e15⟩ := and_split e
  obtain ⟨e, e14⟩ := and_split e
  obtain ⟨e, e13⟩ := and_split e
  obtain ⟨e, e12⟩ := and_split e
  obtain ⟨e, e11⟩ := and_split e
  obtain ⟨e, e10⟩ := and_split e
  obtain ⟨e, e9⟩ := and_split e
  obtain ⟨e, e8⟩ := and_split e
  obtain ⟨e, e7⟩ := and_split e
  obtain ⟨e, e1⟩ := and_split e
  exact {
    real0 := allReal_of_reduce a0 Facts.bcast_S_S1000000x64 Facts.reducesTo_S1000000x64_S_d0_1 Facts.h_S_ e
    real1 := allReal_of_reduce a1 Facts.bcast_S_S200000x1 Facts.reducesTo_S200000x1_S_d0_1 Facts.h_S_ e1
    real7 := allReal_of_reduce a7 Facts.bcast_S_S64x64 Facts.reducesTo_S64x64_S_d0_1 Facts.h_S_ e7
    real8 := allReal_of_reduce a8 Facts.bcast_S_S64x64 Facts.reducesTo_S64x64_S_d0_1 Facts.h_S_ e8
    real9 := allReal_of_reduce a9 Facts.bcast_S_S200000x64 Facts.reducesTo_S200000x64_S_d0_1 Facts.h_S_ e9
    real10 := allReal_of_reduce a10 Facts.bcast_S_S200000x64 Facts.reducesTo_S200000x64_S_d0_1 Facts.h_S_ e10
    real11 := allReal_of_reduce a11 Facts.bcast_S_S5x64 Facts.reducesTo_S5x64_S_d0_1 Facts.h_S_ e11
    real12 := allReal_of_reduce a12 Facts.bcast_S_S5x64 Facts.reducesTo_S5x64_S_d0_1 Facts.h_S_ e12
    real13 := allReal_of_reduce a13 Facts.bcast_S_S5x64 Facts.reducesTo_S5x64_S_d0_1 Facts.h_S_ e13
    real14 := allReal_of_reduce a14 Facts.bcast_S_S64x64 Facts.reducesTo_S64x64_S_d0_1 Facts.h_S_ e14
    real15 := allReal_of_reduce a15 Facts.bcast_S_S64 Facts.reducesTo_S64_S_d0 Facts.h_S_ e15
    real16 := allReal_of_reduce a16 Facts.bcast_S_S5x64 Facts.reducesTo_S5x64_S_d0_1 Facts.h_S_ e16
    real17 := allReal_of_reduce a17 Facts.bcast_S_S5 Facts.reducesTo_S5_S_d0 Facts.h_S_ e17
    labels := range_of_reduce a4 Facts.bcast_S_S1000000 Facts.reducesTo_S1000000_S_d0 Facts.h_S_ e4 }

/-- Every entry of input 0 is a real number. -/
theorem finite0 : ∀ i, ∃ r : ℝ, a0 i = (r : EReal) := (decoded h).real0

/-- Every entry of input 1 is a real number. -/
theorem finite1 : ∀ i, ∃ r : ℝ, a1 i = (r : EReal) := (decoded h).real1

/-- Every entry of input 7 is a real number. -/
theorem finite7 : ∀ i, ∃ r : ℝ, a7 i = (r : EReal) := (decoded h).real7

/-- Every entry of input 8 is a real number. -/
theorem finite8 : ∀ i, ∃ r : ℝ, a8 i = (r : EReal) := (decoded h).real8

/-- Every entry of input 9 is a real number. -/
theorem finite9 : ∀ i, ∃ r : ℝ, a9 i = (r : EReal) := (decoded h).real9

/-- Every entry of input 10 is a real number. -/
theorem finite10 : ∀ i, ∃ r : ℝ, a10 i = (r : EReal) := (decoded h).real10

/-- Every entry of input 11 is a real number. -/
theorem finite11 : ∀ i, ∃ r : ℝ, a11 i = (r : EReal) := (decoded h).real11

/-- Every entry of input 12 is a real number. -/
theorem finite12 : ∀ i, ∃ r : ℝ, a12 i = (r : EReal) := (decoded h).real12

/-- Every entry of input 13 is a real number. -/
theorem finite13 : ∀ i, ∃ r : ℝ, a13 i = (r : EReal) := (decoded h).real13

/-- Every entry of input 14 is a real number. -/
theorem finite14 : ∀ i, ∃ r : ℝ, a14 i = (r : EReal) := (decoded h).real14

/-- Every entry of input 15 is a real number. -/
theorem finite15 : ∀ i, ∃ r : ℝ, a15 i = (r : EReal) := (decoded h).real15

/-- Every entry of input 16 is a real number. -/
theorem finite16 : ∀ i, ∃ r : ℝ, a16 i = (r : EReal) := (decoded h).real16

/-- Every entry of input 17 is a real number. -/
theorem finite17 : ∀ i, ∃ r : ℝ, a17 i = (r : EReal) := (decoded h).real17

/-- Every edge label, read as a signed word, lies in [0, 5). -/
theorem label_range : ∀ e : Fin 1000000, 0 ≤ (a4 (ValueIdx.ix1 e)).toInt ∧ (a4 (ValueIdx.ix1 e)).toInt < 5 :=
  fun e => (decoded h).labels (ValueIdx.ix1 e)

end Cert.InputFacts

end
-- ==== Proof.lean ====
/-
  The kernel (a graph message-passing layer: review features mean-aggregated per node, projected, scaled by the node scale ci,
  gathered per edge, multiplied by the table row the edge's label picks, segment-summed per destination node, scaled again;
  three frozen-mean branches; a two-layer predictor on gathered node rows) against its jnp reference, on the extended reals.

  Both programs run to the end and leave their arguments alone: the two kernel programs by their generated frames, the
  reference by its run as a straight line of host operations. At the exact instance the kernel program's eight results are
  the kernel's dataflow of its arguments (its run with the results named, walked boundary by boundary) and the reference's
  eight results are the reference's dataflow of its arguments (its run read window by window). With the labels in 0 … 4 and the
  float inputs finite — both read off the precondition — the two dataflows agree: regrouping of factors for the plain
  outputs, the frozen-mean law for the frozen ones, and the same predictor of equal gathered rows for the two predictions.
  The idealization rewrote nothing, so its statement is trivial.
-/
import proofs.«418387_j86114094284913_3_alg».proof.Defs
import proofs.«418387_j86114094284913_3_alg».proof.Proof.Gen.Kernel
import proofs.«418387_j86114094284913_3_alg».proof.Proof.Gen.Kernel.Skeleton
import proofs.«418387_j86114094284913_3_alg».proof.Proof.Gen.Kernel.Launch
import proofs.«418387_j86114094284913_3_alg».proof.Proof.Gen.Kernel.Points
import proofs.«418387_j86114094284913_3_alg».proof.Proof.Gen.Kernel.Frame
import proofs.«418387_j86114094284913_3_alg».proof.Proof.Gen.KernelIdeal
import proofs.«418387_j86114094284913_3_alg».proof.Proof.Gen.KernelIdeal.Skeleton
import proofs.«418387_j86114094284913_3_alg».proof.Proof.Gen.KernelIdeal.Launch
import proofs.«418387_j86114094284913_3_alg».proof.Proof.Gen.KernelIdeal.Points
import proofs.«418387_j86114094284913_3_alg».proof.Proof.Gen.KernelIdeal.Frame
import proofs.«418387_j86114094284913_3_alg».proof.Proof.Gen.ReferenceIdeal
import proofs.«418387_j86114094284913_3_alg».proof.Proof.Gen.Pre_finite_inputs
import proofs.«418387_j86114094284913_3_alg».proof.Proof.KernelResultRun
import proofs.«418387_j86114094284913_3_alg».proof.Proof.KernelChain3
import proofs.«418387_j86114094284913_3_alg».proof.Proof.ReferenceRun
import proofs.«418387_j86114094284913_3_alg».proof.Proof.ReferenceTerms
import proofs.«418387_j86114094284913_3_alg».proof.Proof.FlowsAgree
import proofs.«418387_j86114094284913_3_alg».proof.Proof.InputFacts
import Idealize.ShloMosaic.Adequacy
import Idealize.ShloMosaic.Init

set_option maxRecDepth 16384

noncomputable section

namespace Cert.Proof

open Idealize.ShloMosaic Idealize.SL.Sem Idealize.ShloMosaic.TcCoe Idealize.ShloMosaic.StableHlo

/-- The word-level kernel program runs to the end and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: after its straight line of host operations every argument buffer holds what it held. -/
theorem frame_referenceIdeal : Cert.frame_ReferenceIdeal := fun m ρ _ =>
  (θ_run Cert.ReferenceIdeal.defs _ _).mono
    (fun r h c =>
      have k := Cert.ReferenceTerms.args_kept (launchContents m c)
      ⟨(h c Cert.ReferenceIdeal.main_arg0).trans k.rf, (h c Cert.ReferenceIdeal.main_arg1).trans k.ci,
       (h c Cert.ReferenceIdeal.main_arg2).trans k.src, (h c Cert.ReferenceIdeal.main_arg3).trans k.dst,
       (h c Cert.ReferenceIdeal.main_arg4).trans k.score, (h c Cert.ReferenceIdeal.main_arg5).trans k.users,
       (h c Cert.ReferenceIdeal.main_arg6).trans k.items, (h c Cert.ReferenceIdeal.main_arg7).trans k.W1,
       (h c Cert.ReferenceIdeal.main_arg8).trans k.W2, (h c Cert.ReferenceIdeal.main_arg9).trans k.f2,
       (h c Cert.ReferenceIdeal.main_arg10).trans k.f3, (h c Cert.ReferenceIdeal.main_arg11).trans k.E1,
       (h c Cert.ReferenceIdeal.main_arg12).trans k.E2, (h c Cert.ReferenceIdeal.main_arg13).trans k.E3,
       (h c Cert.ReferenceIdeal.main_arg14).trans k.P1W, (h c Cert.ReferenceIdeal.main_arg15).trans k.P1b,
       (h c Cert.ReferenceIdeal.main_arg16).trans k.P2W, (h c Cert.ReferenceIdeal.main_arg17).trans k.P2b⟩)
    (Cert.ReferenceIdeal.HandRun.run_main (F := Ideal) m ρ)

/-- The idealization rewrote no operation. -/
theorem preserves : Cert.preserves_Kernel_KernelIdeal := trivial

/-- From memories that agree on the arguments and satisfy the precondition, the two idealized programs end with the same
    eight results: the kernel's dataflow of the arguments. -/
theorem algebraic : Cert.algebraic_KernelIdeal_ReferenceIdeal := by
  intro m ρ m' ρ' hpre hagree
  refine ⟨fun c => Cert.Dataflow.K.pred (Cert.KernelIdeal.Chain.inp m ρ c),
    fun c => Cert.Dataflow.K.predFreeze (Cert.KernelIdeal.Chain.inp m ρ c),
    fun c => Cert.Dataflow.K.rst (Cert.KernelIdeal.Chain.inp m ρ c),
    fun c => Cert.Dataflow.K.rstFreeze (Cert.KernelIdeal.Chain.inp m ρ c),
    fun c => Cert.Dataflow.K.rstRe (Cert.KernelIdeal.Chain.inp m ρ c),
    fun c => Cert.Dataflow.K.rstId (Cert.KernelIdeal.Chain.inp m ρ c),
    fun c => Cert.Dataflow.K.rstReFreeze (Cert.KernelIdeal.Chain.inp m ρ c),
    fun c => Cert.Dataflow.K.rstIdFreeze (Cert.KernelIdeal.Chain.inp m ρ c), ?_, ?_⟩
  · refine (θ_run Cert.KernelIdeal.defs _ _).mono (fun r h c => ?_) (Cert.KernelIdeal.ResultRun.run (F := Ideal) m ρ)
    obtain ⟨r0, r1, r2, r3, r4, r5, r6, r7, hargs⟩ := h c
    exact ⟨r0.trans (Cert.KernelIdeal.Chain.result_pred m ρ c),
      r1.trans (Cert.KernelIdeal.Chain.result_predFreeze m ρ c),
      r2.trans (Cert.KernelIdeal.Chain.result_rst m ρ c),
      r3.trans (Cert.KernelIdeal.Chain.result_rstFreeze m ρ c),
      r4.trans (Cert.KernelIdeal.Chain.result_rstRe m ρ c),
      r5.trans (Cert.KernelIdeal.Chain.result_rstId m ρ c),
      r6.trans (Cert.KernelIdeal.Chain.result_rstReFreeze m ρ c),
      r7.trans (Cert.KernelIdeal.Chain.result_rstIdFreeze m ρ c), hargs⟩
  · refine (θ_run Cert.ReferenceIdeal.defs _ _).mono (fun r h c => ?_) (Cert.ReferenceIdeal.HandRun.run_main (F := Ideal) m' ρ')
    -- the reference's inputs are the kernel's
    have hin : Cert.ReferenceTerms.inputsOf (launchContents m' c) = Cert.KernelIdeal.Chain.inp m ρ c := by
      obtain ⟨h0, h1, h2, h3, h4, h5, h6, h7, h8, h9, h10, h11, h12, h13, h14, h15, h16, h17⟩ := hagree c
      show Cert.Dataflow.Inputs.mk _ _ _ _ _ _ _ _ _ _ _ _ _ _ _ _ _ _ = Cert.Dataflow.Inputs.mk _ _ _ _ _ _ _ _ _ _ _ _ _ _ _ _ _ _
      exact congr (congr (congr (congr (congr (congr (congr (congr (congr (congr (congr (congr (congr (congr (congr (congr (congr
        (congrArg Cert.Dataflow.Inputs.mk h0) h1) h2) h3) h4) h5) h6) h7) h8) h9) h10) h11) h12) h13) h14) h15) h16) h17
    -- the precondition, read: labels in range, the float inputs that matter finite
    have hp := hpre c
    obtain ⟨e0, e1, e2, e3, e4, e5, e6, e7⟩ := Cert.Bridge.flows_agree (Cert.KernelIdeal.Chain.inp m ρ c)
      (Cert.InputFacts.label_range hp) (Cert.InputFacts.finite0 hp) (Cert.InputFacts.finite1 hp)
      (Cert.InputFacts.finite7 hp) (Cert.InputFacts.finite8 hp) (Cert.InputFacts.finite9 hp) (Cert.InputFacts.finite10 hp)
      (Cert.InputFacts.finite11 hp) (Cert.InputFacts.finite12 hp) (Cert.InputFacts.finite13 hp)
    have k := Cert.ReferenceTerms.args_kept (launchContents m' c)
    exact ⟨(h c Cert.ReferenceIdeal.main_v166).trans ((Cert.ReferenceTerms.result_pred (launchContents m' c)).trans ((congrArg Cert.Dataflow.R.pred hin).trans e0.symm)),
      (h c Cert.ReferenceIdeal.main_v185).trans ((Cert.ReferenceTerms.result_predFreeze (launchContents m' c)).trans ((congrArg Cert.Dataflow.R.predFreeze hin).trans e1.symm)),
      (h c Cert.ReferenceIdeal.main_v94).trans ((Cert.ReferenceTerms.result_rst (launchContents m' c)).trans ((congrArg Cert.Dataflow.R.rst hin).trans e2.symm)),
      (h c Cert.ReferenceIdeal.main_v112).trans ((Cert.ReferenceTerms.result_rstFreeze (launchContents m' c)).trans ((congrArg Cert.Dataflow.R.rstFreeze hin).trans e3.symm)),
      (h c Cert.ReferenceIdeal.main_v56).trans ((Cert.ReferenceTerms.result_rstRe (launchContents m' c)).trans ((congrArg Cert.Dataflow.R.rstRe hin).trans e4.symm)),
      (h c Cert.ReferenceIdeal.main_v127).trans ((Cert.ReferenceTerms.result_rstId (launchContents m' c)).trans ((congrArg Cert.Dataflow.R.rstId hin).trans e5.symm)),
      (h c Cert.ReferenceIdeal.main_v69).trans ((Cert.ReferenceTerms.result_rstReFreeze (launchContents m' c)).trans ((congrArg Cert.Dataflow.R.rstReFreeze hin).trans e6.symm)),
      (h c Cert.ReferenceIdeal.main_v140).trans ((Cert.ReferenceTerms.result_rstIdFreeze (launchContents m' c)).trans ((congrArg Cert.Dataflow.R.rstIdFreeze hin).trans e7.symm)),
      (h c Cert.ReferenceIdeal.main_arg0).trans k.rf, (h c Cert.ReferenceIdeal.main_arg1).trans k.ci,
      (h c Cert.ReferenceIdeal.main_arg2).trans k.src, (h c Cert.ReferenceIdeal.main_arg3).trans k.dst,
      (h c Cert.ReferenceIdeal.main_arg4).trans k.score, (h c Cert.ReferenceIdeal.main_arg5).trans k.users,
      (h c Cert.ReferenceIdeal.main_arg6).trans k.items, (h c Cert.ReferenceIdeal.main_arg7).trans k.W1,
      (h c Cert.ReferenceIdeal.main_arg8).trans k.W2, (h c Cert.ReferenceIdeal.main_arg9).trans k.f2,
      (h c Cert.ReferenceIdeal.main_arg10).trans k.f3, (h c Cert.ReferenceIdeal.main_arg11).trans k.E1,
      (h c Cert.ReferenceIdeal.main_arg12).trans k.E2, (h c Cert.ReferenceIdeal.main_arg13).trans k.E3,
      (h c Cert.ReferenceIdeal.main_arg14).trans k.P1W, (h c Cert.ReferenceIdeal.main_arg15).trans k.P1b,
      (h c Cert.ReferenceIdeal.main_arg16).trans k.P2W, (h c Cert.ReferenceIdeal.main_arg17).trans k.P2b⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
